-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v80_0)) (v1 : (c : Dev Cert.KernelIdeal.nD) → Buf (Elt Ideal) ((c.tc : Thread Cert.KernelIdeal.nD Cert.KernelIdeal.τ).loc Cert.KernelIdeal.main_v80_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80_0) = v0 c
          ∧ r.2.mem ((c.tc : Thread Cert.KernelIdeal.nD Cert.KernelIdeal.τ).loc Cert.KernelIdeal.main_v80_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S256x10 .f32) (main_arg10 : FVec F S10 .f32) (main_v33 : IVec S_ 1) : IVec S_ 1 :=
  let main_v34 : FVec F S256x10 .f32 := Host.absf main_arg9
  let main_cst_12 : FVec F S_ .f32 := constant S_ .f32 0x7F800000#32
  let main_v35 : FVec F S256x10 .f32 := broadcastInDim S256x10 ![] bcast_S_S256x10 main_cst_12
  let main_v36 : IVec S256x10 1 := cmpf .olt main_v34 main_v35
  let main_c_13 : IVec S_ 1 := constantI S_ 1 1#1
  let main_v37 : IVec S_ 1 := (fun x v => Host.reduce IntOp.andi x v reducesTo_S256x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S128 .f32) (main_arg7 : FVec F S256x256 .f32) (main_arg8 : FVec F S256 .f32) (main_arg9 : FVec F S256x10 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S256x256 .f32) (main_arg8 : FVec F S256 .f32) (main_arg9 : FVec F S256x10 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x256 : Shape := ⟨2, ![50000, 256]⟩
abbrev S51200x256 : Shape := ⟨2, ![51200, 256]⟩
abbrev S256x1 : Shape := ⟨2, ![256, 1]⟩
abbrev S1x50000 : Shape := ⟨2, ![1, 50000]⟩
abbrev S256x50000 : Shape := ⟨2, ![256, 50000]⟩
abbrev S256x51200 : Shape := ⟨2, ![256, 51200]⟩
abbrev S256x5120 : Shape := ⟨2, ![256, 5120]⟩
abbrev S5120x256 : Shape := ⟨2, ![5120, 256]⟩
abbrev S1x256 : Shape := ⟨2, ![1, 256]⟩
abbrev S1x10 : Shape := ⟨2, ![1, 10]⟩

abbrev nBuf : Space → Nat
  | .hbm => 114
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x256, .f32⟩
  | .hbm, ⟨8, _⟩ => ⟨S256, .f32⟩
  | .hbm, ⟨9, _⟩ => ⟨S256x10, .f32⟩
  | .hbm, ⟨10, _⟩ => ⟨S10, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S850000, .f32⟩
  | .hbm, ⟨54, _⟩ => ⟨S50000x128, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x128, .f32⟩
  | .hbm, ⟨64, _⟩ => ⟨S850000x1, .f32⟩
  | .hbm, ⟨65, _⟩ => ⟨S850000x128, .f32⟩
  | .hbm, ⟨66, _⟩ => ⟨S850000x128, .f32⟩
  | .hbm, ⟨67, _⟩ => ⟨S_, .f32⟩
  | .hbm, ⟨68, _⟩ => ⟨S50000x128, .f32⟩
  | .hbm, ⟨69, _⟩ => ⟨S850000x1, .i32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x128, .f32⟩
  | .hbm, ⟨84, _⟩ => ⟨S850000x1, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S50000x256, .f32⟩
  | .hbm, ⟨95, _⟩ => ⟨S_, .i32⟩
  | .hbm, ⟨96, _⟩ => ⟨S_, .f32⟩
  | .hbm, ⟨97, _⟩ => ⟨S51200x256, .f32⟩
  | .hbm, ⟨98, _⟩ => ⟨S51200x256, .bf16⟩
  | .hbm, ⟨99, _⟩ => ⟨S256, .i32⟩
  | .hbm, ⟨100, _⟩ => ⟨S256x1, .i32⟩
  | .hbm, ⟨101, _⟩ => ⟨S1x50000, .i32⟩
  | .hbm, ⟨102, _⟩ => ⟨S256x50000, .i32⟩
  | .hbm, ⟨103, _⟩ => ⟨S256x50000, .i32⟩
  | .hbm, ⟨104, _⟩ => ⟨S256x50000, .i1⟩
  | .hbm, ⟨105, _⟩ => ⟨S256x50000, .bf16⟩
  | .hbm, ⟨106, _⟩ => ⟨S_, .i32⟩
  | .hbm, ⟨107, _⟩ => ⟨S_, .bf16⟩
  | .hbm, ⟨108, _⟩ => ⟨S256x51200, .bf16⟩
  | .hbm, ⟨109, _⟩ => ⟨S256x256, .f32⟩
  | .hbm, ⟨110, _⟩ => ⟨S1x256, .f32⟩
  | .hbm, ⟨111, _⟩ => ⟨S1x10, .f32⟩
  | .hbm, ⟨112, _⟩ => ⟨S256x10, .f32⟩
  | .hbm, ⟨113, _⟩ => ⟨S256x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S256x5120, .bf16⟩
  | .local _ .vmem, ⟨11, _⟩ => ⟨S256x5120, .bf16⟩
  | .local _ .vmem, ⟨12, _⟩ => ⟨S5120x256, .bf16⟩
  | .local _ .vmem, ⟨13, _⟩ => ⟨S5120x256, .bf16⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S1x256, .f32⟩
  | .local _ .vmem, ⟨19, _⟩ => ⟨S256x10, .f32⟩
  | .local _ .vmem, ⟨20, _⟩ => ⟨S1x10, .f32⟩
  | .local _ .vmem, ⟨21, _⟩ => ⟨S256x10, .f32⟩
  | .local _ .vmem, ⟨22, _⟩ => ⟨S256x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_call1_v0 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_14 : Ref sig .tc := ⟨.hbm, 106, rfl⟩
abbrev main_call2_v0 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80_0 : Ref sig .tc := ⟨.hbm, 112, rfl⟩
abbrev main_v80_1 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_scratch0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc3_stg6_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc3_sem0_0 : DmaSem sig := 15
abbrev cc3_sem1_0 : DmaSem sig := 16
abbrev cc3_sem2_0 : DmaSem sig := 17
abbrev cc3_sem3_0 : DmaSem sig := 18
abbrev cc3_sem4_0 : DmaSem sig := 19
abbrev cc3_sem5_0 : DmaSem sig := 20
abbrev cc3_sem6_0 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v13 : BitVec 1 := Scalar.cmpi .eq arg0 c9_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x5120 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5120x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S256x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x10 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  concatenates_S50000x128_S50000x128_S50000x256_d1 : Shape.Concatenates [S50000x128, S50000x128] S50000x256 1
  pads_S50000x256_S51200x256_012000_000 : S50000x256.Pads (![0, 0] : Fin 2 → Nat) ![1200, 0] ![0, 0] S51200x256
  h_S_ : 0 < S_.numel
  bcast_S256_S256x1_0 : S256.BroadcastsInDim S256x1 (![0] : Fin 1 → Fin S256x1.rank)
  bcast_S50000_S1x50000_1 : S50000.BroadcastsInDim S1x50000 (![1] : Fin 1 → Fin S1x50000.rank)
  bcast_S256x1_S256x50000_0_1 : S256x1.BroadcastsInDim S256x50000 (![0, 1] : Fin 2 → Fin S256x50000.rank)
  bcast_S1x50000_S256x50000_0_1 : S1x50000.BroadcastsInDim S256x50000 (![0, 1] : Fin 2 → Fin S256x50000.rank)
  pads_S256x50000_S256x51200_000_012000 : S256x50000.Pads (![0, 0] : Fin 2 → Nat) ![0, 1200] ![0, 0] S256x51200
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x5120_S256x5120_0_0 : ∀ a, (![0, 0] : Fin 2 → Nat) a + S256x5120.size a ≤ S256x5120.size a
  h_S256x5120 : 0 < S256x5120.numel
  shapeCasts_S256x5120_S256x5120 : S256x5120.ShapeCasts S256x5120
  inb_S5120x256_S5120x256_0_0 : ∀ a, (![0, 0] : Fin 2 → Nat) a + S5120x256.size a ≤ S5120x256.size a
  h_S5120x256 : 0 < S5120x256.numel
  shapeCasts_S5120x256_S5120x256 : S5120x256.ShapeCasts S5120x256
  shapeCasts_S256_S1x256 : S256.ShapeCasts S1x256
  shapeCasts_S10_S1x10 : S10.ShapeCasts S1x10
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  reduces_S256x10_S256 : S256x10.Reduces [1] S256
  shapeCasts_S256_S256x1 : S256.ShapeCasts S256x1
  broadcasts_S256x1_S256x10 : S256x1.Broadcasts S256x10
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S256x5120_S5120x256_S256x256_1_0_0_1_n_n_wf : DotDims.WF S256x5120 S5120x256 S256x256 [1] [0] [0] [1] [] []
  dot_S256x256_S256x256_S256x256_1_0_0_1_n_n_wf : DotDims.WF S256x256 S256x256 S256x256 [1] [0] [0] [1] [] []
  dot_S256x256_S256x10_S256x10_1_0_0_1_n_n_wf : DotDims.WF S256x256 S256x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x5120.size a ≤ S256x51200.size a
  hwx2_0 : ∀ i : grid2.Coords, EltTy.bits .bf16 = 32 ∨ (Rect.block (s := S256x51200) S256x5120.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5120x256.size a ≤ S51200x256.size a
  hwx2_1 : ∀ i : grid2.Coords, EltTy.bits .bf16 = 32 ∨ (Rect.block (s := S51200x256) S5120x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x256.size a ≤ S256x256.size a
  hwx3_0 : ∀ i : grid3.Coords, EltTy.bits .f32 = 32 ∨ (Rect.block (s := S256x256) S256x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x10.size a ≤ S256x10.size a
  hwx3_3 : ∀ i : grid3.Coords, EltTy.bits .f32 = 32 ∨ (Rect.block (s := S256x10) S256x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x10.size a ≤ S256x10.size a
  hwx3_5 : ∀ i : grid3.Coords, EltTy.bits .f32 = 32 ∨ (Rect.block (s := S256x10) S256x10.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x10.size a ≤ S256x10.size a
  hwx3_6 : ∀ i : grid3.Coords, EltTy.bits .f32 = 32 ∨ (Rect.block (s := S256x10) S256x10.size (cc3_transform_6 i) (hinb3_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S256x5120_S5120x256_S256x256_1_0_0_1_n_n : DotDims S256x5120 S5120x256 S256x256 where
  lhsContracting := [1]
  rhsContracting := [0]
  lhsNonContracting := [0]
  rhsNonContracting := [1]
  lhsBatch := []
  rhsBatch := []
  wf := dot_S256x5120_S5120x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x10_S256x10_1_0_0_1_n_n : DotDims S256x256 S256x10 S256x10 where
  lhsContracting := [1]
  rhsContracting := [0]
  lhsNonContracting := [0]
  rhsNonContracting := [1]
  lhsBatch := []
  rhsBatch := []
  wf := dot_S256x256_S256x10_S256x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v76) S256x5120.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S5120x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v77) S256x256.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v77) S256x256.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S256x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v79) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v80_0) S256x10.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v80_1) S256x10.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S256x128 : Shape := ⟨2, ![256, 128]⟩
abbrev S50000x1 : Shape := ⟨2, ![50000, 1]⟩
abbrev S1x256 : Shape := ⟨2, ![1, 256]⟩
abbrev S1x10 : Shape := ⟨2, ![1, 10]⟩
abbrev S256x1 : Shape := ⟨2, ![256, 1]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S256x256, .f32⟩
  | 8 => ⟨S256, .f32⟩
  | 9 => ⟨S256x10, .f32⟩
  | 10 => ⟨S10, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S50000x128, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x128, .f32⟩
  | 64 => ⟨S850000x1, .f32⟩
  | 65 => ⟨S850000x128, .f32⟩
  | 66 => ⟨S850000x128, .f32⟩
  | 67 => ⟨S_, .f32⟩
  | 68 => ⟨S50000x128, .f32⟩
  | 69 => ⟨S850000x1, .i32⟩
  | 70 => ⟨S50000x128, .f32⟩
  | 71 => ⟨S1x128, .f32⟩
  | 72 => ⟨S50000x128, .f32⟩
  | 73 => ⟨S50000x128, .f32⟩
  | 74 => ⟨S50000x128, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x128, .f32⟩
  | 84 => ⟨S850000x1, .f32⟩
  | 85 => ⟨S850000x128, .f32⟩
  | 86 => ⟨S850000x128, .f32⟩
  | 87 => ⟨S_, .f32⟩
  | 88 => ⟨S50000x128, .f32⟩
  | 89 => ⟨S850000x1, .i32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S256x128, .f32⟩
  | 96 => ⟨S50000x1, .i32⟩
  | 97 => ⟨S256x128, .f32⟩
  | 98 => ⟨S_, .f32⟩
  | 99 => ⟨S256x128, .f32⟩
  | 100 => ⟨S50000x1, .i32⟩
  | 101 => ⟨S256x128, .f32⟩
  | 102 => ⟨S256x256, .f32⟩
  | 103 => ⟨S256x256, .f32⟩
  | 104 => ⟨S1x256, .f32⟩
  | 105 => ⟨S256x256, .f32⟩
  | 106 => ⟨S256x256, .f32⟩
  | 107 => ⟨S_, .f32⟩
  | 108 => ⟨S256x256, .f32⟩
  | 109 => ⟨S256x256, .f32⟩
  | 110 => ⟨S256x10, .f32⟩
  | 111 => ⟨S1x10, .f32⟩
  | 112 => ⟨S256x10, .f32⟩
  | 113 => ⟨S256x10, .f32⟩
  | 114 => ⟨S_, .f32⟩
  | 115 => ⟨S256, .f32⟩
  | 116 => ⟨S_, .f32⟩
  | 117 => ⟨S256, .f32⟩
  | 118 => ⟨S256, .f32⟩
  | 119 => ⟨S256x1, .f32⟩
  | 120 => ⟨S256x10, .f32⟩
  | 121 => ⟨S256x10, .f32⟩
  | 122 => ⟨S256x10, .f32⟩
  | 123 => ⟨S_, .f32⟩
  | 124 => ⟨S256, .f32⟩
  | 125 => ⟨S256x1, .f32⟩
  | 126 => ⟨S256x1, .f32⟩
  | 127 => ⟨S256x10, .f32⟩
  | _ => ⟨S50000x128, .f32⟩

abbrev hbmTy0_1 (i : Nat) : BufTy := match i % 128 with
  | 0 => ⟨S256x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_13 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_call1_cst : Ref sig .tc := ⟨.hbm, 107, rfl⟩
abbrev main_call1_v0 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_call2_cst : Ref sig .tc := ⟨.hbm, 114, rfl⟩
abbrev main_call2_v0 : Ref sig .tc := ⟨.hbm, 115, rfl⟩
abbrev main_call2_cst_0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_cst_1 : Ref sig .tc := ⟨.hbm, 123, rfl⟩
abbrev main_call2_v7 : Ref sig .tc := ⟨.hbm, 124, rfl⟩
abbrev main_call2_v8 : Ref sig .tc := ⟨.hbm, 125, rfl⟩
abbrev main_call2_v9 : Ref sig .tc := ⟨.hbm, 126, rfl⟩
abbrev main_call2_v10 : Ref sig .tc := ⟨.hbm, 127, rfl⟩
abbrev main_v82 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256x128 : S_.BroadcastsInDim S256x128 (![] : Fin 0 → Fin S256x128.rank)
  bcast_S50000_S50000x1_0 : S50000.BroadcastsInDim S50000x1 (![0] : Fin 1 → Fin S50000x1.rank)
  concatenates_S256x128_S256x128_S256x256_d1 : Shape.Concatenates [S256x128, S256x128] S256x256 1
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  reducesTo_S256x10_S256_d1 : S256x10.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x10_0_1 : S256x1.BroadcastsInDim S256x10 (![0, 1] : Fin 2 → Fin S256x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S256x128_S50000x1_S50000x128_1_0_0_1_wf : ScatterDims.WF S256x128 S50000x1 S50000x128 [1] [0] [0] 1
  dot_S256x256_S256x256_S256x256_1_0_0_1_n_n_wf : DotDims.WF S256x256 S256x256 S256x256 [1] [0] [0] [1] [] []
  dot_S256x256_S256x10_S256x10_1_0_0_1_n_n_wf : DotDims.WF S256x256 S256x10 S256x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x10_S256x10_1_0_0_1_n_n : DotDims S256x256 S256x10 S256x10 where
  lhsContracting := [1]
  rhsContracting := [0]
  lhsNonContracting := [0]
  rhsNonContracting := [1]
  lhsBatch := []
  rhsBatch := []
  wf := dot_S256x256_S256x10_S256x10_1_0_0_1_n_n_wf

class Facts : Prop extends Facts₀ where

variable [Facts]
-- ==== Proof.K.Reg0.lean ====
/-
  The first linear projection's pallas_call (ten row blocks of 5000 rows; the weight matrix resident): what each
  grid point leaves in the output window's buffer — the block's matrix product — and the body's triple at every point,
  stated at any entry contents `V` of the core's buffers and at any float instance.
-/
import proofs.«408544_j16157666968391_1_alg».proof.Proof.Gen.Kernel.Launch
import proofs.«408544_j16157666968391_1_alg».proof.Proof.Gen.Kernel.Skeleton
import proofs.«408544_j16157666968391_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the activations sits in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix, fetched once, sits in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

/-- The output block after the body: the product of the row block with the weight matrix, stored whole. -/
def out0_2 (x0 : Vec F S5000x128 .f32) (x1 : Vec F S128x128 .f32) : Vec F S5000x128 .f32 :=
  View.canon [⟨r0_0, k0_pay1 (View.ld x0 r0_0) (View.ld x1 r0_1)⟩]

theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in
/-- The body on whole staging memrefs: the inputs are read and kept, the output ends at `out0_2` of them. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  The second linear projection's pallas_call (ten row blocks of 5000 rows; the weight matrix resident): what each
  grid point leaves in the output window's buffer — the block's matrix product — and the body's triple at every point,
  stated at any entry contents `V` of the core's buffers and at any float instance.
-/
import proofs.«408544_j16157666968391_1_alg».proof.Proof.Gen.Kernel.Launch
import proofs.«408544_j16157666968391_1_alg».proof.Proof.Gen.Kernel.Skeleton
import proofs.«408544_j16157666968391_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the activations sits in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix, fetched once, sits in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0

/-- The output block after the body: the product of the row block with the weight matrix, stored whole. -/
def out1_2 (x0 : Vec F S5000x128 .f32) (x1 : Vec F S128x128 .f32) : Vec F S5000x128 .f32 :=
  View.canon [⟨r1_0, k1_pay1 (View.ld x0 r1_0) (View.ld x1 r1_1)⟩]

theorem cover1_2 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

set_option maxHeartbeats 1000000 in
/-- The body on whole staging memrefs: the inputs are read and kept, the output ends at `out1_2` of them. -/
theorem sound_kernel1 (c : Dev nD) (E : Set ℕ) (i : grid1.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  The pooling pallas_call (ten column blocks of the one-hot matrix against ten row blocks of the features, the
  product accumulated over the grid in a scratch buffer): what the scratch holds after each grid point, what the
  output window's buffer holds at the last point, and the body's triple at every point, stated at any entry contents
  `V` of the core's buffers and at any float instance.
-/
import proofs.«408544_j16157666968391_1_alg».proof.Proof.Gen.Kernel.Launch
import proofs.«408544_j16157666968391_1_alg».proof.Proof.Gen.Kernel.Skeleton
import proofs.«408544_j16157666968391_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The column block of the one-hot matrix sits in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The row block of the features sits in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, decided over the grid -/

/-- The body zeroes the scratch under this condition: the grid coordinate is zero. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

/-- The body copies the scratch to the output under this condition: the grid coordinate is nine. -/
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

/-- The inputs are never idle; the output is idle, and not written back, exactly off the last point. -/
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-! ## The kernel body on whole memrefs, case by case -/

abbrev r2_W : Rect S256x256 := Rect.unit (s := S256x256) ![0, 0] S256x256.size inb_S256x256_S256x256_0_0
abbrev r2_A : Rect S256x5120 := Rect.unit (s := S256x5120) ![0, 0] S256x5120.size inb_S256x5120_S256x5120_0_0
abbrev r2_B : Rect S5120x256 := Rect.unit (s := S5120x256) ![0, 0] S5120x256.size inb_S5120x256_S5120x256_0_0

/-- The offsets of a whole-buffer rectangle of rank two are zero. -/
theorem zero2 : (![0, 0] : Fin 2 → ℕ) = fun _ => 0 := by
  funext a; fin_cases a <;> rfl

/-- The scratch memref the pipeline passes the body. -/
abbrev scM2 : Memref sig .tc .vmem S256x256 .f32 := Memref.whole cc2_scratch0

/-- One whole-buffer store, last, covers the accumulator. -/
theorem cover2_W (L : List (View.Piece (Elt F) S256x256 .f32)) (p0 : Vec F S256x256 .f32) (y : S256x256.Idx) :
    ∃ pc ∈ ((⟨r2_W, p0⟩ : View.Piece (Elt F) S256x256 .f32) :: L), y ∈ pc.1.set :=
  ⟨⟨r2_W, p0⟩, List.mem_cons_self, View.mem_set_unit_zero zero2 inb_S256x256_S256x256_0_0 y⟩

/-- A load through the whole-shape rectangle reads the buffer's contents. -/
theorem readAt_whole {sg : RefSig} {κ : Kind} {sp : Space} {S : Shape} {e : EltTy} (v : View sg κ sp S e)
    {off : Fin S.rank → ℕ} (h : off = fun _ => 0) (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

/-- What one whole-buffer store, last, leaves in a buffer reads back as its payload. -/
theorem read_writes_whole {sg : RefSig} {κ : Kind} {sp : Space} (v : View sg κ sp S256x256 .f32) (f : v.ty.Contents (Elt F))
    (p0 : Vec F S256x256 .f32) (L : List (View.Piece (Elt F) S256x256 .f32)) :
    v.read (Elt F) (v.writes (Elt F) f ((⟨r2_W, p0⟩ : View.Piece (Elt F) S256x256 .f32) :: L)) = p0 := by
  rw [View.read_writes_eq_canon _ _ _ (cover2_W L p0)]
  exact View.canon_cons_unit_zero zero2 inb_S256x256_S256x256_0_0 p0 L

set_option maxHeartbeats 1000000 in
/-- A middle point: the scratch at `a` ends at `a` plus the blocks' product; the output buffer is not touched. -/
theorem sound_kernel2_B (c : Dev nD) (E : Set ℕ) (i : grid2.Coords) (hc0 : ¬cond2_0 i) (hc1 : ¬cond2_1 i)
    (arg1 : Memref sig .tc .vmem S256x5120 .bf16) (harg1 : arg1.IsWhole)
    (arg2 : Memref sig .tc .vmem S5120x256 .bf16) (harg2 : arg2.IsWhole) (arg3 : Memref sig .tc .vmem S256x256 .f32) (harg3 : arg3.IsWhole)
    (arg4 : Memref sig .tc .vmem S256x256 .f32) (harg4 : arg4.IsWhole)
    (x0 : Vec F S256x5120 .bf16) (x1 : Vec F S5120x256 .bf16) (a : Vec F S256x256 .f32) (K : PUnit → sProp 𝕄) :
    iprop(owns (c : Thread nD τ) arg1 fullShare x0 ∗ owns (c : Thread nD τ) arg2 fullShare x1 ∗ owns (c : Thread nD τ) arg4 fullShare a
        ∗ (iprop(owns (c : Thread nD τ) arg1 fullShare x0 ∗ owns (c : Thread nD τ) arg2 fullShare x1 ∗ owns (c : Thread nD τ) arg4 fullShare (k2_pay2 a x0 x1)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [read_writes_whole, readAt_whole _ zero2, readAt_whole _ zero2, readAt_whole _ zero2]

set_option maxHeartbeats 1000000 in
/-- The first point: the scratch, at anything, is zeroed and ends at the blocks' product; the output buffer is not touched. -/
theorem sound_kernel2_A (c : Dev nD) (E : Set ℕ) (i : grid2.Coords) (hc0 : cond2_0 i) (hc1 : ¬cond2_1 i)
    (arg1 : Memref sig .tc .vmem S256x5120 .bf16) (harg1 : arg1.IsWhole)
    (arg2 : Memref sig .tc .vmem S5120x256 .bf16) (harg2 : arg2.IsWhole) (arg3 : Memref sig .tc .vmem S256x256 .f32) (harg3 : arg3.IsWhole)
    (arg4 : Memref sig .tc .vmem S256x256 .f32) (harg4 : arg4.IsWhole)
    (x0 : Vec F S256x5120 .bf16) (x1 : Vec F S5120x256 .bf16)  (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1 ∗ owns (c : Thread nD τ) arg4 fullShare (k2_pay2 k2_pay1 x0 x1)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read_writes_whole, View.readCov_unit_zero _ zero2, readAt_whole _ zero2, readAt_whole _ zero2]

set_option maxHeartbeats 1000000 in
/-- The last point: the scratch at `a` ends at `a` plus the blocks' product, and the output buffer, at anything, ends at the same. -/
theorem sound_kernel2_C (c : Dev nD) (E : Set ℕ) (i : grid2.Coords) (hc0 : ¬cond2_0 i) (hc1 : cond2_1 i)
    (arg1 : Memref sig .tc .vmem S256x5120 .bf16) (harg1 : arg1.IsWhole)
    (arg2 : Memref sig .tc .vmem S5120x256 .bf16) (harg2 : arg2.IsWhole) (arg3 : Memref sig .tc .vmem S256x256 .f32) (harg3 : arg3.IsWhole)
    (arg4 : Memref sig .tc .vmem S256x256 .f32) (harg4 : arg4.IsWhole)
    (x0 : Vec F S256x5120 .bf16) (x1 : Vec F S5120x256 .bf16) (a : Vec F S256x256 .f32) (K : PUnit → sProp 𝕄) :
    iprop(owns (c : Thread nD τ) arg1 fullShare x0 ∗ owns (c : Thread nD τ) arg2 fullShare x1 ∗ owns (c : Thread nD τ) arg4 fullShare a ∗ (∃ d, owns (c : Thread nD τ) arg3 fullShare d)
        ∗ (iprop(owns (c : Thread nD τ) arg1 fullShare x0 ∗ owns (c : Thread nD τ) arg2 fullShare x1 ∗ owns (c : Thread nD τ) arg4 fullShare (k2_pay2 a x0 x1) ∗ owns (c : Thread nD τ) arg3 fullShare (k2_pay2 a x0 x1)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%fs, %hfs, HS⟩, ⟨%d3, %f3, -, H3⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HS]
  · iexists _; isplitr
    swap; · iexact HS
    ipureintro
    sl_unfold_run_names
    rw [read_writes_whole, readAt_whole _ zero2, readAt_whole _ zero2, readAt_whole _ zero2]
  iexists _; isplitr
  swap; · iexact H3
  ipureintro
  sl_unfold_run_names
  rw [read_writes_whole, View.readCov_unit_zero _ zero2, readAt_whole _ zero2, readAt_whole _ zero2, readAt_whole _ zero2]

/-! ## What the scratch holds after each point -/

/-- THE ACCUMULATION. The scratch after the body at position `n`: zero plus the first blocks' product after the first point,
    then what the point before left plus this point's blocks' product. -/
def acc2 (c : Dev nD) : (n : ℕ) → n < cfg2.N → Vec F S256x256 .f32
  | 0, hn => k2_pay2 (k2_pay1 (F := F)) (iblk2 V c 0 ⟨0, hn⟩) (iblk2 V c 1 ⟨0, hn⟩)
  | n + 1, hn => k2_pay2 (acc2 c n (Nat.lt_of_succ_lt hn)) (iblk2 V c 0 ⟨n + 1, hn⟩) (iblk2 V c 1 ⟨n + 1, hn⟩)

theorem acc2_zero (c : Dev nD) (t : Fin cfg2.N) (h : t.val = 0) :
    acc2 V c t.val t.isLt = k2_pay2 (k2_pay1 (F := F)) (iblk2 V c 0 t) (iblk2 V c 1 t) := by
  obtain ⟨n, hn⟩ := t
  cases n with
  | zero => rfl
  | succ n => exact absurd h (Nat.succ_ne_zero n)

theorem acc2_pos (c : Dev nD) (t : Fin cfg2.N) (h : t.val ≠ 0) :
    acc2 V c t.val t.isLt
      = k2_pay2 (acc2 V c (t.val - 1) (Nat.lt_of_le_of_lt (Nat.sub_le _ _) t.isLt)) (iblk2 V c 0 t) (iblk2 V c 1 t) := by
  obtain ⟨n, hn⟩ := t
  cases n with
  | zero => exact absurd rfl h
  | succ n => rfl

/-! ## The region invariant -/

/-- The core's scoped buffers that are neither a staging buffer of this call nor its scratch, each whole at some contents. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc3_stg0_0), ((c : Thread nD τ).loc cc3_stg0_0) ↦{fullShare} f)
    ∗ (∃ f : Buf (Elt F) ((c : Thread nD τ).loc cc3_stg1_0), ((c : Thread nD τ).loc cc3_stg1_0) ↦{fullShare} f)
    ∗ (∃ f : Buf (Elt F) ((c : Thread nD τ).loc cc3_stg2_0), ((c : Thread nD τ).loc cc3_stg2_0) ↦{fullShare} f)
    ∗ (∃ f : Buf (Elt F) ((c : Thread nD τ).loc cc3_stg3_0), ((c : Thread nD τ).loc cc3_stg3_0) ↦{fullShare} f)
    ∗ (∃ f : Buf (Elt F) ((c : Thread nD τ).loc cc3_stg4_0), ((c : Thread nD τ).loc cc3_stg4_0) ↦{fullShare} f)
    ∗ (∃ f : Buf (Elt F) ((c : Thread nD τ).loc cc3_stg5_0), ((c : Thread nD τ).loc cc3_stg5_0) ↦{fullShare} f)
    ∗ (∃ f : Buf (Elt F) ((c : Thread nD τ).loc cc3_stg6_0), ((c : Thread nD τ).loc cc3_stg6_0) ↦{fullShare} f))

/-- The class invariant with the scratch set apart as a memref owned at some contents. -/
theorem PhiA2_eq (c : Dev nD) :
    (Pipeline.ΦA spec2 c : sProp 𝕄)
      = iprop(iprop((∃ d, owns (c : Thread nD τ) scM2 fullShare d) ∗ others2 c) ∗ (∃ r, prngReg c r)) := by
  have h₁ : (iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg5_0), ((c : Thread nD τ).loc cc3_stg5_0) ↦{fullShare} f) ∗ (∃ f : Buf (Elt F) ((c : Thread nD τ).loc cc3_stg6_0), ((c : Thread nD τ).loc cc3_stg6_0) ↦{fullShare} f)) ∗ (∃ r, prngReg c r)) : sProp 𝕄)
      ⊢ iprop(iprop((∃ d : Buf (Elt F) ((c : Thread nD τ).loc cc2_scratch0), ((c : Thread nD τ).loc cc2_scratch0) ↦{fullShare} d) ∗ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg5_0), ((c : Thread nD τ).loc cc3_stg5_0) ↦{fullShare} f) ∗ (∃ f : Buf (Elt F) ((c : Thread nD τ).loc cc3_stg6_0), ((c : Thread nD τ).loc cc3_stg6_0) ↦{fullShare} f))) ∗ (∃ r, prngReg c r)) := by
    iintro ⟨⟨R0, R1, R2, R3, R4, R5, R6, R7, R8, R9, HS, R11, R12, R13, R14, R15, R16, R17⟩, Hg⟩
    isplitr [Hg]
    swap; · iexact Hg
    isplitl [HS]; · iexact HS
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R11]; · iexact R11
    isplitl [R12]; · iexact R12
    isplitl [R13]; · iexact R13
    isplitl [R14]; · iexact R14
    isplitl [R15]; · iexact R15
    isplitl [R16]; · iexact R16
    iexact R17
  have h₂ : (iprop(iprop((∃ d : Buf (Elt F) ((c : Thread nD τ).loc cc2_scratch0), ((c : Thread nD τ).loc cc2_scratch0) ↦{fullShare} d) ∗ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg5_0), ((c : Thread nD τ).loc cc3_stg5_0) ↦{fullShare} f) ∗ (∃ f : Buf (Elt F) ((c : Thread nD τ).loc cc3_stg6_0), ((c : Thread nD τ).loc cc3_stg6_0) ↦{fullShare} f))) ∗ (∃ r, prngReg c r)) : sProp 𝕄)
      ⊢ iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg5_0), ((c : Thread nD τ).loc cc3_stg5_0) ↦{fullShare} f) ∗ (∃ f : Buf (Elt F) ((c : Thread nD τ).loc cc3_stg6_0), ((c : Thread nD τ).loc cc3_stg6_0) ↦{fullShare} f)) ∗ (∃ r, prngReg c r)) := by
    iintro ⟨⟨HS, ⟨R0, R1, R2, R3, R4, R5, R6, R7, R8, R9, R11, R12, R13, R14, R15, R16, R17⟩⟩, Hg⟩
    isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [HS]; · iexact HS
    isplitl [R11]; · iexact R11
    isplitl [R12]; · iexact R12
    isplitl [R13]; · iexact R13
    isplitl [R14]; · iexact R14
    isplitl [R15]; · iexact R15
    isplitl [R16]; · iexact R16
    iexact R17
  unfold Pipeline.ΦA; rw [scopedRest2_eq]; unfold others2; simp only [scM2, owns_whole]
  exact BI.equiv_iff.mp ⟨h₁, h₂⟩

/-- The region invariant before position `n`: before the first point the class's (the scratch at anything); afterwards the
    scratch at what the point before left in it, beside the other scoped buffers and the generator register. -/
def Phi2 (c : Dev nD) : (n : ℕ) → n ≤ cfg2.N → sProp 𝕄
  | 0, _ => Pipeline.ΦA spec2 c
  | n + 1, hn => iprop(iprop(owns (c : Thread nD τ) scM2 fullShare (acc2 V c n hn) ∗ others2 c) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c n hn) ∗ others2 c) ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c (n - 1) (by omega)) ∗ others2 c) ∗ (∃ r, prngReg c r)) := by
  cases n with
  | zero => exact absurd rfl hz
  | succ n => rfl

/-! ## The proof data -/

/-- The proof data of this pipeline on core `c`: the inputs' buffers keep their blocks; the output's buffer after point `t`
    is named at the accumulation there (consulted at the last point only, the one that stores it). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem q2 (c : Dev nD) (w : Fin cfg2.W) : (dat2 V c).q w = fullShare := rfl
theorem owed2 (c : Dev nD) (t : Fin (cfg2.N + 1)) : (dat2 V c).owed t = 0 := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

theorem Phi2_castSucc (c : Dev nD) (t : Fin cfg2.N) :
    (dat2 V c).Φ t.castSucc = Phi2 V c t.val (Nat.le_of_lt t.isLt) := by
  dsimp only [dat2]; simp only [Fin.coe_castSucc]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point: the inputs' buffers hold their blocks; the grid coordinate selects the case; the invariant hands
    the body the scratch (at anything at the first point, at what the point before left afterwards) and takes it back at this
    point's accumulation; off the last point the output's buffer goes back as it came, at the last it holds the accumulation. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 10 := lt_of_lt_of_eq t.isLt (show cfg2.N = 10 from N_2)
  by_cases h1 : t.val % 10 = 9
  · have h0 : ¬t.val % 10 = 0 := by omega
    have hz : t.val ≠ 0 := by omega
    have hc0 : ¬cond2_0 (grid2.coords t) := fun h => h0 ((hcond2_0 t).mp h)
    have hc1 : cond2_1 (grid2.coords t) := (hcond2_1 t).mpr h1
    rw [show (dat2 V c).leavesExact 2 t = owns (c : Thread nD τ) (st2_2 t) fullShare ((dat2 V c).after 2 t) from by
      unfold Dat.leavesExact; rw [liveAt2_2 t hc1], after2_2]
    rw [acc2_pos V c t hz, Phi2_castSucc V c t, Phi2_pos V c _ _ hz]
    iintro ⟨⟨⟨HS, HR⟩, Hg⟩, Ho, ⟨%d0, H0⟩, ⟨%d1, H1⟩, ⟨%d2, H2⟩⟩
    iapply (sound_kernel2_C c Set.univ _ hc0 hc1 _ _ _ _ _ _ _ _ (iblk2 V c 0 t) (iblk2 V c 1 t) _ _)
    isplitl [H0]; · iexact H0
    isplitl [H1]; · iexact H1
    isplitl [HS]; · iexact HS
    isplitl [H2]; · iexists _; iexact H2
    iintro ⟨H0, H1, HS, H2⟩
    isplitl [HS HR Hg]
    · isplitr [Hg]
      swap; · iexact Hg
      isplitl [HS]; · iexact HS
      iexact HR
    isplitl [Ho]; · iexact Ho
    isplitl [H0]; · iexact H0
    isplitl [H1]; · iexact H1
    iexact H2
  · have hc1 : ¬cond2_1 (grid2.coords t) := fun h => h1 ((hcond2_1 t).mp h)
    rw [Dat.leavesExact_idle (dat2 V c) 2 t (idleAt2_2 t hc1) (noFlush2_2 t hc1)]
    by_cases hz : t.val = 0
    · have hc0 : cond2_0 (grid2.coords t) := (hcond2_0 t).mpr (by omega)
      rw [acc2_zero V c t hz, Phi2_castSucc V c t, Phi2_zero V c _ _ hz, PhiA2_eq]
      iintro ⟨⟨⟨HS, HR⟩, Hg⟩, Ho, ⟨%d0, H0⟩, ⟨%d1, H1⟩, ⟨%d2, H2⟩⟩
      iapply (sound_kernel2_A c Set.univ _ hc0 hc1 _ _ _ _ _ _ _ _ (iblk2 V c 0 t) (iblk2 V c 1 t) _)
      isplitl [H0]; · iexact H0
      isplitl [H1]; · iexact H1
      isplitl [HS]; · iexact HS
      iintro ⟨H0, H1, HS⟩
      isplitl [HS HR Hg]
      · isplitr [Hg]
        swap; · iexact Hg
        isplitl [HS]; · iexact HS
        iexact HR
      isplitl [Ho]; · iexact Ho
      isplitl [H0]; · iexact H0
      isplitl [H1]; · iexact H1
      iexists _; iexact H2
    · have hc0 : ¬cond2_0 (grid2.coords t) := fun h => by have := (hcond2_0 t).mp h; omega
      rw [acc2_pos V c t hz, Phi2_castSucc V c t, Phi2_pos V c _ _ hz]
      iintro ⟨⟨⟨HS, HR⟩, Hg⟩, Ho, ⟨%d0, H0⟩, ⟨%d1, H1⟩, ⟨%d2, H2⟩⟩
      iapply (sound_kernel2_B c Set.univ _ hc0 hc1 _ _ _ _ _ _ _ _ (iblk2 V c 0 t) (iblk2 V c 1 t) _ _)
      isplitl [H0]; · iexact H0
      isplitl [H1]; · iexact H1
      isplitl [HS]; · iexact HS
      iintro ⟨H0, H1, HS⟩
      isplitl [HS HR Hg]
      · isplitr [Hg]
        swap; · iexact Hg
        isplitl [HS]; · iexact HS
        iexact HR
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After the last point the invariant gives the class's back: the scratch's named contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 10 := N_2; omega
  rw [show (dat2 V c).Φ (Fin.last cfg2.N) = Phi2 V c (Fin.last cfg2.N).val (Nat.le_of_lt_succ (Fin.last cfg2.N).isLt) from rfl,
    Phi2_pos V c _ _ hne, PhiA2_eq]
  iintro ⟨⟨HS, HR⟩, Hg⟩
  isplitr [Hg]
  swap; · iexact Hg
  isplitl [HS]; · iexists _; iexact HS
  iexact HR

end Cert.Kernel.Hand

end
-- ==== Proof.K.Reg3.lean ====
/-
  The head's pallas_call (one grid point; every window is its whole array): what the body leaves in the two
  output windows' buffers — the logits and their row-wise log-softmax as the body's two stored values over the five
  inputs read — and the body's triple at the point, stated at any entry contents `V` of the core's buffers and at any
  float instance.
-/
import proofs.«408544_j16157666968391_1_alg».proof.Proof.Gen.Kernel.Launch
import proofs.«408544_j16157666968391_1_alg».proof.Proof.Gen.Kernel.Skeleton
import proofs.«408544_j16157666968391_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The pooled graph features sit in their staging buffer at the point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The first dense layer's weights sit in their staging buffer at the point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The first dense layer's bias row sits in its staging buffer at the point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The second dense layer's weights sit in their staging buffer at the point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The second dense layer's bias row sits in its staging buffer at the point. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

-- every access of the body is to a whole buffer: one rectangle per buffer shape
abbrev r3_sq : Rect S256x256 := Rect.unit (s := S256x256) ![0, 0] S256x256.size inb_S256x256_S256x256_0_0
abbrev r3_b1 : Rect S1x256 := Rect.unit (s := S1x256) ![0, 0] S1x256.size inb_S1x256_S1x256_0_0
abbrev r3_tall : Rect S256x10 := Rect.unit (s := S256x10) ![0, 0] S256x10.size inb_S256x10_S256x10_0_0
abbrev r3_b2 : Rect S1x10 := Rect.unit (s := S1x10) ![0, 0] S1x10.size inb_S1x10_S1x10_0_0

/-- The logits' buffer after the body: the first stored value over the five inputs read, stored whole. -/
def out3_5 (x0 : Vec F S256x256 .f32) (x1 : Vec F S256x256 .f32) (x2 : Vec F S1x256 .f32) (x3 : Vec F S256x10 .f32) (x4 : Vec F S1x10 .f32) :
    Vec F S256x10 .f32 :=
  View.canon [⟨r3_tall, k3_pay1 (View.ld x0 r3_sq) (View.ld x1 r3_sq) (View.ld x2 r3_b1) (View.ld x3 r3_tall) (View.ld x4 r3_b2)⟩]

/-- The log-softmax buffer after the body: the second stored value over the same five inputs, stored whole. -/
def out3_6 (x0 : Vec F S256x256 .f32) (x1 : Vec F S256x256 .f32) (x2 : Vec F S1x256 .f32) (x3 : Vec F S256x10 .f32) (x4 : Vec F S1x10 .f32) :
    Vec F S256x10 .f32 :=
  View.canon [⟨r3_tall, k3_pay2 (View.ld x0 r3_sq) (View.ld x1 r3_sq) (View.ld x2 r3_b1) (View.ld x3 r3_tall) (View.ld x4 r3_b2)⟩]

/-- One whole-buffer store covers the buffer. -/
theorem cover3_out (p0 : Vec F S256x10 .f32) (y : S256x10.Idx) :
    ∃ pc ∈ ([⟨r3_tall, p0⟩] : List (View.Piece (Elt F) S256x10 .f32)), y ∈ pc.1.set :=
  View.cover_of_tiled [⟨r3_tall, p0⟩] S256x10.size (by rfl) y

set_option maxHeartbeats 2000000 in
/-- The body on whole staging memrefs: the five inputs are read and kept, the two outputs end at `out3_5` and `out3_6` of them. -/
theorem sound_kernel3 (c : Dev nD) (E : Set ℕ) (i : grid3.Coords)
    (arg1 : Memref sig .tc .vmem S256x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x10 .f32) (harg4 : arg4.IsWhole)
    (arg5 : Memref sig .tc .vmem S1x10 .f32) (harg5 : arg5.IsWhole) (arg6 : Memref sig .tc .vmem S256x10 .f32) (harg6 : arg6.IsWhole)
    (arg7 : Memref sig .tc .vmem S256x10 .f32) (harg7 : arg7.IsWhole)
    (x0 : Vec F S256x256 .f32) (x1 : Vec F S256x256 .f32) (x2 : Vec F S1x256 .f32) (x3 : Vec F S256x10 .f32) (x4 : Vec F S1x10 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4) ∗ owns (c : Thread nD τ) arg7 fullShare (out3_6 x0 x1 x2 x3 x4)) -∗ K ⟨⟩))
      ⊢ wp frame (wpE (defs₀ (F := F)) Variants.none c none) E
          (cc3__head_kernel i arg1 harg1 arg2 harg2 arg3 harg3 arg4 harg4 arg5 harg5 arg6 harg6 arg7 harg7) K := by
  simp only [cc3__head_kernel_eq_skeleton]; unfold cc3__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3_out _)
  iexists _; isplitr
  swap; · iexact H6
  ipureintro
  exact View.read_writes_eq_canon _ _ _ (cover3_out _)

/-- The proof data of this pipeline on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => out3_6 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]
theorem after3_6 (c : Dev nD) (t : Fin cfg3.N) :
    (dat3 V c).after 6 t = out3_6 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
/-
  The whole program as a sequence of segments — host stretches and the four pallas calls — from the launch memory to
  the return: the contents of every unscoped buffer at each boundary (a host stretch applies its operations; a pallas
  call replaces its output windows' arrays by what the write-backs leave and keeps every other buffer), each pallas
  call's segment record over its proof data, and the run: every weakly fair execution terminates, nothing faulting, with
  every unscoped buffer at the last boundary's contents. The frame (each argument ends as launched) and the two results'
  contents are read off that.
-/
import proofs.«408544_j16157666968391_1_alg».proof.Proof.Gen.Kernel.Launch
import proofs.«408544_j16157666968391_1_alg».proof.Proof.Gen.Kernel.Skeleton
import proofs.«408544_j16157666968391_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«408544_j16157666968391_1_alg».proof.Proof.Gen.Kernel.Regions
import proofs.«408544_j16157666968391_1_alg».proof.Proof.K.Reg0
import proofs.«408544_j16157666968391_1_alg».proof.Proof.K.Reg1
import proofs.«408544_j16157666968391_1_alg».proof.Proof.K.Reg2
import proofs.«408544_j16157666968391_1_alg».proof.Proof.K.Reg3
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)

/-- After the host operations `hostOps0`. -/
abbrev W1 : Dev nD → Valuation τ sig (Elt F) := fun c => StableHlo.after hostOps0 (W0 m c)
abbrev B1 : (c : Dev nD) → (b : Ref sig .tc) → Buf (Elt F) ((c : Thread nD τ).loc b) := fun c b => W1 m c b
theorem W1_of (c : Dev nD) (r : Ref sig .tc) (h : r ∉ hostOps0_W) : W1 m c (Proc.devRef .tc r) = W0 m c (Proc.devRef .tc r) :=
  StableHlo.after_of_writes_sub hostOps0 _ hostOps0_writes h

/-- After the host operations `hostOps0_1`. -/
abbrev W2 : Dev nD → Valuation τ sig (Elt F) := fun c => StableHlo.after hostOps0_1 (W1 m c)
abbrev B2 : (c : Dev nD) → (b : Ref sig .tc) → Buf (Elt F) ((c : Thread nD τ).loc b) := fun c b => W2 m c b
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h

/-- After the host operations `hostOps0_2`. -/
abbrev W3 : Dev nD → Valuation τ sig (Elt F) := fun c => StableHlo.after hostOps0_2 (W2 m c)
abbrev B3 : (c : Dev nD) → (b : Ref sig .tc) → Buf (Elt F) ((c : Thread nD τ).loc b) := fun c b => W3 m c b
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h

/-- At pallas call 0's exit: its windows' arrays at what the write-backs leave, every other buffer as entered. -/
def W4 (c : Dev nD) : Valuation τ sig (Elt F) :=
  Pipeline.withArrays spec0 c (W3 m c) fun w => (dat0 (B3 m) c).arrAt w cfg0.N
theorem W4_arr (c : Dev nD) (w : Fin cfg0.W) :
    W4 m c (Proc.devRef .tc (Pipeline.arrRef spec0 w)) = (dat0 (B3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- An input window's array is left as entered. -/
theorem W4_in (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (B3 m) c).arrAt_in w hin _).trans (A_eq0 (B3 m) c w))
abbrev B4 : (c : Dev nD) → (b : Ref sig .tc) → Buf (Elt F) ((c : Thread nD τ).loc b) := fun c b => W4 m c b
theorem hF0 (c : Dev nD) (w : Fin cfg0.W) : (dat0 (B3 m) c).arrAt w cfg0.N = B4 m c (Pipeline.arrRef spec0 w) :=
  (W4_arr m c w).symm
theorem hrest0 (c : Dev nD) : ∀ b, b ∉ Finset.univ.image (Pipeline.arrRef spec0) → B4 m c b = B3 m c b :=
  fun b hb => W4_of_ne m c b fun w e => hb (Finset.mem_image.mpr ⟨w, Finset.mem_univ _, e⟩)

/-- After the host operations `hostOps1`. -/
abbrev W5 : Dev nD → Valuation τ sig (Elt F) := fun c => StableHlo.after hostOps1 (W4 m c)
abbrev B5 : (c : Dev nD) → (b : Ref sig .tc) → Buf (Elt F) ((c : Thread nD τ).loc b) := fun c b => W5 m c b
theorem W5_of (c : Dev nD) (r : Ref sig .tc) (h : r ∉ hostOps1_W) : W5 m c (Proc.devRef .tc r) = W4 m c (Proc.devRef .tc r) :=
  StableHlo.after_of_writes_sub hostOps1 _ hostOps1_writes h

/-- At pallas call 1's exit: its windows' arrays at what the write-backs leave, every other buffer as entered. -/
def W6 (c : Dev nD) : Valuation τ sig (Elt F) :=
  Pipeline.withArrays spec1 c (W5 m c) fun w => (dat1 (B5 m) c).arrAt w cfg1.N
theorem W6_arr (c : Dev nD) (w : Fin cfg1.W) :
    W6 m c (Proc.devRef .tc (Pipeline.arrRef spec1 w)) = (dat1 (B5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- An input window's array is left as entered. -/
theorem W6_in (c : Dev nD) (w : Fin cfg1.W) (hin : (cfg1.win w).isOut = false) :
    W6 m c (Proc.devRef .tc (Pipeline.arrRef spec1 w)) = W5 m c (Proc.devRef .tc (Pipeline.arrRef spec1 w)) :=
  (W6_arr m c w).trans (((dat1 (B5 m) c).arrAt_in w hin _).trans (A_eq1 (B5 m) c w))
abbrev B6 : (c : Dev nD) → (b : Ref sig .tc) → Buf (Elt F) ((c : Thread nD τ).loc b) := fun c b => W6 m c b
theorem hF1 (c : Dev nD) (w : Fin cfg1.W) : (dat1 (B5 m) c).arrAt w cfg1.N = B6 m c (Pipeline.arrRef spec1 w) :=
  (W6_arr m c w).symm
theorem hrest1 (c : Dev nD) : ∀ b, b ∉ Finset.univ.image (Pipeline.arrRef spec1) → B6 m c b = B5 m c b :=
  fun b hb => W6_of_ne m c b fun w e => hb (Finset.mem_image.mpr ⟨w, Finset.mem_univ _, e⟩)

/-- After the host operations `hostOps2`. -/
abbrev W7 : Dev nD → Valuation τ sig (Elt F) := fun c => StableHlo.after hostOps2 (W6 m c)
abbrev B7 : (c : Dev nD) → (b : Ref sig .tc) → Buf (Elt F) ((c : Thread nD τ).loc b) := fun c b => W7 m c b
theorem W7_of (c : Dev nD) (r : Ref sig .tc) (h : r ∉ hostOps2_W) : W7 m c (Proc.devRef .tc r) = W6 m c (Proc.devRef .tc r) :=
  StableHlo.after_of_writes_sub hostOps2 _ hostOps2_writes h

/-- After the host operations `hostOps2_1`. -/
abbrev W8 : Dev nD → Valuation τ sig (Elt F) := fun c => StableHlo.after hostOps2_1 (W7 m c)
abbrev B8 : (c : Dev nD) → (b : Ref sig .tc) → Buf (Elt F) ((c : Thread nD τ).loc b) := fun c b => W8 m c b
theorem W8_of (c : Dev nD) (r : Ref sig .tc) (h : r ∉ hostOps2_1_W) : W8 m c (Proc.devRef .tc r) = W7 m c (Proc.devRef .tc r) :=
  StableHlo.after_of_writes_sub hostOps2_1 _ hostOps2_1_writes h

/-- After the host operations `hostOps2_2`. -/
abbrev W9 : Dev nD → Valuation τ sig (Elt F) := fun c => StableHlo.after hostOps2_2 (W8 m c)
abbrev B9 : (c : Dev nD) → (b : Ref sig .tc) → Buf (Elt F) ((c : Thread nD τ).loc b) := fun c b => W9 m c b
theorem W9_of (c : Dev nD) (r : Ref sig .tc) (h : r ∉ hostOps2_2_W) : W9 m c (Proc.devRef .tc r) = W8 m c (Proc.devRef .tc r) :=
  StableHlo.after_of_writes_sub hostOps2_2 _ hostOps2_2_writes h

/-- After the host operations `hostOps2_3`. -/
abbrev W10 : Dev nD → Valuation τ sig (Elt F) := fun c => StableHlo.after hostOps2_3 (W9 m c)
abbrev B10 : (c : Dev nD) → (b : Ref sig .tc) → Buf (Elt F) ((c : Thread nD τ).loc b) := fun c b => W10 m c b
theorem W10_of (c : Dev nD) (r : Ref sig .tc) (h : r ∉ hostOps2_3_W) : W10 m c (Proc.devRef .tc r) = W9 m c (Proc.devRef .tc r) :=
  StableHlo.after_of_writes_sub hostOps2_3 _ hostOps2_3_writes h

/-- At pallas call 2's exit: its windows' arrays at what the write-backs leave, every other buffer as entered. -/
def W11 (c : Dev nD) : Valuation τ sig (Elt F) :=
  Pipeline.withArrays spec2 c (W10 m c) fun w => (dat2 (B10 m) c).arrAt w cfg2.N
theorem W11_arr (c : Dev nD) (w : Fin cfg2.W) :
    W11 m c (Proc.devRef .tc (Pipeline.arrRef spec2 w)) = (dat2 (B10 m) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m c (Proc.devRef .tc b) = W10 m c (Proc.devRef .tc b) := by
  unfold W11; exact Pipeline.withArrays_of_ne spec2 c _ _ b hb
/-- An input window's array is left as entered. -/
theorem W11_in (c : Dev nD) (w : Fin cfg2.W) (hin : (cfg2.win w).isOut = false) :
    W11 m c (Proc.devRef .tc (Pipeline.arrRef spec2 w)) = W10 m c (Proc.devRef .tc (Pipeline.arrRef spec2 w)) :=
  (W11_arr m c w).trans (((dat2 (B10 m) c).arrAt_in w hin _).trans (A_eq2 (B10 m) c w))
abbrev B11 : (c : Dev nD) → (b : Ref sig .tc) → Buf (Elt F) ((c : Thread nD τ).loc b) := fun c b => W11 m c b
theorem hF2 (c : Dev nD) (w : Fin cfg2.W) : (dat2 (B10 m) c).arrAt w cfg2.N = B11 m c (Pipeline.arrRef spec2 w) :=
  (W11_arr m c w).symm
theorem hrest2 (c : Dev nD) : ∀ b, b ∉ Finset.univ.image (Pipeline.arrRef spec2) → B11 m c b = B10 m c b :=
  fun b hb => W11_of_ne m c b fun w e => hb (Finset.mem_image.mpr ⟨w, Finset.mem_univ _, e⟩)

/-- After the host operations `hostOps3`. -/
abbrev W12 : Dev nD → Valuation τ sig (Elt F) := fun c => StableHlo.after hostOps3 (W11 m c)
abbrev B12 : (c : Dev nD) → (b : Ref sig .tc) → Buf (Elt F) ((c : Thread nD τ).loc b) := fun c b => W12 m c b
theorem W12_of (c : Dev nD) (r : Ref sig .tc) (h : r ∉ hostOps3_W) : W12 m c (Proc.devRef .tc r) = W11 m c (Proc.devRef .tc r) :=
  StableHlo.after_of_writes_sub hostOps3 _ hostOps3_writes h

/-- At pallas call 3's exit: its windows' arrays at what the write-backs leave, every other buffer as entered. -/
def W13 (c : Dev nD) : Valuation τ sig (Elt F) :=
  Pipeline.withArrays spec3 c (W12 m c) fun w => (dat3 (B12 m) c).arrAt w cfg3.N
theorem W13_arr (c : Dev nD) (w : Fin cfg3.W) :
    W13 m c (Proc.devRef .tc (Pipeline.arrRef spec3 w)) = (dat3 (B12 m) c).arrAt w cfg3.N := by
  unfold W13; exact Pipeline.withArrays_arr spec3 launch3.win.arr_inj c _ _ w
theorem W13_of_ne (c : Dev nD) (b : Ref sig .tc) (hb : ∀ w, Pipeline.arrRef spec3 w ≠ b) :
    W13 m c (Proc.devRef .tc b) = W12 m c (Proc.devRef .tc b) := by
  unfold W13; exact Pipeline.withArrays_of_ne spec3 c _ _ b hb
/-- An input window's array is left as entered. -/
theorem W13_in (c : Dev nD) (w : Fin cfg3.W) (hin : (cfg3.win w).isOut = false) :
    W13 m c (Proc.devRef .tc (Pipeline.arrRef spec3 w)) = W12 m c (Proc.devRef .tc (Pipeline.arrRef spec3 w)) :=
  (W13_arr m c w).trans (((dat3 (B12 m) c).arrAt_in w hin _).trans (A_eq3 (B12 m) c w))
abbrev B13 : (c : Dev nD) → (b : Ref sig .tc) → Buf (Elt F) ((c : Thread nD τ).loc b) := fun c b => W13 m c b
theorem hF3 (c : Dev nD) (w : Fin cfg3.W) : (dat3 (B12 m) c).arrAt w cfg3.N = B13 m c (Pipeline.arrRef spec3 w) :=
  (W13_arr m c w).symm
theorem hrest3 (c : Dev nD) : ∀ b, b ∉ Finset.univ.image (Pipeline.arrRef spec3) → B13 m c b = B12 m c b :=
  fun b hb => W13_of_ne m c b fun w e => hb (Finset.mem_image.mpr ⟨w, Finset.mem_univ _, e⟩)

/-! ## The proof data family and the thread state -/

/-- No pallas call has a prefetched table. -/
abbrev admK : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) admK p) c
  | ⟨0, _⟩ => fun c => dat0 (B3 m) c
  | ⟨1, _⟩ => fun c => dat1 (B5 m) c
  | ⟨2, _⟩ => fun c => dat2 (B10 m) c
  | ⟨3, _⟩ => fun c => dat3 (B12 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W13 m c) ∗ ∃ r, prngReg c r)

/-! ## The pallas calls as segments -/

set_option backward.isDefEq.respectTransparency.types false in
/-- Pallas call 0 as a segment: entered with every unscoped buffer at `W3`, left with them at `W4`; its windows'
    arrays are split out of the unscoped buffers at entry and put back, at what the write-backs leave, at exit. -/
def reg0 : Pipeline.RegionSeg (pcfgs (F := F)) admK (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (B3 m c)
  hentry c := by
    rw [Pipeline.ownSems0_none]
    have hsplit := Pipeline.arrays_of_unscopedBufs (p := 0) (pcfgs (F := F)) admK (pdats m) launch0.win launch0.arr_whole c
      ((pdats m 0 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m) ((pdats m 0 c).share_full fun _ => rfl)
      (B3 m c) (B4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment: entered with every unscoped buffer at `W5`, left with them at `W6`; its windows'
    arrays are split out of the unscoped buffers at entry and put back, at what the write-backs leave, at exit. -/
def reg1 : Pipeline.RegionSeg (pcfgs (F := F)) admK (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (B5 m c)
  hentry c := by
    rw [Pipeline.ownSems0_none]
    have hsplit := Pipeline.arrays_of_unscopedBufs (p := 1) (pcfgs (F := F)) admK (pdats m) launch1.win launch1.arr_whole c
      ((pdats m 1 c).share_full fun _ => rfl) (B5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m) ((pdats m 1 c).share_full fun _ => rfl)
      (B5 m c) (B6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 as a segment: entered with every unscoped buffer at `W10`, left with them at `W11`; its windows'
    arrays are split out of the unscoped buffers at entry and put back, at what the write-backs leave, at exit. -/
def reg2 : Pipeline.RegionSeg (pcfgs (F := F)) admK (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B10 m) c).loose
  hwaits := Pipeline.hwaits_of_owed_zero _ _ _ _ L lv 2 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec2 c (B10 m c)
  hentry c := by
    rw [Pipeline.ownSems0_none]
    have hsplit := Pipeline.arrays_of_unscopedBufs (p := 2) (pcfgs (F := F)) admK (pdats m) launch2.win launch2.arr_whole c
      ((pdats m 2 c).share_full fun _ => rfl) (B10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m 2 c).Φ 0 from hin2 (B10 m) c)
    unfold Pipeline.ΦA
    iintro ⟨Hp, -, Hr⟩
    isplitl [Hr]; · iexact Hr
    iexact Hp
  hout c := by
    rw [Pipeline.ownSems0_none]
    refine BIBase.Entails.trans (show (pdats m 2 c).Φ (Fin.last _) ⊢ Pipeline.ΦA spec2 c from hout2 (B10 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdats m) ((pdats m 2 c).share_full fun _ => rfl)
      (B10 m c) (B11 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 3 as a segment: entered with every unscoped buffer at `W12`, left with them at `W13`; its windows'
    arrays are split out of the unscoped buffers at entry and put back, at what the write-backs leave, at exit. -/
def reg3 : Pipeline.RegionSeg (pcfgs (F := F)) admK (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (B12 m) c).loose
  hwaits := Pipeline.hwaits_of_owed_zero _ _ _ _ L lv 3 fun _ _ => rfl
  pre c := iprop(StableHlo.held (c : Thread nD τ) (Pipeline.ucRefs τ sig) (W12 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (B12 m c)
  hentry c := by
    rw [Pipeline.ownSems0_none]
    have hsplit := Pipeline.arrays_of_unscopedBufs (p := 3) (pcfgs (F := F)) admK (pdats m) launch3.win launch3.arr_whole c
      ((pdats m 3 c).share_full fun _ => rfl) (B12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admK (Ix := Unit) (Name := ℕ) (U := UR sig nD τ) (Lvl := ℕ)
      launch3.win launch3.arr_whole c (pdats m) ((pdats m 3 c).share_full fun _ => rfl)
      (B12 m c) (B13 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segsK : List (Pipeline.Seg (pcfgs (F := F)) admK (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .host (hseg hostOps2_1 hostOps2_1_sub hostOps2_1_fresh (W7 m)),
    .host (hseg hostOps2_2 hostOps2_2_sub hostOps2_2_fresh (W8 m)),
    .host (hseg hostOps2_3 hostOps2_3_sub hostOps2_3_fresh (W9 m)),
    .region (reg2 m),
    .host (hseg hostOps3 hostOps3_sub hostOps3_fresh (W11 m)),
    .region (reg3 m) ]

/-- The program is the run of its segments. -/
theorem main_run (c : Dev nD) : main (F := F) c = Pipeline.Seg.run (segsK m) := (main_chain c).trans (by chain_rfl)

set_option backward.isDefEq.respectTransparency.types false in
/-- THE RUN: from any memory with zero counters every weakly fair execution of the program terminates, nothing faulting,
    and every final state holds every unscoped buffer at the last boundary's contents `W13`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W13 m c b) :=
  Pipeline.θ_run_regions_kit (pcfgs (F := F)) admK (pdats m) () cellOf_inj emb₁ defs₀ 𝒱₀ L lv m ρ main (segsK m)
    (fun c Q => by rw [main_run m c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h => h)

end Cert.Kernel.Hand

end
-- ==== Proof.K.Frame.lean ====
/-
  Read off the run: no host operation writes an argument and every pallas call leaves its input windows' arrays and
  the buffers it does not stage as it found them, so each argument's buffer at the last boundary is the launch memory's;
  hence the frame, and the run with the two results named.
-/
import proofs.«408544_j16157666968391_1_alg».proof.Proof.Gen.Kernel.Launch
import proofs.«408544_j16157666968391_1_alg».proof.Proof.Gen.Kernel.Skeleton
import proofs.«408544_j16157666968391_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«408544_j16157666968391_1_alg».proof.Proof.K.Run
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host stretch writes and every pallas call leaves as entered holds its launch contents at the end. -/
theorem W13_back (c : Dev nD) (r : Ref sig .tc)
    (h0 : r ∉ hostOps0_W) (h1 : r ∉ hostOps0_1_W) (h2 : r ∉ hostOps0_2_W) (h3 : W4 m c r = W3 m c r)
    (h4 : r ∉ hostOps1_W) (h5 : W6 m c r = W5 m c r)
    (h6 : r ∉ hostOps2_W) (h7 : r ∉ hostOps2_1_W) (h8 : r ∉ hostOps2_2_W) (h9 : r ∉ hostOps2_3_W) (h10 : W11 m c r = W10 m c r)
    (h11 : r ∉ hostOps3_W) (h12 : W13 m c r = W12 m c r) :
    W13 m c r = m ((c : Thread nD τ).loc r) :=
  h12.trans <| (W12_of m c r h11).trans <| h10.trans <| (W10_of m c r h9).trans <| (W9_of m c r h8).trans <| (W8_of m c r h7).trans <|
    (W7_of m c r h6).trans <| h5.trans <| (W5_of m c r h4).trans <| h3.trans <| (W3_of m c r h2).trans <| (W2_of m c r h1).trans <|
    (W1_of m c r h0).trans rfl

theorem W13_main_arg0 (c : Dev nD) : W13 m c main_arg0 = m ((c : Thread nD τ).loc main_arg0) :=
  W13_back m c main_arg0 (by decide) (by decide) (by decide) (W4_in m c 0 rfl) (by decide) (W6_of_ne m c main_arg0 (by decide))
    (by decide) (by decide) (by decide) (by decide) (W11_of_ne m c main_arg0 (by decide)) (by decide) (W13_of_ne m c main_arg0 (by decide))
theorem W13_main_arg1 (c : Dev nD) : W13 m c main_arg1 = m ((c : Thread nD τ).loc main_arg1) :=
  W13_back m c main_arg1 (by decide) (by decide) (by decide) (W4_of_ne m c main_arg1 (by decide)) (by decide) (W6_of_ne m c main_arg1 (by decide))
    (by decide) (by decide) (by decide) (by decide) (W11_of_ne m c main_arg1 (by decide)) (by decide) (W13_of_ne m c main_arg1 (by decide))
theorem W13_main_arg2 (c : Dev nD) : W13 m c main_arg2 = m ((c : Thread nD τ).loc main_arg2) :=
  W13_back m c main_arg2 (by decide) (by decide) (by decide) (W4_of_ne m c main_arg2 (by decide)) (by decide) (W6_of_ne m c main_arg2 (by decide))
    (by decide) (by decide) (by decide) (by decide) (W11_of_ne m c main_arg2 (by decide)) (by decide) (W13_of_ne m c main_arg2 (by decide))
theorem W13_main_arg3 (c : Dev nD) : W13 m c main_arg3 = m ((c : Thread nD τ).loc main_arg3) :=
  W13_back m c main_arg3 (by decide) (by decide) (by decide) (W4_in m c 1 rfl) (by decide) (W6_of_ne m c main_arg3 (by decide))
    (by decide) (by decide) (by decide) (by decide) (W11_of_ne m c main_arg3 (by decide)) (by decide) (W13_of_ne m c main_arg3 (by decide))
theorem W13_main_arg4 (c : Dev nD) : W13 m c main_arg4 = m ((c : Thread nD τ).loc main_arg4) :=
  W13_back m c main_arg4 (by decide) (by decide) (by decide) (W4_of_ne m c main_arg4 (by decide)) (by decide) (W6_of_ne m c main_arg4 (by decide))
    (by decide) (by decide) (by decide) (by decide) (W11_of_ne m c main_arg4 (by decide)) (by decide) (W13_of_ne m c main_arg4 (by decide))
theorem W13_main_arg5 (c : Dev nD) : W13 m c main_arg5 = m ((c : Thread nD τ).loc main_arg5) :=
  W13_back m c main_arg5 (by decide) (by decide) (by decide) (W4_of_ne m c main_arg5 (by decide)) (by decide) (W6_in m c 1 rfl)
    (by decide) (by decide) (by decide) (by decide) (W11_of_ne m c main_arg5 (by decide)) (by decide) (W13_of_ne m c main_arg5 (by decide))
theorem W13_main_arg6 (c : Dev nD) : W13 m c main_arg6 = m ((c : Thread nD τ).loc main_arg6) :=
  W13_back m c main_arg6 (by decide) (by decide) (by decide) (W4_of_ne m c main_arg6 (by decide)) (by decide) (W6_of_ne m c main_arg6 (by decide))
    (by decide) (by decide) (by decide) (by decide) (W11_of_ne m c main_arg6 (by decide)) (by decide) (W13_of_ne m c main_arg6 (by decide))
theorem W13_main_arg7 (c : Dev nD) : W13 m c main_arg7 = m ((c : Thread nD τ).loc main_arg7) :=
  W13_back m c main_arg7 (by decide) (by decide) (by decide) (W4_of_ne m c main_arg7 (by decide)) (by decide) (W6_of_ne m c main_arg7 (by decide))
    (by decide) (by decide) (by decide) (by decide) (W11_of_ne m c main_arg7 (by decide)) (by decide) (W13_in m c 1 rfl)
theorem W13_main_arg8 (c : Dev nD) : W13 m c main_arg8 = m ((c : Thread nD τ).loc main_arg8) :=
  W13_back m c main_arg8 (by decide) (by decide) (by decide) (W4_of_ne m c main_arg8 (by decide)) (by decide) (W6_of_ne m c main_arg8 (by decide))
    (by decide) (by decide) (by decide) (by decide) (W11_of_ne m c main_arg8 (by decide)) (by decide) (W13_of_ne m c main_arg8 (by decide))
theorem W13_main_arg9 (c : Dev nD) : W13 m c main_arg9 = m ((c : Thread nD τ).loc main_arg9) :=
  W13_back m c main_arg9 (by decide) (by decide) (by decide) (W4_of_ne m c main_arg9 (by decide)) (by decide) (W6_of_ne m c main_arg9 (by decide))
    (by decide) (by decide) (by decide) (by decide) (W11_of_ne m c main_arg9 (by decide)) (by decide) (W13_in m c 3 rfl)
theorem W13_main_arg10 (c : Dev nD) : W13 m c main_arg10 = m ((c : Thread nD τ).loc main_arg10) :=
  W13_back m c main_arg10 (by decide) (by decide) (by decide) (W4_of_ne m c main_arg10 (by decide)) (by decide) (W6_of_ne m c main_arg10 (by decide))
    (by decide) (by decide) (by decide) (by decide) (W11_of_ne m c main_arg10 (by decide)) (by decide) (W13_of_ne m c main_arg10 (by decide))

/-- THE FRAME: every weakly fair execution terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  (θ_run defs _ _).mono (fun r h c => ⟨(h c _ (mem_uc main_arg0 (by decide))).trans (W13_main_arg0 m c),
      (h c _ (mem_uc main_arg1 (by decide))).trans (W13_main_arg1 m c),
      (h c _ (mem_uc main_arg2 (by decide))).trans (W13_main_arg2 m c),
      (h c _ (mem_uc main_arg3 (by decide))).trans (W13_main_arg3 m c),
      (h c _ (mem_uc main_arg4 (by decide))).trans (W13_main_arg4 m c),
      (h c _ (mem_uc main_arg5 (by decide))).trans (W13_main_arg5 m c),
      (h c _ (mem_uc main_arg6 (by decide))).trans (W13_main_arg6 m c),
      (h c _ (mem_uc main_arg7 (by decide))).trans (W13_main_arg7 m c),
      (h c _ (mem_uc main_arg8 (by decide))).trans (W13_main_arg8 m c),
      (h c _ (mem_uc main_arg9 (by decide))).trans (W13_main_arg9 m c),
      (h c _ (mem_uc main_arg10 (by decide))).trans (W13_main_arg10 m c)⟩)
    (run_all m ρ)

/-- The run with the two results named: each result buffer ends at the last boundary's contents, each argument as launched. -/
theorem run_results : θ_run defs (onTc (τ := τ) (main (F := F))) ⟨m, fun _ => 0, ρ⟩ (fun r => ∀ c : Dev nD,
      r.2.mem ((c.tc : Thread nD τ).loc main_v80_0) = W13 m c main_v80_0
      ∧ r.2.mem ((c.tc : Thread nD τ).loc main_v80_1) = W13 m c main_v80_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v80_0 (by decide)), h c _ (mem_uc main_v80_1 (by decide)),
      (h c _ (mem_uc main_arg0 (by decide))).trans (W13_main_arg0 m c),
      (h c _ (mem_uc main_arg1 (by decide))).trans (W13_main_arg1 m c),
      (h c _ (mem_uc main_arg2 (by decide))).trans (W13_main_arg2 m c),
      (h c _ (mem_uc main_arg3 (by decide))).trans (W13_main_arg3 m c),
      (h c _ (mem_uc main_arg4 (by decide))).trans (W13_main_arg4 m c),
      (h c _ (mem_uc main_arg5 (by decide))).trans (W13_main_arg5 m c),
      (h c _ (mem_uc main_arg6 (by decide))).trans (W13_main_arg6 m c),
      (h c _ (mem_uc main_arg7 (by decide))).trans (W13_main_arg7 m c),
      (h c _ (mem_uc main_arg8 (by decide))).trans (W13_main_arg8 m c),
      (h c _ (mem_uc main_arg9 (by decide))).trans (W13_main_arg9 m c),
      (h c _ (mem_uc main_arg10 (by decide))).trans (W13_main_arg10 m c)⟩)
    (run_all m ρ)

end Cert.Kernel.Hand

end
-- ==== Proof.KI.Reg0.lean ====
/-
  The first linear projection's pallas_call (ten row blocks of 5000 rows; the weight matrix resident): what each
  grid point leaves in the output window's buffer — the block's matrix product — and the body's triple at every point,
  stated at any entry contents `V` of the core's buffers and at any float instance.
-/
import proofs.«408544_j16157666968391_1_alg».proof.Proof.Gen.KernelIdeal.Launch
import proofs.«408544_j16157666968391_1_alg».proof.Proof.Gen.KernelIdeal.Skeleton
import proofs.«408544_j16157666968391_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the activations sits in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix, fetched once, sits in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

/-- The output block after the body: the product of the row block with the weight matrix, stored whole. -/
def out0_2 (x0 : Vec F S5000x128 .f32) (x1 : Vec F S128x128 .f32) : Vec F S5000x128 .f32 :=
  View.canon [⟨r0_0, k0_pay1 (View.ld x0 r0_0) (View.ld x1 r0_1)⟩]

theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in
/-- The body on whole staging memrefs: the inputs are read and kept, the output ends at `out0_2` of them. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The second linear projection's pallas_call (ten row blocks of 5000 rows; the weight matrix resident): what each
  grid point leaves in the output window's buffer — the block's matrix product — and the body's triple at every point,
  stated at any entry contents `V` of the core's buffers and at any float instance.
-/
import proofs.«408544_j16157666968391_1_alg».proof.Proof.Gen.KernelIdeal.Launch
import proofs.«408544_j16157666968391_1_alg».proof.Proof.Gen.KernelIdeal.Skeleton
import proofs.«408544_j16157666968391_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the activations sits in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix, fetched once, sits in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0

/-- The output block after the body: the product of the row block with the weight matrix, stored whole. -/
def out1_2 (x0 : Vec F S5000x128 .f32) (x1 : Vec F S128x128 .f32) : Vec F S5000x128 .f32 :=
  View.canon [⟨r1_0, k1_pay1 (View.ld x0 r1_0) (View.ld x1 r1_1)⟩]

theorem cover1_2 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

set_option maxHeartbeats 1000000 in
/-- The body on whole staging memrefs: the inputs are read and kept, the output ends at `out1_2` of them. -/
theorem sound_kernel1 (c : Dev nD) (E : Set ℕ) (i : grid1.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  The pooling pallas_call (ten column blocks of the one-hot matrix against ten row blocks of the features, the
  product accumulated over the grid in a scratch buffer): what the scratch holds after each grid point, what the
  output window's buffer holds at the last point, and the body's triple at every point, stated at any entry contents
  `V` of the core's buffers and at any float instance.
-/
import proofs.«408544_j16157666968391_1_alg».proof.Proof.Gen.KernelIdeal.Launch
import proofs.«408544_j16157666968391_1_alg».proof.Proof.Gen.KernelIdeal.Skeleton
import proofs.«408544_j16157666968391_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The column block of the one-hot matrix sits in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The row block of the features sits in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, decided over the grid -/

/-- The body zeroes the scratch under this condition: the grid coordinate is zero. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

/-- The body copies the scratch to the output under this condition: the grid coordinate is nine. -/
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

/-- The inputs are never idle; the output is idle, and not written back, exactly off the last point. -/
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-! ## The kernel body on whole memrefs, case by case -/

abbrev r2_W : Rect S256x256 := Rect.unit (s := S256x256) ![0, 0] S256x256.size inb_S256x256_S256x256_0_0
abbrev r2_A : Rect S256x5120 := Rect.unit (s := S256x5120) ![0, 0] S256x5120.size inb_S256x5120_S256x5120_0_0
abbrev r2_B : Rect S5120x256 := Rect.unit (s := S5120x256) ![0, 0] S5120x256.size inb_S5120x256_S5120x256_0_0

/-- The offsets of a whole-buffer rectangle of rank two are zero. -/
theorem zero2 : (![0, 0] : Fin 2 → ℕ) = fun _ => 0 := by
  funext a; fin_cases a <;> rfl

/-- The scratch memref the pipeline passes the body. -/
abbrev scM2 : Memref sig .tc .vmem S256x256 .f32 := Memref.whole cc2_scratch0

/-- One whole-buffer store, last, covers the accumulator. -/
theorem cover2_W (L : List (View.Piece (Elt F) S256x256 .f32)) (p0 : Vec F S256x256 .f32) (y : S256x256.Idx) :
    ∃ pc ∈ ((⟨r2_W, p0⟩ : View.Piece (Elt F) S256x256 .f32) :: L), y ∈ pc.1.set :=
  ⟨⟨r2_W, p0⟩, List.mem_cons_self, View.mem_set_unit_zero zero2 inb_S256x256_S256x256_0_0 y⟩

/-- A load through the whole-shape rectangle reads the buffer's contents. -/
theorem readAt_whole {sg : RefSig} {κ : Kind} {sp : Space} {S : Shape} {e : EltTy} (v : View sg κ sp S e)
    {off : Fin S.rank → ℕ} (h : off = fun _ => 0) (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

/-- What one whole-buffer store, last, leaves in a buffer reads back as its payload. -/
theorem read_writes_whole {sg : RefSig} {κ : Kind} {sp : Space} (v : View sg κ sp S256x256 .f32) (f : v.ty.Contents (Elt F))
    (p0 : Vec F S256x256 .f32) (L : List (View.Piece (Elt F) S256x256 .f32)) :
    v.read (Elt F) (v.writes (Elt F) f ((⟨r2_W, p0⟩ : View.Piece (Elt F) S256x256 .f32) :: L)) = p0 := by
  rw [View.read_writes_eq_canon _ _ _ (cover2_W L p0)]
  exact View.canon_cons_unit_zero zero2 inb_S256x256_S256x256_0_0 p0 L

set_option maxHeartbeats 1000000 in
/-- A middle point: the scratch at `a` ends at `a` plus the blocks' product; the output buffer is not touched. -/
theorem sound_kernel2_B (c : Dev nD) (E : Set ℕ) (i : grid2.Coords) (hc0 : ¬cond2_0 i) (hc1 : ¬cond2_1 i)
    (arg1 : Memref sig .tc .vmem S256x5120 .bf16) (harg1 : arg1.IsWhole)
    (arg2 : Memref sig .tc .vmem S5120x256 .bf16) (harg2 : arg2.IsWhole) (arg3 : Memref sig .tc .vmem S256x256 .f32) (harg3 : arg3.IsWhole)
    (arg4 : Memref sig .tc .vmem S256x256 .f32) (harg4 : arg4.IsWhole)
    (x0 : Vec F S256x5120 .bf16) (x1 : Vec F S5120x256 .bf16) (a : Vec F S256x256 .f32) (K : PUnit → sProp 𝕄) :
    iprop(owns (c : Thread nD τ) arg1 fullShare x0 ∗ owns (c : Thread nD τ) arg2 fullShare x1 ∗ owns (c : Thread nD τ) arg4 fullShare a
        ∗ (iprop(owns (c : Thread nD τ) arg1 fullShare x0 ∗ owns (c : Thread nD τ) arg2 fullShare x1 ∗ owns (c : Thread nD τ) arg4 fullShare (k2_pay2 a x0 x1)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [read_writes_whole, readAt_whole _ zero2, readAt_whole _ zero2, readAt_whole _ zero2]

set_option maxHeartbeats 1000000 in
/-- The first point: the scratch, at anything, is zeroed and ends at the blocks' product; the output buffer is not touched. -/
theorem sound_kernel2_A (c : Dev nD) (E : Set ℕ) (i : grid2.Coords) (hc0 : cond2_0 i) (hc1 : ¬cond2_1 i)
    (arg1 : Memref sig .tc .vmem S256x5120 .bf16) (harg1 : arg1.IsWhole)
    (arg2 : Memref sig .tc .vmem S5120x256 .bf16) (harg2 : arg2.IsWhole) (arg3 : Memref sig .tc .vmem S256x256 .f32) (harg3 : arg3.IsWhole)
    (arg4 : Memref sig .tc .vmem S256x256 .f32) (harg4 : arg4.IsWhole)
    (x0 : Vec F S256x5120 .bf16) (x1 : Vec F S5120x256 .bf16)  (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1 ∗ owns (c : Thread nD τ) arg4 fullShare (k2_pay2 k2_pay1 x0 x1)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [read_writes_whole, View.readCov_unit_zero _ zero2, readAt_whole _ zero2, readAt_whole _ zero2]

set_option maxHeartbeats 1000000 in
/-- The last point: the scratch at `a` ends at `a` plus the blocks' product, and the output buffer, at anything, ends at the same. -/
theorem sound_kernel2_C (c : Dev nD) (E : Set ℕ) (i : grid2.Coords) (hc0 : ¬cond2_0 i) (hc1 : cond2_1 i)
    (arg1 : Memref sig .tc .vmem S256x5120 .bf16) (harg1 : arg1.IsWhole)
    (arg2 : Memref sig .tc .vmem S5120x256 .bf16) (harg2 : arg2.IsWhole) (arg3 : Memref sig .tc .vmem S256x256 .f32) (harg3 : arg3.IsWhole)
    (arg4 : Memref sig .tc .vmem S256x256 .f32) (harg4 : arg4.IsWhole)
    (x0 : Vec F S256x5120 .bf16) (x1 : Vec F S5120x256 .bf16) (a : Vec F S256x256 .f32) (K : PUnit → sProp 𝕄) :
    iprop(owns (c : Thread nD τ) arg1 fullShare x0 ∗ owns (c : Thread nD τ) arg2 fullShare x1 ∗ owns (c : Thread nD τ) arg4 fullShare a ∗ (∃ d, owns (c : Thread nD τ) arg3 fullShare d)
        ∗ (iprop(owns (c : Thread nD τ) arg1 fullShare x0 ∗ owns (c : Thread nD τ) arg2 fullShare x1 ∗ owns (c : Thread nD τ) arg4 fullShare (k2_pay2 a x0 x1) ∗ owns (c : Thread nD τ) arg3 fullShare (k2_pay2 a x0 x1)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%fs, %hfs, HS⟩, ⟨%d3, %f3, -, H3⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HS]
  · iexists _; isplitr
    swap; · iexact HS
    ipureintro
    sl_unfold_run_names
    rw [read_writes_whole, readAt_whole _ zero2, readAt_whole _ zero2, readAt_whole _ zero2]
  iexists _; isplitr
  swap; · iexact H3
  ipureintro
  sl_unfold_run_names
  rw [read_writes_whole, View.readCov_unit_zero _ zero2, readAt_whole _ zero2, readAt_whole _ zero2, readAt_whole _ zero2]

/-! ## What the scratch holds after each point -/

/-- THE ACCUMULATION. The scratch after the body at position `n`: zero plus the first blocks' product after the first point,
    then what the point before left plus this point's blocks' product. -/
def acc2 (c : Dev nD) : (n : ℕ) → n < cfg2.N → Vec F S256x256 .f32
  | 0, hn => k2_pay2 (k2_pay1 (F := F)) (iblk2 V c 0 ⟨0, hn⟩) (iblk2 V c 1 ⟨0, hn⟩)
  | n + 1, hn => k2_pay2 (acc2 c n (Nat.lt_of_succ_lt hn)) (iblk2 V c 0 ⟨n + 1, hn⟩) (iblk2 V c 1 ⟨n + 1, hn⟩)

theorem acc2_zero (c : Dev nD) (t : Fin cfg2.N) (h : t.val = 0) :
    acc2 V c t.val t.isLt = k2_pay2 (k2_pay1 (F := F)) (iblk2 V c 0 t) (iblk2 V c 1 t) := by
  obtain ⟨n, hn⟩ := t
  cases n with
  | zero => rfl
  | succ n => exact absurd h (Nat.succ_ne_zero n)

theorem acc2_pos (c : Dev nD) (t : Fin cfg2.N) (h : t.val ≠ 0) :
    acc2 V c t.val t.isLt
      = k2_pay2 (acc2 V c (t.val - 1) (Nat.lt_of_le_of_lt (Nat.sub_le _ _) t.isLt)) (iblk2 V c 0 t) (iblk2 V c 1 t) := by
  obtain ⟨n, hn⟩ := t
  cases n with
  | zero => exact absurd rfl h
  | succ n => rfl

/-! ## The region invariant -/

/-- The core's scoped buffers that are neither a staging buffer of this call nor its scratch, each whole at some contents. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc3_stg0_0), ((c : Thread nD τ).loc cc3_stg0_0) ↦{fullShare} f)
    ∗ (∃ f : Buf (Elt F) ((c : Thread nD τ).loc cc3_stg1_0), ((c : Thread nD τ).loc cc3_stg1_0) ↦{fullShare} f)
    ∗ (∃ f : Buf (Elt F) ((c : Thread nD τ).loc cc3_stg2_0), ((c : Thread nD τ).loc cc3_stg2_0) ↦{fullShare} f)
    ∗ (∃ f : Buf (Elt F) ((c : Thread nD τ).loc cc3_stg3_0), ((c : Thread nD τ).loc cc3_stg3_0) ↦{fullShare} f)
    ∗ (∃ f : Buf (Elt F) ((c : Thread nD τ).loc cc3_stg4_0), ((c : Thread nD τ).loc cc3_stg4_0) ↦{fullShare} f)
    ∗ (∃ f : Buf (Elt F) ((c : Thread nD τ).loc cc3_stg5_0), ((c : Thread nD τ).loc cc3_stg5_0) ↦{fullShare} f)
    ∗ (∃ f : Buf (Elt F) ((c : Thread nD τ).loc cc3_stg6_0), ((c : Thread nD τ).loc cc3_stg6_0) ↦{fullShare} f))

/-- The class invariant with the scratch set apart as a memref owned at some contents. -/
theorem PhiA2_eq (c : Dev nD) :
    (Pipeline.ΦA spec2 c : sProp 𝕄)
      = iprop(iprop((∃ d, owns (c : Thread nD τ) scM2 fullShare d) ∗ others2 c) ∗ (∃ r, prngReg c r)) := by
  have h₁ : (iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg5_0), ((c : Thread nD τ).loc cc3_stg5_0) ↦{fullShare} f) ∗ (∃ f : Buf (Elt F) ((c : Thread nD τ).loc cc3_stg6_0), ((c : Thread nD τ).loc cc3_stg6_0) ↦{fullShare} f)) ∗ (∃ r, prngReg c r)) : sProp 𝕄)
      ⊢ iprop(iprop((∃ d : Buf (Elt F) ((c : Thread nD τ).loc cc2_scratch0), ((c : Thread nD τ).loc cc2_scratch0) ↦{fullShare} d) ∗ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg5_0), ((c : Thread nD τ).loc cc3_stg5_0) ↦{fullShare} f) ∗ (∃ f : Buf (Elt F) ((c : Thread nD τ).loc cc3_stg6_0), ((c : Thread nD τ).loc cc3_stg6_0) ↦{fullShare} f))) ∗ (∃ r, prngReg c r)) := by
    iintro ⟨⟨R0, R1, R2, R3, R4, R5, R6, R7, R8, R9, HS, R11, R12, R13, R14, R15, R16, R17⟩, Hg⟩
    isplitr [Hg]
    swap; · iexact Hg
    isplitl [HS]; · iexact HS
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R11]; · iexact R11
    isplitl [R12]; · iexact R12
    isplitl [R13]; · iexact R13
    isplitl [R14]; · iexact R14
    isplitl [R15]; · iexact R15
    isplitl [R16]; · iexact R16
    iexact R17
  have h₂ : (iprop(iprop((∃ d : Buf (Elt F) ((c : Thread nD τ).loc cc2_scratch0), ((c : Thread nD τ).loc cc2_scratch0) ↦{fullShare} d) ∗ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg5_0), ((c : Thread nD τ).loc cc3_stg5_0) ↦{fullShare} f) ∗ (∃ f : Buf (Elt F) ((c : Thread nD τ).loc cc3_stg6_0), ((c : Thread nD τ).loc cc3_stg6_0) ↦{fullShare} f))) ∗ (∃ r, prngReg c r)) : sProp 𝕄)
      ⊢ iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg5_0), ((c : Thread nD τ).loc cc3_stg5_0) ↦{fullShare} f) ∗ (∃ f : Buf (Elt F) ((c : Thread nD τ).loc cc3_stg6_0), ((c : Thread nD τ).loc cc3_stg6_0) ↦{fullShare} f)) ∗ (∃ r, prngReg c r)) := by
    iintro ⟨⟨HS, ⟨R0, R1, R2, R3, R4, R5, R6, R7, R8, R9, R11, R12, R13, R14, R15, R16, R17⟩⟩, Hg⟩
    isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [HS]; · iexact HS
    isplitl [R11]; · iexact R11
    isplitl [R12]; · iexact R12
    isplitl [R13]; · iexact R13
    isplitl [R14]; · iexact R14
    isplitl [R15]; · iexact R15
    isplitl [R16]; · iexact R16
    iexact R17
  unfold Pipeline.ΦA; rw [scopedRest2_eq]; unfold others2; simp only [scM2, owns_whole]
  exact BI.equiv_iff.mp ⟨h₁, h₂⟩

/-- The region invariant before position `n`: before the first point the class's (the scratch at anything); afterwards the
    scratch at what the point before left in it, beside the other scoped buffers and the generator register. -/
def Phi2 (c : Dev nD) : (n : ℕ) → n ≤ cfg2.N → sProp 𝕄
  | 0, _ => Pipeline.ΦA spec2 c
  | n + 1, hn => iprop(iprop(owns (c : Thread nD τ) scM2 fullShare (acc2 V c n hn) ∗ others2 c) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c n hn) ∗ others2 c) ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c (n - 1) (by omega)) ∗ others2 c) ∗ (∃ r, prngReg c r)) := by
  cases n with
  | zero => exact absurd rfl hz
  | succ n => rfl

/-! ## The proof data -/

/-- The proof data of this pipeline on core `c`: the inputs' buffers keep their blocks; the output's buffer after point `t`
    is named at the accumulation there (consulted at the last point only, the one that stores it). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem q2 (c : Dev nD) (w : Fin cfg2.W) : (dat2 V c).q w = fullShare := rfl
theorem owed2 (c : Dev nD) (t : Fin (cfg2.N + 1)) : (dat2 V c).owed t = 0 := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

theorem Phi2_castSucc (c : Dev nD) (t : Fin cfg2.N) :
    (dat2 V c).Φ t.castSucc = Phi2 V c t.val (Nat.le_of_lt t.isLt) := by
  dsimp only [dat2]; simp only [Fin.coe_castSucc]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point: the inputs' buffers hold their blocks; the grid coordinate selects the case; the invariant hands
    the body the scratch (at anything at the first point, at what the point before left afterwards) and takes it back at this
    point's accumulation; off the last point the output's buffer goes back as it came, at the last it holds the accumulation. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 10 := lt_of_lt_of_eq t.isLt (show cfg2.N = 10 from N_2)
  by_cases h1 : t.val % 10 = 9
  · have h0 : ¬t.val % 10 = 0 := by omega
    have hz : t.val ≠ 0 := by omega
    have hc0 : ¬cond2_0 (grid2.coords t) := fun h => h0 ((hcond2_0 t).mp h)
    have hc1 : cond2_1 (grid2.coords t) := (hcond2_1 t).mpr h1
    rw [show (dat2 V c).leavesExact 2 t = owns (c : Thread nD τ) (st2_2 t) fullShare ((dat2 V c).after 2 t) from by
      unfold Dat.leavesExact; rw [liveAt2_2 t hc1], after2_2]
    rw [acc2_pos V c t hz, Phi2_castSucc V c t, Phi2_pos V c _ _ hz]
    iintro ⟨⟨⟨HS, HR⟩, Hg⟩, Ho, ⟨%d0, H0⟩, ⟨%d1, H1⟩, ⟨%d2, H2⟩⟩
    iapply (sound_kernel2_C c Set.univ _ hc0 hc1 _ _ _ _ _ _ _ _ (iblk2 V c 0 t) (iblk2 V c 1 t) _ _)
    isplitl [H0]; · iexact H0
    isplitl [H1]; · iexact H1
    isplitl [HS]; · iexact HS
    isplitl [H2]; · iexists _; iexact H2
    iintro ⟨H0, H1, HS, H2⟩
    isplitl [HS HR Hg]
    · isplitr [Hg]
      swap; · iexact Hg
      isplitl [HS]; · iexact HS
      iexact HR
    isplitl [Ho]; · iexact Ho
    isplitl [H0]; · iexact H0
    isplitl [H1]; · iexact H1
    iexact H2
  · have hc1 : ¬cond2_1 (grid2.coords t) := fun h => h1 ((hcond2_1 t).mp h)
    rw [Dat.leavesExact_idle (dat2 V c) 2 t (idleAt2_2 t hc1) (noFlush2_2 t hc1)]
    by_cases hz : t.val = 0
    · have hc0 : cond2_0 (grid2.coords t) := (hcond2_0 t).mpr (by omega)
      rw [acc2_zero V c t hz, Phi2_castSucc V c t, Phi2_zero V c _ _ hz, PhiA2_eq]
      iintro ⟨⟨⟨HS, HR⟩, Hg⟩, Ho, ⟨%d0, H0⟩, ⟨%d1, H1⟩, ⟨%d2, H2⟩⟩
      iapply (sound_kernel2_A c Set.univ _ hc0 hc1 _ _ _ _ _ _ _ _ (iblk2 V c 0 t) (iblk2 V c 1 t) _)
      isplitl [H0]; · iexact H0
      isplitl [H1]; · iexact H1
      isplitl [HS]; · iexact HS
      iintro ⟨H0, H1, HS⟩
      isplitl [HS HR Hg]
      · isplitr [Hg]
        swap; · iexact Hg
        isplitl [HS]; · iexact HS
        iexact HR
      isplitl [Ho]; · iexact Ho
      isplitl [H0]; · iexact H0
      isplitl [H1]; · iexact H1
      iexists _; iexact H2
    · have hc0 : ¬cond2_0 (grid2.coords t) := fun h => by have := (hcond2_0 t).mp h; omega
      rw [acc2_pos V c t hz, Phi2_castSucc V c t, Phi2_pos V c _ _ hz]
      iintro ⟨⟨⟨HS, HR⟩, Hg⟩, Ho, ⟨%d0, H0⟩, ⟨%d1, H1⟩, ⟨%d2, H2⟩⟩
      iapply (sound_kernel2_B c Set.univ _ hc0 hc1 _ _ _ _ _ _ _ _ (iblk2 V c 0 t) (iblk2 V c 1 t) _ _)
      isplitl [H0]; · iexact H0
      isplitl [H1]; · iexact H1
      isplitl [HS]; · iexact HS
      iintro ⟨H0, H1, HS⟩
      isplitl [HS HR Hg]
      · isplitr [Hg]
        swap; · iexact Hg
        isplitl [HS]; · iexact HS
        iexact HR
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After the last point the invariant gives the class's back: the scratch's named contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 10 := N_2; omega
  rw [show (dat2 V c).Φ (Fin.last cfg2.N) = Phi2 V c (Fin.last cfg2.N).val (Nat.le_of_lt_succ (Fin.last cfg2.N).isLt) from rfl,
    Phi2_pos V c _ _ hne, PhiA2_eq]
  iintro ⟨⟨HS, HR⟩, Hg⟩
  isplitr [Hg]
  swap; · iexact Hg
  isplitl [HS]; · iexists _; iexact HS
  iexact HR

end Cert.KernelIdeal.Hand

end
-- ==== Proof.KI.Reg3.lean ====
/-
  The head's pallas_call (one grid point; every window is its whole array): what the body leaves in the two
  output windows' buffers — the logits and their row-wise log-softmax as the body's two stored values over the five
  inputs read — and the body's triple at the point, stated at any entry contents `V` of the core's buffers and at any
  float instance.
-/
import proofs.«408544_j16157666968391_1_alg».proof.Proof.Gen.KernelIdeal.Launch
import proofs.«408544_j16157666968391_1_alg».proof.Proof.Gen.KernelIdeal.Skeleton
import proofs.«408544_j16157666968391_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The pooled graph features sit in their staging buffer at the point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The first dense layer's weights sit in their staging buffer at the point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The first dense layer's bias row sits in its staging buffer at the point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The second dense layer's weights sit in their staging buffer at the point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The second dense layer's bias row sits in its staging buffer at the point. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

-- every access of the body is to a whole buffer: one rectangle per buffer shape
abbrev r3_sq : Rect S256x256 := Rect.unit (s := S256x256) ![0, 0] S256x256.size inb_S256x256_S256x256_0_0
abbrev r3_b1 : Rect S1x256 := Rect.unit (s := S1x256) ![0, 0] S1x256.size inb_S1x256_S1x256_0_0
abbrev r3_tall : Rect S256x10 := Rect.unit (s := S256x10) ![0, 0] S256x10.size inb_S256x10_S256x10_0_0
abbrev r3_b2 : Rect S1x10 := Rect.unit (s := S1x10) ![0, 0] S1x10.size inb_S1x10_S1x10_0_0

/-- The logits' buffer after the body: the first stored value over the five inputs read, stored whole. -/
def out3_5 (x0 : Vec F S256x256 .f32) (x1 : Vec F S256x256 .f32) (x2 : Vec F S1x256 .f32) (x3 : Vec F S256x10 .f32) (x4 : Vec F S1x10 .f32) :
    Vec F S256x10 .f32 :=
  View.canon [⟨r3_tall, k3_pay1 (View.ld x0 r3_sq) (View.ld x1 r3_sq) (View.ld x2 r3_b1) (View.ld x3 r3_tall) (View.ld x4 r3_b2)⟩]

/-- The log-softmax buffer after the body: the second stored value over the same five inputs, stored whole. -/
def out3_6 (x0 : Vec F S256x256 .f32) (x1 : Vec F S256x256 .f32) (x2 : Vec F S1x256 .f32) (x3 : Vec F S256x10 .f32) (x4 : Vec F S1x10 .f32) :
    Vec F S256x10 .f32 :=
  View.canon [⟨r3_tall, k3_pay2 (View.ld x0 r3_sq) (View.ld x1 r3_sq) (View.ld x2 r3_b1) (View.ld x3 r3_tall) (View.ld x4 r3_b2)⟩]

/-- One whole-buffer store covers the buffer. -/
theorem cover3_out (p0 : Vec F S256x10 .f32) (y : S256x10.Idx) :
    ∃ pc ∈ ([⟨r3_tall, p0⟩] : List (View.Piece (Elt F) S256x10 .f32)), y ∈ pc.1.set :=
  View.cover_of_tiled [⟨r3_tall, p0⟩] S256x10.size (by rfl) y

set_option maxHeartbeats 2000000 in
/-- The body on whole staging memrefs: the five inputs are read and kept, the two outputs end at `out3_5` and `out3_6` of them. -/
theorem sound_kernel3 (c : Dev nD) (E : Set ℕ) (i : grid3.Coords)
    (arg1 : Memref sig .tc .vmem S256x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x10 .f32) (harg4 : arg4.IsWhole)
    (arg5 : Memref sig .tc .vmem S1x10 .f32) (harg5 : arg5.IsWhole) (arg6 : Memref sig .tc .vmem S256x10 .f32) (harg6 : arg6.IsWhole)
    (arg7 : Memref sig .tc .vmem S256x10 .f32) (harg7 : arg7.IsWhole)
    (x0 : Vec F S256x256 .f32) (x1 : Vec F S256x256 .f32) (x2 : Vec F S1x256 .f32) (x3 : Vec F S256x10 .f32) (x4 : Vec F S1x10 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4) ∗ owns (c : Thread nD τ) arg7 fullShare (out3_6 x0 x1 x2 x3 x4)) -∗ K ⟨⟩))
      ⊢ wp frame (wpE (defs₀ (F := F)) Variants.none c none) E
          (cc3__head_kernel i arg1 harg1 arg2 harg2 arg3 harg3 arg4 harg4 arg5 harg5 arg6 harg6 arg7 harg7) K := by
  simp only [cc3__head_kernel_eq_skeleton]; unfold cc3__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3_out _)
  iexists _; isplitr
  swap; · iexact H6
  ipureintro
  exact View.read_writes_eq_canon _ _ _ (cover3_out _)

/-- The proof data of this pipeline on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => out3_6 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]
theorem after3_6 (c : Dev nD) (t : Fin cfg3.N) :
    (dat3 V c).after 6 t = out3_6 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/-
  The whole program as a sequence of segments — host stretches and the four pallas calls — from the launch memory to
  the return: the contents of every unscoped buffer at each boundary (a host stretch applies its operations; a pallas
  call replaces its output windows' arrays by what the write-backs leave and keeps every other buffer), each pallas
  call's segment record over its proof data, and the run: every weakly fair execution terminates, nothing faulting, with
  every unscoped buffer at the last boundary's contents. The frame (each argument ends as launched) and the two results'
  contents are read off that.
-/
import proofs.«408544_j16157666968391_1_alg».proof.Proof.Gen.KernelIdeal.Launch
import proofs.«408544_j16157666968391_1_alg».proof.Proof.Gen.KernelIdeal.Skeleton
import proofs.«408544_j16157666968391_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«408544_j16157666968391_1_alg».proof.Proof.Gen.KernelIdeal.Regions
import proofs.«408544_j16157666968391_1_alg».proof.Proof.KI.Reg0
import proofs.«408544_j16157666968391_1_alg».proof.Proof.KI.Reg1
import proofs.«408544_j16157666968391_1_alg».proof.Proof.KI.Reg2
import proofs.«408544_j16157666968391_1_alg».proof.Proof.KI.Reg3
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)

/-- After the host operations `hostOps0`. -/
abbrev W1 : Dev nD → Valuation τ sig (Elt F) := fun c => StableHlo.after hostOps0 (W0 m c)
abbrev B1 : (c : Dev nD) → (b : Ref sig .tc) → Buf (Elt F) ((c : Thread nD τ).loc b) := fun c b => W1 m c b
theorem W1_of (c : Dev nD) (r : Ref sig .tc) (h : r ∉ hostOps0_W) : W1 m c (Proc.devRef .tc r) = W0 m c (Proc.devRef .tc r) :=
  StableHlo.after_of_writes_sub hostOps0 _ hostOps0_writes h

/-- After the host operations `hostOps0_1`. -/
abbrev W2 : Dev nD → Valuation τ sig (Elt F) := fun c => StableHlo.after hostOps0_1 (W1 m c)
abbrev B2 : (c : Dev nD) → (b : Ref sig .tc) → Buf (Elt F) ((c : Thread nD τ).loc b) := fun c b => W2 m c b
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h

/-- After the host operations `hostOps0_2`. -/
abbrev W3 : Dev nD → Valuation τ sig (Elt F) := fun c => StableHlo.after hostOps0_2 (W2 m c)
abbrev B3 : (c : Dev nD) → (b : Ref sig .tc) → Buf (Elt F) ((c : Thread nD τ).loc b) := fun c b => W3 m c b
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h

/-- At pallas call 0's exit: its windows' arrays at what the write-backs leave, every other buffer as entered. -/
def W4 (c : Dev nD) : Valuation τ sig (Elt F) :=
  Pipeline.withArrays spec0 c (W3 m c) fun w => (dat0 (B3 m) c).arrAt w cfg0.N
theorem W4_arr (c : Dev nD) (w : Fin cfg0.W) :
    W4 m c (Proc.devRef .tc (Pipeline.arrRef spec0 w)) = (dat0 (B3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- An input window's array is left as entered. -/
theorem W4_in (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (B3 m) c).arrAt_in w hin _).trans (A_eq0 (B3 m) c w))
abbrev B4 : (c : Dev nD) → (b : Ref sig .tc) → Buf (Elt F) ((c : Thread nD τ).loc b) := fun c b => W4 m c b
theorem hF0 (c : Dev nD) (w : Fin cfg0.W) : (dat0 (B3 m) c).arrAt w cfg0.N = B4 m c (Pipeline.arrRef spec0 w) :=
  (W4_arr m c w).symm
theorem hrest0 (c : Dev nD) : ∀ b, b ∉ Finset.univ.image (Pipeline.arrRef spec0) → B4 m c b = B3 m c b :=
  fun b hb => W4_of_ne m c b fun w e => hb (Finset.mem_image.mpr ⟨w, Finset.mem_univ _, e⟩)

/-- After the host operations `hostOps1`. -/
abbrev W5 : Dev nD → Valuation τ sig (Elt F) := fun c => StableHlo.after hostOps1 (W4 m c)
abbrev B5 : (c : Dev nD) → (b : Ref sig .tc) → Buf (Elt F) ((c : Thread nD τ).loc b) := fun c b => W5 m c b
theorem W5_of (c : Dev nD) (r : Ref sig .tc) (h : r ∉ hostOps1_W) : W5 m c (Proc.devRef .tc r) = W4 m c (Proc.devRef .tc r) :=
  StableHlo.after_of_writes_sub hostOps1 _ hostOps1_writes h

/-- At pallas call 1's exit: its windows' arrays at what the write-backs leave, every other buffer as entered. -/
def W6 (c : Dev nD) : Valuation τ sig (Elt F) :=
  Pipeline.withArrays spec1 c (W5 m c) fun w => (dat1 (B5 m) c).arrAt w cfg1.N
theorem W6_arr (c : Dev nD) (w : Fin cfg1.W) :
    W6 m c (Proc.devRef .tc (Pipeline.arrRef spec1 w)) = (dat1 (B5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- An input window's array is left as entered. -/
theorem W6_in (c : Dev nD) (w : Fin cfg1.W) (hin : (cfg1.win w).isOut = false) :
    W6 m c (Proc.devRef .tc (Pipeline.arrRef spec1 w)) = W5 m c (Proc.devRef .tc (Pipeline.arrRef spec1 w)) :=
  (W6_arr m c w).trans (((dat1 (B5 m) c).arrAt_in w hin _).trans (A_eq1 (B5 m) c w))
abbrev B6 : (c : Dev nD) → (b : Ref sig .tc) → Buf (Elt F) ((c : Thread nD τ).loc b) := fun c b => W6 m c b
theorem hF1 (c : Dev nD) (w : Fin cfg1.W) : (dat1 (B5 m) c).arrAt w cfg1.N = B6 m c (Pipeline.arrRef spec1 w) :=
  (W6_arr m c w).symm
theorem hrest1 (c : Dev nD) : ∀ b, b ∉ Finset.univ.image (Pipeline.arrRef spec1) → B6 m c b = B5 m c b :=
  fun b hb => W6_of_ne m c b fun w e => hb (Finset.mem_image.mpr ⟨w, Finset.mem_univ _, e⟩)

/-- After the host operations `hostOps2`. -/
abbrev W7 : Dev nD → Valuation τ sig (Elt F) := fun c => StableHlo.after hostOps2 (W6 m c)
abbrev B7 : (c : Dev nD) → (b : Ref sig .tc) → Buf (Elt F) ((c : Thread nD τ).loc b) := fun c b => W7 m c b
theorem W7_of (c : Dev nD) (r : Ref sig .tc) (h : r ∉ hostOps2_W) : W7 m c (Proc.devRef .tc r) = W6 m c (Proc.devRef .tc r) :=
  StableHlo.after_of_writes_sub hostOps2 _ hostOps2_writes h

/-- After the host operations `hostOps2_1`. -/
abbrev W8 : Dev nD → Valuation τ sig (Elt F) := fun c => StableHlo.after hostOps2_1 (W7 m c)
abbrev B8 : (c : Dev nD) → (b : Ref sig .tc) → Buf (Elt F) ((c : Thread nD τ).loc b) := fun c b => W8 m c b
theorem W8_of (c : Dev nD) (r : Ref sig .tc) (h : r ∉ hostOps2_1_W) : W8 m c (Proc.devRef .tc r) = W7 m c (Proc.devRef .tc r) :=
  StableHlo.after_of_writes_sub hostOps2_1 _ hostOps2_1_writes h

/-- After the host operations `hostOps2_2`. -/
abbrev W9 : Dev nD → Valuation τ sig (Elt F) := fun c => StableHlo.after hostOps2_2 (W8 m c)
abbrev B9 : (c : Dev nD) → (b : Ref sig .tc) → Buf (Elt F) ((c : Thread nD τ).loc b) := fun c b => W9 m c b
theorem W9_of (c : Dev nD) (r : Ref sig .tc) (h : r ∉ hostOps2_2_W) : W9 m c (Proc.devRef .tc r) = W8 m c (Proc.devRef .tc r) :=
  StableHlo.after_of_writes_sub hostOps2_2 _ hostOps2_2_writes h

/-- After the host operations `hostOps2_3`. -/
abbrev W10 : Dev nD → Valuation τ sig (Elt F) := fun c => StableHlo.after hostOps2_3 (W9 m c)
abbrev B10 : (c : Dev nD) → (b : Ref sig .tc) → Buf (Elt F) ((c : Thread nD τ).loc b) := fun c b => W10 m c b
theorem W10_of (c : Dev nD) (r : Ref sig .tc) (h : r ∉ hostOps2_3_W) : W10 m c (Proc.devRef .tc r) = W9 m c (Proc.devRef .tc r) :=
  StableHlo.after_of_writes_sub hostOps2_3 _ hostOps2_3_writes h

/-- At pallas call 2's exit: its windows' arrays at what the write-backs leave, every other buffer as entered. -/
def W11 (c : Dev nD) : Valuation τ sig (Elt F) :=
  Pipeline.withArrays spec2 c (W10 m c) fun w => (dat2 (B10 m) c).arrAt w cfg2.N
theorem W11_arr (c : Dev nD) (w : Fin cfg2.W) :
    W11 m c (Proc.devRef .tc (Pipeline.arrRef spec2 w)) = (dat2 (B10 m) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m c (Proc.devRef .tc b) = W10 m c (Proc.devRef .tc b) := by
  unfold W11; exact Pipeline.withArrays_of_ne spec2 c _ _ b hb
/-- An input window's array is left as entered. -/
theorem W11_in (c : Dev nD) (w : Fin cfg2.W) (hin : (cfg2.win w).isOut = false) :
    W11 m c (Proc.devRef .tc (Pipeline.arrRef spec2 w)) = W10 m c (Proc.devRef .tc (Pipeline.arrRef spec2 w)) :=
  (W11_arr m c w).trans (((dat2 (B10 m) c).arrAt_in w hin _).trans (A_eq2 (B10 m) c w))
abbrev B11 : (c : Dev nD) → (b : Ref sig .tc) → Buf (Elt F) ((c : Thread nD τ).loc b) := fun c b => W11 m c b
theorem hF2 (c : Dev nD) (w : Fin cfg2.W) : (dat2 (B10 m) c).arrAt w cfg2.N = B11 m c (Pipeline.arrRef spec2 w) :=
  (W11_arr m c w).symm
theorem hrest2 (c : Dev nD) : ∀ b, b ∉ Finset.univ.image (Pipeline.arrRef spec2) → B11 m c b = B10 m c b :=
  fun b hb => W11_of_ne m c b fun w e => hb (Finset.mem_image.mpr ⟨w, Finset.mem_univ _, e⟩)

/-- After the host operations `hostOps3`. -/
abbrev W12 : Dev nD → Valuation τ sig (Elt F) := fun c => StableHlo.after hostOps3 (W11 m c)
abbrev B12 : (c : Dev nD) → (b : Ref sig .tc) → Buf (Elt F) ((c : Thread nD τ).loc b) := fun c b => W12 m c b
theorem W12_of (c : Dev nD) (r : Ref sig .tc) (h : r ∉ hostOps3_W) : W12 m c (Proc.devRef .tc r) = W11 m c (Proc.devRef .tc r) :=
  StableHlo.after_of_writes_sub hostOps3 _ hostOps3_writes h

/-- At pallas call 3's exit: its windows' arrays at what the write-backs leave, every other buffer as entered. -/
def W13 (c : Dev nD) : Valuation τ sig (Elt F) :=
  Pipeline.withArrays spec3 c (W12 m c) fun w => (dat3 (B12 m) c).arrAt w cfg3.N
theorem W13_arr (c : Dev nD) (w : Fin cfg3.W) :
    W13 m c (Proc.devRef .tc (Pipeline.arrRef spec3 w)) = (dat3 (B12 m) c).arrAt w cfg3.N := by
  unfold W13; exact Pipeline.withArrays_arr spec3 launch3.win.arr_inj c _ _ w
theorem W13_of_ne (c : Dev nD) (b : Ref sig .tc) (hb : ∀ w, Pipeline.arrRef spec3 w ≠ b) :
    W13 m c (Proc.devRef .tc b) = W12 m c (Proc.devRef .tc b) := by
  unfold W13; exact Pipeline.withArrays_of_ne spec3 c _ _ b hb
/-- An input window's array is left as entered. -/
theorem W13_in (c : Dev nD) (w : Fin cfg3.W) (hin : (cfg3.win w).isOut = false) :
    W13 m c (Proc.devRef .tc (Pipeline.arrRef spec3 w)) = W12 m c (Proc.devRef .tc (Pipeline.arrRef spec3 w)) :=
  (W13_arr m c w).trans (((dat3 (B12 m) c).arrAt_in w hin _).trans (A_eq3 (B12 m) c w))
abbrev B13 : (c : Dev nD) → (b : Ref sig .tc) → Buf (Elt F) ((c : Thread nD τ).loc b) := fun c b => W13 m c b
theorem hF3 (c : Dev nD) (w : Fin cfg3.W) : (dat3 (B12 m) c).arrAt w cfg3.N = B13 m c (Pipeline.arrRef spec3 w) :=
  (W13_arr m c w).symm
theorem hrest3 (c : Dev nD) : ∀ b, b ∉ Finset.univ.image (Pipeline.arrRef spec3) → B13 m c b = B12 m c b :=
  fun b hb => W13_of_ne m c b fun w e => hb (Finset.mem_image.mpr ⟨w, Finset.mem_univ _, e⟩)

/-! ## The proof data family and the thread state -/

/-- No pallas call has a prefetched table. -/
abbrev admK : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) admK p) c
  | ⟨0, _⟩ => fun c => dat0 (B3 m) c
  | ⟨1, _⟩ => fun c => dat1 (B5 m) c
  | ⟨2, _⟩ => fun c => dat2 (B10 m) c
  | ⟨3, _⟩ => fun c => dat3 (B12 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W13 m c) ∗ ∃ r, prngReg c r)

/-! ## The pallas calls as segments -/

set_option backward.isDefEq.respectTransparency.types false in
/-- Pallas call 0 as a segment: entered with every unscoped buffer at `W3`, left with them at `W4`; its windows'
    arrays are split out of the unscoped buffers at entry and put back, at what the write-backs leave, at exit. -/
def reg0 : Pipeline.RegionSeg (pcfgs (F := F)) admK (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (B3 m c)
  hentry c := by
    rw [Pipeline.ownSems0_none]
    have hsplit := Pipeline.arrays_of_unscopedBufs (p := 0) (pcfgs (F := F)) admK (pdats m) launch0.win launch0.arr_whole c
      ((pdats m 0 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m) ((pdats m 0 c).share_full fun _ => rfl)
      (B3 m c) (B4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment: entered with every unscoped buffer at `W5`, left with them at `W6`; its windows'
    arrays are split out of the unscoped buffers at entry and put back, at what the write-backs leave, at exit. -/
def reg1 : Pipeline.RegionSeg (pcfgs (F := F)) admK (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (B5 m c)
  hentry c := by
    rw [Pipeline.ownSems0_none]
    have hsplit := Pipeline.arrays_of_unscopedBufs (p := 1) (pcfgs (F := F)) admK (pdats m) launch1.win launch1.arr_whole c
      ((pdats m 1 c).share_full fun _ => rfl) (B5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m) ((pdats m 1 c).share_full fun _ => rfl)
      (B5 m c) (B6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 as a segment: entered with every unscoped buffer at `W10`, left with them at `W11`; its windows'
    arrays are split out of the unscoped buffers at entry and put back, at what the write-backs leave, at exit. -/
def reg2 : Pipeline.RegionSeg (pcfgs (F := F)) admK (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B10 m) c).loose
  hwaits := Pipeline.hwaits_of_owed_zero _ _ _ _ L lv 2 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec2 c (B10 m c)
  hentry c := by
    rw [Pipeline.ownSems0_none]
    have hsplit := Pipeline.arrays_of_unscopedBufs (p := 2) (pcfgs (F := F)) admK (pdats m) launch2.win launch2.arr_whole c
      ((pdats m 2 c).share_full fun _ => rfl) (B10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m 2 c).Φ 0 from hin2 (B10 m) c)
    unfold Pipeline.ΦA
    iintro ⟨Hp, -, Hr⟩
    isplitl [Hr]; · iexact Hr
    iexact Hp
  hout c := by
    rw [Pipeline.ownSems0_none]
    refine BIBase.Entails.trans (show (pdats m 2 c).Φ (Fin.last _) ⊢ Pipeline.ΦA spec2 c from hout2 (B10 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdats m) ((pdats m 2 c).share_full fun _ => rfl)
      (B10 m c) (B11 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 3 as a segment: entered with every unscoped buffer at `W12`, left with them at `W13`; its windows'
    arrays are split out of the unscoped buffers at entry and put back, at what the write-backs leave, at exit. -/
def reg3 : Pipeline.RegionSeg (pcfgs (F := F)) admK (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (B12 m) c).loose
  hwaits := Pipeline.hwaits_of_owed_zero _ _ _ _ L lv 3 fun _ _ => rfl
  pre c := iprop(StableHlo.held (c : Thread nD τ) (Pipeline.ucRefs τ sig) (W12 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (B12 m c)
  hentry c := by
    rw [Pipeline.ownSems0_none]
    have hsplit := Pipeline.arrays_of_unscopedBufs (p := 3) (pcfgs (F := F)) admK (pdats m) launch3.win launch3.arr_whole c
      ((pdats m 3 c).share_full fun _ => rfl) (B12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admK (Ix := Unit) (Name := ℕ) (U := UR sig nD τ) (Lvl := ℕ)
      launch3.win launch3.arr_whole c (pdats m) ((pdats m 3 c).share_full fun _ => rfl)
      (B12 m c) (B13 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segsK : List (Pipeline.Seg (pcfgs (F := F)) admK (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .host (hseg hostOps2_1 hostOps2_1_sub hostOps2_1_fresh (W7 m)),
    .host (hseg hostOps2_2 hostOps2_2_sub hostOps2_2_fresh (W8 m)),
    .host (hseg hostOps2_3 hostOps2_3_sub hostOps2_3_fresh (W9 m)),
    .region (reg2 m),
    .host (hseg hostOps3 hostOps3_sub hostOps3_fresh (W11 m)),
    .region (reg3 m) ]

/-- The program is the run of its segments. -/
theorem main_run (c : Dev nD) : main (F := F) c = Pipeline.Seg.run (segsK m) := (main_chain c).trans (by chain_rfl)

set_option backward.isDefEq.respectTransparency.types false in
/-- THE RUN: from any memory with zero counters every weakly fair execution of the program terminates, nothing faulting,
    and every final state holds every unscoped buffer at the last boundary's contents `W13`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W13 m c b) :=
  Pipeline.θ_run_regions_kit (pcfgs (F := F)) admK (pdats m) () cellOf_inj emb₁ defs₀ 𝒱₀ L lv m ρ main (segsK m)
    (fun c Q => by rw [main_run m c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h => h)

end Cert.KernelIdeal.Hand

end
-- ==== Proof.KI.Frame.lean ====
/-
  Read off the run: no host operation writes an argument and every pallas call leaves its input windows' arrays and
  the buffers it does not stage as it found them, so each argument's buffer at the last boundary is the launch memory's;
  hence the frame, and the run with the two results named.
-/
import proofs.«408544_j16157666968391_1_alg».proof.Proof.Gen.KernelIdeal.Launch
import proofs.«408544_j16157666968391_1_alg».proof.Proof.Gen.KernelIdeal.Skeleton
import proofs.«408544_j16157666968391_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«408544_j16157666968391_1_alg».proof.Proof.KI.Run
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host stretch writes and every pallas call leaves as entered holds its launch contents at the end. -/
theorem W13_back (c : Dev nD) (r : Ref sig .tc)
    (h0 : r ∉ hostOps0_W) (h1 : r ∉ hostOps0_1_W) (h2 : r ∉ hostOps0_2_W) (h3 : W4 m c r = W3 m c r)
    (h4 : r ∉ hostOps1_W) (h5 : W6 m c r = W5 m c r)
    (h6 : r ∉ hostOps2_W) (h7 : r ∉ hostOps2_1_W) (h8 : r ∉ hostOps2_2_W) (h9 : r ∉ hostOps2_3_W) (h10 : W11 m c r = W10 m c r)
    (h11 : r ∉ hostOps3_W) (h12 : W13 m c r = W12 m c r) :
    W13 m c r = m ((c : Thread nD τ).loc r) :=
  h12.trans <| (W12_of m c r h11).trans <| h10.trans <| (W10_of m c r h9).trans <| (W9_of m c r h8).trans <| (W8_of m c r h7).trans <|
    (W7_of m c r h6).trans <| h5.trans <| (W5_of m c r h4).trans <| h3.trans <| (W3_of m c r h2).trans <| (W2_of m c r h1).trans <|
    (W1_of m c r h0).trans rfl

theorem W13_main_arg0 (c : Dev nD) : W13 m c main_arg0 = m ((c : Thread nD τ).loc main_arg0) :=
  W13_back m c main_arg0 (by decide) (by decide) (by decide) (W4_in m c 0 rfl) (by decide) (W6_of_ne m c main_arg0 (by decide))
    (by decide) (by decide) (by decide) (by decide) (W11_of_ne m c main_arg0 (by decide)) (by decide) (W13_of_ne m c main_arg0 (by decide))
theorem W13_main_arg1 (c : Dev nD) : W13 m c main_arg1 = m ((c : Thread nD τ).loc main_arg1) :=
  W13_back m c main_arg1 (by decide) (by decide) (by decide) (W4_of_ne m c main_arg1 (by decide)) (by decide) (W6_of_ne m c main_arg1 (by decide))
    (by decide) (by decide) (by decide) (by decide) (W11_of_ne m c main_arg1 (by decide)) (by decide) (W13_of_ne m c main_arg1 (by decide))
theorem W13_main_arg2 (c : Dev nD) : W13 m c main_arg2 = m ((c : Thread nD τ).loc main_arg2) :=
  W13_back m c main_arg2 (by decide) (by decide) (by decide) (W4_of_ne m c main_arg2 (by decide)) (by decide) (W6_of_ne m c main_arg2 (by decide))
    (by decide) (by decide) (by decide) (by decide) (W11_of_ne m c main_arg2 (by decide)) (by decide) (W13_of_ne m c main_arg2 (by decide))
theorem W13_main_arg3 (c : Dev nD) : W13 m c main_arg3 = m ((c : Thread nD τ).loc main_arg3) :=
  W13_back m c main_arg3 (by decide) (by decide) (by decide) (W4_in m c 1 rfl) (by decide) (W6_of_ne m c main_arg3 (by decide))
    (by decide) (by decide) (by decide) (by decide) (W11_of_ne m c main_arg3 (by decide)) (by decide) (W13_of_ne m c main_arg3 (by decide))
theorem W13_main_arg4 (c : Dev nD) : W13 m c main_arg4 = m ((c : Thread nD τ).loc main_arg4) :=
  W13_back m c main_arg4 (by decide) (by decide) (by decide) (W4_of_ne m c main_arg4 (by decide)) (by decide) (W6_of_ne m c main_arg4 (by decide))
    (by decide) (by decide) (by decide) (by decide) (W11_of_ne m c main_arg4 (by decide)) (by decide) (W13_of_ne m c main_arg4 (by decide))
theorem W13_main_arg5 (c : Dev nD) : W13 m c main_arg5 = m ((c : Thread nD τ).loc main_arg5) :=
  W13_back m c main_arg5 (by decide) (by decide) (by decide) (W4_of_ne m c main_arg5 (by decide)) (by decide) (W6_in m c 1 rfl)
    (by decide) (by decide) (by decide) (by decide) (W11_of_ne m c main_arg5 (by decide)) (by decide) (W13_of_ne m c main_arg5 (by decide))
theorem W13_main_arg6 (c : Dev nD) : W13 m c main_arg6 = m ((c : Thread nD τ).loc main_arg6) :=
  W13_back m c main_arg6 (by decide) (by decide) (by decide) (W4_of_ne m c main_arg6 (by decide)) (by decide) (W6_of_ne m c main_arg6 (by decide))
    (by decide) (by decide) (by decide) (by decide) (W11_of_ne m c main_arg6 (by decide)) (by decide) (W13_of_ne m c main_arg6 (by decide))
theorem W13_main_arg7 (c : Dev nD) : W13 m c main_arg7 = m ((c : Thread nD τ).loc main_arg7) :=
  W13_back m c main_arg7 (by decide) (by decide) (by decide) (W4_of_ne m c main_arg7 (by decide)) (by decide) (W6_of_ne m c main_arg7 (by decide))
    (by decide) (by decide) (by decide) (by decide) (W11_of_ne m c main_arg7 (by decide)) (by decide) (W13_in m c 1 rfl)
theorem W13_main_arg8 (c : Dev nD) : W13 m c main_arg8 = m ((c : Thread nD τ).loc main_arg8) :=
  W13_back m c main_arg8 (by decide) (by decide) (by decide) (W4_of_ne m c main_arg8 (by decide)) (by decide) (W6_of_ne m c main_arg8 (by decide))
    (by decide) (by decide) (by decide) (by decide) (W11_of_ne m c main_arg8 (by decide)) (by decide) (W13_of_ne m c main_arg8 (by decide))
theorem W13_main_arg9 (c : Dev nD) : W13 m c main_arg9 = m ((c : Thread nD τ).loc main_arg9) :=
  W13_back m c main_arg9 (by decide) (by decide) (by decide) (W4_of_ne m c main_arg9 (by decide)) (by decide) (W6_of_ne m c main_arg9 (by decide))
    (by decide) (by decide) (by decide) (by decide) (W11_of_ne m c main_arg9 (by decide)) (by decide) (W13_in m c 3 rfl)
theorem W13_main_arg10 (c : Dev nD) : W13 m c main_arg10 = m ((c : Thread nD τ).loc main_arg10) :=
  W13_back m c main_arg10 (by decide) (by decide) (by decide) (W4_of_ne m c main_arg10 (by decide)) (by decide) (W6_of_ne m c main_arg10 (by decide))
    (by decide) (by decide) (by decide) (by decide) (W11_of_ne m c main_arg10 (by decide)) (by decide) (W13_of_ne m c main_arg10 (by decide))

/-- THE FRAME: every weakly fair execution terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  (θ_run defs _ _).mono (fun r h c => ⟨(h c _ (mem_uc main_arg0 (by decide))).trans (W13_main_arg0 m c),
      (h c _ (mem_uc main_arg1 (by decide))).trans (W13_main_arg1 m c),
      (h c _ (mem_uc main_arg2 (by decide))).trans (W13_main_arg2 m c),
      (h c _ (mem_uc main_arg3 (by decide))).trans (W13_main_arg3 m c),
      (h c _ (mem_uc main_arg4 (by decide))).trans (W13_main_arg4 m c),
      (h c _ (mem_uc main_arg5 (by decide))).trans (W13_main_arg5 m c),
      (h c _ (mem_uc main_arg6 (by decide))).trans (W13_main_arg6 m c),
      (h c _ (mem_uc main_arg7 (by decide))).trans (W13_main_arg7 m c),
      (h c _ (mem_uc main_arg8 (by decide))).trans (W13_main_arg8 m c),
      (h c _ (mem_uc main_arg9 (by decide))).trans (W13_main_arg9 m c),
      (h c _ (mem_uc main_arg10 (by decide))).trans (W13_main_arg10 m c)⟩)
    (run_all m ρ)

/-- The run with the two results named: each result buffer ends at the last boundary's contents, each argument as launched. -/
theorem run_results : θ_run defs (onTc (τ := τ) (main (F := F))) ⟨m, fun _ => 0, ρ⟩ (fun r => ∀ c : Dev nD,
      r.2.mem ((c.tc : Thread nD τ).loc main_v80_0) = W13 m c main_v80_0
      ∧ r.2.mem ((c.tc : Thread nD τ).loc main_v80_1) = W13 m c main_v80_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v80_0 (by decide)), h c _ (mem_uc main_v80_1 (by decide)),
      (h c _ (mem_uc main_arg0 (by decide))).trans (W13_main_arg0 m c),
      (h c _ (mem_uc main_arg1 (by decide))).trans (W13_main_arg1 m c),
      (h c _ (mem_uc main_arg2 (by decide))).trans (W13_main_arg2 m c),
      (h c _ (mem_uc main_arg3 (by decide))).trans (W13_main_arg3 m c),
      (h c _ (mem_uc main_arg4 (by decide))).trans (W13_main_arg4 m c),
      (h c _ (mem_uc main_arg5 (by decide))).trans (W13_main_arg5 m c),
      (h c _ (mem_uc main_arg6 (by decide))).trans (W13_main_arg6 m c),
      (h c _ (mem_uc main_arg7 (by decide))).trans (W13_main_arg7 m c),
      (h c _ (mem_uc main_arg8 (by decide))).trans (W13_main_arg8 m c),
      (h c _ (mem_uc main_arg9 (by decide))).trans (W13_main_arg9 m c),
      (h c _ (mem_uc main_arg10 (by decide))).trans (W13_main_arg10 m c)⟩)
    (run_all m ρ)

end Cert.KernelIdeal.Hand

end
-- ==== Proof.Spec.lean ====
/-
  What the graph network's head computes, index by index over the extended reals: a matrix product entry, the
  hidden layer (product, bias, clamp at zero), the logits (product, bias) and the log-softmax of a row written the way
  the kernel arranges it, `z - (top + log (sum (exp (z - top))))`, with `top` the row's maximum folded from minus infinity.
-/
import Idealize.ShloMosaic.PureOps.Ideal
import Idealize.ShloMosaic.Lib.ValueIdx

noncomputable section

namespace Cert.Spec

open Idealize.ShloMosaic Idealize.ShloMosaic.ValueIdx

/-- An `a × b` array of extended reals. -/
abbrev Mat (a b : ℕ) : Type := (⟨2, ![a, b]⟩ : Shape).Idx → EReal

/-- Entry `(i, j)` of the matrix product `X · Y`. -/
def mm {a k b : ℕ} (X : Mat a k) (Y : Mat k b) (i : Fin a) (j : Fin b) : EReal :=
  ∑ t : Fin k, X (ix2 i t) * Y (ix2 t j)

/-- The hidden layer: `max (G · W₁ + b₁) 0`. -/
def hidden (G W1 : Mat 256 256) (b1 : Mat 1 256) (g h : Fin 256) : EReal :=
  max (mm G W1 g h + b1 (ix2 0 h)) 0

/-- The logits: `hidden · W₂ + b₂`. -/
def logit (G W1 : Mat 256 256) (b1 : Mat 1 256) (W2 : Mat 256 10) (b2 : Mat 1 10) (g : Fin 256) (o : Fin 10) : EReal :=
  (∑ h : Fin 256, hidden G W1 b1 g h * W2 (ix2 h o)) + b2 (ix2 0 o)

/-- A row's maximum, folded from minus infinity. -/
def top {b : ℕ} (r : Fin b → EReal) : EReal :=
  (Finset.univ : Finset (Fin b)).fold max (Ideal.ofBits .f32 0xFF800000#32) r

/-- The log-softmax of a row `z` at `o`, in the arrangement `z o - (top z + log (∑ exp (z o' - top z)))`. -/
def logsm {b : ℕ} (z : Fin b → EReal) (o : Fin b) : EReal :=
  z o - (top z + Ideal.log (∑ o' : Fin b, Ideal.exp (z o' - top z)))

end Cert.Spec

end
-- ==== Proof.LibRowTile.lean ====
/-
  A row tile of a matrix product is the product of the row tile.

  For a plain two-dimensional contraction (left operand [rows, K] contracted on its second axis, right operand
  [K, n] on its first, no batch axes) the result element at (r, c) is the sum over k of lhs (r, k) * rhs (k, c).
  So if a tile [m, K] of a taller left operand [M, K] holds, on its row r, the taller operand's row i, then the
  tile's product at (r, c) and the whole product at (i, c) are the same sum. The two contractions are given by
  their own dimension records, whose contraction index types differ; both sums are re-indexed over Fin K.
-/
import Idealize.ShloMosaic.PureOps.Ideal.Laws
import Idealize.ShloMosaic.Lib.ValueIdx

open scoped BigOperators

namespace Cert.Lib

open Idealize.ShloMosaic Idealize.ShloMosaic.ValueIdx

/-- A coordinate of an index depends on the axis only through the axis's number. -/
theorem idx_val_congr {s : Shape} (j : s.Idx) {p q : Nat} (hp : p < s.rank) (hq : q < s.rank) (h : p = q) :
    (j ⟨p, hp⟩).val = (j ⟨q, hq⟩).val := by subst h; rfl

section Axes

variable {sl sr so : Shape} (d : DotDims sl sr so)

/-- With no batch axes and one free axis a on the left, the left operand's index on a is the result index's
    first coordinate. -/
theorem lhsIdx_val_of_free {a : Fin sl.rank} (hb : d.lhsBatch = []) (hn : d.lhsNonContracting = [a])
    (j : so.Idx) (k : d.contr.Idx) (h0 : 0 < so.rank) : (d.lhsIdx j k a).val = (j ⟨0, h0⟩).val := by
  have hnb : a ∉ d.lhsBatch := by rw [hb]; simp
  have hmem : a ∈ d.lhsNonContracting := by rw [hn]; simp
  unfold DotDims.lhsIdx
  rw [dif_neg hnb, dif_pos hmem]
  simp only [Fin.val_cast]
  exact idx_val_congr j _ _ (by simp [hb, hn])

/-- With no batch axes, one free axis on the left and one free axis a on the right, the right operand's index on
    a is the result index's second coordinate. -/
theorem rhsIdx_val_of_free {a : Fin sr.rank} {al : Fin sl.rank} (hlb : d.lhsBatch = []) (hln : d.lhsNonContracting = [al])
    (hb : d.rhsBatch = []) (hn : d.rhsNonContracting = [a])
    (j : so.Idx) (k : d.contr.Idx) (h1 : 1 < so.rank) : (d.rhsIdx j k a).val = (j ⟨1, h1⟩).val := by
  have hnb : a ∉ d.rhsBatch := by rw [hb]; simp
  have hmem : a ∈ d.rhsNonContracting := by rw [hn]; simp
  unfold DotDims.rhsIdx
  rw [dif_neg hnb, dif_pos hmem]
  simp only [Fin.val_cast]
  exact idx_val_congr j _ _ (by simp [hlb, hln, hn])

end Axes

/-- The dimension numbers of a plain product [rows, K] · [K, n]: contract the left operand's second axis with the
    right operand's first; the free axes are the left's first and the right's second; no batch axes. -/
structure IsPlain {a K n : Nat} (d : DotDims ⟨2, ![a, K]⟩ ⟨2, ![K, n]⟩ ⟨2, ![a, n]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []
  rank : d.contr.rank = 1
  size : d.contr.size ⟨0, by omega⟩ = K

section Plain

variable {a K n : Nat} {d : DotDims ⟨2, ![a, K]⟩ ⟨2, ![K, n]⟩ ⟨2, ![a, n]⟩}

/-- The left operand is read at (row of the result, k). -/
theorem IsPlain.lhsIdx_eq (h : IsPlain d) (j : (⟨2, ![a, n]⟩ : Shape).Idx) (k : Fin K) :
    d.lhsIdx j ((contrEquiv1 d K h.rank h.size).symm k) = ix2 (j 0) k := by
  funext ax; apply Fin.ext
  match ax with
  | ⟨0, _⟩ => exact lhsIdx_val_of_free d (a := (0 : Fin 2)) h.lb h.ln j _ Nat.zero_lt_two
  | ⟨1, _⟩ =>
    exact (d.lhsIdx_val_of_single (cl := (1 : Fin 2)) h.lc j _).trans (contrEquiv1_symm_val d K h.rank h.size k)

/-- The right operand is read at (k, column of the result). -/
theorem IsPlain.rhsIdx_eq (h : IsPlain d) (j : (⟨2, ![a, n]⟩ : Shape).Idx) (k : Fin K) :
    d.rhsIdx j ((contrEquiv1 d K h.rank h.size).symm k) = ix2 k (j 1) := by
  funext ax; apply Fin.ext
  match ax with
  | ⟨0, _⟩ =>
    exact (d.rhsIdx_val_of_single (cr := (0 : Fin 2)) h.rc j _).trans (contrEquiv1_symm_val d K h.rank h.size k)
  | ⟨1, _⟩ => exact rhsIdx_val_of_free d (a := (1 : Fin 2)) (al := (0 : Fin 2)) h.lb h.ln h.rb h.rn j _ Nat.one_lt_two

/-- A plain product's contraction sum, over the contracted coordinate itself. -/
theorem IsPlain.sum_eq (h : IsPlain d) (l : (⟨2, ![a, K]⟩ : Shape).Idx → EReal) (r : (⟨2, ![K, n]⟩ : Shape).Idx → EReal)
    (j : (⟨2, ![a, n]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K h.rank h.size).symm]
  exact Finset.sum_congr rfl fun k _ => congrArg₂ (· * ·) (congrArg l (h.lhsIdx_eq j k)) (congrArg r (h.rhsIdx_eq j k))

end Plain

/-- A ROW TILE OF A PRODUCT IS THE PRODUCT OF THE ROW TILE: if row (y 0) of the tile lt is row (i 0) of the whole
    left operand l, and y, i name the same column, the two contraction sums are equal. -/
theorem sum_rowTile {m M K n : Nat}
    {dT : DotDims ⟨2, ![m, K]⟩ ⟨2, ![K, n]⟩ ⟨2, ![m, n]⟩} {dW : DotDims ⟨2, ![M, K]⟩ ⟨2, ![K, n]⟩ ⟨2, ![M, n]⟩}
    (hT : IsPlain dT) (hW : IsPlain dW)
    (lt : (⟨2, ![m, K]⟩ : Shape).Idx → EReal) (l : (⟨2, ![M, K]⟩ : Shape).Idx → EReal) (r : (⟨2, ![K, n]⟩ : Shape).Idx → EReal)
    (y : (⟨2, ![m, n]⟩ : Shape).Idx) (i : (⟨2, ![M, n]⟩ : Shape).Idx)
    (hrow : ∀ k : Fin K, lt (ix2 (y 0) k) = l (ix2 (i 0) k)) (hcol : y 1 = i 1) :
    ∑ k : dT.contr.Idx, lt (dT.lhsIdx y k) * r (dT.rhsIdx y k) = ∑ k : dW.contr.Idx, l (dW.lhsIdx i k) * r (dW.rhsIdx i k) := by
  rw [hT.sum_eq lt r y, hW.sum_eq l r i]
  exact Finset.sum_congr rfl fun k _ => by rw [hrow k, hcol]

end Cert.Lib
-- ==== Proof.KI.Val0.lean ====
/-
  The first linear projection, read as values over the extended reals: what each grid point writes back is its row
  block of the whole matrix product, the row blocks cover the output array, and so the output array after the region
  is the product of the activations with the weight matrix, entry by entry.
-/
import proofs.«408544_j16157666968391_1_alg».proof.Proof.KI.Reg0
import proofs.«408544_j16157666968391_1_alg».proof.Proof.Spec
import proofs.«408544_j16157666968391_1_alg».proof.Proof.LibRowTile
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The zero offsets of a whole-block rectangle, however spelt. -/
theorem zero_off2 : (![0, 0] : Fin 2 → Nat) = fun _ => 0 := funext fun a => by fin_cases a <;> rfl

/-- The block product's dimension numbers are those of a plain product: rows by contraction times contraction by columns. -/
theorem plain0 : Cert.Lib.IsPlain dot_S5000x128_S128x128_S5000x128_1_0_0_1_n_n where
  lc := rfl
  rc := rfl
  ln := rfl
  rn := rfl
  lb := rfl
  rb := rfl
  rank := rfl
  size := rfl

/-- The body's payload at an index: both narrowings are the identity on extended reals, and the product into the zero
    accumulator is the sum over the contracted coordinate. -/
theorem pay0_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  show FloatOps.matmul dot_S5000x128_S128x128_S5000x128_1_0_0_1_n_n none x w (constant (F := Ideal) S5000x128 .f32 0x00000000#32) (ix2 p q) = _
  rw [Ideal.matmul_constant_zero_apply]
  exact plain0.sum_eq x w (ix2 p q)

/-- The whole product as an array: entry (i, j) of activations times weights. -/
def prod0 (X : S50000x128.Idx → EReal) (W : S128x128.Idx → EReal) : S50000x128.Idx → EReal :=
  fun idx => Cert.Spec.mm X W (idx 0 : Fin 50000) (idx 1 : Fin 128)

/-- One point of the body against the whole product: if the block's row at y is the array's row at k, the weight block
    is the weight matrix and y, k name the same column, the payload at y is the whole product at k. -/
theorem pay0_at (x : Vec Ideal S5000x128 .f32) (w : Vec Ideal S128x128 .f32)
    (X : S50000x128.Idx → EReal) (W : S128x128.Idx → EReal) (y : S5000x128.Idx) (k : S50000x128.Idx)
    (hx : ∀ q : Fin 128, x (ix2 (y 0 : Fin 5000) q) = X (ix2 (k 0 : Fin 50000) q))
    (hw : ∀ (q r : Fin 128), w (ix2 q r) = W (ix2 q r)) (hcol : (y 1 : Fin 128) = (k 1 : Fin 128)) :
    k0_pay1 (F := Ideal) x w y = prod0 X W k := by
  obtain ⟨p, q, rfl⟩ : ∃ (p : Fin 5000) (q : Fin 128), y = ix2 p q := ⟨y 0, y 1, eq_ix2 y⟩
  rw [pay0_apply]
  unfold prod0 Cert.Spec.mm
  refine Finset.sum_congr rfl fun r _ => ?_
  rw [hx r, hw r q]
  exact congrArg (fun z => X (ix2 (k 0 : Fin 50000) r) * W (ix2 r z)) hcol

/-- The printed index maps over the ten points: the activations' and the output's row block is the point's number, the
    weight matrix's block is the one block, and every column block is block zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is its row block of the whole product of the arrays the region finds. -/
theorem flushed0_eq (c : Dev nD) (t : Fin cfg0.N) :
    (dat0 (F := Ideal) V c).flushed 2 t
      = ((cfg0.win 2).blk t).view.read (Elt Ideal) (prod0 (V c main_arg0) (V c main_arg3)) := by
  show (cfg0.win 2).cut (grid0.coords t) ((dat0 (F := Ideal) V c).after 2 t) = _
  rw [after0_2]
  unfold out0_2
  rw [View.canon_unit_zero zero_off2]
  simp only [View.ld_unit_zero (S := S5000x128) zero_off2, View.ld_unit_zero (S := S128x128) zero_off2]
  obtain ⟨e00, e01, e10, e11, e20, e21⟩ := idx_facts0 t
  funext y
  refine pay0_at _ _ _ _ _ _ (fun q => ?_) (fun q r => ?_) ?_
  · show V c main_arg0 (((cfg0.win 0).blk t).view.emb _) = V c main_arg0 _
    congr 1
    funext a; apply Fin.ext
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * q.val = q.val; omega
  · show V c main_arg3 (((cfg0.win 1).blk t).view.emb _) = V c main_arg3 _
    congr 1
    funext a; apply Fin.ext
    match a with
    | ⟨0, _⟩ => show win0_1.index t (0 : Fin 2) * 128 + 1 * q.val = q.val; omega
    | ⟨1, _⟩ => show win0_1.index t (1 : Fin 2) * 128 + 1 * r.val = r.val; omega
  · apply Fin.ext
    show (y 1).val = win0_2.index t (1 : Fin 2) * 128 + 1 * (y 1).val
    omega

/-- An index of the output array is in point t's block iff each coordinate is in the block's range on its axis. -/
theorem mem_blk0 (t : Fin cfg0.N) (i : S50000x128.Idx) :
    i ∈ ((cfg0.win 2).blk t).view.set
      ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- The row blocks cover the output array: row r lies in the block of point r / 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, e20, e21⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the whole region is the whole product of the arrays the region finds. -/
theorem arr0_eq (c : Dev nD) :
    (dat0 (F := Ideal) V c).arrAt 2 cfg0.N = prod0 (V c main_arg0) (V c main_arg3) :=
  (dat0 (F := Ideal) V c).arrAt_eq_of_cover 2 (prod0 (V c main_arg0) (V c main_arg3)) (fun t _ => flushed0_eq V c t) cover0

/-- Entry (i, j) of the output array after the region is entry (i, j) of activations times weights. -/
theorem final0 (c : Dev nD) (i : Fin 50000) (j : Fin 128) :
    (dat0 (F := Ideal) V c).arrAt 2 cfg0.N (ix2 i j) = Cert.Spec.mm (V c main_arg0) (V c main_arg3) i j := by
  rw [arr0_eq]
  rfl

end Cert.KernelIdeal.Hand

end
-- ==== Proof.KI.Val1.lean ====
/-
  The second linear projection, read as values over the extended reals: what each grid point writes back is its row
  block of the whole matrix product, the row blocks cover the output array, and so the output array after the region
  is the product of the activations with the weight matrix, entry by entry.
-/
import proofs.«408544_j16157666968391_1_alg».proof.Proof.KI.Reg1
import proofs.«408544_j16157666968391_1_alg».proof.Proof.Spec
import proofs.«408544_j16157666968391_1_alg».proof.Proof.LibRowTile
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The zero offsets of a whole-block rectangle, however spelt. -/
theorem zero_offs1 : (![0, 0] : Fin 2 → Nat) = fun _ => 0 := funext fun a => by fin_cases a <;> rfl

/-- The block product's dimension numbers are those of a plain product: rows by contraction times contraction by columns. -/
theorem plain1 : Cert.Lib.IsPlain dot_S5000x128_S128x128_S5000x128_1_0_0_1_n_n where
  lc := rfl
  rc := rfl
  ln := rfl
  rn := rfl
  lb := rfl
  rb := rfl
  rank := rfl
  size := rfl

/-- The body's payload at an index: the reshape to the same shape and both narrowings are the identity on extended reals, and the product into the zero
    accumulator is the sum over the contracted coordinate. -/
theorem pay1_apply (x : Vec Ideal S5000x128 .f32) (w : Vec Ideal S128x128 .f32) (p : Fin 5000) (q : Fin 128) :
    k1_pay1 (F := Ideal) x w (ix2 p q) = ∑ k : Fin 128, x (ix2 p k) * w (ix2 k q) := by
  unfold k1_pay1
  show FloatOps.matmul dot_S5000x128_S128x128_S5000x128_1_0_0_1_n_n none (shapeCast S5000x128 x shapeCasts_S5000x128_S5000x128) w (constant (F := Ideal) S5000x128 .f32 0x00000000#32) (ix2 p q) = _
  rw [Ideal.matmul_constant_zero_apply, shapeCast_self]
  exact plain1.sum_eq x w (ix2 p q)

/-- The whole product as an array: entry (i, j) of activations times weights. -/
def prod1 (X : S50000x128.Idx → EReal) (W : S128x128.Idx → EReal) : S50000x128.Idx → EReal :=
  fun idx => Cert.Spec.mm X W (idx 0 : Fin 50000) (idx 1 : Fin 128)

/-- One point of the body against the whole product: if the block's row at y is the array's row at k, the weight block
    is the weight matrix and y, k name the same column, the payload at y is the whole product at k. -/
theorem pay1_at (x : Vec Ideal S5000x128 .f32) (w : Vec Ideal S128x128 .f32)
    (X : S50000x128.Idx → EReal) (W : S128x128.Idx → EReal) (y : S5000x128.Idx) (k : S50000x128.Idx)
    (hx : ∀ q : Fin 128, x (ix2 (y 0 : Fin 5000) q) = X (ix2 (k 0 : Fin 50000) q))
    (hw : ∀ (q r : Fin 128), w (ix2 q r) = W (ix2 q r)) (hcol : (y 1 : Fin 128) = (k 1 : Fin 128)) :
    k1_pay1 (F := Ideal) x w y = prod1 X W k := by
  obtain ⟨p, q, rfl⟩ : ∃ (p : Fin 5000) (q : Fin 128), y = ix2 p q := ⟨y 0, y 1, eq_ix2 y⟩
  rw [pay1_apply]
  unfold prod1 Cert.Spec.mm
  refine Finset.sum_congr rfl fun r _ => ?_
  rw [hx r, hw r q]
  exact congrArg (fun z => X (ix2 (k 0 : Fin 50000) r) * W (ix2 r z)) hcol

/-- The printed index maps over the ten points: the activations' and the output's row block is the point's number, the
    weight matrix's block is the one block, and every column block is block zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is its row block of the whole product of the arrays the region finds. -/
theorem flushed1_eq (c : Dev nD) (t : Fin cfg1.N) :
    (dat1 (F := Ideal) V c).flushed 2 t
      = ((cfg1.win 2).blk t).view.read (Elt Ideal) (prod1 (V c main_v48) (V c main_arg5)) := by
  show (cfg1.win 2).cut (grid1.coords t) ((dat1 (F := Ideal) V c).after 2 t) = _
  rw [after1_2]
  unfold out1_2
  rw [View.canon_unit_zero zero_offs1]
  simp only [View.ld_unit_zero (S := S5000x128) zero_offs1, View.ld_unit_zero (S := S128x128) zero_offs1]
  obtain ⟨e00, e01, e10, e11, e20, e21⟩ := idx_facts1 t
  funext y
  refine pay1_at _ _ _ _ _ _ (fun q => ?_) (fun q r => ?_) ?_
  · show V c main_v48 (((cfg1.win 0).blk t).view.emb _) = V c main_v48 _
    congr 1
    funext a; apply Fin.ext
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 128 + 1 * q.val = q.val; omega
  · show V c main_arg5 (((cfg1.win 1).blk t).view.emb _) = V c main_arg5 _
    congr 1
    funext a; apply Fin.ext
    match a with
    | ⟨0, _⟩ => show win1_1.index t (0 : Fin 2) * 128 + 1 * q.val = q.val; omega
    | ⟨1, _⟩ => show win1_1.index t (1 : Fin 2) * 128 + 1 * r.val = r.val; omega
  · apply Fin.ext
    show (y 1).val = win1_2.index t (1 : Fin 2) * 128 + 1 * (y 1).val
    omega

/-- An index of the output array is in point t's block iff each coordinate is in the block's range on its axis. -/
theorem mem_blk1 (t : Fin cfg1.N) (i : S50000x128.Idx) :
    i ∈ ((cfg1.win 2).blk t).view.set
      ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

/-- The row blocks cover the output array: row r lies in the block of point r / 5000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, e20, e21⟩ := idx_facts1 t
  have ht : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the whole region is the whole product of the arrays the region finds. -/
theorem arr1_eq (c : Dev nD) :
    (dat1 (F := Ideal) V c).arrAt 2 cfg1.N = prod1 (V c main_v48) (V c main_arg5) :=
  (dat1 (F := Ideal) V c).arrAt_eq_of_cover 2 (prod1 (V c main_v48) (V c main_arg5)) (fun t _ => flushed1_eq V c t) cover1

/-- Entry (i, j) of the output array after the region is entry (i, j) of activations times weights. -/
theorem final1 (c : Dev nD) (i : Fin 50000) (j : Fin 128) :
    (dat1 (F := Ideal) V c).arrAt 2 cfg1.N (ix2 i j) = Cert.Spec.mm (V c main_v48) (V c main_arg5) i j := by
  rw [arr1_eq]
  rfl

end Cert.KernelIdeal.Hand

end
-- ==== Proof.LibTileSum.lean ====
/-
  Sums over consecutive tiles, and a 0/1 factor in a product of extended reals.

  A kernel that sweeps an axis of T·S elements in S tiles of T produces a sum grouped by tile; a reference sums the
  axis in one go.  `sum_range_tiles` and `sum_fin_tiles` join the two groupings, in any commutative monoid (for the
  extended reals no finiteness is needed).  `indicator_mul` turns the product of a 0/1 factor with an extended real
  into a choice between that real and 0: what a one-hot matrix product contributes term by term.
-/
import Idealize.ShloMosaic.Lib.ValueIdx

noncomputable section

namespace Cert.Lib

/-- A 0/1 factor times an extended real x is x where the factor is 1 and 0 where it is 0 (0 · x = 0 also at ±∞). The
    two conditions may be spelt differently (`hpq`). -/
theorem indicator_mul {p q : Prop} [Decidable p] [Decidable q] (hpq : p ↔ q) (x : EReal) :
    (if p then (1 : EReal) else 0) * x = if q then x else 0 := by
  by_cases h : p
  · rw [if_pos h, if_pos (hpq.mp h), one_mul]
  · rw [if_neg h, if_neg (fun hq => h (hpq.mpr hq)), zero_mul]

/-- A sum over S consecutive stretches of T naturals each is the sum over the first T·S naturals. -/
theorem sum_range_tiles {M : Type*} [AddCommMonoid M] (T : ℕ) (H : ℕ → M) :
    ∀ S : ℕ, ∑ s ∈ Finset.range S, ∑ k ∈ Finset.range T, H (T * s + k) = ∑ e ∈ Finset.range (T * S), H e
  | 0 => by simp
  | S + 1 => by
    rw [Finset.sum_range_succ, sum_range_tiles T H S, Nat.mul_succ, Finset.sum_range_add]

/-- The same with the position inside a tile, and the position on the whole axis, as `Fin` indices: S tiles of T
    elements are the T·S elements. -/
theorem sum_fin_tiles {M : Type*} [AddCommMonoid M] (T S : ℕ) (H : ℕ → M) :
    ∑ s ∈ Finset.range S, ∑ k : Fin T, H (T * s + k.val) = ∑ e : Fin (T * S), H e.val := by
  rw [Fin.sum_univ_eq_sum_range H (T * S), ← sum_range_tiles T H S]
  refine Finset.sum_congr rfl fun s _ => ?_
  exact Fin.sum_univ_eq_sum_range (fun x => H (T * s + x)) T

end Cert.Lib

end
-- ==== Proof.KI.Val2.lean ====
/-
  The pooling region, read as values over the extended reals: after point n the accumulator holds, entry by entry, the
  sum over the first n+1 blocks of 5120 nodes of one-hot entry times feature entry; the one write-back, at the last
  point, writes the whole output array; so the output array after the region is the product of the one-hot matrix with
  the feature matrix, entry by entry.
-/
import proofs.«408544_j16157666968391_1_alg».proof.Proof.KI.Reg2
import proofs.«408544_j16157666968391_1_alg».proof.Proof.Spec
import proofs.«408544_j16157666968391_1_alg».proof.Proof.LibRowTile
import proofs.«408544_j16157666968391_1_alg».proof.Proof.LibTileSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The block product's dimension numbers are those of a plain product: rows by contraction times contraction by columns. -/
theorem plain2 : Cert.Lib.IsPlain dot_S256x5120_S5120x256_S256x256_1_0_0_1_n_n where
  lc := rfl
  rc := rfl
  ln := rfl
  rn := rfl
  lb := rfl
  rb := rfl
  rank := rfl
  size := rfl

/-- The zero block at an index is the extended real zero. -/
theorem pay2_zero_apply (p q : Fin 256) : k2_pay1 (F := Ideal) (ix2 p q) = 0 := by
  unfold k2_pay1
  simp only [shapeCast_self]
  show Ideal.ofBits .f32 0x00000000#32 = 0
  exact Ideal.ofBits_zero_f32

/-- One step of the accumulation at an index: the reshapes are the identity, and the product into the zero accumulator
    is the sum over the contracted coordinate, added to what the accumulator held. -/
theorem pay2_apply (a : Vec Ideal S256x256 .f32) (x : Vec Ideal S256x5120 .bf16) (w : Vec Ideal S5120x256 .bf16) (p q : Fin 256) :
    k2_pay2 (F := Ideal) a x w (ix2 p q) = a (ix2 p q) + ∑ k : Fin 5120, x (ix2 p k) * w (ix2 k q) := by
  unfold k2_pay2
  simp only [shapeCast_self]
  show a (ix2 p q) + FloatOps.matmul dot_S256x5120_S5120x256_S256x256_1_0_0_1_n_n none x w (constant (F := Ideal) S256x256 .f32 0x00000000#32) (ix2 p q) = _
  rw [Ideal.matmul_constant_zero_apply]
  exact congrArg (fun z => a (ix2 p q) + z) (plain2.sum_eq x w (ix2 p q))

/-- The printed index maps over the ten points: the one-hot matrix's column block and the features' row block are the
    point's number; every other block index, the output's among them, is zero. -/
theorem idx_facts2 : ∀ t : Fin cfg2.N, win2_0.index t (0 : Fin 2) = 0 ∧ win2_0.index t (1 : Fin 2) = t.val
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

variable (V : (c : Dev nD) → (b : Ref sig .tc) → Buf (Elt Ideal) ((c : Thread nD τ).loc b))

/-- The one-hot block at point t is columns 5120 t .. of the one-hot matrix. -/
theorem iblk2_0_apply (c : Dev nD) (t : Fin cfg2.N) (p : Fin 256) (k : Fin 5120) (h : 5120 * t.val + k.val < 51200) :
    (iblk2 (F := Ideal) V c 0 t : Vec Ideal S256x5120 .bf16) (ix2 p k) = V c main_v76 (ix2 p ⟨5120 * t.val + k.val, h⟩) := by
  obtain ⟨e00, e01, -, -, -, -⟩ := idx_facts2 t
  show V c main_v76 (((cfg2.win 0).blk t).view.emb _) = V c main_v76 _
  congr 1
  funext a; apply Fin.ext
  match a with
  | ⟨0, _⟩ => show win2_0.index t (0 : Fin 2) * 256 + 1 * p.val = p.val; omega
  | ⟨1, _⟩ => show win2_0.index t (1 : Fin 2) * 5120 + 1 * k.val = 5120 * t.val + k.val; omega

/-- The feature block at point t is rows 5120 t .. of the feature matrix. -/
theorem iblk2_1_apply (c : Dev nD) (t : Fin cfg2.N) (k : Fin 5120) (q : Fin 256) (h : 5120 * t.val + k.val < 51200) :
    (iblk2 (F := Ideal) V c 1 t : Vec Ideal S5120x256 .bf16) (ix2 k q) = V c main_v68 (ix2 ⟨5120 * t.val + k.val, h⟩ q) := by
  obtain ⟨-, -, e10, e11, -, -⟩ := idx_facts2 t
  show V c main_v68 (((cfg2.win 1).blk t).view.emb _) = V c main_v68 _
  congr 1
  funext a; apply Fin.ext
  match a with
  | ⟨0, _⟩ => show win2_1.index t (0 : Fin 2) * 5120 + 1 * k.val = 5120 * t.val + k.val; omega
  | ⟨1, _⟩ => show win2_1.index t (1 : Fin 2) * 256 + 1 * q.val = q.val; omega

/-- Term e of entry (g, d) of the product, as a function of the natural number e (zero past the contracted extent). -/
def term2 (X : Cert.Spec.Mat 256 51200) (Y : Cert.Spec.Mat 51200 256) (g d : Fin 256) (e : ℕ) : EReal :=
  if h : e < 51200 then X (ix2 g ⟨e, h⟩) * Y (ix2 ⟨e, h⟩ d) else 0

/-- Point t's blocks contribute the terms 5120 t .. 5120 t + 5119 of the product's entry. -/
theorem tile2_eq (c : Dev nD) (t : Fin cfg2.N) (g d : Fin 256) (x : Vec Ideal S256x5120 .bf16) (w : Vec Ideal S5120x256 .bf16)
    (hx : x = iblk2 (F := Ideal) V c 0 t) (hw : w = iblk2 (F := Ideal) V c 1 t) :
    ∑ k : Fin 5120, x (ix2 g k) * w (ix2 k d)
      = ∑ k : Fin 5120, term2 (V c main_v76) (V c main_v68) g d (5120 * t.val + k.val) := by
  have hN : t.val < 10 := lt_of_lt_of_eq t.isLt (show cfg2.N = 10 from N_2)
  subst hx; subst hw
  refine Finset.sum_congr rfl fun k _ => ?_
  have hk : 5120 * t.val + k.val < 51200 := by have := k.isLt; omega
  rw [iblk2_0_apply V c t g k hk, iblk2_1_apply V c t k d hk]
  unfold term2
  rw [dif_pos hk]

/-- THE ACCUMULATOR AS A SUM: after point n, entry (g, d) is the sum of the first n+1 tiles of 5120 terms — by induction
    on the point; the extended reals' addition needs no finiteness to start from zero. -/
theorem acc2_apply (c : Dev nD) (g d : Fin 256) : ∀ (n : ℕ) (h : n < cfg2.N),
    acc2 (F := Ideal) V c n h (ix2 g d)
      = ∑ s ∈ Finset.range (n + 1), ∑ k : Fin 5120, term2 (V c main_v76) (V c main_v68) g d (5120 * s + k.val)
  | 0, h => by
    show k2_pay2 (F := Ideal) (k2_pay1 (F := Ideal)) (iblk2 V c 0 ⟨0, h⟩) (iblk2 V c 1 ⟨0, h⟩) (ix2 g d) = _
    rw [pay2_apply, pay2_zero_apply, zero_add, Finset.sum_range_one]
    exact tile2_eq V c ⟨0, h⟩ g d _ _ rfl rfl
  | n + 1, h => by
    show k2_pay2 (F := Ideal) (acc2 V c n (Nat.lt_of_succ_lt h)) (iblk2 V c 0 ⟨n + 1, h⟩) (iblk2 V c 1 ⟨n + 1, h⟩) (ix2 g d) = _
    rw [pay2_apply, acc2_apply c g d n (Nat.lt_of_succ_lt h), Finset.sum_range_succ _ (n + 1)]
    exact congrArg (fun z => (∑ s ∈ Finset.range (n + 1), ∑ k : Fin 5120, term2 (V c main_v76) (V c main_v68) g d (5120 * s + k.val)) + z)
      (tile2_eq V c ⟨n + 1, h⟩ g d _ _ rfl rfl)

/-- The accumulator after the last point, as contents of the output array (its one block is the array). -/
def res2 (c : Dev nD) : S256x256.Idx → EReal := acc2 (F := Ideal) V c t2_9.val t2_9.isLt

/-- The one write-back, at the last point, writes the accumulator: block (0, 0) of the array is the array. -/
theorem flushed2_eq (c : Dev nD) (t : Fin cfg2.N) (hf : (cfg2.win 2).flush t = true) :
    (dat2 (F := Ideal) V c).flushed 2 t = ((cfg2.win 2).blk t).view.read (Elt Ideal) (res2 V c) := by
  have hN : t.val < 10 := lt_of_lt_of_eq t.isLt (show cfg2.N = 10 from N_2)
  have h9 : t.val = 9 := by have := (flush2_2 t).mp hf; omega
  obtain rfl : t = t2_9 := Fin.ext h9
  obtain ⟨-, -, -, -, e20, e21⟩ := idx_facts2 t2_9
  show (cfg2.win 2).cut (grid2.coords t2_9) ((dat2 (F := Ideal) V c).after 2 t2_9) = _
  rw [after2_2]
  funext y
  show acc2 (F := Ideal) V c t2_9.val t2_9.isLt y = res2 V c (((cfg2.win 2).blk t2_9).view.emb y)
  unfold res2
  congr 1
  funext a; apply Fin.ext
  match a with
  | ⟨0, _⟩ => show (y 0).val = win2_2.index t2_9 (0 : Fin 2) * 256 + 1 * (y 0).val; omega
  | ⟨1, _⟩ => show (y 1).val = win2_2.index t2_9 (1 : Fin 2) * 256 + 1 * (y 1).val; omega

/-- An index of the output array is in point t's block iff each coordinate is in the block's range on its axis. -/
theorem mem_blk2 (t : Fin cfg2.N) (i : S256x256.Idx) :
    i ∈ ((cfg2.win 2).blk t).view.set
      ↔ ∀ a : Fin 2, win2_2.index t a * S256x256.size a ≤ (i a).val ∧ (i a).val < win2_2.index t a * S256x256.size a + S256x256.size a := by
  show i ∈ ((View.whole main_v77).slice (win2_2.rect t)).set ↔ _
  rw [View.set_slice_whole, Rect.mem_set_unit]
  exact Iff.rfl

/-- The last point's block covers the output array. -/
theorem cover2 (i : S256x256.Idx) :
    ∃ t : Fin cfg2.N, (cfg2.win 2).flush t = true ∧ i ∈ ((cfg2.win 2).blk t).view.set := by
  have hi0 : (i 0).val < 256 := (i 0).isLt
  have hi1 : (i 1).val < 256 := (i 1).isLt
  obtain ⟨-, -, -, -, e20, e21⟩ := idx_facts2 t2_9
  refine ⟨t2_9, (flush2_2 t2_9).mpr rfl, ?_⟩
  rw [mem_blk2]
  intro a
  match a with
  | ⟨0, _⟩ => show win2_2.index t2_9 (0 : Fin 2) * 256 ≤ (i 0).val ∧ (i 0).val < win2_2.index t2_9 (0 : Fin 2) * 256 + 256; omega
  | ⟨1, _⟩ => show win2_2.index t2_9 (1 : Fin 2) * 256 ≤ (i 1).val ∧ (i 1).val < win2_2.index t2_9 (1 : Fin 2) * 256 + 256; omega

/-- The output array after the whole region is the accumulator after the last point. -/
theorem arr2_eq (c : Dev nD) : (dat2 (F := Ideal) V c).arrAt 2 cfg2.N = res2 V c :=
  (dat2 (F := Ideal) V c).arrAt_eq_of_cover 2 (res2 V c) (flushed2_eq V c) cover2

/-- Entry (g, d) of the output array after the region is entry (g, d) of the one-hot matrix times the features: the ten
    tiles of 5120 terms are the 51200 terms. -/
theorem final2 (V : (c : Dev nD) → (b : Ref sig .tc) → Buf (Elt Ideal) ((c : Thread nD τ).loc b)) (c : Dev nD) (g d : Fin 256) :
    (dat2 (F := Ideal) V c).arrAt 2 cfg2.N (ix2 g d) = Cert.Spec.mm (V c main_v76) (V c main_v68) g d := by
  rw [arr2_eq]
  show acc2 (F := Ideal) V c 9 t2_9.isLt (ix2 g d) = _
  rw [acc2_apply V c g d 9 t2_9.isLt, Cert.Lib.sum_fin_tiles 5120 10 (term2 (V c main_v76) (V c main_v68) g d)]
  unfold Cert.Spec.mm
  show ∑ e : Fin 51200, term2 (V c main_v76) (V c main_v68) g d e.val = _
  refine Finset.sum_congr rfl fun e _ => ?_
  unfold term2
  rw [dif_pos e.isLt]

end Cert.KernelIdeal.Hand

end
-- ==== Proof.LibSoftmaxRows.lean ====
/-
  Softmax along the rows of a rank-two array, as a vector program spells it, read at an index.

  For an array `s` of shape [a, b] the program takes each row's maximum by a reduction over the second axis from -∞
  (and joins the result with -∞ once more, which changes nothing), views the [a] vector of maxima as an [a, 1] column
  and broadcasts the column across the row, subtracts, exponentiates, sums each row of exponentials from 0 the same
  way, broadcasts the sums, and divides.  At the ideal values every one of these is the textbook operation on the
  extended reals, so entry (i, j) of the result is

      exp (s i j - M i) / ∑ j', exp (s i j' - M i),     M i = max (-∞) (max over j of s i j),

  with the maximum a fold of `max` over the row's coordinates and the quotient the extended reals' `Ideal.div`.
  The two column forms of a layout operation that the reading needs — an [a] vector viewed as [a, 1], an [a, 1]
  column broadcast to [a, b] — are stated first; then a row reduction over the second axis at row `i`; then the
  composite.  Nothing here depends on a particular kernel: shapes are generic in `a` and `b`.
-/
import Idealize.ShloMosaic.PureOps.Ideal.Laws
import Idealize.ShloMosaic.Lib.ValueIdx
import Idealize.ShloMosaic.Lib.Pipeline.Value

noncomputable section

namespace Cert.Lib.SoftmaxRows

open Idealize.ShloMosaic Idealize.ShloMosaic.ValueIdx

variable {α : Type} {a b : ℕ}

/-! ## Two column forms of a layout operation -/

/-- An [a] vector viewed as an [a, 1] column reads, at (i, u), the vector at i: both have row-major position i. -/
theorem colCast_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast across [a, b] reads, at (i, j), the column at (i, 0). -/
theorem colBroadcast_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ fun c => match c with
    | ⟨0, _⟩ => by
        show i.val = if a = 1 then 0 else i.val
        have := i.isLt
        split_ifs <;> omega
    | ⟨1, _⟩ => by
        show (0 : ℕ) = if (1 : ℕ) = 1 then 0 else j.val
        rw [if_pos rfl]

/-! ## A reduction over the second axis, at row i -/

/-- Row i's index with the column coordinate j put back is (i, j). -/
theorem lift_row (h : (⟨2, ![a, b]⟩ : Shape).Reduces [1] ⟨1, ![a]⟩) (i : Fin a) (j : Fin b) :
    h.lift (ix1 i) j = ix2 i j :=
  funext fun c => Fin.ext (by match c with | ⟨0, _⟩ => rfl | ⟨1, _⟩ => rfl)

variable {φ : FTy}

/-- A maximum-reduction over the second axis is, at row i, the fold of `max` from the accumulator's value over the
    row's entries. -/
theorem rowMax_apply (s : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ s acc h hφ hacc (ix1 i)
      = (Finset.univ : Finset (Fin b)).fold max (Ideal.ofBits φ acc) (fun j => s (ix2 i j)) := by
  rw [Ideal.multiReduction_maximumf_single]
  have e : (s ∘ h.lift (ix1 i)) = fun j : Fin b => s (ix2 i j) := funext fun j => congrArg s (lift_row h i j)
  rw [e]
  rfl

/-- A sum-reduction over the second axis is, at row i, the sum of the row's entries. -/
theorem rowSum_apply (s : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ s acc h hφ hacc (ix1 i) = ∑ j : Fin b, s (ix2 i j) := by
  rw [Ideal.multiReduction_add_single]
  exact Finset.sum_congr rfl fun j _ => congrArg s (lift_row h i j)

/-! ## The same row maximum as a host reduction over the last axis of a rank-three array -/

/-- Row (p, i)'s index with the last coordinate j put back is (p, i, j). -/
theorem lift_row3 {c : ℕ} (h : (⟨3, ![a, b, c]⟩ : Shape).Reduces [2] ⟨2, ![a, b]⟩) (p : Fin a) (i : Fin b) (j : Fin c) :
    h.lift (ix2 p i) j = ix3 p i j :=
  funext fun d => Fin.ext (by match d with | ⟨0, _⟩ => rfl | ⟨1, _⟩ => rfl | ⟨2, _⟩ => rfl)

/-- A host reduction by `max` over the last axis is, at (p, i), the fold of `max` from the initial value over the
    entries (p, i, ·). -/
theorem hostRowMax_apply {c : ℕ} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (i : Fin b) :
    Host.reduce (FloatOps.maximumf (F := Ideal) (φ := φ)) x init h' hu (ix2 p i)
      = (Finset.univ : Finset (Fin c)).fold max (init (Shape.Idx.first hu)) (fun j => x (ix3 p i j)) := by
  refine (Host.reduce_eq_fold_single (FloatOps.maximumf (F := Ideal) (φ := φ)) x init h' h hu (ix2 p i)).trans ?_
  have e : (x ∘ h.lift (ix2 p i)) = fun j : Fin c => x (ix3 p i j) := funext fun j => congrArg x (lift_row3 h p i j)
  rw [e]
  rfl

/-! ## The composite -/

/-- The f32 pattern of -∞, which every maximum here starts from. -/
abbrev negInf : EReal := Ideal.ofBits .f32 0xFF800000#32

/-- A row's maximum as the program takes it: the fold of `max` from -∞ over the row, joined with -∞ once more. -/
def rowTop (r : Fin b → EReal) : EReal := max negInf ((Finset.univ : Finset (Fin b)).fold max negInf r)

/-- A row's softmax weight at column j: the exponential of the entry less the row's maximum, over the sum of the
    row's such exponentials (the extended reals' quotient). -/
def rowWeight (r : Fin b → EReal) (j : Fin b) : EReal :=
  Ideal.div (Ideal.exp (r j - rowTop r)) (∑ j' : Fin b, Ideal.exp (r j' - rowTop r))

section Program
variable (s : FVec Ideal ⟨2, ![a, b]⟩ .f32) (hr : (⟨2, ![a, b]⟩ : Shape).Reduces [1] ⟨1, ![a]⟩)
  (hc : (⟨1, ![a]⟩ : Shape).ShapeCasts ⟨2, ![a, 1]⟩) (hb : (⟨2, ![a, 1]⟩ : Shape).Broadcasts ⟨2, ![a, b]⟩)

/-- The vector of row maxima, in the program's operations. -/
def rowTopVec : FVec Ideal ⟨1, ![a]⟩ .f32 :=
  maximumf (broadcast ⟨1, ![a]⟩ (Scalar.ofBits .f32 0xFF800000#32))
    (multiReduction .maximumf [1] ⟨1, ![a]⟩ s 0xFF800000#32 hr (.inl rfl) rfl)

/-- The exponentials of the entries less their row's maximum, in the program's operations. -/
def expRows : FVec Ideal ⟨2, ![a, b]⟩ .f32 :=
  exp (subf s (broadcastTo ⟨2, ![a, b]⟩ (shapeCast ⟨2, ![a, 1]⟩ (rowTopVec s hr) hc) hb))

/-- Softmax along the rows, in the program's operations. -/
def softmaxRows : FVec Ideal ⟨2, ![a, b]⟩ .f32 :=
  divf (expRows s hr hc hb)
    (broadcastTo ⟨2, ![a, b]⟩ (shapeCast ⟨2, ![a, 1]⟩
      (multiReduction .add [1] ⟨1, ![a]⟩ (expRows s hr hc hb) 0x00000000#32 hr (.inl rfl) rfl) hc) hb)

theorem rowTopVec_apply (i : Fin a) : rowTopVec s hr (ix1 i) = rowTop fun j => s (ix2 i j) := by
  unfold rowTopVec rowTop
  exact congrArg (max negInf) (rowMax_apply s 0xFF800000#32 hr (.inl rfl) rfl i)

theorem expRows_apply (i : Fin a) (j : Fin b) :
    expRows s hr hc hb (ix2 i j) = Ideal.exp (s (ix2 i j) - rowTop fun j' => s (ix2 i j')) := by
  unfold expRows
  show Ideal.exp (s (ix2 i j) - broadcastTo ⟨2, ![a, b]⟩ (shapeCast ⟨2, ![a, 1]⟩ (rowTopVec s hr) hc) hb (ix2 i j)) = _
  rw [colBroadcast_apply, colCast_apply, rowTopVec_apply]

/-- Entry (i, j) of the program's softmax is row i's weight at column j. -/
theorem softmaxRows_apply (i : Fin a) (j : Fin b) :
    softmaxRows s hr hc hb (ix2 i j) = rowWeight (fun j' => s (ix2 i j')) j := by
  unfold softmaxRows rowWeight
  rw [divf_apply, colBroadcast_apply, colCast_apply]
  refine congrArg₂ Ideal.div (expRows_apply s hr hc hb i j) ?_
  refine (rowSum_apply (expRows s hr hc hb) 0x00000000#32 hr (.inl rfl) rfl i).trans ?_
  exact Finset.sum_congr rfl fun j' _ => expRows_apply s hr hc hb i j'

end Program

end Cert.Lib.SoftmaxRows

end
-- ==== Proof.KI.Val3.lean ====
/-
  The head's pallas_call at the ideal values: what the region leaves in its two output arrays, index by index.

  The body's first stored value is, at (g, o), the logit: two matrix products into zero accumulators (a plain sum
  over the contraction coordinate each), a bias row broadcast down the rows after each, and a clamp at zero between
  them; every change of float format is the identity on the extended reals. Its second stored value is the row-wise
  log-softmax of the first in the arrangement `z - (top + log (sum (exp (z - top))))`, the row's maximum `top` a
  fold of `max` from minus infinity and the columns of maxima and of log-sums broadcast back across the row.
  The grid has one point and every window's block index there is zero, so each block is its whole array: what the
  point writes back is the whole of the function above of the five input arrays, and it covers the output array.
-/
import proofs.«408544_j16157666968391_1_alg».proof.Proof.KI.Reg3
import proofs.«408544_j16157666968391_1_alg».proof.Proof.Spec
import proofs.«408544_j16157666968391_1_alg».proof.Proof.LibSoftmaxRows
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

namespace Val3

/-! ## The two matrix products of the body, read at an index -/

/-- The operand indices of the square product, axis by axis: the left operand is read at (row, k), the right at
    (k, column), for the one contraction coordinate k. -/
theorem lhs_sq_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhs_sq_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
theorem rhs_sq_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem rhs_sq_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- The square product into the zero accumulator, at (g, h): the sum over the contraction coordinate. -/
theorem matmul_sq_apply (X Y : FVec Ideal S256x256 .bf16) (g h : Fin 256) :
    matmul dot_S256x256_S256x256_S256x256_1_0_0_1_n_n none X Y (constant (F := Ideal) S256x256 .f32 0x00000000#32) (ix2 g h)
      = ∑ t : Fin 256, X (ix2 g t) * Y (ix2 t h) := by
  simp only [matmul]
  rw [Ideal.matmul_constant_zero_apply, ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 g h) ((contrEquiv1 dot_S256x256_S256x256_S256x256_1_0_0_1_n_n 256 rfl rfl).symm k) = ix2 g k :=
    funext fun a => Fin.ext (by
      match a with
      | ⟨0, _⟩ => exact lhs_sq_0 _ _
      | ⟨1, _⟩ => exact (lhs_sq_1 _ _).trans hk)
  have er : dot_S256x256_S256x256_S256x256_1_0_0_1_n_n.rhsIdx (ix2 g h) ((contrEquiv1 dot_S256x256_S256x256_S256x256_1_0_0_1_n_n 256 rfl rfl).symm k) = ix2 k h :=
    funext fun a => Fin.ext (by
      match a with
      | ⟨0, _⟩ => exact (rhs_sq_0 _ _).trans hk
      | ⟨1, _⟩ => exact rhs_sq_1 _ _)
  rw [el, er]

/-- The same four facts for the 256×256 by 256×10 product. -/
theorem lhs_tall_0 (i : S256x10.Idx) (q : dot_S256x256_S256x10_S256x10_1_0_0_1_n_n.contr.Idx) :
    (dot_S256x256_S256x10_S256x10_1_0_0_1_n_n.lhsIdx i q 0).val = (i 0).val := by
  unfold DotDims.lhsIdx
  rw [dif_neg (show ¬(0 : Fin S256x256.rank) ∈ dot_S256x256_S256x10_S256x10_1_0_0_1_n_n.lhsBatch by decide), dif_pos (show (0 : Fin S256x256.rank) ∈ dot_S256x256_S256x10_S256x10_1_0_0_1_n_n.lhsNonContracting by decide)]
  rfl
theorem lhs_tall_1 (i : S256x10.Idx) (q : dot_S256x256_S256x10_S256x10_1_0_0_1_n_n.contr.Idx) :
    (dot_S256x256_S256x10_S256x10_1_0_0_1_n_n.lhsIdx i q 1).val = (q ⟨0, by decide⟩).val :=
  dot_S256x256_S256x10_S256x10_1_0_0_1_n_n.lhsIdx_val_of_single rfl i q
theorem rhs_tall_0 (i : S256x10.Idx) (q : dot_S256x256_S256x10_S256x10_1_0_0_1_n_n.contr.Idx) :
    (dot_S256x256_S256x10_S256x10_1_0_0_1_n_n.rhsIdx i q 0).val = (q ⟨0, by decide⟩).val :=
  dot_S256x256_S256x10_S256x10_1_0_0_1_n_n.rhsIdx_val_of_single rfl i q
theorem rhs_tall_1 (i : S256x10.Idx) (q : dot_S256x256_S256x10_S256x10_1_0_0_1_n_n.contr.Idx) :
    (dot_S256x256_S256x10_S256x10_1_0_0_1_n_n.rhsIdx i q 1).val = (i 1).val := by
  unfold DotDims.rhsIdx
  rw [dif_neg (show ¬(1 : Fin S256x10.rank) ∈ dot_S256x256_S256x10_S256x10_1_0_0_1_n_n.rhsBatch by decide), dif_pos (show (1 : Fin S256x10.rank) ∈ dot_S256x256_S256x10_S256x10_1_0_0_1_n_n.rhsNonContracting by decide)]
  rfl

/-- The 256×256 by 256×10 product into the zero accumulator, at (g, o): the sum over the contraction coordinate. -/
theorem matmul_tall_apply (X : FVec Ideal S256x256 .bf16) (Y : FVec Ideal S256x10 .bf16) (g : Fin 256) (o : Fin 10) :
    matmul dot_S256x256_S256x10_S256x10_1_0_0_1_n_n none X Y (constant (F := Ideal) S256x10 .f32 0x00000000#32) (ix2 g o)
      = ∑ t : Fin 256, X (ix2 g t) * Y (ix2 t o) := by
  simp only [matmul]
  rw [Ideal.matmul_constant_zero_apply, ← Equiv.sum_comp (contrEquiv1 dot_S256x256_S256x10_S256x10_1_0_0_1_n_n 256 rfl rfl).symm]
  refine Finset.sum_congr rfl fun k _ => ?_
  have hk := contrEquiv1_symm_val dot_S256x256_S256x10_S256x10_1_0_0_1_n_n 256 rfl rfl k
  have el : dot_S256x256_S256x10_S256x10_1_0_0_1_n_n.lhsIdx (ix2 g o) ((contrEquiv1 dot_S256x256_S256x10_S256x10_1_0_0_1_n_n 256 rfl rfl).symm k) = ix2 g k :=
    funext fun a => Fin.ext (by
      match a with
      | ⟨0, _⟩ => exact lhs_tall_0 _ _
      | ⟨1, _⟩ => exact (lhs_tall_1 _ _).trans hk)
  have er : dot_S256x256_S256x10_S256x10_1_0_0_1_n_n.rhsIdx (ix2 g o) ((contrEquiv1 dot_S256x256_S256x10_S256x10_1_0_0_1_n_n 256 rfl rfl).symm k) = ix2 k o :=
    funext fun a => Fin.ext (by
      match a with
      | ⟨0, _⟩ => exact (rhs_tall_0 _ _).trans hk
      | ⟨1, _⟩ => exact rhs_tall_1 _ _)
  rw [el, er]

/-! ## A bias row broadcast over the rows -/

/-- A [1, b] row broadcast down [a, b] reads, at (i, j), the row at (0, j). -/
theorem rowBroadcast_apply {α : Type} {a b : ℕ} (x : (⟨2, ![1, b]⟩ : Shape).Idx → α) (h : (⟨2, ![1, b]⟩ : Shape).Broadcasts ⟨2, ![a, b]⟩)
    (i : Fin a) (j : Fin b) : broadcastTo ⟨2, ![a, b]⟩ x h (ix2 i j) = x (ix2 (0 : Fin 1) j) :=
  broadcastTo_apply x h _ _ fun c => match c with
    | ⟨0, _⟩ => by
        show (0 : ℕ) = if (1 : ℕ) = 1 then 0 else i.val
        rw [if_pos rfl]
    | ⟨1, _⟩ => by
        show j.val = if b = 1 then 0 else j.val
        have := j.isLt
        split_ifs <;> omega

/-! ## The first stored value: the logits -/

/-- A change of float format is the identity at the ideal values, the zero accumulator adds nothing, and the clamp
    constant is the extended real 0: entry (g, o) of the first stored value is the logit. -/
theorem pay1_apply (x0 x1 : Vec Ideal S256x256 .f32) (x2 : Vec Ideal S1x256 .f32) (x3 : Vec Ideal S256x10 .f32) (x4 : Vec Ideal S1x10 .f32)
    (g : Fin 256) (o : Fin 10) :
    k3_pay1 x0 x1 x2 x3 x4 (ix2 g o) = Cert.Spec.logit x0 x1 x2 x3 x4 g o := by
  have hz : (FloatOps.ofBits (F := Ideal) FTy.f32 0x00000000#32) = (0 : EReal) := Ideal.ofBits_zero_f32
  unfold k3_pay1 Cert.Spec.logit
  simp only [shapeCast_self]
  rw [addf_apply, matmul_tall_apply, rowBroadcast_apply]
  refine congrArg₂ (· + ·) (Finset.sum_congr rfl fun h _ => ?_) rfl
  unfold Cert.Spec.hidden Cert.Spec.mm
  rw [truncf_apply, truncf_apply, maximumf_apply, addf_apply, matmul_sq_apply, rowBroadcast_apply, broadcast_apply, hz]
  simp only [truncf_apply]

/-! ## The second stored value: the row-wise log-softmax of the first -/

/-- The body's log-softmax of a [256, 10] array, read at (g, o): the row's maximum is the fold of `max` from minus
    infinity, the column of maxima and the column of log-sums are broadcast back across the row, and every pointwise
    operation is the extended reals' own. -/
theorem logsm_apply (s : FVec Ideal S256x10 .f32) (g : Fin 256) (o : Fin 10) :
    subf s (broadcastTo S256x10
        (addf (shapeCast S256x1 (multiReduction (F := Ideal) .maximumf [1] S256 s 0xFF800000#32 reduces_S256x10_S256 (.inl rfl) rfl) shapeCasts_S256_S256x1)
          (log (shapeCast S256x1 (multiReduction (F := Ideal) .add [1] S256
            (exp (subf s (broadcastTo S256x10 (shapeCast S256x1 (multiReduction (F := Ideal) .maximumf [1] S256 s 0xFF800000#32 reduces_S256x10_S256 (.inl rfl) rfl) shapeCasts_S256_S256x1) broadcasts_S256x1_S256x10)))
            0x00000000#32 reduces_S256x10_S256 (.inl rfl) rfl) shapeCasts_S256_S256x1)))
        broadcasts_S256x1_S256x10) (ix2 g o)
      = Cert.Spec.logsm (fun o' => s (ix2 g o')) o := by
  have hmax := Cert.Lib.SoftmaxRows.rowMax_apply s 0xFF800000#32 reduces_S256x10_S256 (.inl rfl) rfl g
  have hsum := fun E : FVec Ideal S256x10 .f32 => Cert.Lib.SoftmaxRows.rowSum_apply E 0x00000000#32 reduces_S256x10_S256 (.inl rfl) rfl g
  unfold Cert.Spec.logsm Cert.Spec.top
  rw [subf_apply, Cert.Lib.SoftmaxRows.colBroadcast_apply, addf_apply, Cert.Lib.SoftmaxRows.colCast_apply]
  refine congrArg (s (ix2 g o) - ·) ?_
  refine congrArg₂ (· + ·) hmax ?_
  show Ideal.log (shapeCast S256x1 _ shapeCasts_S256_S256x1 (ix2 g 0)) = _
  rw [Cert.Lib.SoftmaxRows.colCast_apply]
  refine congrArg Ideal.log ((hsum _).trans (Finset.sum_congr rfl fun o' _ => ?_))
  show Ideal.exp (s (ix2 g o') - broadcastTo S256x10 _ broadcasts_S256x1_S256x10 (ix2 g o')) = _
  rw [Cert.Lib.SoftmaxRows.colBroadcast_apply, Cert.Lib.SoftmaxRows.colCast_apply]
  exact congrArg (fun m => Ideal.exp (s (ix2 g o') - m)) hmax

theorem pay2_apply (x0 x1 : Vec Ideal S256x256 .f32) (x2 : Vec Ideal S1x256 .f32) (x3 : Vec Ideal S256x10 .f32) (x4 : Vec Ideal S1x10 .f32)
    (g : Fin 256) (o : Fin 10) :
    k3_pay2 x0 x1 x2 x3 x4 (ix2 g o) = Cert.Spec.logsm (fun o' => Cert.Spec.logit x0 x1 x2 x3 x4 g o') o := by
  unfold k3_pay2
  refine (logsm_apply (k3_pay1 x0 x1 x2 x3 x4) g o).trans ?_
  exact congrArg (fun z => Cert.Spec.logsm z o) (funext fun o' => pay1_apply x0 x1 x2 x3 x4 g o')

/-! ## From the one grid point's blocks to the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- At the grid's one point every window's block index is zero on both axes: each block is its whole array. -/
theorem index_zero3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- Each input window's block at the point is its array, index for index. -/
theorem iblk3_0_apply (c : Dev nD) (t : Fin cfg3.N) (y : S256x256.Idx) : iblk3 V c 0 t y = V c main_v77 y := by
  show V c main_v77 (((cfg3.win 0).blk t).view.emb y) = V c main_v77 y
  obtain ⟨e0, e1, -⟩ := index_zero3 t
  refine congrArg _ (funext fun a => Fin.ext ?_)
  match a with
  | ⟨0, _⟩ => show win3_0.index t (0 : Fin 2) * 256 + 1 * (y 0).val = (y 0).val; omega
  | ⟨1, _⟩ => show win3_0.index t (1 : Fin 2) * 256 + 1 * (y 1).val = (y 1).val; omega

theorem iblk3_1_apply (c : Dev nD) (t : Fin cfg3.N) (y : S256x256.Idx) : iblk3 V c 1 t y = V c main_arg7 y := by
  show V c main_arg7 (((cfg3.win 1).blk t).view.emb y) = V c main_arg7 y
  obtain ⟨-, -, e0, e1, -⟩ := index_zero3 t
  refine congrArg _ (funext fun a => Fin.ext ?_)
  match a with
  | ⟨0, _⟩ => show win3_1.index t (0 : Fin 2) * 256 + 1 * (y 0).val = (y 0).val; omega
  | ⟨1, _⟩ => show win3_1.index t (1 : Fin 2) * 256 + 1 * (y 1).val = (y 1).val; omega

theorem iblk3_2_apply (c : Dev nD) (t : Fin cfg3.N) (y : S1x256.Idx) : iblk3 V c 2 t y = V c main_v78 y := by
  show V c main_v78 (((cfg3.win 2).blk t).view.emb y) = V c main_v78 y
  obtain ⟨-, -, -, -, e0, e1, -⟩ := index_zero3 t
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 256 + 1 * (y 1).val = (y 1).val; omega

theorem iblk3_3_apply (c : Dev nD) (t : Fin cfg3.N) (y : S256x10.Idx) : iblk3 V c 3 t y = V c main_arg9 y := by
  show V c main_arg9 (((cfg3.win 3).blk t).view.emb y) = V c main_arg9 y
  obtain ⟨-, -, -, -, -, -, e0, e1, -⟩ := index_zero3 t
  refine congrArg _ (funext fun a => Fin.ext ?_)
  match a with
  | ⟨0, _⟩ => show win3_3.index t (0 : Fin 2) * 256 + 1 * (y 0).val = (y 0).val; omega
  | ⟨1, _⟩ => show win3_3.index t (1 : Fin 2) * 10 + 1 * (y 1).val = (y 1).val; omega

theorem iblk3_4_apply (c : Dev nD) (t : Fin cfg3.N) (y : S1x10.Idx) : iblk3 V c 4 t y = V c main_v79 y := by
  show V c main_v79 (((cfg3.win 4).blk t).view.emb y) = V c main_v79 y
  obtain ⟨-, -, -, -, -, -, -, -, e0, e1, -⟩ := index_zero3 t
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 10 + 1 * (y 1).val = (y 1).val; omega

/-- An index of an output block is the same index of its array. -/
theorem emb3_5 (t : Fin cfg3.N) (j : S256x10.Idx) : ((cfg3.win 5).blk t).view.emb j = j := by
  obtain ⟨-, -, -, -, -, -, -, -, -, -, e0, e1, -⟩ := index_zero3 t
  refine funext fun a => Fin.ext ?_
  match a with
  | ⟨0, _⟩ => show win3_5.index t (0 : Fin 2) * 256 + 1 * (j 0).val = (j 0).val; omega
  | ⟨1, _⟩ => show win3_5.index t (1 : Fin 2) * 10 + 1 * (j 1).val = (j 1).val; omega

theorem emb3_6 (t : Fin cfg3.N) (j : S256x10.Idx) : ((cfg3.win 6).blk t).view.emb j = j := by
  obtain ⟨-, -, -, -, -, -, -, -, -, -, -, -, e0, e1⟩ := index_zero3 t
  refine funext fun a => Fin.ext ?_
  match a with
  | ⟨0, _⟩ => show win3_6.index t (0 : Fin 2) * 256 + 1 * (j 0).val = (j 0).val; omega
  | ⟨1, _⟩ => show win3_6.index t (1 : Fin 2) * 10 + 1 * (j 1).val = (j 1).val; omega

/-- The two stored values at a block index, over any vectors known to be the five arrays. -/
theorem pay1_at (x0 x1 : Vec Ideal S256x256 .f32) (x2 : Vec Ideal S1x256 .f32) (x3 : Vec Ideal S256x10 .f32) (x4 : Vec Ideal S1x10 .f32)
    (A0 A1 : Cert.Spec.Mat 256 256) (A2 : Cert.Spec.Mat 1 256) (A3 : Cert.Spec.Mat 256 10) (A4 : Cert.Spec.Mat 1 10) (j i : S256x10.Idx)
    (h0 : ∀ y, x0 y = A0 y) (h1 : ∀ y, x1 y = A1 y) (h2 : ∀ y, x2 y = A2 y) (h3 : ∀ y, x3 y = A3 y) (h4 : ∀ y, x4 y = A4 y) (hi : i = j) :
    k3_pay1 x0 x1 x2 x3 x4 j = Cert.Spec.logit A0 A1 A2 A3 A4 (i 0) (i 1) := by
  obtain rfl : x0 = A0 := funext h0
  obtain rfl : x1 = A1 := funext h1
  obtain rfl : x2 = A2 := funext h2
  obtain rfl : x3 = A3 := funext h3
  obtain rfl : x4 = A4 := funext h4
  subst hi
  exact (congrArg (k3_pay1 x0 x1 x2 x3 x4) (eq_ix2 i)).trans (pay1_apply x0 x1 x2 x3 x4 (i 0) (i 1))

theorem pay2_at (x0 x1 : Vec Ideal S256x256 .f32) (x2 : Vec Ideal S1x256 .f32) (x3 : Vec Ideal S256x10 .f32) (x4 : Vec Ideal S1x10 .f32)
    (A0 A1 : Cert.Spec.Mat 256 256) (A2 : Cert.Spec.Mat 1 256) (A3 : Cert.Spec.Mat 256 10) (A4 : Cert.Spec.Mat 1 10) (j i : S256x10.Idx)
    (h0 : ∀ y, x0 y = A0 y) (h1 : ∀ y, x1 y = A1 y) (h2 : ∀ y, x2 y = A2 y) (h3 : ∀ y, x3 y = A3 y) (h4 : ∀ y, x4 y = A4 y) (hi : i = j) :
    k3_pay2 x0 x1 x2 x3 x4 j = Cert.Spec.logsm (fun o' => Cert.Spec.logit A0 A1 A2 A3 A4 (i 0) o') (i 1) := by
  obtain rfl : x0 = A0 := funext h0
  obtain rfl : x1 = A1 := funext h1
  obtain rfl : x2 = A2 := funext h2
  obtain rfl : x3 = A3 := funext h3
  obtain rfl : x4 = A4 := funext h4
  subst hi
  exact (congrArg (k3_pay2 x0 x1 x2 x3 x4) (eq_ix2 i)).trans (pay2_apply x0 x1 x2 x3 x4 (i 0) (i 1))

/-- The logits as one function of the five arrays the region finds. -/
def logitArr (c : Dev nD) : S256x10.Idx → EReal := fun i =>
  Cert.Spec.logit (V c main_v77) (V c main_arg7) (V c main_v78) (V c main_arg9) (V c main_v79) (i 0) (i 1)

/-- Their row-wise log-softmax likewise. -/
def logsmArr (c : Dev nD) : S256x10.Idx → EReal := fun i =>
  Cert.Spec.logsm (fun o' => Cert.Spec.logit (V c main_v77) (V c main_arg7) (V c main_v78) (V c main_arg9) (V c main_v79) (i 0) o') (i 1)

/-- What the one point writes back to the logits' array is that array's block of `logitArr`. -/
theorem flushed3_5_eq (c : Dev nD) (t : Fin cfg3.N) :
    (dat3 (F := Ideal) V c).flushed 5 t = ((cfg3.win 5).blk t).view.read (Elt Ideal) (logitArr V c) := by
  show (cfg3.win 5).cut (grid3.coords t) ((dat3 (F := Ideal) V c).after 5 t) = _
  rw [after3_5]
  unfold out3_5
  rw [View.canon_unit_zero zero_offsets]
  simp only [View.ld_unit_zero (S := S256x256) zero_offsets, View.ld_unit_zero (S := S1x256) zero_offsets,
    View.ld_unit_zero (S := S256x10) zero_offsets, View.ld_unit_zero (S := S1x10) zero_offsets]
  funext j
  show k3_pay1 (iblk3 V c 0 t) (iblk3 V c 1 t) (iblk3 V c 2 t) (iblk3 V c 3 t) (iblk3 V c 4 t) j
    = logitArr V c (((cfg3.win 5).blk t).view.emb j)
  exact pay1_at _ _ _ _ _ _ _ _ _ _ j _ (iblk3_0_apply V c t) (iblk3_1_apply V c t) (iblk3_2_apply V c t) (iblk3_3_apply V c t)
    (iblk3_4_apply V c t) (emb3_5 t j)

theorem flushed3_6_eq (c : Dev nD) (t : Fin cfg3.N) :
    (dat3 (F := Ideal) V c).flushed 6 t = ((cfg3.win 6).blk t).view.read (Elt Ideal) (logsmArr V c) := by
  show (cfg3.win 6).cut (grid3.coords t) ((dat3 (F := Ideal) V c).after 6 t) = _
  rw [after3_6]
  unfold out3_6
  rw [View.canon_unit_zero zero_offsets]
  simp only [View.ld_unit_zero (S := S256x256) zero_offsets, View.ld_unit_zero (S := S1x256) zero_offsets,
    View.ld_unit_zero (S := S256x10) zero_offsets, View.ld_unit_zero (S := S1x10) zero_offsets]
  funext j
  show k3_pay2 (iblk3 V c 0 t) (iblk3 V c 1 t) (iblk3 V c 2 t) (iblk3 V c 3 t) (iblk3 V c 4 t) j
    = logsmArr V c (((cfg3.win 6).blk t).view.emb j)
  exact pay2_at _ _ _ _ _ _ _ _ _ _ j _ (iblk3_0_apply V c t) (iblk3_1_apply V c t) (iblk3_2_apply V c t) (iblk3_3_apply V c t)
    (iblk3_4_apply V c t) (emb3_6 t j)

/-- The point's block of each output window is the whole array. -/
theorem mem_blk3_5 (t : Fin cfg3.N) (i : S256x10.Idx) : i ∈ ((cfg3.win 5).blk t).view.set := by
  obtain ⟨-, -, -, -, -, -, -, -, -, -, e0, e1, -⟩ := index_zero3 t
  show i ∈ ((View.whole main_v80_0).slice (win3_5.rect t)).set
  rw [View.set_slice_whole, Rect.mem_set_unit]
  intro a
  have h0 : (i 0).val < 256 := (i 0).isLt
  have h1 : (i 1).val < 10 := (i 1).isLt
  match a with
  | ⟨0, _⟩ => show win3_5.index t (0 : Fin 2) * 256 ≤ (i 0).val ∧ (i 0).val < win3_5.index t (0 : Fin 2) * 256 + 256; omega
  | ⟨1, _⟩ => show win3_5.index t (1 : Fin 2) * 10 ≤ (i 1).val ∧ (i 1).val < win3_5.index t (1 : Fin 2) * 10 + 10; omega

theorem mem_blk3_6 (t : Fin cfg3.N) (i : S256x10.Idx) : i ∈ ((cfg3.win 6).blk t).view.set := by
  obtain ⟨-, -, -, -, -, -, -, -, -, -, -, -, e0, e1⟩ := index_zero3 t
  show i ∈ ((View.whole main_v80_1).slice (win3_6.rect t)).set
  rw [View.set_slice_whole, Rect.mem_set_unit]
  intro a
  have h0 : (i 0).val < 256 := (i 0).isLt
  have h1 : (i 1).val < 10 := (i 1).isLt
  match a with
  | ⟨0, _⟩ => show win3_6.index t (0 : Fin 2) * 256 ≤ (i 0).val ∧ (i 0).val < win3_6.index t (0 : Fin 2) * 256 + 256; omega
  | ⟨1, _⟩ => show win3_6.index t (1 : Fin 2) * 10 ≤ (i 1).val ∧ (i 1).val < win3_6.index t (1 : Fin 2) * 10 + 10; omega

theorem cover3_5 (i : S256x10.Idx) : ∃ t : Fin cfg3.N, (cfg3.win 5).flush t = true ∧ i ∈ ((cfg3.win 5).blk t).view.set :=
  ⟨⟨0, by decide⟩, flush3_5 _, mem_blk3_5 _ i⟩

theorem cover3_6 (i : S256x10.Idx) : ∃ t : Fin cfg3.N, (cfg3.win 6).flush t = true ∧ i ∈ ((cfg3.win 6).blk t).view.set :=
  ⟨⟨0, by decide⟩, flush3_6 _, mem_blk3_6 _ i⟩

end Val3

open Val3

variable (V : (c : Dev nD) → (b : Ref sig .tc) → Buf (Elt Ideal) ((c : Thread nD τ).loc b))

/-- After the region the logits' array holds, at (g, o), the logit. -/
theorem final3_5 (c : Dev nD) (g : Fin 256) (o : Fin 10) :
    (dat3 (F := Ideal) V c).arrAt 5 cfg3.N (ix2 g o)
      = Cert.Spec.logit (V c main_v77) (V c main_arg7) (V c main_v78) (V c main_arg9) (V c main_v79) g o :=
  congrFun ((dat3 (F := Ideal) V c).arrAt_eq_of_cover 5 (logitArr V c) (fun t _ => flushed3_5_eq V c t) cover3_5) (ix2 g o)

/-- After the region the second output array holds, at (g, o), the log-softmax of row g of the logits. -/
theorem final3_6 (c : Dev nD) (g : Fin 256) (o : Fin 10) :
    (dat3 (F := Ideal) V c).arrAt 6 cfg3.N (ix2 g o)
      = Cert.Spec.logsm (fun o' => Cert.Spec.logit (V c main_v77) (V c main_arg7) (V c main_v78) (V c main_arg9) (V c main_v79) g o') o :=
  congrFun ((dat3 (F := Ideal) V c).arrAt_eq_of_cover 6 (logsmArr V c) (fun t _ => flushed3_6_eq V c t) cover3_6) (ix2 g o)

end Cert.KernelIdeal.Hand

end
-- ==== Proof.Ref.Mm.lean ====
/-
  The reference's two linear projections, entry by entry: each host contraction of a 50000 x 128 array with a 128 x 128
  matrix is, at row i and column j, the matrix product's entry (i, j).
-/
import proofs.«408544_j16157666968391_1_alg».proof.Proof.Ref.ReadP
import proofs.«408544_j16157666968391_1_alg».proof.Proof.Spec
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The first contraction reads its left operand at (row, k). -/
theorem lidx_main_v32_ix2 (i : Fin 50000) (j k : Fin 128) : lidx_main_v32 (ix2 i j) k = ix2 i k :=
  funext fun a => Fin.ext (by match a with | ⟨0, _⟩ => rfl | ⟨1, _⟩ => rfl)

/-- The first contraction reads its right operand at (k, column). -/
theorem ridx_main_v32_ix2 (i : Fin 50000) (j k : Fin 128) : ridx_main_v32 (ix2 i j) k = ix2 k j :=
  funext fun a => Fin.ext (by match a with | ⟨0, _⟩ => rfl | ⟨1, _⟩ => rfl)

/-- The second contraction reads its left operand at (row, k). -/
theorem lidx_main_v49_ix2 (i : Fin 50000) (j k : Fin 128) : lidx_main_v49 (ix2 i j) k = ix2 i k :=
  funext fun a => Fin.ext (by match a with | ⟨0, _⟩ => rfl | ⟨1, _⟩ => rfl)

/-- The second contraction reads its right operand at (k, column). -/
theorem ridx_main_v49_ix2 (i : Fin 50000) (j k : Fin 128) : ridx_main_v49 (ix2 i j) k = ix2 k j :=
  funext fun a => Fin.ext (by match a with | ⟨0, _⟩ => rfl | ⟨1, _⟩ => rfl)

/-- The first projection of the reference at (i, j) is entry (i, j) of activations times weights. -/
theorem val_main_v32_mm (x0 : (⟨S50000x128, .f32⟩ : BufTy).Contents (Elt Ideal)) (x3 : (⟨S128x128, .f32⟩ : BufTy).Contents (Elt Ideal))
    (i : Fin 50000) (j : Fin 128) :
    val_main_v32 (F := Ideal) x0 x3 (ix2 i j) = Cert.Spec.mm x0 x3 i j := by
  rw [val_main_v32_apply]
  unfold Cert.Spec.mm
  exact Finset.sum_congr rfl fun k _ => by rw [lidx_main_v32_ix2, ridx_main_v32_ix2]

/-- The second projection of the reference at (i, j) is entry (i, j) of the first layer's output times the second
    weight matrix. -/
theorem val_main_v49_mm (x0 : (⟨S50000x128, .f32⟩ : BufTy).Contents (Elt Ideal)) (x1 : (⟨S2x800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (i : Fin 50000) (j : Fin 128) :
    val_main_v49 (F := Ideal) x0 x1 x3 x4 x5 (ix2 i j) = Cert.Spec.mm (val_main_v48 (F := Ideal) x0 x1 x3 x4) x5 i j := by
  rw [val_main_v49_apply]
  unfold Cert.Spec.mm
  exact Finset.sum_congr rfl fun k _ => by rw [lidx_main_v49_ix2, ridx_main_v49_ix2]

end Cert.ReferenceIdeal.RefValue

end
-- ==== Proof.LibPropagate.lean ====
/-
  Two finite contractions in either order, over the extended reals.

  Let H be a family indexed by N × E, d and Y families over N and ide a family over E, all with real entries.  Contracting H with
  the scaled family Y·d over N, scaling by ide, contracting with H over E and scaling by d gives, at i,

      (∑ e, H i e * ((∑ j, H j e * (Y j * d j)) * ide e)) * d i,

  and forming the kernel G i j = ∑ e, ((d i * H i e) * ide e) * (d j * H j e) first and then contracting it with Y gives

      ∑ j, G i j * Y j.

  The two are one number: distribute the outer factors into the inner sum, exchange the two finite sums, and compare the
  summands as products of the same six reals.  Distributivity of * over + fails at the infinities of the extended reals, so
  every entry is asked to be a real number; the identity is then the image of the identity over ℝ under the coercion, which
  commutes with *, + and finite sums.

  The file also regroups a sum of a·b terms into a blocks of b terms.
-/
import Mathlib.Data.EReal.Operations
import Mathlib.Algebra.BigOperators.Ring.Finset
import Mathlib.Algebra.BigOperators.Fin
import Mathlib.Logic.Equiv.Fin.Basic
import Mathlib.Tactic.Ring

open scoped BigOperators

namespace Cert.Lib.Propagate

/-! ### Real entries are closed under +, * and finite sums -/

/-- The sum of two extended reals that are real numbers is a real number. -/
theorem add_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two extended reals that are real numbers is a real number. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The coercion from ℝ commutes with a finite sum: by induction on the index set, one term at a time. -/
theorem coe_finsetSum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over a finite set of extended reals that are all real numbers is a real number. -/
theorem finsetSum_real {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finsetSum]; exact Finset.sum_congr rfl fun i _ => hg i⟩

/-- A sum over a finite type of extended reals that are all real numbers is a real number. -/
theorem sum_real {ι : Type} [Fintype ι] (f : ι → EReal) (hf : ∀ i, ∃ r : ℝ, f i = (r : EReal)) :
    ∃ r : ℝ, ∑ i, f i = (r : EReal) :=
  finsetSum_real Finset.univ f hf

/-! ### The two orders of contraction -/

section Propagate

variable {N E : Type} [Fintype N] [Fintype E]

/-- Over ℝ: scaling and contracting over N first and over E second equals contracting the kernel
    `∑ e, ((d i * H i e) * ide e) * (d j * H j e)` with `Y`.  Both sides are the double sum over (j, e) of the product
    of the six factors `d i, H i e, ide e, d j, H j e, Y j`. -/
theorem propagate_eq_real (h : N → E → ℝ) (δ : N → ℝ) (ε : E → ℝ) (y : N → ℝ) (i : N) :
    (∑ e, h i e * ((∑ j, h j e * (y j * δ j)) * ε e)) * δ i
      = ∑ j, (∑ e, ((δ i * h i e) * ε e) * (δ j * h j e)) * y j := by
  have hl : (∑ e, h i e * ((∑ j, h j e * (y j * δ j)) * ε e)) * δ i
      = ∑ e, ∑ j, δ i * h i e * ε e * (δ j * h j e) * y j := by
    rw [Finset.sum_mul]
    refine Finset.sum_congr rfl fun e _ => ?_
    rw [Finset.sum_mul, Finset.mul_sum, Finset.sum_mul]
    refine Finset.sum_congr rfl fun j _ => ?_
    ring
  have hr : (∑ j, (∑ e, ((δ i * h i e) * ε e) * (δ j * h j e)) * y j)
      = ∑ j, ∑ e, δ i * h i e * ε e * (δ j * h j e) * y j :=
    Finset.sum_congr rfl fun j _ => Finset.sum_mul _ _ _
  rw [hl, hr, Finset.sum_comm]

/-- Over the extended reals, with every entry a real number: the contraction over N first and E second, scaled by `ide`
    between and by `d` at both ends, equals the kernel `∑ e, ((d i * H i e) * ide e) * (d j * H j e)` contracted with `Y`.
    The real witnesses are chosen, the coercion is moved outside both sides, and the identity over ℝ closes it. -/
theorem propagate_eq (H : N → E → EReal) (d : N → EReal) (ide : E → EReal) (Y : N → EReal)
    (hH : ∀ i e, ∃ r : ℝ, H i e = (r : EReal)) (hd : ∀ i, ∃ r : ℝ, d i = (r : EReal))
    (hide : ∀ e, ∃ r : ℝ, ide e = (r : EReal)) (hY : ∀ j, ∃ r : ℝ, Y j = (r : EReal)) (i : N) :
    (∑ e, H i e * ((∑ j, H j e * (Y j * d j)) * ide e)) * d i
      = ∑ j, (∑ e, ((d i * H i e) * ide e) * (d j * H j e)) * Y j := by
  choose h hh using hH
  choose δ hδ using hd
  choose ε hε using hide
  choose y hy using hY
  have hl : (∑ e, H i e * ((∑ j, H j e * (Y j * d j)) * ide e)) * d i
      = (((∑ e, h i e * ((∑ j, h j e * (y j * δ j)) * ε e)) * δ i : ℝ) : EReal) := by
    simp only [hh, hδ, hε, hy, EReal.coe_mul, coe_finsetSum]
  have hr : (∑ j, (∑ e, ((d i * H i e) * ide e) * (d j * H j e)) * Y j)
      = ((∑ j, (∑ e, ((δ i * h i e) * ε e) * (δ j * h j e)) * y j : ℝ) : EReal) := by
    simp only [hh, hδ, hε, hy, EReal.coe_mul, coe_finsetSum]
  rw [hl, hr, propagate_eq_real]

/-- With every entry a real number, the propagated value is a real number: it is built from the entries by products and
    finite sums only. -/
theorem propagate_real (H : N → E → EReal) (d : N → EReal) (ide : E → EReal) (Y : N → EReal)
    (hH : ∀ i e, ∃ r : ℝ, H i e = (r : EReal)) (hd : ∀ i, ∃ r : ℝ, d i = (r : EReal))
    (hide : ∀ e, ∃ r : ℝ, ide e = (r : EReal)) (hY : ∀ j, ∃ r : ℝ, Y j = (r : EReal)) (i : N) :
    ∃ r : ℝ, (∑ e, H i e * ((∑ j, H j e * (Y j * d j)) * ide e)) * d i = (r : EReal) :=
  mul_real
    (sum_real _ fun e =>
      mul_real (hH i e) (mul_real (sum_real _ fun j => mul_real (hH j e) (mul_real (hY j) (hd j))) (hide e)))
    (hd i)

end Propagate

/-! ### A sum of a·b terms as a blocks of b -/

/-- Regrouping: the sum of `g` over the first `a * b` naturals is the sum over `a` consecutive blocks of `b` terms, block
    `t` holding the arguments `t * b + r` for `r < b`.  The pairs (t, r) and the naturals below `a * b` correspond by
    `(t, r) ↦ r + b * t`. -/
theorem sum_blocks {M : Type} [AddCommMonoid M] (a b : ℕ) (g : ℕ → M) :
    ∑ t : Fin a, ∑ r : Fin b, g (t.val * b + r.val) = ∑ j : Fin (a * b), g j.val := by
  rw [← Fintype.sum_prod_type', ← (finProdFinEquiv (m := a) (n := b)).sum_comp]
  refine Fintype.sum_congr _ _ fun p => ?_
  rw [finProdFinEquiv_apply_val, Nat.add_comm, Nat.mul_comm]

/-- The regrouping at 10000 = 25 · 400: 25 blocks of 400 consecutive terms. -/
theorem sum_blocks_25_400 {M : Type} [AddCommMonoid M] (g : ℕ → M) :
    (∑ t : Fin 25, ∑ r : Fin 400, g (t.val * 400 + r.val)) = ∑ j : Fin 10000, g j.val :=
  sum_blocks 25 400 g

end Cert.Lib.Propagate
-- ==== Proof.Ref.Finite.lean ====
/-
  The reference's logits are real numbers when its float inputs are.

  Every float value the reference forms before the log-softmax is built from the float inputs and the constants 0 and 1
  by sums, products, maxima, selections, one reciprocal square root of a number at least one, and by operations that only
  move entries around (broadcasts, gathers, concatenations) or add finitely many of them up (accumulating scatters, matrix
  products).  The integer inputs only decide WHICH entries are moved or added: a gather reads some entry of its operand
  whatever the position says, and an accumulating scatter adds some of the updates to each operand entry whatever the
  positions say.  So each stage's entries are real numbers once the earlier stages' are, and the chain ends at the logits.
-/
import Idealize.ShloMosaic.Lib.Pipeline.Value
import Idealize.ShloMosaic.Lib.ValueIdx
import Idealize.ShloMosaic.PureOps.Ideal.Laws
import Idealize.ShloMosaic.Lib.IdealHost
import proofs.«408544_j16157666968391_1_alg».proof.Proof.Ref.ReadP
import proofs.«408544_j16157666968391_1_alg».proof.Proof.LibPropagate

noncomputable section

namespace Cert.ReferenceIdeal.RefValue

open Cert.ReferenceIdeal Cert.ReferenceIdeal.Gen Cert.ReferenceIdeal.Read Idealize.ShloMosaic Idealize.ShloMosaic.StableHlo Cert.Lib.Propagate
open scoped BigOperators

/-- An extended real that is a real number. -/
abbrev IsReal (x : EReal) : Prop := ∃ r : ℝ, x = (r : EReal)

theorem isReal_zero : IsReal 0 := ⟨0, rfl⟩

theorem isReal_one : IsReal 1 := ⟨1, rfl⟩

/-- The f32 pattern of zero denotes a real number. -/
theorem isReal_ofBits_zero : IsReal (FloatOps.ofBits (F := Ideal) .f32 0x00000000#32) := by
  rw [Ideal.ofBits_def, Ideal.ofBits_zero_f32]; exact isReal_zero

/-- The f32 pattern of one denotes a real number. -/
theorem isReal_ofBits_one : IsReal (FloatOps.ofBits (F := Ideal) .f32 0x3F800000#32) := by
  rw [Ideal.ofBits_def, Ideal.ofBits_one_f32]; exact isReal_one

/-- The larger of two real numbers is one of them. -/
theorem isReal_max {x y : EReal} (hx : IsReal x) (hy : IsReal y) : IsReal (max x y) := by
  rcases le_total x y with h | h
  · rw [max_eq_right h]; exact hy
  · rw [max_eq_left h]; exact hx

/-- A selection between two real numbers is one of them. -/
theorem isReal_select (c : BitVec 1) {a b : EReal} (ha : IsReal a) (hb : IsReal b) : IsReal (Scalar.select c a b) := by
  unfold Scalar.select
  split
  · exact ha
  · exact hb

/-- The reciprocal square root of a real number at least one is a real number: the argument is positive. -/
theorem isReal_rsqrt {x : EReal} (hx : IsReal x) (h1 : 1 ≤ x) : IsReal (Ideal.rsqrt x) := by
  obtain ⟨r, rfl⟩ := hx
  have hr : (1 : ℝ) ≤ r := by exact_mod_cast h1
  rw [Ideal.rsqrt_coe, if_neg (by linarith), if_neg (by linarith)]
  exact ⟨_, rfl⟩

/-- An accumulating scatter of real updates into a real operand has real entries: each is the operand's entry plus a
    finite sum of updates, wherever the positions point. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd d x idx upd i) := by
  show IsReal (x i + ∑ j ∈ Finset.univ.filter (fun j => d.resultIdx? j idx = some i), upd j)
  exact add_real (hx i) (finsetSum_real _ _ hu)

/-- A gather of a real operand has real entries: each is an entry of the operand, wherever the positions point. -/
theorem gather_real {s si t : Shape} {w : Nat} (d : GatherDims s si t) (x : s.Idx → EReal) (idx : IVec si w)
    (hx : ∀ i, IsReal (x i)) (j : t.Idx) : IsReal (Host.gather d x idx j) :=
  hx _

/-- A concatenation of pieces with real entries has real entries: each is an entry of one of the pieces. -/
theorem concatenate_real (t : Shape) (a : Fin t.rank) (xs : List ((s : Shape) × (s.Idx → EReal)))
    (h : Shape.Concatenates (xs.map (·.1)) t a) (hx : ∀ p ∈ xs, ∀ i, IsReal (p.2 i)) (j : t.Idx) :
    IsReal (concatenate t a xs h j) := by
  unfold concatenate
  exact hx _ (List.getElem_mem _) _

/-! ## The chain, one stage at a time -/

variable (x0 : (⟨S50000x128, .f32⟩ : BufTy).Contents (Elt Ideal)) (x1 : (⟨S2x800000, .i32⟩ : BufTy).Contents (Elt Ideal)) (x2 : (⟨S50000, .i32⟩ : BufTy).Contents (Elt Ideal))
  (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
  (x7 : (⟨S256x256, .f32⟩ : BufTy).Contents (Elt Ideal)) (x8 : (⟨S256, .f32⟩ : BufTy).Contents (Elt Ideal)) (x9 : (⟨S256x10, .f32⟩ : BufTy).Contents (Elt Ideal)) (x10 : (⟨S10, .f32⟩ : BufTy).Contents (Elt Ideal))

/-! ### The degrees and their reciprocal square roots -/

/-- The vector of ones that is scattered. -/
theorem v7_real (i : S850000.Idx) : IsReal (val_main_v7 (F := Ideal) i) := by
  rw [val_main_v7_apply, val_main_cst_apply]; exact isReal_ofBits_one

/-- The vector of zeros it is scattered into. -/
theorem v8_real (i : S50000.Idx) : IsReal (val_main_v8 (F := Ideal) i) := by
  rw [val_main_v8_apply, val_main_cst_0_apply]; exact isReal_ofBits_zero

/-- The degrees: zeros plus, at each node, finitely many ones. -/
theorem v10_real (i : S50000.Idx) : IsReal (val_main_v10 (F := Ideal) x1 i) :=
  scatterAdd_real _ _ _ _ v8_real v7_real i

/-- The vector of ones the degrees are clamped below by. -/
theorem v13_eq (i : S50000.Idx) : val_main_v13 (F := Ideal) i = 1 := by
  rw [val_main_v13_apply, val_main_cst_2_apply, Ideal.ofBits_def, Ideal.ofBits_one_f32]

/-- The clamped degrees are real and at least one. -/
theorem v14_real (i : S50000.Idx) : IsReal (val_main_v14 (F := Ideal) x1 i) := by
  rw [val_main_v14_apply, v13_eq]
  exact isReal_max (v10_real x1 i) isReal_one

theorem v14_ge (i : S50000.Idx) : 1 ≤ val_main_v14 (F := Ideal) x1 i := by
  rw [val_main_v14_apply, v13_eq]
  exact le_max_right _ _

/-- Their reciprocal square roots. -/
theorem v15_real (i : S50000.Idx) : IsReal (val_main_v15 (F := Ideal) x1 i) := by
  rw [val_main_v15_apply, Ideal.hostUnary_rsqrt_def]
  exact isReal_rsqrt (v14_real x1 i) (v14_ge x1 i)

/-- The zeros the selection falls back to. -/
theorem call0_v1_real (i : S50000.Idx) : IsReal (val_main_call0_v1 (F := Ideal) i) := by
  rw [val_main_call0_v1_apply, val_main_call0_v0_apply, val_main_cst_3_apply]; exact isReal_ofBits_zero

/-- The normalising factor of each node: a reciprocal square root or zero. -/
theorem v16_real (i : S50000.Idx) : IsReal (val_main_v16 (F := Ideal) x1 i) := by
  rw [val_main_v16_apply]
  exact isReal_select _ (v15_real x1 i) (call0_v1_real i)

/-! ### The edge weights -/

theorem v23_real (i : S850000.Idx) : IsReal (val_main_v23 (F := Ideal) x1 i) :=
  gather_real _ _ _ (v16_real x1) i

theorem v30_real (i : S850000.Idx) : IsReal (val_main_v30 (F := Ideal) x1 i) :=
  gather_real _ _ _ (v16_real x1) i

/-- The weight of an edge: the product of its two ends' factors. -/
theorem v31_real (i : S850000.Idx) : IsReal (val_main_v31 (F := Ideal) x1 i) := by
  rw [val_main_v31_apply]
  exact mul_real (v23_real x1 i) (v30_real x1 i)

/-! ### The first layer -/

/-- The features times the first weight matrix. -/
theorem v32_real (h0 : ∀ i, IsReal (x0 i)) (h3 : ∀ i, IsReal (x3 i)) (i : S50000x128.Idx) :
    IsReal (val_main_v32 (F := Ideal) x0 x3 i) := by
  rw [val_main_v32_apply]
  exact sum_real _ fun k => mul_real (h0 _) (h3 _)

theorem v39_real (h0 : ∀ i, IsReal (x0 i)) (h3 : ∀ i, IsReal (x3 i)) (i : S850000x128.Idx) :
    IsReal (val_main_v39 (F := Ideal) x0 x1 x3 i) :=
  gather_real _ _ _ (v32_real x0 x3 h0 h3) i

theorem v41_real (i : S850000x128.Idx) : IsReal (val_main_v41 (F := Ideal) x1 i) := by
  rw [val_main_v41_apply, val_main_v40_apply]; exact v31_real x1 _

/-- The messages: gathered rows times the edge weights. -/
theorem v42_real (h0 : ∀ i, IsReal (x0 i)) (h3 : ∀ i, IsReal (x3 i)) (i : S850000x128.Idx) :
    IsReal (val_main_v42 (F := Ideal) x0 x1 x3 i) := by
  rw [val_main_v42_apply]
  exact mul_real (v39_real x0 x1 x3 h0 h3 i) (v41_real x1 i)

theorem v43_real (i : S50000x128.Idx) : IsReal (val_main_v43 (F := Ideal) i) := by
  rw [val_main_v43_apply, val_main_cst_9_apply]; exact isReal_ofBits_zero

/-- The messages added up at their targets. -/
theorem v45_real (h0 : ∀ i, IsReal (x0 i)) (h3 : ∀ i, IsReal (x3 i)) (i : S50000x128.Idx) :
    IsReal (val_main_v45 (F := Ideal) x0 x1 x3 i) :=
  scatterAdd_real _ _ _ _ v43_real (v42_real x0 x1 x3 h0 h3) i

theorem v47_real (h4 : ∀ i, IsReal (x4 i)) (i : S50000x128.Idx) : IsReal (val_main_v47 (F := Ideal) x4 i) := by
  rw [val_main_v47_apply, val_main_v46_apply]; exact h4 _

/-- THE FIRST LAYER'S OUTPUT has real entries. -/
theorem v48_real (h0 : ∀ i, IsReal (x0 i)) (h3 : ∀ i, IsReal (x3 i)) (h4 : ∀ i, IsReal (x4 i)) (i : S50000x128.Idx) :
    IsReal (val_main_v48 (F := Ideal) x0 x1 x3 x4 i) := by
  rw [val_main_v48_apply]
  exact add_real (v45_real x0 x1 x3 h0 h3 i) (v47_real x4 h4 i)

/-! ### The second layer -/

theorem v49_real (h0 : ∀ i, IsReal (x0 i)) (h3 : ∀ i, IsReal (x3 i)) (h4 : ∀ i, IsReal (x4 i)) (h5 : ∀ i, IsReal (x5 i))
    (i : S50000x128.Idx) : IsReal (val_main_v49 (F := Ideal) x0 x1 x3 x4 x5 i) := by
  rw [val_main_v49_apply]
  exact sum_real _ fun k => mul_real (v48_real x0 x1 x3 x4 h0 h3 h4 _) (h5 _)

theorem v56_real (h0 : ∀ i, IsReal (x0 i)) (h3 : ∀ i, IsReal (x3 i)) (h4 : ∀ i, IsReal (x4 i)) (h5 : ∀ i, IsReal (x5 i))
    (i : S850000x128.Idx) : IsReal (val_main_v56 (F := Ideal) x0 x1 x3 x4 x5 i) :=
  gather_real _ _ _ (v49_real x0 x1 x3 x4 x5 h0 h3 h4 h5) i

theorem v58_real (i : S850000x128.Idx) : IsReal (val_main_v58 (F := Ideal) x1 i) := by
  rw [val_main_v58_apply, val_main_v57_apply]; exact v31_real x1 _

theorem v59_real (h0 : ∀ i, IsReal (x0 i)) (h3 : ∀ i, IsReal (x3 i)) (h4 : ∀ i, IsReal (x4 i)) (h5 : ∀ i, IsReal (x5 i))
    (i : S850000x128.Idx) : IsReal (val_main_v59 (F := Ideal) x0 x1 x3 x4 x5 i) := by
  rw [val_main_v59_apply]
  exact mul_real (v56_real x0 x1 x3 x4 x5 h0 h3 h4 h5 i) (v58_real x1 i)

theorem v60_real (i : S50000x128.Idx) : IsReal (val_main_v60 (F := Ideal) i) := by
  rw [val_main_v60_apply, val_main_cst_12_apply]; exact isReal_ofBits_zero

theorem v62_real (h0 : ∀ i, IsReal (x0 i)) (h3 : ∀ i, IsReal (x3 i)) (h4 : ∀ i, IsReal (x4 i)) (h5 : ∀ i, IsReal (x5 i))
    (i : S50000x128.Idx) : IsReal (val_main_v62 (F := Ideal) x0 x1 x3 x4 x5 i) :=
  scatterAdd_real _ _ _ _ v60_real (v59_real x0 x1 x3 x4 x5 h0 h3 h4 h5) i

theorem v64_real (h6 : ∀ i, IsReal (x6 i)) (i : S50000x128.Idx) : IsReal (val_main_v64 (F := Ideal) x6 i) := by
  rw [val_main_v64_apply, val_main_v63_apply]; exact h6 _

/-- THE SECOND LAYER'S OUTPUT has real entries. -/
theorem v65_real (h0 : ∀ i, IsReal (x0 i)) (h3 : ∀ i, IsReal (x3 i)) (h4 : ∀ i, IsReal (x4 i)) (h5 : ∀ i, IsReal (x5 i))
    (h6 : ∀ i, IsReal (x6 i)) (i : S50000x128.Idx) : IsReal (val_main_v65 (F := Ideal) x0 x1 x3 x4 x5 x6 i) := by
  rw [val_main_v65_apply]
  exact add_real (v62_real x0 x1 x3 x4 x5 h0 h3 h4 h5 i) (v64_real x6 h6 i)

/-! ### The pooled features -/

theorem v66_real (i : S256x128.Idx) : IsReal (val_main_v66 (F := Ideal) i) := by
  rw [val_main_v66_apply, val_main_cst_13_apply]; exact isReal_ofBits_zero

theorem v68_real (h0 : ∀ i, IsReal (x0 i)) (h3 : ∀ i, IsReal (x3 i)) (h4 : ∀ i, IsReal (x4 i)) (i : S256x128.Idx) :
    IsReal (val_main_v68 (F := Ideal) x0 x1 x2 x3 x4 i) :=
  scatterAdd_real _ _ _ _ v66_real (v48_real x0 x1 x3 x4 h0 h3 h4) i

theorem v69_real (i : S256x128.Idx) : IsReal (val_main_v69 (F := Ideal) i) := by
  rw [val_main_v69_apply, val_main_cst_14_apply]; exact isReal_ofBits_zero

theorem v71_real (h0 : ∀ i, IsReal (x0 i)) (h3 : ∀ i, IsReal (x3 i)) (h4 : ∀ i, IsReal (x4 i)) (h5 : ∀ i, IsReal (x5 i))
    (h6 : ∀ i, IsReal (x6 i)) (i : S256x128.Idx) : IsReal (val_main_v71 (F := Ideal) x0 x1 x2 x3 x4 x5 x6 i) :=
  scatterAdd_real _ _ _ _ v69_real (v65_real x0 x1 x3 x4 x5 x6 h0 h3 h4 h5 h6) i

/-- THE POOLED FEATURES, both layers' side by side, have real entries. -/
theorem v72_real (h0 : ∀ i, IsReal (x0 i)) (h3 : ∀ i, IsReal (x3 i)) (h4 : ∀ i, IsReal (x4 i)) (h5 : ∀ i, IsReal (x5 i))
    (h6 : ∀ i, IsReal (x6 i)) (i : S256x256.Idx) : IsReal (val_main_v72 (F := Ideal) x0 x1 x2 x3 x4 x5 x6 i) := by
  unfold val_main_v72
  refine concatenate_real _ _ _ _ (fun p hp => ?_) i
  rcases List.mem_cons.mp hp with rfl | hp
  · exact v68_real x0 x1 x2 x3 x4 h0 h3 h4
  · rcases List.mem_cons.mp hp with rfl | hp
    · exact v71_real x0 x1 x2 x3 x4 x5 x6 h0 h3 h4 h5 h6
    · exact absurd hp (List.not_mem_nil)

/-! ### The head -/

theorem v73_real (h0 : ∀ i, IsReal (x0 i)) (h3 : ∀ i, IsReal (x3 i)) (h4 : ∀ i, IsReal (x4 i)) (h5 : ∀ i, IsReal (x5 i))
    (h6 : ∀ i, IsReal (x6 i)) (h7 : ∀ i, IsReal (x7 i)) (i : S256x256.Idx) :
    IsReal (val_main_v73 (F := Ideal) x0 x1 x2 x3 x4 x5 x6 x7 i) := by
  rw [val_main_v73_apply]
  exact sum_real _ fun k => mul_real (v72_real x0 x1 x2 x3 x4 x5 x6 h0 h3 h4 h5 h6 _) (h7 _)

theorem v75_real (h8 : ∀ i, IsReal (x8 i)) (i : S256x256.Idx) : IsReal (val_main_v75 (F := Ideal) x8 i) := by
  rw [val_main_v75_apply, val_main_v74_apply]; exact h8 _

theorem v76_real (h0 : ∀ i, IsReal (x0 i)) (h3 : ∀ i, IsReal (x3 i)) (h4 : ∀ i, IsReal (x4 i)) (h5 : ∀ i, IsReal (x5 i))
    (h6 : ∀ i, IsReal (x6 i)) (h7 : ∀ i, IsReal (x7 i)) (h8 : ∀ i, IsReal (x8 i)) (i : S256x256.Idx) :
    IsReal (val_main_v76 (F := Ideal) x0 x1 x2 x3 x4 x5 x6 x7 x8 i) := by
  rw [val_main_v76_apply]
  exact add_real (v73_real x0 x1 x2 x3 x4 x5 x6 x7 h0 h3 h4 h5 h6 h7 i) (v75_real x8 h8 i)

theorem call1_v0_real (i : S256x256.Idx) : IsReal (val_main_call1_v0 (F := Ideal) i) := by
  rw [val_main_call1_v0_apply, val_main_call1_cst_apply]; exact isReal_ofBits_zero

/-- The hidden layer: the larger of the affine value and zero. -/
theorem v77_real (h0 : ∀ i, IsReal (x0 i)) (h3 : ∀ i, IsReal (x3 i)) (h4 : ∀ i, IsReal (x4 i)) (h5 : ∀ i, IsReal (x5 i))
    (h6 : ∀ i, IsReal (x6 i)) (h7 : ∀ i, IsReal (x7 i)) (h8 : ∀ i, IsReal (x8 i)) (i : S256x256.Idx) :
    IsReal (val_main_v77 (F := Ideal) x0 x1 x2 x3 x4 x5 x6 x7 x8 i) := by
  rw [val_main_v77_apply]
  exact isReal_max (v76_real x0 x1 x2 x3 x4 x5 x6 x7 x8 h0 h3 h4 h5 h6 h7 h8 i) (call1_v0_real i)

theorem v78_real (h0 : ∀ i, IsReal (x0 i)) (h3 : ∀ i, IsReal (x3 i)) (h4 : ∀ i, IsReal (x4 i)) (h5 : ∀ i, IsReal (x5 i))
    (h6 : ∀ i, IsReal (x6 i)) (h7 : ∀ i, IsReal (x7 i)) (h8 : ∀ i, IsReal (x8 i)) (h9 : ∀ i, IsReal (x9 i))
    (i : S256x10.Idx) : IsReal (val_main_v78 (F := Ideal) x0 x1 x2 x3 x4 x5 x6 x7 x8 x9 i) := by
  rw [val_main_v78_apply]
  exact sum_real _ fun k => mul_real (v77_real x0 x1 x2 x3 x4 x5 x6 x7 x8 h0 h3 h4 h5 h6 h7 h8 _) (h9 _)

theorem v80_real (h10 : ∀ i, IsReal (x10 i)) (i : S256x10.Idx) : IsReal (val_main_v80 (F := Ideal) x10 i) := by
  rw [val_main_v80_apply, val_main_v79_apply]; exact h10 _

/-- THE LOGITS are real numbers when every float input is. -/
theorem logits_real (h0 : ∀ i, IsReal (x0 i)) (h3 : ∀ i, IsReal (x3 i)) (h4 : ∀ i, IsReal (x4 i)) (h5 : ∀ i, IsReal (x5 i))
    (h6 : ∀ i, IsReal (x6 i)) (h7 : ∀ i, IsReal (x7 i)) (h8 : ∀ i, IsReal (x8 i)) (h9 : ∀ i, IsReal (x9 i))
    (h10 : ∀ i, IsReal (x10 i)) :
    ∀ i, IsReal (val_main_v81 (F := Ideal) x0 x1 x2 x3 x4 x5 x6 x7 x8 x9 x10 i) := by
  intro i
  rw [val_main_v81_apply]
  exact add_real (v78_real x0 x1 x2 x3 x4 x5 x6 x7 x8 x9 h0 h3 h4 h5 h6 h7 h8 h9 i) (v80_real x10 h10 i)

end Cert.ReferenceIdeal.RefValue

end
-- ==== Proof.Ref.Pre.lean ====
/-
  The claim's precondition, read back: a printed predicate that is the conjunction, over the nine float arguments,
  of "every entry's absolute value is below +∞" says that every entry of every float argument is a real number.
-/
import proofs.«408544_j16157666968391_1_alg».proof.Pre_finite_inputs
import proofs.«408544_j16157666968391_1_alg».proof.Proof.Gen.Pre_finite_inputs
import Idealize.ShloMosaic.Lib.ReduceAll
import Idealize.ShloMosaic.Lib.ValueIdx
import Idealize.ShloMosaic.PureOps.Ideal

noncomputable section

namespace Cert.PreReal

open Idealize.ShloMosaic Cert.Pre_finite_inputs

/-- The bit pattern of the positive infinity denotes the top of the extended reals. -/
theorem inf_eq_top : Ideal.ofBits .f32 0x7F800000#32 = (⊤ : EReal) := by
  simp [Ideal.ofBits, Ideal.ieee]

/-- An extended real whose absolute value `max x (-x)` is strictly below `+∞` is a real number:
    at `⊥` and at `⊤` the absolute value is `⊤`. -/
theorem real_of_abs_lt (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- The scalar shape has one index. -/
instance : Subsingleton S_.Idx := ⟨fun a b => funext fun d => d.elim0⟩

/-- One conjunct of the predicate: a reduction by `and`, over all axes, of the entrywise test
    `|a i| < +∞` that came out 1 says every entry of `a` is a real number. -/
theorem all_real {s : Shape} {axes : List (Fin s.rank)} (a : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf a) (broadcastInDim s ![] hb (constant S_ .f32 0x7F800000#32)))
          (constantI S_ 1 1#1) hr hu j = 1#1) :
    ∀ i, ∃ r : ℝ, a i = (r : EReal) := fun i =>
  real_of_abs_lt (a i) (Host.reduce_andi_all _ _ hr hu j e i)

/-- Every entry of every float argument is a real number, when the predicate holds. -/
theorem real_of_pre [Cert.Pre_finite_inputs.Facts]
    (a0 : FVec Ideal S50000x128 .f32) (a1 : IVec S2x800000 32) (a2 : IVec S50000 32)
    (a3 : FVec Ideal S128x128 .f32) (a4 : FVec Ideal S128 .f32) (a5 : FVec Ideal S128x128 .f32)
    (a6 : FVec Ideal S128 .f32) (a7 : FVec Ideal S256x256 .f32) (a8 : FVec Ideal S256 .f32)
    (a9 : FVec Ideal S256x10 .f32) (a10 : FVec Ideal S10 .f32)
    (h : Cert.Pre_finite_inputs.fn (F := Ideal) a0 a1 a2 a3 a4 a5 a6 a7 a8 a9 a10 = fun _ => 1#1) :
    (∀ i, ∃ r : ℝ, a0 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧
    (∀ i, ∃ r : ℝ, a8 i = (r : EReal)) ∧ (∀ i, ∃ r : ℝ, a9 i = (r : EReal)) ∧
    (∀ i, ∃ r : ℝ, a10 i = (r : EReal)) := by
  have h0 := congrFun h ValueIdx.ix0
  dsimp only [Cert.Pre_finite_inputs.fn, Cert.Pre_finite_inputs.fn_part1, Cert.Pre_finite_inputs.fn_part2,
    Idealize.ShloMosaic.andi] at h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨all_real a0 _ _ _ _ e0, all_real a3 _ _ _ _ e3, all_real a4 _ _ _ _ e4, all_real a5 _ _ _ _ e5,
    all_real a6 _ _ _ _ e6, all_real a7 _ _ _ _ e7, all_real a8 _ _ _ _ e8, all_real a9 _ _ _ _ e9,
    all_real a10 _ _ _ _ e10⟩

end Cert.PreReal

end
-- ==== Proof.Bridge.Chain.lean ====
/-
  The host operations the two programs share. Outside the two matrix products (a tiled kernel in one program, one
  contraction in the other) the kernel program's host operations are, one for one and buffer for buffer, the
  reference's: the edge lists with their self loops, the degree and its reciprocal square root, the edge weights,
  and per layer the gather of the transformed rows, their weighting, the scatter-add into the nodes and the bias.
  So each buffer these operations write holds the reference's stage value of the same name, for every float
  instance and from any contents of the other buffers, provided the buffers a stretch reads hold the reference's
  stage values. One lemma per stretch and buffer, over an arbitrary valuation; then the three stretches before the
  first product composed.
-/
import proofs.«408544_j16157666968391_1_alg».proof.Proof.Gen.KernelIdeal.Launch
import proofs.«408544_j16157666968391_1_alg».proof.Proof.Ref.ReadP
import Idealize.ShloMosaic.Lib.StableHlo.Run

noncomputable section

namespace Cert.Bridge

open Idealize.ShloMosaic Idealize.ShloMosaic.TcCoe Idealize.ShloMosaic.StableHlo
open Cert.KernelIdeal Cert.KernelIdeal.Gen

variable {F : FTy → Type} [FloatOps F]

/-! ### The first stretch: the edge lists, the degree test and the reciprocal square root -/

theorem s0_v3 (W : Valuation τ sig (Elt F)) :
    StableHlo.after hostOps0 W (Proc.devRef .tc main_v3) = Cert.ReferenceIdeal.Read.val_main_v3 (W (Proc.devRef .tc main_arg1)) := by
  after_results_simp <;> rfl

theorem s0_v6 (W : Valuation τ sig (Elt F)) :
    StableHlo.after hostOps0 W (Proc.devRef .tc main_v6) = Cert.ReferenceIdeal.Read.val_main_v6 (W (Proc.devRef .tc main_arg1)) := by
  after_results_simp <;> rfl

theorem s0_v12 (W : Valuation τ sig (Elt F)) :
    StableHlo.after hostOps0 W (Proc.devRef .tc main_v12) = Cert.ReferenceIdeal.Read.val_main_v12 (W (Proc.devRef .tc main_arg1)) := by
  after_results_simp <;> rfl

theorem s0_v15 (W : Valuation τ sig (Elt F)) :
    StableHlo.after hostOps0 W (Proc.devRef .tc main_v15) = Cert.ReferenceIdeal.Read.val_main_v15 (W (Proc.devRef .tc main_arg1)) := by
  after_results_simp <;> rfl

theorem s0_cst_3 (W : Valuation τ sig (Elt F)) :
    StableHlo.after hostOps0 W (Proc.devRef .tc main_cst_3) = Cert.ReferenceIdeal.Read.val_main_cst_3 (F := F) := by
  after_results_simp <;> rfl

/-! ### The second stretch: the select of the outlined callee -/

theorem s1_v16 (W : Valuation τ sig (Elt F)) (x1 : (⟨Cert.ReferenceIdeal.S2x800000, .i32⟩ : BufTy).Contents (Elt F))
    (h12 : W (Proc.devRef .tc main_v12) = Cert.ReferenceIdeal.Read.val_main_v12 x1) (h15 : W (Proc.devRef .tc main_v15) = Cert.ReferenceIdeal.Read.val_main_v15 x1)
    (hc : W (Proc.devRef .tc main_cst_3) = Cert.ReferenceIdeal.Read.val_main_cst_3 (F := F)) :
    StableHlo.after hostOps0_1 W (Proc.devRef .tc main_v16) = Cert.ReferenceIdeal.Read.val_main_v16 x1 := by
  after_results_simp
  simp only [TRef.ofBuf, TRef.toBuf, cast_eq]
  rw [h12, h15, hc]; rfl

theorem s1_keep_v3 (W : Valuation τ sig (Elt F)) :
    StableHlo.after hostOps0_1 W (Proc.devRef .tc main_v3) = W (Proc.devRef .tc main_v3) := by after_results_simp
theorem s1_keep_v6 (W : Valuation τ sig (Elt F)) :
    StableHlo.after hostOps0_1 W (Proc.devRef .tc main_v6) = W (Proc.devRef .tc main_v6) := by after_results_simp

/-! ### The third stretch: the edge weights -/

theorem s2_v31 (W : Valuation τ sig (Elt F)) (x1 : (⟨Cert.ReferenceIdeal.S2x800000, .i32⟩ : BufTy).Contents (Elt F))
    (h3 : W (Proc.devRef .tc main_v3) = Cert.ReferenceIdeal.Read.val_main_v3 x1) (h6 : W (Proc.devRef .tc main_v6) = Cert.ReferenceIdeal.Read.val_main_v6 x1)
    (h16 : W (Proc.devRef .tc main_v16) = Cert.ReferenceIdeal.Read.val_main_v16 x1) :
    StableHlo.after hostOps0_2 W (Proc.devRef .tc main_v31) = Cert.ReferenceIdeal.Read.val_main_v31 x1 := by
  after_results_simp
  rw [h3, h6, h16]; rfl

theorem s2_keep_v3 (W : Valuation τ sig (Elt F)) :
    StableHlo.after hostOps0_2 W (Proc.devRef .tc main_v3) = W (Proc.devRef .tc main_v3) := by after_results_simp
theorem s2_keep_v6 (W : Valuation τ sig (Elt F)) :
    StableHlo.after hostOps0_2 W (Proc.devRef .tc main_v6) = W (Proc.devRef .tc main_v6) := by after_results_simp

/-! ### The three stretches before the first pallas call, composed -/

theorem pre_v3 (W : Valuation τ sig (Elt F)) :
    StableHlo.after hostOps0_2 (StableHlo.after hostOps0_1 (StableHlo.after hostOps0 W)) (Proc.devRef .tc main_v3)
      = Cert.ReferenceIdeal.Read.val_main_v3 (W (Proc.devRef .tc main_arg1)) :=
  (s2_keep_v3 _).trans ((s1_keep_v3 _).trans (s0_v3 W))

theorem pre_v6 (W : Valuation τ sig (Elt F)) :
    StableHlo.after hostOps0_2 (StableHlo.after hostOps0_1 (StableHlo.after hostOps0 W)) (Proc.devRef .tc main_v6)
      = Cert.ReferenceIdeal.Read.val_main_v6 (W (Proc.devRef .tc main_arg1)) :=
  (s2_keep_v6 _).trans ((s1_keep_v6 _).trans (s0_v6 W))

theorem pre_v31 (W : Valuation τ sig (Elt F)) :
    StableHlo.after hostOps0_2 (StableHlo.after hostOps0_1 (StableHlo.after hostOps0 W)) (Proc.devRef .tc main_v31)
      = Cert.ReferenceIdeal.Read.val_main_v31 (W (Proc.devRef .tc main_arg1)) :=
  s2_v31 _ _ ((s1_keep_v3 _).trans (s0_v3 W)) ((s1_keep_v6 _).trans (s0_v6 W))
    (s1_v16 _ _ (s0_v12 W) (s0_v15 W) (s0_cst_3 W))

/-! ### The stretch after the first pallas call: gather, weight, scatter-add, bias -/

theorem layer1 (W4 : Valuation τ sig (Elt F))
    (x0 : (⟨Cert.ReferenceIdeal.S50000x128, .f32⟩ : BufTy).Contents (Elt F))
    (x1 : (⟨Cert.ReferenceIdeal.S2x800000, .i32⟩ : BufTy).Contents (Elt F))
    (x3 : (⟨Cert.ReferenceIdeal.S128x128, .f32⟩ : BufTy).Contents (Elt F))
    (x4 : (⟨Cert.ReferenceIdeal.S128, .f32⟩ : BufTy).Contents (Elt F))
    (h3 : W4 (Proc.devRef .tc main_v3) = Cert.ReferenceIdeal.Read.val_main_v3 x1) (h6 : W4 (Proc.devRef .tc main_v6) = Cert.ReferenceIdeal.Read.val_main_v6 x1)
    (h31 : W4 (Proc.devRef .tc main_v31) = Cert.ReferenceIdeal.Read.val_main_v31 x1)
    (h32 : W4 (Proc.devRef .tc main_v32) = Cert.ReferenceIdeal.Read.val_main_v32 x0 x3) (h4 : W4 (Proc.devRef .tc main_arg4) = x4) :
    StableHlo.after hostOps1 W4 (Proc.devRef .tc main_v48) = Cert.ReferenceIdeal.Read.val_main_v48 x0 x1 x3 x4 := by
  after_results_simp
  rw [h3, h6, h31, h32, h4]; rfl

/-! ### The stretch after the second pallas call: the same four steps on the second layer -/

theorem layer2 (W6 : Valuation τ sig (Elt F))
    (x0 : (⟨Cert.ReferenceIdeal.S50000x128, .f32⟩ : BufTy).Contents (Elt F))
    (x1 : (⟨Cert.ReferenceIdeal.S2x800000, .i32⟩ : BufTy).Contents (Elt F))
    (x3 : (⟨Cert.ReferenceIdeal.S128x128, .f32⟩ : BufTy).Contents (Elt F))
    (x4 : (⟨Cert.ReferenceIdeal.S128, .f32⟩ : BufTy).Contents (Elt F))
    (x5 : (⟨Cert.ReferenceIdeal.S128x128, .f32⟩ : BufTy).Contents (Elt F))
    (x6 : (⟨Cert.ReferenceIdeal.S128, .f32⟩ : BufTy).Contents (Elt F))
    (h3 : W6 (Proc.devRef .tc main_v3) = Cert.ReferenceIdeal.Read.val_main_v3 x1) (h6 : W6 (Proc.devRef .tc main_v6) = Cert.ReferenceIdeal.Read.val_main_v6 x1)
    (h31 : W6 (Proc.devRef .tc main_v31) = Cert.ReferenceIdeal.Read.val_main_v31 x1)
    (h49 : W6 (Proc.devRef .tc main_v49) = Cert.ReferenceIdeal.Read.val_main_v49 x0 x1 x3 x4 x5) (h6' : W6 (Proc.devRef .tc main_arg6) = x6) :
    StableHlo.after hostOps2 W6 (Proc.devRef .tc main_v65) = Cert.ReferenceIdeal.Read.val_main_v65 x0 x1 x3 x4 x5 x6 := by
  after_results_simp
  rw [h3, h6, h31, h49, h6']; rfl

end Cert.Bridge

end
-- ==== Proof.LibScatterAdd.lean ====
/-
  An accumulating scatter read at an entry.

  jnp's `x.at[idx].add(u)` (or a segment sum) over a vector of E positions prints as a `stablehlo.scatter` with an
  `add` body whose scatter indices are the [E, 1] column of positions, with the index vector on axis 1, operand
  axis 0 both inserted and named by the scatter-dims-to-operand-dims map, and no batching axes.  Two shapes occur.
  Over a vector operand [N] with updates [E] there is no window axis; over a table [N, C] with updates [E, C] the
  updates' axis 1 is the one window axis and goes to the operand's axis 1, so whole rows are added.

  Update e lands at the operand row its position names, the position read as a signed integer and NOT clamped:
  a position below 0 or at or past N lands nowhere and contributes nothing.  So at the exact (extended-real)
  instance the result's entry r (or (r, o)) is the operand's entry plus the sum, over all e, of update e (or of
  its entry o) when position e reads exactly r, and of 0 otherwise.
-/
import Idealize.ShloMosaic.PureOps.Ideal
import Idealize.ShloMosaic.Lib.ValueIdx
import Idealize.ShloMosaic.Lib.ValueIdxRank1

namespace Cert.Lib

open Idealize.ShloMosaic Idealize.ShloMosaic.ValueIdx
open scoped BigOperators

/-! ## A vector operand: operand [N], positions [E, 1], updates [E] -/

/-- The dimension numbers of a scatter into a vector: operand [N], start indices [E, 1], updates [E]. Their
    conditions `wf` are decided on a program's literal shapes. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update j starts, on the operand's one axis, at position j's index word read signed. -/
theorem vec_start {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) :
    (vecScatterDims N E wf).start j idx (0 : Fin 1) = (idx (ix2 (j (0 : Fin 1)) (0 : Fin 1))).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j (0 : Fin 1)) (0 : Fin 1) := by
    funext b; refine Fin.ext ?_
    match b with
    | ⟨0, _⟩ => rfl
    | ⟨1, _⟩ => rfl
  rw [hsi]
  rfl

/-- The operand's one axis is inserted: the window coordinate on it is 0. -/
theorem vec_window {N E : Nat} (wf : ScatterDims.WF ⟨1, ![N]⟩ ⟨2, ![E, 1]⟩ ⟨1, ![E]⟩ [] [0] [0] 1)
    (j : (⟨1, ![E]⟩ : Shape).Idx) :
    (vecScatterDims N E wf).window j (0 : Fin 1) = 0 := by
  unfold ScatterDims.window
  rw [dif_neg]
  intro h
  simp [ScatterDims.sKept, Shape.kept] at h

/-- Update j lands on entry r exactly when position j's index word, read signed, is r. -/
theorem vec_resultIdx {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (r : Fin N) :
    (vecScatterDims N E wf).resultIdx? j idx = some (ix1 r)
      ↔ (idx (ix2 (j (0 : Fin 1)) (0 : Fin 1))).toInt = (r.val : Int) := by
  have hs := vec_start wf j idx
  have hw := vec_window wf j
  unfold ScatterDims.resultIdx?
  constructor
  · intro h
    split at h
    · rename_i hc
      have h0 := congrFun (Option.some.inj h) (0 : Fin 1)
      have h1 := congrArg Fin.val h0
      have hc0 := hc (0 : Fin 1)
      simp only [hs, hw] at h1 hc0
      change ((idx (ix2 (j (0 : Fin 1)) (0 : Fin 1))).toInt + ((0 : Nat) : Int)).toNat = r.val at h1
      omega
    · exact absurd h (by simp)
  · intro h
    have hc : ∀ a : Fin 1, 0 ≤ (vecScatterDims N E wf).start j idx a + (vecScatterDims N E wf).window j a ∧
        (vecScatterDims N E wf).start j idx a + (vecScatterDims N E wf).window j a < (⟨1, ![N]⟩ : Shape).size a := by
      intro a
      match a with
      | ⟨0, _⟩ =>
        show 0 ≤ (vecScatterDims N E wf).start j idx (0 : Fin 1) + (vecScatterDims N E wf).window j (0 : Fin 1) ∧
          (vecScatterDims N E wf).start j idx (0 : Fin 1) + (vecScatterDims N E wf).window j (0 : Fin 1) < (N : Int)
        rw [hs, hw, h]
        have := r.isLt
        omega
    rw [dif_pos hc]
    congr 1
    funext a
    refine Fin.ext ?_
    match a with
    | ⟨0, _⟩ =>
      show ((vecScatterDims N E wf).start j idx (0 : Fin 1) + (vecScatterDims N E wf).window j (0 : Fin 1)).toNat = r.val
      rw [hs, hw, h]
      omega

/-- THE VECTOR SCATTER READ AT r: the operand's entry plus the updates whose position reads exactly r. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (r : Fin N) :
    Ideal.hostScatterAdd (vecScatterDims N E wf) x idx upd (ix1 r)
      = x (ix1 r) + ∑ e : Fin E, if (idx (ix2 e (0 : Fin 1))).toInt = (r.val : Int) then upd (ix1 e) else 0 := by
  unfold Ideal.hostScatterAdd
  congr 1
  rw [Finset.sum_filter, ← Equiv.sum_comp (idxEquiv1 (n := E)).symm]
  refine Finset.sum_congr rfl (fun e _ => ?_)
  show (if (vecScatterDims N E wf).resultIdx? (ix1 e) idx = some (ix1 r) then upd (ix1 e) else 0) = _
  by_cases h : (idx (ix2 e (0 : Fin 1))).toInt = (r.val : Int)
  · rw [if_pos h, if_pos ((vec_resultIdx wf (ix1 e) idx r).mpr h)]
  · rw [if_neg h, if_neg (fun h' => h ((vec_resultIdx wf (ix1 e) idx r).mp h'))]

/-! ## A table operand: operand [N, C], positions [E, 1], updates [E, C] -/

/-- The dimension numbers of a scatter of whole rows: operand [N, C], start indices [E, 1], updates [E, C]: whole
    rows added at the rows the positions name. Their conditions `wf` are decided on a program's literal shapes. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the operand's axis 0 the window of update j starts at position (j 0)'s index word read signed. -/
theorem row_start0 {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N C E wf).start j idx (0 : Fin 2) = (idx (ix2 (j (0 : Fin 2)) (0 : Fin 1))).toInt := by
  unfold ScatterDims.start
  rw [dif_pos (show (0 : Fin 2) ∈ (rowScatterDims N C E wf).scatterDimsToOperandDims from List.mem_singleton.mpr rfl)]
  have hsi : (rowScatterDims N C E wf).siIdx j ⟨List.idxOf (0 : Fin 2) (rowScatterDims N C E wf).scatterDimsToOperandDims,
      List.idxOf_lt_length_iff.2 (List.mem_singleton.mpr rfl)⟩ = ix2 (j (0 : Fin 2)) (0 : Fin 1) := by
    funext b; refine Fin.ext ?_
    match b with
    | ⟨0, _⟩ => rfl
    | ⟨1, _⟩ => rfl
  rw [hsi]
  rfl

/-- The map does not name the operand's axis 1: the window starts at 0 there. -/
theorem row_start1 {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N C E wf).start j idx (1 : Fin 2) = 0 := by
  unfold ScatterDims.start
  rw [dif_neg (show ¬ (1 : Fin 2) ∈ (rowScatterDims N C E wf).scatterDimsToOperandDims from
    fun h => absurd (List.mem_singleton.mp h) (by decide : (1 : Fin 2) ≠ 0))]

/-- The operand's axis 0 is inserted: the window coordinate on it is 0. -/
theorem row_window0 {N C E : Nat} (wf : ScatterDims.WF ⟨2, ![N, C]⟩ ⟨2, ![E, 1]⟩ ⟨2, ![E, C]⟩ [1] [0] [0] 1)
    (j : (⟨2, ![E, C]⟩ : Shape).Idx) :
    (rowScatterDims N C E wf).window j (0 : Fin 2) = 0 := by
  unfold ScatterDims.window
  rw [dif_neg]
  intro h
  simp [ScatterDims.sKept, Shape.kept] at h

/-- The operand's axis 1 takes the updates' window axis: the window coordinate on it is j's second coordinate. -/
theorem row_window1 {N C E : Nat} (wf : ScatterDims.WF ⟨2, ![N, C]⟩ ⟨2, ![E, 1]⟩ ⟨2, ![E, C]⟩ [1] [0] [0] 1)
    (j : (⟨2, ![E, C]⟩ : Shape).Idx) :
    (rowScatterDims N C E wf).window j (1 : Fin 2) = (j (1 : Fin 2)).val := by
  unfold ScatterDims.window
  rw [dif_pos (show (1 : Fin 2) ∈ (rowScatterDims N C E wf).sKept by
    simp [ScatterDims.sKept, Shape.kept])]
  rfl

/-- Update (e, o') lands on entry (r, o) exactly when position e's index word, read signed, is r and o' = o. -/
theorem row_resultIdx {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) (r : Fin N) (o : Fin C) :
    (rowScatterDims N C E wf).resultIdx? j idx = some (ix2 r o)
      ↔ (idx (ix2 (j (0 : Fin 2)) (0 : Fin 1))).toInt = (r.val : Int) ∧ j (1 : Fin 2) = o := by
  have hs0 := row_start0 wf j idx
  have hs1 := row_start1 wf j idx
  have hw0 := row_window0 wf j
  have hw1 := row_window1 wf j
  unfold ScatterDims.resultIdx?
  constructor
  · intro h
    split at h
    · rename_i hc
      have hf := Option.some.inj h
      have h0 := congrArg Fin.val (congrFun hf (0 : Fin 2))
      have h1 := congrArg Fin.val (congrFun hf (1 : Fin 2))
      have hc0 := hc (0 : Fin 2)
      simp only [hs0, hw0] at h0 hc0
      simp only [hs1, hw1] at h1
      change ((idx (ix2 (j (0 : Fin 2)) (0 : Fin 1))).toInt + ((0 : Nat) : Int)).toNat = r.val at h0
      change ((0 : Int) + (((j (1 : Fin 2)).val : Nat) : Int)).toNat = o.val at h1
      refine ⟨by omega, Fin.ext ?_⟩
      omega
    · exact absurd h (by simp)
  · rintro ⟨h, ho⟩
    have hc : ∀ a : Fin 2, 0 ≤ (rowScatterDims N C E wf).start j idx a + (rowScatterDims N C E wf).window j a ∧
        (rowScatterDims N C E wf).start j idx a + (rowScatterDims N C E wf).window j a < (⟨2, ![N, C]⟩ : Shape).size a := by
      intro a
      match a with
      | ⟨0, _⟩ =>
        show 0 ≤ (rowScatterDims N C E wf).start j idx (0 : Fin 2) + (rowScatterDims N C E wf).window j (0 : Fin 2) ∧
          (rowScatterDims N C E wf).start j idx (0 : Fin 2) + (rowScatterDims N C E wf).window j (0 : Fin 2) < (N : Int)
        rw [hs0, hw0, h]
        have := r.isLt
        omega
      | ⟨1, _⟩ =>
        show 0 ≤ (rowScatterDims N C E wf).start j idx (1 : Fin 2) + (rowScatterDims N C E wf).window j (1 : Fin 2) ∧
          (rowScatterDims N C E wf).start j idx (1 : Fin 2) + (rowScatterDims N C E wf).window j (1 : Fin 2) < (C : Int)
        rw [hs1, hw1, ho]
        have := o.isLt
        omega
    rw [dif_pos hc]
    congr 1
    funext a
    refine Fin.ext ?_
    match a with
    | ⟨0, _⟩ =>
      show ((rowScatterDims N C E wf).start j idx (0 : Fin 2) + (rowScatterDims N C E wf).window j (0 : Fin 2)).toNat = r.val
      rw [hs0, hw0, h]
      omega
    | ⟨1, _⟩ =>
      show ((rowScatterDims N C E wf).start j idx (1 : Fin 2) + (rowScatterDims N C E wf).window j (1 : Fin 2)).toNat = o.val
      rw [hs1, hw1, ho]
      omega

/-- THE ROW SCATTER READ AT (r, o): the operand's entry plus entry o of the update rows whose position reads exactly r. -/
theorem scatterAdd_rows_apply {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (r : Fin N) (o : Fin C) :
    Ideal.hostScatterAdd (rowScatterDims N C E wf) x idx upd (ix2 r o)
      = x (ix2 r o) + ∑ e : Fin E, if (idx (ix2 e (0 : Fin 1))).toInt = (r.val : Int) then upd (ix2 e o) else 0 := by
  unfold Ideal.hostScatterAdd
  congr 1
  rw [Finset.sum_filter, sum_idx2]
  refine Finset.sum_congr rfl (fun e _ => ?_)
  by_cases h : (idx (ix2 e (0 : Fin 1))).toInt = (r.val : Int)
  · rw [if_pos h]
    rw [Finset.sum_eq_single o]
    · rw [if_pos ((row_resultIdx wf (ix2 e o) idx r o).mpr ⟨h, rfl⟩)]
    · intro o' _ hne
      rw [if_neg (fun h' => hne ((row_resultIdx wf (ix2 e o') idx r o).mp h').2)]
    · intro hn
      exact absurd (Finset.mem_univ o) hn
  · rw [if_neg h]
    refine Finset.sum_eq_zero (fun o' _ => ?_)
    rw [if_neg (fun h' => h ((row_resultIdx wf (ix2 e o') idx r o).mp h').1)]

end Cert.Lib
-- ==== Proof.LibConcatPair.lean ====
/-
  A concatenation of two equal-shaped pieces read at coordinates.

  `concatenate` of two rank-2 arrays of shape [n, c] along the rows is the first piece on rows below `n` and the second,
  `n` rows up, from there on; along the columns likewise; and of two rank-1 arrays of length `n` the same on the one
  axis. Stated over any extents (the result's extent `N` with `N = n + n` as a hypothesis, so that a literal result
  shape matches as it stands) and over the program's own shape relation `h`.
-/
import Idealize.ShloMosaic.Lib.Pipeline.Value
import Idealize.ShloMosaic.Lib.ValueIdx

noncomputable section

namespace Cert.Lib

open Idealize.ShloMosaic Idealize.ShloMosaic.ValueIdx

variable {α : Type}

/-- Two [n, c] pieces stacked along the rows, read at row `k` and column `l`. -/
theorem concat_rows_apply (N n c : Nat) (hN : N = n + n) (X Y : (⟨2, ![n, c]⟩ : Shape).Idx → α)
    (h : Shape.Concatenates [(⟨2, ![n, c]⟩ : Shape), ⟨2, ![n, c]⟩] ⟨2, ![N, c]⟩ (0 : Fin 2)) (k : Fin N) (l : Fin c) :
    concatenate ⟨2, ![N, c]⟩ (0 : Fin 2) [⟨⟨2, ![n, c]⟩, X⟩, ⟨⟨2, ![n, c]⟩, Y⟩] h (ix2 k l)
      = if hk : k.val < n then X (ix2 ⟨k.val, hk⟩ l) else Y (ix2 ⟨k.val - n, by have := k.isLt; omega⟩ l) := by
  by_cases hk : k.val < n
  · rw [dif_pos hk]
    exact concatenate_pair_apply_left (0 : Fin 2) X Y h (ix2 k l) rfl (ix2 ⟨k.val, hk⟩ l)
      (fun b => by match b with | ⟨0, _⟩ => rfl | ⟨1, _⟩ => rfl)
  · rw [dif_neg hk]
    exact concatenate_pair_apply_right (0 : Fin 2) X Y h (ix2 k l) rfl rfl (ix2 ⟨k.val - n, by have := k.isLt; omega⟩ l)
      (fun b hb => by match b with | ⟨0, _⟩ => exact absurd rfl hb | ⟨1, _⟩ => rfl)
      (by show k.val - n + n = k.val; omega)

/-- Two [n, c] pieces set side by side along the columns, read at row `k` and column `l`. -/
theorem concat_cols_apply (C n c : Nat) (hC : C = c + c) (X Y : (⟨2, ![n, c]⟩ : Shape).Idx → α)
    (h : Shape.Concatenates [(⟨2, ![n, c]⟩ : Shape), ⟨2, ![n, c]⟩] ⟨2, ![n, C]⟩ (1 : Fin 2)) (k : Fin n) (l : Fin C) :
    concatenate ⟨2, ![n, C]⟩ (1 : Fin 2) [⟨⟨2, ![n, c]⟩, X⟩, ⟨⟨2, ![n, c]⟩, Y⟩] h (ix2 k l)
      = if hl : l.val < c then X (ix2 k ⟨l.val, hl⟩) else Y (ix2 k ⟨l.val - c, by have := l.isLt; omega⟩) := by
  by_cases hl : l.val < c
  · rw [dif_pos hl]
    exact concatenate_pair_apply_left (1 : Fin 2) X Y h (ix2 k l) rfl (ix2 k ⟨l.val, hl⟩)
      (fun b => by match b with | ⟨0, _⟩ => rfl | ⟨1, _⟩ => rfl)
  · rw [dif_neg hl]
    exact concatenate_pair_apply_right (1 : Fin 2) X Y h (ix2 k l) rfl rfl (ix2 k ⟨l.val - c, by have := l.isLt; omega⟩)
      (fun b hb => by match b with | ⟨0, _⟩ => rfl | ⟨1, _⟩ => exact absurd rfl hb)
      (by show l.val - c + c = l.val; omega)

/-- Two length-`n` vectors joined end to end, read at position `k`. -/
theorem concat_vec_apply (N n : Nat) (hN : N = n + n) (X Y : (⟨1, ![n]⟩ : Shape).Idx → α)
    (h : Shape.Concatenates [(⟨1, ![n]⟩ : Shape), ⟨1, ![n]⟩] ⟨1, ![N]⟩ (0 : Fin 1)) (k : Fin N) :
    concatenate ⟨1, ![N]⟩ (0 : Fin 1) [⟨⟨1, ![n]⟩, X⟩, ⟨⟨1, ![n]⟩, Y⟩] h (ix1 k)
      = if hk : k.val < n then X (ix1 ⟨k.val, hk⟩) else Y (ix1 ⟨k.val - n, by have := k.isLt; omega⟩) := by
  by_cases hk : k.val < n
  · rw [dif_pos hk]
    exact concatenate_pair_apply_left (0 : Fin 1) X Y h (ix1 k) rfl (ix1 ⟨k.val, hk⟩)
      (fun b => by match b with | ⟨0, _⟩ => rfl)
  · rw [dif_neg hk]
    exact concatenate_pair_apply_right (0 : Fin 1) X Y h (ix1 k) rfl rfl (ix1 ⟨k.val - n, by have := k.isLt; omega⟩)
      (fun b hb => by match b with | ⟨0, _⟩ => exact absurd rfl hb)
      (by show k.val - n + n = k.val; omega)

end Cert.Lib

end
-- ==== Proof.Bridge.Pool.lean ====
/-
  Pooling: a one-hot matrix product against two segment sums.

  The kernel pools the node features graph by graph with a matrix product: a 256 × 51200 matrix whose entry (g, n)
  is 1 when node n belongs to graph g and 0 otherwise (the last 1200 columns, past the 50000 nodes, are zero padding),
  times the 51200 × 256 matrix of the two layers' outputs set side by side (the last 1200 rows zero padding). The
  reference adds, for each of the two layers, every node's row onto the row of its graph (a scatter-add onto zeros, the
  graph number read as a signed integer and never clamped) and sets the two results side by side.

  Entry by entry the two agree over the extended reals with no finiteness assumption: 1 · x = x and 0 · x = 0 for every
  extended real, so the product's sum keeps exactly the entries of the nodes whose graph is g; the padded columns
  contribute zeros; and for 0 ≤ g < 256 the word g equals a node's graph word exactly when that word, read signed, is g,
  so a graph number outside 0 … 255 matches no row of the one-hot matrix and lands nowhere in the scatter-add either.
-/
import proofs.«408544_j16157666968391_1_alg».proof.Proof.Gen.KernelIdeal.Launch
import proofs.«408544_j16157666968391_1_alg».proof.Proof.Ref.ReadP
import proofs.«408544_j16157666968391_1_alg».proof.Proof.Spec
import proofs.«408544_j16157666968391_1_alg».proof.Proof.LibTileSum
import proofs.«408544_j16157666968391_1_alg».proof.Proof.LibScatterAdd
import proofs.«408544_j16157666968391_1_alg».proof.Proof.LibConcatPair
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.KernelVsHost
import Idealize.ShloMosaic.Lib.IdealHost
import Idealize.ShloMosaic.PureOps.Ideal.Laws

noncomputable section

namespace Cert.Bridge

open Cert.KernelIdeal Cert.KernelIdeal.Gen
open Idealize.ShloMosaic Idealize.ShloMosaic.TcCoe Idealize.ShloMosaic.StableHlo Idealize.ShloMosaic.ValueIdx
open Idealize.SL.Sem
open scoped BigOperators

variable (Wv : Valuation Cert.KernelIdeal.τ Cert.KernelIdeal.sig (Elt Ideal))

/-- The buffers after the host operations that follow the first aggregation call, stretch by stretch. -/
abbrev X7 : Valuation Cert.KernelIdeal.τ Cert.KernelIdeal.sig (Elt Ideal) := StableHlo.after (Cert.KernelIdeal.Gen.hostOps2 (F := Ideal)) Wv
abbrev X8 : Valuation Cert.KernelIdeal.τ Cert.KernelIdeal.sig (Elt Ideal) := StableHlo.after (Cert.KernelIdeal.Gen.hostOps2_1 (F := Ideal)) (X7 Wv)
abbrev X9 : Valuation Cert.KernelIdeal.τ Cert.KernelIdeal.sig (Elt Ideal) := StableHlo.after (Cert.KernelIdeal.Gen.hostOps2_2 (F := Ideal)) (X8 Wv)
abbrev X10 : Valuation Cert.KernelIdeal.τ Cert.KernelIdeal.sig (Elt Ideal) := StableHlo.after (Cert.KernelIdeal.Gen.hostOps2_3 (F := Ideal)) (X9 Wv)

/-- The buffers the pooling call reads, and the ones its operands are built from, as arrays of extended reals or of
    words. -/
abbrev kOH : Cert.Spec.Mat 256 51200 := X10 Wv (Proc.devRef .tc main_v76)
abbrev kFeat : Cert.Spec.Mat 51200 256 := X10 Wv (Proc.devRef .tc main_v68)
abbrev kH1 : Cert.Spec.Mat 50000 128 := Wv (Proc.devRef .tc main_v48)
abbrev kH2 : Cert.Spec.Mat 50000 128 := X7 Wv (Proc.devRef .tc main_v65)
abbrev kBatch : IVec S50000 32 := Wv (Proc.devRef .tc main_arg2)

/-! ## Words and sums -/

/-- A small non-negative number as a 32-bit word equals a word exactly when that word, read signed, is the number. -/
theorem ofNat_eq_iff_toInt (g : ℕ) (hg : g < 2 ^ 31) (b : BitVec 32) :
    BitVec.ofNat 32 g = b ↔ b.toInt = (g : ℤ) := by
  have h := Predicate.toInt_ofNat_small g hg
  constructor
  · intro e; rw [← e]; exact h
  · intro e; exact BitVec.eq_of_toInt_eq (h.trans e.symm)

/-- A comparison of two words for equality, converted to a float, is 1 where they agree and 0 where they differ. -/
theorem mask_apply {s : Shape} (a b : IVec s 32) (i : s.Idx) :
    (uitofp (F := Ideal) .bf16 (cmpi .eq a b)) i = if a i = b i then (1 : EReal) else 0 := by
  show (((IntOp.cmpi .eq (a i) (b i)).toNat : ℝ) : EReal) = _
  by_cases h : a i = b i
  · rw [if_pos h, Predicate.cmpi_eq_iff.mpr h]
    norm_num
  · rw [if_neg h]
    have h0 : IntOp.cmpi .eq (a i) (b i) = 0#1 := by
      rcases BitVec.eq_zero_or_eq_one (IntOp.cmpi .eq (a i) (b i)) with h0 | h1
      · exact h0
      · exact absurd (Predicate.cmpi_eq_iff.mp h1) h
    rw [h0]
    norm_num

/-- A product of a 0/1 row with a column over a padded axis: where the row is the indicator of `p` on the first `N`
    positions and 0 on the padding, the sum over all `P` positions is the sum of the column's entries where `p` holds.
    No finiteness is asked: 0 times any extended real is 0. -/
theorem sum_onehot_padded {N P : ℕ} (hNP : N ≤ P) (oh hc : Fin P → EReal) (p : Fin N → Prop) [DecidablePred p]
    (u : Fin N → EReal)
    (hoh : ∀ (n : Fin P) (h : n.val < N), oh n = if p ⟨n.val, h⟩ then 1 else 0)
    (hhc : ∀ (n : Fin P) (h : n.val < N), hc n = u ⟨n.val, h⟩)
    (htail : ∀ n : Fin P, N ≤ n.val → oh n = 0) :
    ∑ n : Fin P, oh n * hc n = ∑ e : Fin N, if p e then u e else 0 := by
  let f : ℕ → EReal := fun k => if h : k < N then (if p ⟨k, h⟩ then u ⟨k, h⟩ else 0) else 0
  have hL : ∀ n : Fin P, oh n * hc n = f n.val := by
    intro n
    by_cases h : n.val < N
    · show _ = dite _ _ _
      rw [dif_pos h, hoh n h, hhc n h]
      exact Cert.Lib.indicator_mul Iff.rfl _
    · show _ = dite _ _ _
      rw [dif_neg h, htail n (Nat.le_of_not_lt h), zero_mul]
  have hR : ∀ e : Fin N, (if p e then u e else 0) = f e.val := by
    intro e
    show _ = dite _ _ _
    rw [dif_pos e.isLt]
  rw [Finset.sum_congr rfl (fun n _ => hL n), Finset.sum_congr rfl (fun e _ => hR e),
    Fin.sum_univ_eq_sum_range f P, Fin.sum_univ_eq_sum_range f N]
  symm
  refine Finset.sum_subset (Finset.range_mono hNP) (fun k _ hk => ?_)
  rw [Finset.mem_range] at hk
  show dite _ _ _ = _
  rw [dif_neg hk]

/-! ## The two operands' buffers as closed terms -/

set_option maxHeartbeats 1000000 in
/-- The one-hot matrix's buffer: the comparison of the graph number with each node's graph, as 1 or 0, padded with
    1200 zero columns. -/
theorem k76_eq :
    @Eq (FVec Ideal S256x51200 .bf16) (X10 Wv (Proc.devRef .tc main_v76))
      (pad S256x51200 ![0, 0] ![0, 1200] ![0, 0]
          (uitofp .bf16 (cmpi .eq
            (broadcastInDim S256x50000 ![0, 1] bcast_S256x1_S256x50000_0_1 (broadcastInDim S256x1 ![0] bcast_S256_S256x1_0 (iotaInDim S256 32 0)))
            (broadcastInDim S256x50000 ![0, 1] bcast_S1x50000_S256x50000_0_1 (broadcastInDim S1x50000 ![1] bcast_S50000_S1x50000_1
              (Wv (Proc.devRef .tc main_arg2))))))
          (sitofp .bf16 (constantI S_ 32 0#32)) pads_S256x50000_S256x51200_000_012000 h_S_) := by
  show StableHlo.after hostOps2_3 (StableHlo.after hostOps2_2 (StableHlo.after hostOps2_1 (StableHlo.after hostOps2 Wv))) (Proc.devRef .tc main_v76) = _
  after_results
  rfl

set_option maxHeartbeats 4000000 in
/-- The node features' buffer: the two layers' outputs side by side, padded with 1200 zero rows (the change of
    format is the identity over the extended reals). -/
theorem k68_eq :
    @Eq (FVec Ideal S51200x256 .bf16) (X10 Wv (Proc.devRef .tc main_v68))
      (truncf (F := Ideal) .bf16 (pad S51200x256 ![0, 0] ![1200, 0] ![0, 0]
          (concatenate S50000x256 1 [⟨S50000x128, Wv (Proc.devRef .tc main_v48)⟩, ⟨S50000x128, X7 Wv (Proc.devRef .tc main_v65)⟩]
            concatenates_S50000x128_S50000x128_S50000x256_d1)
          (sitofp (F := Ideal) .f32 (constantI S_ 32 0#32)) pads_S50000x256_S51200x256_012000_000 h_S_) bitsLt_bf16_f32) := by
  show @Eq (FVec Ideal S51200x256 .bf16)
    (StableHlo.after hostOps2_3 (StableHlo.after hostOps2_2 (StableHlo.after hostOps2_1 (StableHlo.after hostOps2 Wv))) (Proc.devRef .tc main_v68))
    (truncf (F := Ideal) .bf16 (pad S51200x256 ![0, 0] ![1200, 0] ![0, 0]
          (concatenate S50000x256 1 [⟨S50000x128, Wv (Proc.devRef .tc main_v48)⟩, ⟨S50000x128, StableHlo.after hostOps2 Wv (Proc.devRef .tc main_v65)⟩]
            concatenates_S50000x128_S50000x128_S50000x256_d1)
          (sitofp (F := Ideal) .f32 (constantI S_ 32 0#32)) pads_S50000x256_S51200x256_012000_000 h_S_) bitsLt_bf16_f32)
  after_results
  rfl

/-! ## The two padded operands at an index -/

/-- The one-hot matrix at graph `g` and a node column inside the unpadded part: 1 where the node's graph is `g`. -/
theorem onehot_apply_lt (b : IVec S50000 32) (g : Fin 256) (n : Fin 51200) (hn : n.val < 50000) :
    (pad S256x51200 ![0, 0] ![0, 1200] ![0, 0]
        (uitofp (F := Ideal) .bf16 (cmpi .eq
          (broadcastInDim S256x50000 ![0, 1] bcast_S256x1_S256x50000_0_1 (broadcastInDim S256x1 ![0] bcast_S256_S256x1_0 (iotaInDim S256 32 0)))
          (broadcastInDim S256x50000 ![0, 1] bcast_S1x50000_S256x50000_0_1 (broadcastInDim S1x50000 ![1] bcast_S50000_S1x50000_1 b))))
        (sitofp (F := Ideal) .bf16 (constantI S_ 32 0#32)) pads_S256x50000_S256x51200_000_012000 h_S_) (ix2 g n)
      = if BitVec.ofNat 32 g.val = b (ix1 ⟨n.val, hn⟩) then (1 : EReal) else 0 := by
  rw [pad_apply_of_inside ![0, 0] ![0, 1200] ![0, 0] _ _ pads_S256x50000_S256x51200_000_012000 h_S_ (ix2 g n) (ix2 g ⟨n.val, hn⟩)
    (fun a => match a with
      | ⟨0, _⟩ => by show g.val = 0 + g.val * (0 + 1); omega
      | ⟨1, _⟩ => by show n.val = 0 + n.val * (0 + 1); omega)]
  rw [mask_apply]
  rw [broadcastInDim_apply ![0, 1] bcast_S256x1_S256x50000_0_1 _ (ix2 g ⟨n.val, hn⟩) (ix2 g (0 : Fin 1)) (fun a => match a with
        | ⟨0, _⟩ => by show g.val = if (256 : ℕ) = 1 then 0 else g.val; rw [if_neg (by decide)]
        | ⟨1, _⟩ => by show 0 = if (1 : ℕ) = 1 then 0 else n.val; rw [if_pos rfl]),
    broadcastInDim_apply ![0] bcast_S256_S256x1_0 _ (ix2 g (0 : Fin 1)) (ix1 g) (fun a => match a with
        | ⟨0, _⟩ => by show g.val = if (256 : ℕ) = 1 then 0 else g.val; rw [if_neg (by decide)]),
    broadcastInDim_apply ![0, 1] bcast_S1x50000_S256x50000_0_1 _ (ix2 g ⟨n.val, hn⟩) (ix2 (0 : Fin 1) ⟨n.val, hn⟩) (fun a => match a with
        | ⟨0, _⟩ => by show 0 = if (1 : ℕ) = 1 then 0 else g.val; rw [if_pos rfl]
        | ⟨1, _⟩ => by show n.val = if (50000 : ℕ) = 1 then 0 else n.val; rw [if_neg (by decide)]),
    broadcastInDim_apply ![1] bcast_S50000_S1x50000_1 _ (ix2 (0 : Fin 1) ⟨n.val, hn⟩) (ix1 ⟨n.val, hn⟩) (fun a => match a with
        | ⟨0, _⟩ => by show n.val = if (50000 : ℕ) = 1 then 0 else n.val; rw [if_neg (by decide)])]
  rfl

/-- The one-hot matrix on the padded columns: the padding value, the integer zero converted, which is 0. -/
theorem onehot_apply_ge (m : IVec S256x50000 1) (g : Fin 256) (n : Fin 51200) (hn : 50000 ≤ n.val) :
    (pad S256x51200 ![0, 0] ![0, 1200] ![0, 0] (uitofp (F := Ideal) .bf16 m)
        (sitofp (F := Ideal) .bf16 (constantI S_ 32 0#32)) pads_S256x50000_S256x51200_000_012000 h_S_) (ix2 g n) = (0 : EReal) := by
  rw [pad_apply_of_not_inside (s := S256x50000) ![0, 0] ![0, 1200] ![0, 0] _ _ pads_S256x50000_S256x51200_000_012000 h_S_ (ix2 g n) (1 : Fin 2)
    (fun h => by
      have h3 := h.2.2
      change (n.val - 0) / (0 + 1) < 50000 at h3
      omega)]
  exact sitofp_zero

/-- The padded feature matrix at a node row inside the unpadded part: the first layer's output on the first 128
    columns, the second layer's on the last 128. -/
theorem feat_apply_lt (A B : FVec Ideal S50000x128 .f32) (n : Fin 51200) (d : Fin 256) (hn : n.val < 50000) :
    (truncf (F := Ideal) .bf16 (pad S51200x256 ![0, 0] ![1200, 0] ![0, 0]
        (concatenate S50000x256 1 [⟨S50000x128, A⟩, ⟨S50000x128, B⟩] concatenates_S50000x128_S50000x128_S50000x256_d1)
        (sitofp (F := Ideal) .f32 (constantI S_ 32 0#32)) pads_S50000x256_S51200x256_012000_000 h_S_) bitsLt_bf16_f32) (ix2 n d)
      = if hd : d.val < 128 then A (ix2 ⟨n.val, hn⟩ ⟨d.val, hd⟩)
        else B (ix2 ⟨n.val, hn⟩ ⟨d.val - 128, by have := d.isLt; omega⟩) := by
  rw [truncf_apply]
  rw [pad_apply_of_inside ![0, 0] ![1200, 0] ![0, 0] _ _ pads_S50000x256_S51200x256_012000_000 h_S_ (ix2 n d) (ix2 ⟨n.val, hn⟩ d)
    (fun a => match a with
      | ⟨0, _⟩ => by show n.val = 0 + n.val * (0 + 1); omega
      | ⟨1, _⟩ => by show d.val = 0 + d.val * (0 + 1); omega)]
  exact Cert.Lib.concat_cols_apply 256 50000 128 (by norm_num) A B concatenates_S50000x128_S50000x128_S50000x256_d1 ⟨n.val, hn⟩ d

/-! ## The kernel's pooled entry -/

/-- The pooled entry on the kernel's side: the one-hot product over the padded node axis is the sum, over the nodes
    whose graph is `g`, of the joined features' entry (first layer on columns below 128, second layer from there on). -/
theorem kernel_pool (g d : Fin 256) :
    Cert.Spec.mm (kOH Wv) (kFeat Wv) g d
      = ∑ e : Fin 50000, if BitVec.ofNat 32 g.val = kBatch Wv (ix1 e) then
          (if hd : d.val < 128 then kH1 Wv (ix2 e ⟨d.val, hd⟩)
           else kH2 Wv (ix2 e ⟨d.val - 128, by have := d.isLt; omega⟩))
          else 0 := by
  unfold Cert.Spec.mm
  refine sum_onehot_padded (N := 50000) (P := 51200) (by norm_num)
    (fun n => kOH Wv (ix2 g n)) (fun n => kFeat Wv (ix2 n d))
    (fun e => BitVec.ofNat 32 g.val = kBatch Wv (ix1 e))
    (fun e => if hd : d.val < 128 then kH1 Wv (ix2 e ⟨d.val, hd⟩)
           else kH2 Wv (ix2 e ⟨d.val - 128, by have := d.isLt; omega⟩))
    ?_ ?_ ?_
  · intro n hn
    exact (congrFun (k76_eq Wv) (ix2 g n)).trans (onehot_apply_lt _ g n hn)
  · intro n hn
    exact (congrFun (k68_eq Wv) (ix2 n d)).trans (feat_apply_lt _ _ n d hn)
  · intro n hn
    exact (congrFun (k76_eq Wv) (ix2 g n)).trans (onehot_apply_ge _ g n hn)

/-! ## The reference's pooled entry -/

/-- The first segment sum at (g, c): zeros plus the first layer's rows whose graph number reads exactly `g`. -/
theorem ref68_apply (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S50000, .i32⟩ : BufTy).Contents (Elt Ideal)) (x3 : (⟨Cert.ReferenceIdeal.S128x128, .f32⟩ : BufTy).Contents (Elt Ideal))
    (x4 : (⟨Cert.ReferenceIdeal.S128, .f32⟩ : BufTy).Contents (Elt Ideal)) (g : Fin 256) (c : Fin 128) :
    Cert.ReferenceIdeal.Read.val_main_v68 (F := Ideal) x0 x1 x2 x3 x4 (ix2 g c)
      = ∑ e : Fin 50000, if (x2 (ix1 e)).toInt = (g.val : ℤ) then Cert.ReferenceIdeal.Read.val_main_v48 (F := Ideal) x0 x1 x3 x4 (ix2 e c) else 0 := by
  unfold Cert.ReferenceIdeal.Read.val_main_v68
  refine (Cert.Lib.scatterAdd_rows_apply Cert.ReferenceIdeal.Facts₀.scatter_S256x128_S50000x1_S50000x128_1_0_0_1_wf
    (Cert.ReferenceIdeal.Read.val_main_v66 (F := Ideal)) (Cert.ReferenceIdeal.Read.val_main_v67 (F := Ideal) x2) (Cert.ReferenceIdeal.Read.val_main_v48 (F := Ideal) x0 x1 x3 x4) g c).trans ?_
  rw [Cert.ReferenceIdeal.Read.val_main_v66_apply, Cert.ReferenceIdeal.Read.val_main_cst_13_apply,
    show (FloatOps.ofBits (F := Ideal) .f32 0x00000000#32 : EReal) = 0 from Ideal.ofBits_zero_f32, zero_add]
  refine Finset.sum_congr rfl (fun e _ => ?_)
  rw [Cert.ReferenceIdeal.Read.val_main_v67_apply,
    show Cert.ReferenceIdeal.Read.idx_main_v67 (ix2 e (0 : Fin 1)) = ix1 e from funext fun a => match a with | ⟨0, _⟩ => rfl]

/-- The second segment sum at (g, c): zeros plus the second layer's rows whose graph number reads exactly `g`. -/
theorem ref71_apply (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S50000, .i32⟩ : BufTy).Contents (Elt Ideal)) (x3 : (⟨Cert.ReferenceIdeal.S128x128, .f32⟩ : BufTy).Contents (Elt Ideal))
    (x4 : (⟨Cert.ReferenceIdeal.S128, .f32⟩ : BufTy).Contents (Elt Ideal)) (x5 : (⟨Cert.ReferenceIdeal.S128x128, .f32⟩ : BufTy).Contents (Elt Ideal))
    (x6 : (⟨Cert.ReferenceIdeal.S128, .f32⟩ : BufTy).Contents (Elt Ideal)) (g : Fin 256) (c : Fin 128) :
    Cert.ReferenceIdeal.Read.val_main_v71 (F := Ideal) x0 x1 x2 x3 x4 x5 x6 (ix2 g c)
      = ∑ e : Fin 50000, if (x2 (ix1 e)).toInt = (g.val : ℤ) then Cert.ReferenceIdeal.Read.val_main_v65 (F := Ideal) x0 x1 x3 x4 x5 x6 (ix2 e c) else 0 := by
  unfold Cert.ReferenceIdeal.Read.val_main_v71
  refine (Cert.Lib.scatterAdd_rows_apply Cert.ReferenceIdeal.Facts₀.scatter_S256x128_S50000x1_S50000x128_1_0_0_1_wf
    (Cert.ReferenceIdeal.Read.val_main_v69 (F := Ideal)) (Cert.ReferenceIdeal.Read.val_main_v70 (F := Ideal) x2) (Cert.ReferenceIdeal.Read.val_main_v65 (F := Ideal) x0 x1 x3 x4 x5 x6) g c).trans ?_
  rw [Cert.ReferenceIdeal.Read.val_main_v69_apply, Cert.ReferenceIdeal.Read.val_main_cst_14_apply,
    show (FloatOps.ofBits (F := Ideal) .f32 0x00000000#32 : EReal) = 0 from Ideal.ofBits_zero_f32, zero_add]
  refine Finset.sum_congr rfl (fun e _ => ?_)
  rw [Cert.ReferenceIdeal.Read.val_main_v70_apply,
    show Cert.ReferenceIdeal.Read.idx_main_v70 (ix2 e (0 : Fin 1)) = ix1 e from funext fun a => match a with | ⟨0, _⟩ => rfl]

/-- The reference's pooled array at (g, d): the first segment sum on columns below 128, the second from there on. -/
theorem ref72_apply (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S50000, .i32⟩ : BufTy).Contents (Elt Ideal)) (x3 : (⟨Cert.ReferenceIdeal.S128x128, .f32⟩ : BufTy).Contents (Elt Ideal))
    (x4 : (⟨Cert.ReferenceIdeal.S128, .f32⟩ : BufTy).Contents (Elt Ideal)) (x5 : (⟨Cert.ReferenceIdeal.S128x128, .f32⟩ : BufTy).Contents (Elt Ideal))
    (x6 : (⟨Cert.ReferenceIdeal.S128, .f32⟩ : BufTy).Contents (Elt Ideal)) (g d : Fin 256) :
    Cert.ReferenceIdeal.Read.val_main_v72 (F := Ideal) x0 x1 x2 x3 x4 x5 x6 (ix2 g d)
      = if hd : d.val < 128 then Cert.ReferenceIdeal.Read.val_main_v68 (F := Ideal) x0 x1 x2 x3 x4 (ix2 g ⟨d.val, hd⟩)
        else Cert.ReferenceIdeal.Read.val_main_v71 (F := Ideal) x0 x1 x2 x3 x4 x5 x6 (ix2 g ⟨d.val - 128, by have := d.isLt; omega⟩) := by
  unfold Cert.ReferenceIdeal.Read.val_main_v72
  exact Cert.Lib.concat_cols_apply 256 256 128 (by norm_num) _ _ Cert.ReferenceIdeal.Facts₀.concatenates_S256x128_S256x128_S256x256_d1 g d

/-! ## The two sides agree -/

/-- POOLING: the kernel's one-hot matrix product over the zero-padded node axis is the reference's pair of segment
    sums set side by side, entry by entry, whatever the features' values (no finiteness is used). -/
theorem pool_bridge (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S50000, .i32⟩ : BufTy).Contents (Elt Ideal)) (x3 : (⟨Cert.ReferenceIdeal.S128x128, .f32⟩ : BufTy).Contents (Elt Ideal))
    (x4 : (⟨Cert.ReferenceIdeal.S128, .f32⟩ : BufTy).Contents (Elt Ideal)) (x5 : (⟨Cert.ReferenceIdeal.S128x128, .f32⟩ : BufTy).Contents (Elt Ideal))
    (x6 : (⟨Cert.ReferenceIdeal.S128, .f32⟩ : BufTy).Contents (Elt Ideal))
    (h48 : @Eq (Cert.Spec.Mat 50000 128) (kH1 Wv) (Cert.ReferenceIdeal.Read.val_main_v48 (F := Ideal) x0 x1 x3 x4))
    (h65 : @Eq (Cert.Spec.Mat 50000 128) (kH2 Wv) (Cert.ReferenceIdeal.Read.val_main_v65 (F := Ideal) x0 x1 x3 x4 x5 x6))
    (h2 : @Eq (IVec S50000 32) (kBatch Wv) x2) (g d : Fin 256) :
    Cert.Spec.mm (kOH Wv) (kFeat Wv) g d
      = Cert.ReferenceIdeal.Read.val_main_v72 (F := Ideal) x0 x1 x2 x3 x4 x5 x6 (ix2 g d) := by
  have hg : g.val < 2 ^ 31 := by have := g.isLt; omega
  rw [kernel_pool, ref72_apply]
  by_cases hd : d.val < 128
  · rw [dif_pos hd, ref68_apply]
    refine Finset.sum_congr rfl (fun e _ => ?_)
    rw [dif_pos hd, h2, h48]
    exact if_congr (ofNat_eq_iff_toInt g.val hg _) rfl rfl
  · rw [dif_neg hd, ref71_apply]
    refine Finset.sum_congr rfl (fun e _ => ?_)
    rw [dif_neg hd, h2, h65]
    exact if_congr (ofNat_eq_iff_toInt g.val hg _) rfl rfl

end Cert.Bridge

end
-- ==== Proof.Bridge.Head.lean ====
/-
  The reference program's head, index by index over the extended reals.

  The reference multiplies the pooled features by the first head matrix, adds the first bias (a [256] vector viewed as a
  [1, 256] row and broadcast down the rows), clamps at zero, multiplies by the second head matrix and adds the second
  bias the same way: entry (g, o) of the result is the logit of row g at column o.  Then it takes the log-softmax of
  each row, spelt out operation by operation: the row's maximum by a reduction from minus infinity, joined with minus infinity once
  more; the shifted row z - m; and the shifted row less the logarithm of the sum, from zero, of its exponentials.

  When the row's ten logits are real numbers the maximum is a real number, every exponential is a positive real, their
  sum is a positive real and its logarithm a real; over the reals (a - m) - l = a - (m + l), which is the arrangement
  `z o - (top z + log (sum (exp (z - top z))))`.
-/
import proofs.«408544_j16157666968391_1_alg».proof.Proof.Ref.ReadP
import proofs.«408544_j16157666968391_1_alg».proof.Proof.Spec
import proofs.«408544_j16157666968391_1_alg».proof.Proof.LibPropagate
import proofs.«408544_j16157666968391_1_alg».proof.Proof.LibSoftmaxRows
import Idealize.ShloMosaic.PureOps.Ideal.Laws
import Idealize.ShloMosaic.PureOps.Reduce
import Idealize.ShloMosaic.Lib.ValueIdx
import Mathlib.Data.Finset.Fold
import Mathlib.Analysis.SpecialFunctions.Log.Basic

noncomputable section

namespace Cert.Bridge

open Cert.ReferenceIdeal Cert.ReferenceIdeal.Gen Cert.ReferenceIdeal.Read
open Idealize.ShloMosaic Idealize.ShloMosaic.ValueIdx

/-! ## The log-softmax law on a row of ten real numbers -/

/-- The f32 pattern of minus infinity denotes the bottom of the extended reals. -/
theorem negInf_eq_bot : Ideal.ofBits .f32 0xFF800000#32 = (⊥ : EReal) := by
  simp [Ideal.ofBits, Ideal.ieee]

/-- The maximum, folded from minus infinity, of a row of ten real numbers is a real number: it is at least the first
    entry, so not minus infinity, and every entry is below plus infinity, so it is too. -/
theorem top_real (z : Fin 10 → EReal) (hz : ∀ o, ∃ r : ℝ, z o = (r : EReal)) :
    ∃ t : ℝ, Cert.Spec.top z = (t : EReal) := by
  have hne_bot : Cert.Spec.top z ≠ ⊥ := by
    obtain ⟨r, hr⟩ := hz 0
    have h1 : z 0 ≤ Cert.Spec.top z := by
      unfold Cert.Spec.top
      exact (Finset.le_fold_max _).2 (Or.inr ⟨0, Finset.mem_univ _, le_rfl⟩)
    intro h
    rw [h, hr] at h1
    exact absurd h1 (not_le.2 (EReal.bot_lt_coe r))
  have hne_top : Cert.Spec.top z ≠ ⊤ := by
    have : Cert.Spec.top z < ⊤ := by
      unfold Cert.Spec.top
      refine (Finset.fold_max_lt _).2 ⟨?_, fun o _ => ?_⟩
      · rw [negInf_eq_bot]; exact bot_lt_top
      · obtain ⟨r, hr⟩ := hz o
        rw [hr]; exact EReal.coe_lt_top r
    exact ne_of_lt this
  exact ⟨(Cert.Spec.top z).toReal, (EReal.coe_toReal hne_top hne_bot).symm⟩

/-- For a row of ten real numbers: the entry less the row's maximum (joined once more with minus infinity), less the
    logarithm of the sum, from zero, of the shifted exponentials, is `z o - (top + log (sum (exp (z - top))))`.
    Every quantity is a real number (the sum of ten exponentials is positive, so its logarithm is real), and over the
    reals `(a - t) - l = a - (t + l)`. -/
theorem logsm_law (z : Fin 10 → EReal) (hz : ∀ o, ∃ r : ℝ, z o = (r : EReal)) (o : Fin 10) :
    (z o - max (Ideal.ofBits .f32 0xFF800000#32) (Cert.Spec.top z))
        - Ideal.log (Ideal.ofBits .f32 0x00000000#32
            + ∑ o' : Fin 10, Ideal.exp (z o' - max (Ideal.ofBits .f32 0xFF800000#32) (Cert.Spec.top z)))
      = Cert.Spec.logsm z o := by
  unfold Cert.Spec.logsm
  rw [negInf_eq_bot, Ideal.ofBits_zero_f32, zero_add, max_eq_right bot_le]
  obtain ⟨t, ht⟩ := top_real z hz
  choose r hr using hz
  rw [ht]
  have hexp : ∀ o' : Fin 10, Ideal.exp (z o' - (t : EReal)) = ((Real.exp (r o' - t) : ℝ) : EReal) := fun o' => by
    rw [hr o', ← EReal.coe_sub]; rfl
  rw [Finset.sum_congr rfl fun o' _ => hexp o', ← Cert.Lib.Propagate.coe_finsetSum]
  have hpos : 0 < ∑ o' : Fin 10, Real.exp (r o' - t) :=
    Finset.sum_pos (fun o' _ => Real.exp_pos _) ⟨0, Finset.mem_univ _⟩
  rw [Ideal.log_coe, if_neg (not_le.2 hpos), hr o, ← EReal.coe_sub, ← EReal.coe_sub, ← EReal.coe_add, ← EReal.coe_sub,
    sub_sub]

/-! ## Where each stage of the head reads its operands -/

theorem lidx73_eq (g h k : Fin 256) : lidx_main_v73 (ix2 g h) k = ix2 g k :=
  funext fun a => match a with | ⟨0, _⟩ => rfl | ⟨1, _⟩ => rfl
theorem ridx73_eq (g h k : Fin 256) : ridx_main_v73 (ix2 g h) k = ix2 k h :=
  funext fun a => match a with | ⟨0, _⟩ => rfl | ⟨1, _⟩ => rfl
theorem idx74_75_eq (g h : Fin 256) : idx_main_v74 (idx_main_v75 (ix2 g h)) = ix1 h :=
  funext fun a => match a with | ⟨0, _⟩ => rfl
theorem lidx78_eq (g : Fin 256) (o : Fin 10) (k : Fin 256) : lidx_main_v78 (ix2 g o) k = ix2 g k :=
  funext fun a => match a with | ⟨0, _⟩ => rfl | ⟨1, _⟩ => rfl
theorem ridx78_eq (g : Fin 256) (o : Fin 10) (k : Fin 256) : ridx_main_v78 (ix2 g o) k = ix2 k o :=
  funext fun a => match a with | ⟨0, _⟩ => rfl | ⟨1, _⟩ => rfl
theorem idx79_80_eq (g : Fin 256) (o : Fin 10) : idx_main_v79 (idx_main_v80 (ix2 g o)) = ix1 o :=
  funext fun a => match a with | ⟨0, _⟩ => rfl
theorem idx3_4_eq (g : Fin 256) (o : Fin 10) : idx_main_call2_v3 (idx_main_call2_v4 (ix2 g o)) = ix1 g :=
  funext fun a => match a with | ⟨0, _⟩ => rfl
theorem idx8_10_eq (g : Fin 256) (o : Fin 10) : idx_main_call2_v8 (idx_main_call2_v10 (ix2 g o)) = ix1 g :=
  funext fun a => match a with | ⟨0, _⟩ => rfl
theorem idx7_eq (g : Fin 256) (k : Fin 10) : idx_main_call2_v7 (ix1 g) k = ix2 g k :=
  funext fun a => match a with | ⟨0, _⟩ => rfl | ⟨1, _⟩ => rfl

section Head

variable (x0 : (⟨S50000x128, .f32⟩ : BufTy).Contents (Elt Ideal))
  (x1 : (⟨S2x800000, .i32⟩ : BufTy).Contents (Elt Ideal))
  (x2 : (⟨S50000, .i32⟩ : BufTy).Contents (Elt Ideal))
  (x3 : (⟨S128x128, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S256x256, .f32⟩ : BufTy).Contents (Elt Ideal))
  (x8 : (⟨S256, .f32⟩ : BufTy).Contents (Elt Ideal))
  (x9 : (⟨S256x10, .f32⟩ : BufTy).Contents (Elt Ideal))
  (x10 : (⟨S10, .f32⟩ : BufTy).Contents (Elt Ideal))

/-! ## The hidden layer and the logits -/

/-- Entry (g, h) of the reference's clamped layer is the hidden layer of the pooled features at (g, h). -/
theorem ref_hidden (g h : Fin 256) :
    val_main_v77 (F := Ideal) x0 x1 x2 x3 x4 x5 x6 x7 x8 (ix2 g h)
      = Cert.Spec.hidden (val_main_v72 (F := Ideal) x0 x1 x2 x3 x4 x5 x6) x7 (fun ix => x8 (ix1 (ix 1))) g h := by
  rw [val_main_v77_apply, val_main_v76_apply, val_main_v73_apply, val_main_v75_apply, val_main_v74_apply,
    val_main_call1_v0_apply, val_main_call1_cst_apply, idx74_75_eq]
  unfold Cert.Spec.hidden Cert.Spec.mm
  generalize val_main_v72 (F := Ideal) x0 x1 x2 x3 x4 x5 x6 = G
  simp only [Ideal.maximumf_def, Ideal.addf_def, Ideal.ofBits_def, Ideal.ofBits_zero_f32]
  refine congrArg (max · 0) (congrArg (· + _) (Finset.sum_congr rfl fun k _ => ?_))
  rw [lidx73_eq, ridx73_eq]

/-- Entry (g, o) of the reference's logits is the logit of the pooled features at (g, o). -/
theorem ref_logit (g : Fin 256) (o : Fin 10) :
    val_main_v81 (F := Ideal) x0 x1 x2 x3 x4 x5 x6 x7 x8 x9 x10 (ix2 g o)
      = Cert.Spec.logit (val_main_v72 (F := Ideal) x0 x1 x2 x3 x4 x5 x6) x7 (fun ix => x8 (ix1 (ix 1))) x9
          (fun ix => x10 (ix1 (ix 1))) g o := by
  rw [val_main_v81_apply, val_main_v78_apply, val_main_v80_apply, val_main_v79_apply, idx79_80_eq]
  unfold Cert.Spec.logit
  have hH : ∀ k : Fin 256, val_main_v77 (F := Ideal) x0 x1 x2 x3 x4 x5 x6 x7 x8 (ix2 g k)
      = Cert.Spec.hidden (val_main_v72 (F := Ideal) x0 x1 x2 x3 x4 x5 x6) x7 (fun ix => x8 (ix1 (ix 1))) g k :=
    fun k => ref_hidden x0 x1 x2 x3 x4 x5 x6 x7 x8 g k
  generalize val_main_v77 (F := Ideal) x0 x1 x2 x3 x4 x5 x6 x7 x8 = Hd at hH ⊢
  generalize Cert.Spec.hidden (val_main_v72 (F := Ideal) x0 x1 x2 x3 x4 x5 x6) x7 (fun ix => x8 (ix1 (ix 1))) = Hs at hH ⊢
  simp only [Ideal.addf_def]
  refine congrArg (· + _) (Finset.sum_congr rfl fun k _ => ?_)
  rw [lidx78_eq, ridx78_eq, hH]

/-! ## The log-softmax of a row -/

/-- The row maximum the reference subtracts at (g, o): minus infinity joined with the fold of the maximum, from minus
    infinity, over row g of the logits. -/
theorem ref_rowtop (g : Fin 256) (o : Fin 10) :
    val_main_call2_v4 (F := Ideal) x0 x1 x2 x3 x4 x5 x6 x7 x8 x9 x10 (ix2 g o)
      = max (Ideal.ofBits .f32 0xFF800000#32)
          (Cert.Spec.top fun o' : Fin 10 => val_main_v81 (F := Ideal) x0 x1 x2 x3 x4 x5 x6 x7 x8 x9 x10 (ix2 g o')) := by
  rw [val_main_call2_v4_apply, val_main_call2_v3_apply, val_main_call2_v2_apply, val_main_call2_v1_apply,
    val_main_call2_cst_0_apply, idx3_4_eq]
  unfold val_main_call2_v0
  generalize val_main_v81 (F := Ideal) x0 x1 x2 x3 x4 x5 x6 x7 x8 x9 x10 = z
  simp only [Ideal.maximumf_def, Ideal.ofBits_def]
  refine congrArg (max _) ?_
  have hr : S256x10.Reduces [1] S256 := by decide
  refine (Host.reduce_eq_fold_single (FloatOps.maximumf (F := Ideal) (φ := .f32)) z (val_main_call2_cst (F := Ideal))
    reducesTo_S256x10_S256_d1 hr h_S_ (ix1 g)).trans ?_
  have e : (z ∘ hr.lift (ix1 g)) = fun j : Fin 10 => z (ix2 g j) :=
    funext fun j => congrArg z (Cert.Lib.SoftmaxRows.lift_row hr g j)
  rw [e]
  rfl

/-- The shifted logit at (g, o): the logit less the row's maximum. -/
theorem ref_shift (g : Fin 256) (o : Fin 10) :
    val_main_call2_v5 (F := Ideal) x0 x1 x2 x3 x4 x5 x6 x7 x8 x9 x10 (ix2 g o)
      = val_main_v81 (F := Ideal) x0 x1 x2 x3 x4 x5 x6 x7 x8 x9 x10 (ix2 g o)
          - max (Ideal.ofBits .f32 0xFF800000#32)
              (Cert.Spec.top fun o' : Fin 10 => val_main_v81 (F := Ideal) x0 x1 x2 x3 x4 x5 x6 x7 x8 x9 x10 (ix2 g o')) := by
  rw [val_main_call2_v5_apply, ref_rowtop]
  generalize val_main_v81 (F := Ideal) x0 x1 x2 x3 x4 x5 x6 x7 x8 x9 x10 = z
  rfl

/-- The sum of row g's shifted exponentials, from zero. -/
theorem ref_expsum (g : Fin 256) :
    val_main_call2_v7 (F := Ideal) x0 x1 x2 x3 x4 x5 x6 x7 x8 x9 x10 (ix1 g)
      = Ideal.ofBits .f32 0x00000000#32
          + ∑ k : Fin 10, Ideal.exp (val_main_v81 (F := Ideal) x0 x1 x2 x3 x4 x5 x6 x7 x8 x9 x10 (ix2 g k)
              - max (Ideal.ofBits .f32 0xFF800000#32)
                  (Cert.Spec.top fun o' : Fin 10 => val_main_v81 (F := Ideal) x0 x1 x2 x3 x4 x5 x6 x7 x8 x9 x10 (ix2 g o'))) := by
  rw [val_main_call2_v7_apply, val_main_call2_cst_1_apply]
  have h6 : ∀ k : Fin 10, val_main_call2_v6 (F := Ideal) x0 x1 x2 x3 x4 x5 x6 x7 x8 x9 x10 (ix2 g k)
      = Ideal.exp (val_main_v81 (F := Ideal) x0 x1 x2 x3 x4 x5 x6 x7 x8 x9 x10 (ix2 g k)
          - max (Ideal.ofBits .f32 0xFF800000#32)
              (Cert.Spec.top fun o' : Fin 10 => val_main_v81 (F := Ideal) x0 x1 x2 x3 x4 x5 x6 x7 x8 x9 x10 (ix2 g o'))) := fun k => by
    rw [val_main_call2_v6_apply, ref_shift]
    generalize val_main_v81 (F := Ideal) x0 x1 x2 x3 x4 x5 x6 x7 x8 x9 x10 = z
    rfl
  generalize val_main_call2_v6 (F := Ideal) x0 x1 x2 x3 x4 x5 x6 x7 x8 x9 x10 = E at h6 ⊢
  generalize val_main_v81 (F := Ideal) x0 x1 x2 x3 x4 x5 x6 x7 x8 x9 x10 = z at h6 ⊢
  refine congrArg₂ (· + ·) rfl (Finset.sum_congr rfl fun k _ => ?_)
  rw [idx7_eq, h6]

/-- Entry (g, o) of the reference's result is the log-softmax of row g of the logits at o, in the arrangement
    `z o - (top z + log (sum (exp (z - top z))))`, when the row's logits are real numbers. -/
theorem ref_logsm (g : Fin 256)
    (hreal : ∀ o : Fin 10, ∃ r : ℝ, val_main_v81 (F := Ideal) x0 x1 x2 x3 x4 x5 x6 x7 x8 x9 x10 (ix2 g o) = (r : EReal))
    (o : Fin 10) :
    val_main_v82 (F := Ideal) x0 x1 x2 x3 x4 x5 x6 x7 x8 x9 x10 (ix2 g o)
      = Cert.Spec.logsm (fun o' : Fin 10 => val_main_v81 (F := Ideal) x0 x1 x2 x3 x4 x5 x6 x7 x8 x9 x10 (ix2 g o')) o := by
  rw [← logsm_law (fun o' : Fin 10 => val_main_v81 (F := Ideal) x0 x1 x2 x3 x4 x5 x6 x7 x8 x9 x10 (ix2 g o')) hreal o]
  rw [val_main_v82_apply, val_main_call2_v10_apply, val_main_call2_v9_apply, val_main_call2_v8_apply, idx8_10_eq,
    ref_expsum, ref_shift]
  generalize val_main_v81 (F := Ideal) x0 x1 x2 x3 x4 x5 x6 x7 x8 x9 x10 = z
  rfl

end Head

end Cert.Bridge

end
-- ==== Proof.Bridge.HeadRows.lean ====
/-
  The two bias vectors of the head as the last pallas_call's windows see them: the host views the [256] vector as a
  [1, 256] row and the [10] vector as a [1, 10] row, so entry (0, h) of the row is entry h of the vector, both sitting
  at row-major position h.  Stated at any contents of the program's buffers before the two views are taken.
-/
import proofs.«408544_j16157666968391_1_alg».proof.Proof.Gen.KernelIdeal.Launch
import Idealize.ShloMosaic.Lib.StableHlo.Run
import Idealize.ShloMosaic.Lib.Pipeline.Value
import Idealize.ShloMosaic.Lib.ValueIdx

noncomputable section

namespace Cert.Bridge

open Cert.KernelIdeal Cert.KernelIdeal.Gen
open Idealize.ShloMosaic Idealize.ShloMosaic.TcCoe Idealize.ShloMosaic.ValueIdx Idealize.SL.Sem

variable {F : FTy → Type} [FloatOps F]

/-- A [256] vector viewed as a [1, 256] row reads, at (0, h), the vector at h. -/
theorem row256_apply {α : Type} (x : S256.Idx → α) (hc : S256.ShapeCasts S1x256) (h : Fin 256) :
    shapeCast S1x256 x hc (ix2 (0 : Fin 1) h) = x (ix1 h) :=
  shapeCast_apply x hc (ix2 (0 : Fin 1) h) (ix1 h) (by
    rw [Shape.rowMajor_val_one, Shape.rowMajor_val_two]
    show h.val = 0 * 256 + h.val
    omega)

/-- A [10] vector viewed as a [1, 10] row reads, at (0, o), the vector at o. -/
theorem row10_apply {α : Type} (x : S10.Idx → α) (hc : S10.ShapeCasts S1x10) (o : Fin 10) :
    shapeCast S1x10 x hc (ix2 (0 : Fin 1) o) = x (ix1 o) :=
  shapeCast_apply x hc (ix2 (0 : Fin 1) o) (ix1 o) (by
    rw [Shape.rowMajor_val_one, Shape.rowMajor_val_two]
    show o.val = 0 * 10 + o.val
    omega)

/-- After the two views the [1, 256] row holds the first bias vector: entry (0, h) is the vector's entry h. -/
theorem k_v78_apply (Wv : Valuation τ sig (Elt F)) (h : Fin 256) :
    (StableHlo.after (hostOps3 (F := F)) Wv (Proc.devRef .tc main_v78) : S1x256.Idx → F .f32) (ix2 (0 : Fin 1) h)
      = (Wv (Proc.devRef .tc main_arg8) : S256.Idx → F .f32) (ix1 h) := by
  have e : (StableHlo.after (hostOps3 (F := F)) Wv (Proc.devRef .tc main_v78) : S1x256.Idx → F .f32)
      = shapeCast S1x256 (Wv (Proc.devRef .tc main_arg8) : S256.Idx → F .f32) shapeCasts_S256_S1x256 := by
    show StableHlo.after _ _ _ = _
    after_results
    rfl
  rw [e]
  exact row256_apply _ _ h

/-- After the two views the [1, 10] row holds the second bias vector: entry (0, o) is the vector's entry o. -/
theorem k_v79_apply (Wv : Valuation τ sig (Elt F)) (o : Fin 10) :
    (StableHlo.after (hostOps3 (F := F)) Wv (Proc.devRef .tc main_v79) : S1x10.Idx → F .f32) (ix2 (0 : Fin 1) o)
      = (Wv (Proc.devRef .tc main_arg10) : S10.Idx → F .f32) (ix1 o) := by
  have e : (StableHlo.after (hostOps3 (F := F)) Wv (Proc.devRef .tc main_v79) : S1x10.Idx → F .f32)
      = shapeCast S1x10 (Wv (Proc.devRef .tc main_arg10) : S10.Idx → F .f32) shapeCasts_S10_S1x10 := by
    show StableHlo.after _ _ _ = _
    after_results
    rfl
  rw [e]
  exact row10_apply _ _ o

end Cert.Bridge

end
-- ==== Proof.Bridge.Final.lean ====
/-
  The two programs compute the same arrays. From the launch memory, boundary by boundary: the index arrays and the
  edge weights are the same host operations in both programs; each linear projection's pallas call leaves the full
  matrix product, which is the reference's dot_general; the layers' gather, scale, scatter-add and bias are again the
  same host operations; the one-hot matrix product over the padded node axis is the reference's two scatter-adds side
  by side; the head's hidden layer and logits are the same sums; and the log-softmax, which the kernel arranges as
  z - (top + log s) and the reference as (z - top) - log s, agrees because every logit is a real number when the float
  inputs are.
-/
import proofs.«408544_j16157666968391_1_alg».proof.Proof.KI.Frame
import proofs.«408544_j16157666968391_1_alg».proof.Proof.KI.Val0
import proofs.«408544_j16157666968391_1_alg».proof.Proof.KI.Val1
import proofs.«408544_j16157666968391_1_alg».proof.Proof.KI.Val2
import proofs.«408544_j16157666968391_1_alg».proof.Proof.KI.Val3
import proofs.«408544_j16157666968391_1_alg».proof.Proof.Ref.ReadP
import proofs.«408544_j16157666968391_1_alg».proof.Proof.Ref.Mm
import proofs.«408544_j16157666968391_1_alg».proof.Proof.Ref.Finite
import proofs.«408544_j16157666968391_1_alg».proof.Proof.Ref.Pre
import proofs.«408544_j16157666968391_1_alg».proof.Proof.Bridge.Chain
import proofs.«408544_j16157666968391_1_alg».proof.Proof.Bridge.Pool
import proofs.«408544_j16157666968391_1_alg».proof.Proof.Bridge.Head
import proofs.«408544_j16157666968391_1_alg».proof.Proof.Bridge.HeadRows
import proofs.«408544_j16157666968391_1_alg».proof.Proof.Spec

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (c : Dev nD)

/-- The launch contents of an argument on core `c`. -/
abbrev arg (r : Ref sig .tc) : Buf (Elt Ideal) ((c : Thread nD τ).loc r) := m ((c : Thread nD τ).loc r)

/-! ## Buffers that nothing has written yet -/

/-- A buffer no host stretch before the first pallas call writes holds its launch contents there. -/
theorem W3_arg (r : Ref sig .tc) (h0 : r ∉ hostOps0_W) (h1 : r ∉ hostOps0_1_W) (h2 : r ∉ hostOps0_2_W) : W3 m c r = arg m c r :=
  (W3_of m c r h2).trans ((W2_of m c r h1).trans ((W1_of m c r h0).trans rfl))

/-- … and still does after the first pallas call and the first layer's host operations, if they do not write it. -/
theorem W5_arg (r : Ref sig .tc) (h0 : r ∉ hostOps0_W) (h1 : r ∉ hostOps0_1_W) (h2 : r ∉ hostOps0_2_W)
    (h3 : W4 m c r = W3 m c r) (h4 : r ∉ hostOps1_W) : W5 m c r = arg m c r :=
  (W5_of m c r h4).trans (h3.trans (W3_arg m c r h0 h1 h2))

/-- A buffer of the shared prefix is kept by the first pallas call, the first layer and the second pallas call. -/
theorem W6_keep (r : Ref sig .tc) (h3 : ∀ w, Pipeline.arrRef spec0 w ≠ r) (h4 : r ∉ hostOps1_W) (h5 : ∀ w, Pipeline.arrRef spec1 w ≠ r) :
    W6 m c r = W3 m c r :=
  (W6_of_ne m c r h5).trans ((W5_of m c r h4).trans (W4_of_ne m c r h3))

/-! ## The index arrays and the edge weights -/

theorem s3 : W3 m c main_v3 = Cert.ReferenceIdeal.Read.val_main_v3 (arg m c main_arg1) := pre_v3 (W0 m c)
theorem s6 : W3 m c main_v6 = Cert.ReferenceIdeal.Read.val_main_v6 (arg m c main_arg1) := pre_v6 (W0 m c)
theorem s31 : W3 m c main_v31 = Cert.ReferenceIdeal.Read.val_main_v31 (arg m c main_arg1) := pre_v31 (W0 m c)

/-! ## The first layer -/

/-- The first pallas call leaves the full product of the features with the first weight matrix. -/
theorem s32 : W4 m c main_v32 = Cert.ReferenceIdeal.Read.val_main_v32 (arg m c main_arg0) (arg m c main_arg3) := by
  funext i
  obtain ⟨p, q, rfl⟩ : ∃ (p : Fin 50000) (q : Fin 128), i = ix2 p q := ⟨i 0, i 1, eq_ix2 i⟩
  refine (congrFun (W4_arr m c 2) (ix2 p q)).trans ?_
  rw [final0, Cert.ReferenceIdeal.RefValue.val_main_v32_mm]
  rw [show B3 m c main_arg0 = arg m c main_arg0 from W3_arg m c main_arg0 (by decide) (by decide) (by decide),
    show B3 m c main_arg3 = arg m c main_arg3 from W3_arg m c main_arg3 (by decide) (by decide) (by decide)]

theorem s48 : W5 m c main_v48 = Cert.ReferenceIdeal.Read.val_main_v48 (arg m c main_arg0) (arg m c main_arg1) (arg m c main_arg3) (arg m c main_arg4) :=
  layer1 (W4 m c) _ _ _ _
    ((W4_of_ne m c main_v3 (by decide)).trans (s3 m c)) ((W4_of_ne m c main_v6 (by decide)).trans (s6 m c))
    ((W4_of_ne m c main_v31 (by decide)).trans (s31 m c)) (s32 m c)
    ((W4_of_ne m c main_arg4 (by decide)).trans (W3_arg m c main_arg4 (by decide) (by decide) (by decide)))

/-! ## The second layer -/

theorem s49 : W6 m c main_v49 = Cert.ReferenceIdeal.Read.val_main_v49 (arg m c main_arg0) (arg m c main_arg1) (arg m c main_arg3) (arg m c main_arg4) (arg m c main_arg5) := by
  funext i
  obtain ⟨p, q, rfl⟩ : ∃ (p : Fin 50000) (q : Fin 128), i = ix2 p q := ⟨i 0, i 1, eq_ix2 i⟩
  refine (congrFun (W6_arr m c 2) (ix2 p q)).trans ?_
  rw [final1, Cert.ReferenceIdeal.RefValue.val_main_v49_mm]
  rw [show B5 m c main_v48 = _ from s48 m c,
    show B5 m c main_arg5 = arg m c main_arg5 from W5_arg m c main_arg5 (by decide) (by decide) (by decide) (W4_of_ne m c main_arg5 (by decide)) (by decide)]

theorem s65 : W7 m c main_v65 = Cert.ReferenceIdeal.Read.val_main_v65 (arg m c main_arg0) (arg m c main_arg1) (arg m c main_arg3) (arg m c main_arg4) (arg m c main_arg5) (arg m c main_arg6) :=
  layer2 (W6 m c) _ _ _ _ _ _
    ((W6_keep m c main_v3 (by decide) (by decide) (by decide)).trans (s3 m c)) ((W6_keep m c main_v6 (by decide) (by decide) (by decide)).trans (s6 m c))
    ((W6_keep m c main_v31 (by decide) (by decide) (by decide)).trans (s31 m c)) (s49 m c)
    ((W6_keep m c main_arg6 (by decide) (by decide) (by decide)).trans (W3_arg m c main_arg6 (by decide) (by decide) (by decide)))

/-! ## The pooled features -/

/-- The one-hot product over the padded node axis is the reference's two scatter-adds side by side. -/
theorem s77 : W11 m c main_v77 = Cert.ReferenceIdeal.Read.val_main_v72 (arg m c main_arg0) (arg m c main_arg1) (arg m c main_arg2) (arg m c main_arg3) (arg m c main_arg4) (arg m c main_arg5) (arg m c main_arg6) := by
  funext i
  obtain ⟨g, d, rfl⟩ : ∃ (g d : Fin 256), i = ix2 g d := ⟨i 0, i 1, eq_ix2 i⟩
  refine (congrFun (W11_arr m c 2) (ix2 g d)).trans ?_
  rw [final2]
  exact pool_bridge (W6 m c) _ _ _ _ _ _ _
    ((W6_in m c 0 rfl).trans (s48 m c)) (s65 m c)
    ((W6_keep m c main_arg2 (by decide) (by decide) (by decide)).trans (W3_arg m c main_arg2 (by decide) (by decide) (by decide))) g d

/-! ## The head -/

/-- The logits depend on the bias rows only through their single row. -/
theorem logit_congr (G W1 : Cert.Spec.Mat 256 256) (b1 b1' : Cert.Spec.Mat 1 256) (W2 : Cert.Spec.Mat 256 10) (b2 b2' : Cert.Spec.Mat 1 10)
    (h1 : ∀ h : Fin 256, b1 (ix2 0 h) = b1' (ix2 0 h)) (h2 : ∀ o : Fin 10, b2 (ix2 0 o) = b2' (ix2 0 o)) (g : Fin 256) (o : Fin 10) :
    Cert.Spec.logit G W1 b1 W2 b2 g o = Cert.Spec.logit G W1 b1' W2 b2' g o := by
  unfold Cert.Spec.logit Cert.Spec.hidden
  rw [h2 o]
  simp only [h1]

/-- A buffer the pooling stretch and the pooling call do not write keeps its contents up to the head's entry. -/
theorem W12_arg (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r)
    (h6 : r ∉ hostOps2_W) (h7 : r ∉ hostOps2_1_W) (h8 : r ∉ hostOps2_2_W) (h9 : r ∉ hostOps2_3_W)
    (h10 : ∀ w, Pipeline.arrRef spec2 w ≠ r) (h11 : r ∉ hostOps3_W) : W12 m c r = arg m c r :=
  (W12_of m c r h11).trans <| (W11_of_ne m c r h10).trans <| (W10_of m c r h9).trans <| (W9_of m c r h8).trans <| (W8_of m c r h7).trans <|
    (W7_of m c r h6).trans <| (W6_keep m c r h3 h4 h5).trans (W3_arg m c r h0 h1 h2)

/-- The same up to the pooling call's exit. -/
theorem W11_arg (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r)
    (h6 : r ∉ hostOps2_W) (h7 : r ∉ hostOps2_1_W) (h8 : r ∉ hostOps2_2_W) (h9 : r ∉ hostOps2_3_W)
    (h10 : ∀ w, Pipeline.arrRef spec2 w ≠ r) : W11 m c r = arg m c r :=
  (W11_of_ne m c r h10).trans <| (W10_of m c r h9).trans <| (W9_of m c r h8).trans <| (W8_of m c r h7).trans <|
    (W7_of m c r h6).trans <| (W6_keep m c r h3 h4 h5).trans (W3_arg m c r h0 h1 h2)

/-- The kernel's logits at an entry, over the reference's pooled features and the launch arguments. -/
theorem k_logit (g : Fin 256) (o : Fin 10) :
    W13 m c main_v80_0 (ix2 g o)
      = Cert.Spec.logit (Cert.ReferenceIdeal.Read.val_main_v72 (arg m c main_arg0) (arg m c main_arg1) (arg m c main_arg2) (arg m c main_arg3) (arg m c main_arg4) (arg m c main_arg5) (arg m c main_arg6)) (arg m c main_arg7) (fun ix => (arg m c main_arg8) (ix1 (ix 1))) (arg m c main_arg9) (fun ix => (arg m c main_arg10) (ix1 (ix 1))) g o := by
  refine (congrFun (W13_arr m c 5) (ix2 g o)).trans ?_
  rw [final3_5]
  rw [show B12 m c main_v77 = _ from (W12_of m c main_v77 (by decide)).trans (s77 m c),
    show B12 m c main_arg7 = arg m c main_arg7 from W12_arg m c main_arg7 (by decide) (by decide) (by decide) (by decide) (by decide) (by decide) (by decide) (by decide) (by decide) (by decide) (by decide) (by decide),
    show B12 m c main_arg9 = arg m c main_arg9 from W12_arg m c main_arg9 (by decide) (by decide) (by decide) (by decide) (by decide) (by decide) (by decide) (by decide) (by decide) (by decide) (by decide) (by decide)]
  refine logit_congr _ _ _ _ _ _ _ (fun h => ?_) (fun o' => ?_) g o
  · exact (k_v78_apply (W11 m c) h).trans (congrFun (W11_arg m c main_arg8 (by decide) (by decide) (by decide) (by decide) (by decide) (by decide) (by decide) (by decide) (by decide) (by decide) (by decide)) (ix1 h))
  · exact (k_v79_apply (W11 m c) o').trans (congrFun (W11_arg m c main_arg10 (by decide) (by decide) (by decide) (by decide) (by decide) (by decide) (by decide) (by decide) (by decide) (by decide) (by decide)) (ix1 o'))

/-- The first result: the logits. -/
theorem s80_0 : W13 m c main_v80_0 = Cert.ReferenceIdeal.Read.val_main_v81 (arg m c main_arg0) (arg m c main_arg1) (arg m c main_arg2) (arg m c main_arg3) (arg m c main_arg4) (arg m c main_arg5) (arg m c main_arg6) (arg m c main_arg7) (arg m c main_arg8) (arg m c main_arg9) (arg m c main_arg10) := by
  funext i
  obtain ⟨g, o, rfl⟩ : ∃ (g : Fin 256) (o : Fin 10), i = ix2 g o := ⟨i 0, i 1, eq_ix2 i⟩
  rw [k_logit, ref_logit]

/-- The second result: the log-softmax, equal because every logit is a real number. -/
theorem s80_1 (hreal : ∀ i, ∃ r : ℝ, Cert.ReferenceIdeal.Read.val_main_v81 (arg m c main_arg0) (arg m c main_arg1) (arg m c main_arg2) (arg m c main_arg3) (arg m c main_arg4) (arg m c main_arg5) (arg m c main_arg6) (arg m c main_arg7) (arg m c main_arg8) (arg m c main_arg9) (arg m c main_arg10) i = (r : EReal)) :
    W13 m c main_v80_1 = Cert.ReferenceIdeal.Read.val_main_v82 (arg m c main_arg0) (arg m c main_arg1) (arg m c main_arg2) (arg m c main_arg3) (arg m c main_arg4) (arg m c main_arg5) (arg m c main_arg6) (arg m c main_arg7) (arg m c main_arg8) (arg m c main_arg9) (arg m c main_arg10) := by
  funext i
  obtain ⟨g, o, rfl⟩ : ∃ (g : Fin 256) (o : Fin 10), i = ix2 g o := ⟨i 0, i 1, eq_ix2 i⟩
  refine (congrFun (W13_arr m c 6) (ix2 g o)).trans ?_
  rw [final3_6, ref_logsm _ _ _ _ _ _ _ _ _ _ _ g (fun o' => hreal (ix2 g o')) o]
  refine congrArg (fun z => Cert.Spec.logsm z o) (funext fun o' => ?_)
  exact (final3_5 (B12 m) c g o').symm.trans ((congrFun (W13_arr m c 5) (ix2 g o')).symm.trans (congrFun (s80_0 m c) (ix2 g o')))

end Cert.Bridge

end
-- ==== Proof.Ref.RunH.lean ====
/-
  The reference program's run, read back stage by stage: its operations in order, cut into stretches with a cut before
  every concatenation; for each stretch, what every buffer a later stretch reads holds after it, as the stage function of
  the launch arguments (the stages are the read-at-an-index module's), given what the stretch found; and, joined, every
  weakly fair execution ends with the two results at their stage functions of the launch arguments and the arguments
  unchanged.
-/
import proofs.«408544_j16157666968391_1_alg».proof.Proof.Gen.ReferenceIdeal
import proofs.«408544_j16157666968391_1_alg».proof.Proof.Ref.ReadP
import Idealize.ShloMosaic.Lib.StableHlo.Run

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## The fold over two stretches run one after the other -/

theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## Stretch 0: operations 0 to 2 -/

abbrev c0 : List (HloOp τ sig (Elt F)) :=
  [
    nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000 ]

set_option maxRecDepth 8192 in
theorem c0_sub : (c0 : List (HloOp τ sig (Elt F))).Forall fun op => op.bufs ⊆ tcRefs τ sig :=
  ⟨nullary_bufs_sub .., unary_bufs_sub .., reshape_bufs_sub ..⟩

theorem c0_fresh : ∀ op ∈ (c0 : List (HloOp τ sig (Elt F))), op.fresh = ∅ := by
  intro _ h; (repeat (cases h with | head => rfl | tail _ h => ?_)); exact nomatch h

set_option maxRecDepth 8192 in
set_option maxHeartbeats 4000000 in
theorem c0_main_v0 (W : Valuation τ sig (Elt F)) (a0 : (⟨S50000x128, .f32⟩ : BufTy).Contents (Elt F)) (a1 : (⟨S2x800000, .i32⟩ : BufTy).Contents (Elt F)) (a2 : (⟨S50000, .i32⟩ : BufTy).Contents (Elt F)) (a3 : (⟨S128x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S256x256, .f32⟩ : BufTy).Contents (Elt F)) (a8 : (⟨S256, .f32⟩ : BufTy).Contents (Elt F)) (a9 : (⟨S256x10, .f32⟩ : BufTy).Contents (Elt F)) (a10 : (⟨S10, .f32⟩ : BufTy).Contents (Elt F))
    (h_main_arg1 : W (Proc.devRef .tc main_arg1) = a1) :
    after c0 W (Proc.devRef .tc main_v0) = val_main_v0 (F := F) := by
  after_results_simp
  try simp only [TRef.ofBuf, TRef.toBuf, cast_eq]
  try simp only [h_main_arg1]
  try rfl

set_option maxRecDepth 8192 in
set_option maxHeartbeats 4000000 in
theorem c0_main_v2 (W : Valuation τ sig (Elt F)) (a0 : (⟨S50000x128, .f32⟩ : BufTy).Contents (Elt F)) (a1 : (⟨S2x800000, .i32⟩ : BufTy).Contents (Elt F)) (a2 : (⟨S50000, .i32⟩ : BufTy).Contents (Elt F)) (a3 : (⟨S128x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S256x256, .f32⟩ : BufTy).Contents (Elt F)) (a8 : (⟨S256, .f32⟩ : BufTy).Contents (Elt F)) (a9 : (⟨S256x10, .f32⟩ : BufTy).Contents (Elt F)) (a10 : (⟨S10, .f32⟩ : BufTy).Contents (Elt F))
    (h_main_arg1 : W (Proc.devRef .tc main_arg1) = a1) :
    after c0 W (Proc.devRef .tc main_v2) = val_main_v2 (F := F) a1 := by
  after_results_simp
  try simp only [TRef.ofBuf, TRef.toBuf, cast_eq]
  try simp only [h_main_arg1]
  try rfl

set_option maxRecDepth 8192 in
set_option maxHeartbeats 4000000 in
theorem c0_arg0 (W : Valuation τ sig (Elt F)) : after c0 W (Proc.devRef .tc main_arg0) = W (Proc.devRef .tc main_arg0) := by
  after_results_simp

set_option maxRecDepth 8192 in
set_option maxHeartbeats 4000000 in
theorem c0_arg1 (W : Valuation τ sig (Elt F)) : after c0 W (Proc.devRef .tc main_arg1) = W (Proc.devRef .tc main_arg1) := by
  after_results_simp

set_option maxRecDepth 8192 in
set_option maxHeartbeats 4000000 in
theorem c0_arg2 (W : Valuation τ sig (Elt F)) : after c0 W (Proc.devRef .tc main_arg2) = W (Proc.devRef .tc main_arg2) := by
  after_results_simp

set_option maxRecDepth 8192 in
set_option maxHeartbeats 4000000 in
theorem c0_arg3 (W : Valuation τ sig (Elt F)) : after c0 W (Proc.devRef .tc main_arg3) = W (Proc.devRef .tc main_arg3) := by
  after_results_simp

set_option maxRecDepth 8192 in
set_option maxHeartbeats 4000000 in
theorem c0_arg4 (W : Valuation τ sig (Elt F)) : after c0 W (Proc.devRef .tc main_arg4) = W (Proc.devRef .tc main_arg4) := by
  after_results_simp

set_option maxRecDepth 8192 in
set_option maxHeartbeats 4000000 in
theorem c0_arg5 (W : Valuation τ sig (Elt F)) : after c0 W (Proc.devRef .tc main_arg5) = W (Proc.devRef .tc main_arg5) := by
  after_results_simp

set_option maxRecDepth 8192 in
set_option maxHeartbeats 4000000 in
theorem c0_arg6 (W : Valuation τ sig (Elt F)) : after c0 W (Proc.devRef .tc main_arg6) = W (Proc.devRef .tc main_arg6) := by
  after_results_simp

set_option maxRecDepth 8192 in
set_option maxHeartbeats 4000000 in
theorem c0_arg7 (W : Valuation τ sig (Elt F)) : after c0 W (Proc.devRef .tc main_arg7) = W (Proc.devRef .tc main_arg7) := by
  after_results_simp

set_option maxRecDepth 8192 in
set_option maxHeartbeats 4000000 in
theorem c0_arg8 (W : Valuation τ sig (Elt F)) : after c0 W (Proc.devRef .tc main_arg8) = W (Proc.devRef .tc main_arg8) := by
  after_results_simp

set_option maxRecDepth 8192 in
set_option maxHeartbeats 4000000 in
theorem c0_arg9 (W : Valuation τ sig (Elt F)) : after c0 W (Proc.devRef .tc main_arg9) = W (Proc.devRef .tc main_arg9) := by
  after_results_simp

set_option maxRecDepth 8192 in
set_option maxHeartbeats 4000000 in
theorem c0_arg10 (W : Valuation τ sig (Elt F)) : after c0 W (Proc.devRef .tc main_arg10) = W (Proc.devRef .tc main_arg10) := by
  after_results_simp

/-! ## Stretch 1: operations 3 to 5 -/

abbrev c1 : List (HloOp τ sig (Elt F)) :=
  [
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000 ]

set_option maxRecDepth 8192 in
theorem c1_sub : (c1 : List (HloOp τ sig (Elt F))).Forall fun op => op.bufs ⊆ tcRefs τ sig :=
  ⟨binary_bufs_sub .., unary_bufs_sub .., reshape_bufs_sub ..⟩

theorem c1_fresh : ∀ op ∈ (c1 : List (HloOp τ sig (Elt F))), op.fresh = ∅ := by
  intro _ h; (repeat (cases h with | head => rfl | tail _ h => ?_)); exact nomatch h

set_option maxRecDepth 8192 in
set_option maxHeartbeats 4000000 in
theorem c1_main_v0 (W : Valuation τ sig (Elt F)) (a0 : (⟨S50000x128, .f32⟩ : BufTy).Contents (Elt F)) (a1 : (⟨S2x800000, .i32⟩ : BufTy).Contents (Elt F)) (a2 : (⟨S50000, .i32⟩ : BufTy).Contents (Elt F)) (a3 : (⟨S128x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S256x256, .f32⟩ : BufTy).Contents (Elt F)) (a8 : (⟨S256, .f32⟩ : BufTy).Contents (Elt F)) (a9 : (⟨S256x10, .f32⟩ : BufTy).Contents (Elt F)) (a10 : (⟨S10, .f32⟩ : BufTy).Contents (Elt F))
    (h_main_arg1 : W (Proc.devRef .tc main_arg1) = a1) (h_main_v0 : W (Proc.devRef .tc main_v0) = val_main_v0 (F := F)) (h_main_v2 : W (Proc.devRef .tc main_v2) = val_main_v2 (F := F) a1) :
    after c1 W (Proc.devRef .tc main_v0) = val_main_v0 (F := F) := by
  after_results_simp
  try simp only [TRef.ofBuf, TRef.toBuf, cast_eq]
  try simp only [h_main_arg1, h_main_v0, h_main_v2]
  try rw [h_main_v0]
  try rw [h_main_v2]
  try rfl

set_option maxRecDepth 8192 in
set_option maxHeartbeats 4000000 in
theorem c1_main_v3 (W : Valuation τ sig (Elt F)) (a0 : (⟨S50000x128, .f32⟩ : BufTy).Contents (Elt F)) (a1 : (⟨S2x800000, .i32⟩ : BufTy).Contents (Elt F)) (a2 : (⟨S50000, .i32⟩ : BufTy).Contents (Elt F)) (a3 : (⟨S128x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S256x256, .f32⟩ : BufTy).Contents (Elt F)) (a8 : (⟨S256, .f32⟩ : BufTy).Contents (Elt F)) (a9 : (⟨S256x10, .f32⟩ : BufTy).Contents (Elt F)) (a10 : (⟨S10, .f32⟩ : BufTy).Contents (Elt F))
    (h_main_arg1 : W (Proc.devRef .tc main_arg1) = a1) (h_main_v0 : W (Proc.devRef .tc main_v0) = val_main_v0 (F := F)) (h_main_v2 : W (Proc.devRef .tc main_v2) = val_main_v2 (F := F) a1) :
    after c1 W (Proc.devRef .tc main_v3) = val_main_v3 (F := F) a1 := by
  after_results_simp
  try simp only [TRef.ofBuf, TRef.toBuf, cast_eq]
  try simp only [h_main_arg1, h_main_v0, h_main_v2]
  try rw [h_main_v0]
  try rw [h_main_v2]
  try rfl

set_option maxRecDepth 8192 in
set_option maxHeartbeats 4000000 in
theorem c1_main_v5 (W : Valuation τ sig (Elt F)) (a0 : (⟨S50000x128, .f32⟩ : BufTy).Contents (Elt F)) (a1 : (⟨S2x800000, .i32⟩ : BufTy).Contents (Elt F)) (a2 : (⟨S50000, .i32⟩ : BufTy).Contents (Elt F)) (a3 : (⟨S128x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S256x256, .f32⟩ : BufTy).Contents (Elt F)) (a8 : (⟨S256, .f32⟩ : BufTy).Contents (Elt F)) (a9 : (⟨S256x10, .f32⟩ : BufTy).Contents (Elt F)) (a10 : (⟨S10, .f32⟩ : BufTy).Contents (Elt F))
    (h_main_arg1 : W (Proc.devRef .tc main_arg1) = a1) (h_main_v0 : W (Proc.devRef .tc main_v0) = val_main_v0 (F := F)) (h_main_v2 : W (Proc.devRef .tc main_v2) = val_main_v2 (F := F) a1) :
    after c1 W (Proc.devRef .tc main_v5) = val_main_v5 (F := F) a1 := by
  after_results_simp
  try simp only [TRef.ofBuf, TRef.toBuf, cast_eq]
  try simp only [h_main_arg1, h_main_v0, h_main_v2]
  try rw [h_main_v0]
  try rw [h_main_v2]
  try rfl

set_option maxRecDepth 8192 in
set_option maxHeartbeats 4000000 in
theorem c1_arg0 (W : Valuation τ sig (Elt F)) : after c1 W (Proc.devRef .tc main_arg0) = W (Proc.devRef .tc main_arg0) := by
  after_results_simp

set_option maxRecDepth 8192 in
set_option maxHeartbeats 4000000 in
theorem c1_arg1 (W : Valuation τ sig (Elt F)) : after c1 W (Proc.devRef .tc main_arg1) = W (Proc.devRef .tc main_arg1) := by
  after_results_simp

set_option maxRecDepth 8192 in
set_option maxHeartbeats 4000000 in
theorem c1_arg2 (W : Valuation τ sig (Elt F)) : after c1 W (Proc.devRef .tc main_arg2) = W (Proc.devRef .tc main_arg2) := by
  after_results_simp

set_option maxRecDepth 8192 in
set_option maxHeartbeats 4000000 in
theorem c1_arg3 (W : Valuation τ sig (Elt F)) : after c1 W (Proc.devRef .tc main_arg3) = W (Proc.devRef .tc main_arg3) := by
  after_results_simp

set_option maxRecDepth 8192 in
set_option maxHeartbeats 4000000 in
theorem c1_arg4 (W : Valuation τ sig (Elt F)) : after c1 W (Proc.devRef .tc main_arg4) = W (Proc.devRef .tc main_arg4) := by
  after_results_simp

set_option maxRecDepth 8192 in
set_option maxHeartbeats 4000000 in
theorem c1_arg5 (W : Valuation τ sig (Elt F)) : after c1 W (Proc.devRef .tc main_arg5) = W (Proc.devRef .tc main_arg5) := by
  after_results_simp

set_option maxRecDepth 8192 in
set_option maxHeartbeats 4000000 in
theorem c1_arg6 (W : Valuation τ sig (Elt F)) : after c1 W (Proc.devRef .tc main_arg6) = W (Proc.devRef .tc main_arg6) := by
  after_results_simp

set_option maxRecDepth 8192 in
set_option maxHeartbeats 4000000 in
theorem c1_arg7 (W : Valuation τ sig (Elt F)) : after c1 W (Proc.devRef .tc main_arg7) = W (Proc.devRef .tc main_arg7) := by
  after_results_simp

set_option maxRecDepth 8192 in
set_option maxHeartbeats 4000000 in
theorem c1_arg8 (W : Valuation τ sig (Elt F)) : after c1 W (Proc.devRef .tc main_arg8) = W (Proc.devRef .tc main_arg8) := by
  after_results_simp

set_option maxRecDepth 8192 in
set_option maxHeartbeats 4000000 in
theorem c1_arg9 (W : Valuation τ sig (Elt F)) : after c1 W (Proc.devRef .tc main_arg9) = W (Proc.devRef .tc main_arg9) := by
  after_results_simp

set_option maxRecDepth 8192 in
set_option maxHeartbeats 4000000 in
theorem c1_arg10 (W : Valuation τ sig (Elt F)) : after c1 W (Proc.devRef .tc main_arg10) = W (Proc.devRef .tc main_arg10) := by
  after_results_simp

/-! ## Stretch 2: operations 6 to 42 -/

abbrev c2 : List (HloOp τ sig (Elt F)) :=
  [
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf (F := F) .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v13 (broadcastInDim S50000 ![] bcast_S_S50000 : (⟨S_, .f32⟩ : BufTy).Contents (Elt F) → (⟨S50000, .f32⟩ : BufTy).Contents (Elt F)),
    binary main_v10 main_v13 main_v14 (maximumf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v15) (TRef.of (T := ⟨S50000, .f32⟩) main_call0_v1) (TRef.of (T := ⟨S50000, .f32⟩) main_v16) select,
    nullary main_c (constantI S_ 32 0#32),
    unary main_c main_v17 (broadcastInDim S850000 ![] bcast_S_S850000 : (⟨S_, .i32⟩ : BufTy).Contents (Elt F) → (⟨S850000, .i32⟩ : BufTy).Contents (Elt F)),
    binary main_v3 main_v17 main_v18 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v19 (broadcastInDim S850000 ![] bcast_S_S850000 : (⟨S_, .i32⟩ : BufTy).Contents (Elt F) → (⟨S850000, .i32⟩ : BufTy).Contents (Elt F)),
    binary main_v3 main_v19 main_v20 (addi : (⟨S850000, .i32⟩ : BufTy).Contents (Elt F) → (⟨S850000, .i32⟩ : BufTy).Contents (Elt F) → (⟨S850000, .i32⟩ : BufTy).Contents (Elt F)),
    ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v21 main_v22 (broadcastInDim S850000x1 ![0] bcast_S850000_S850000x1_0 : (⟨S850000, .i32⟩ : BufTy).Contents (Elt F) → (⟨S850000x1, .i32⟩ : BufTy).Contents (Elt F)),
    binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v26 (broadcastInDim S850000 ![] bcast_S_S850000 : (⟨S_, .i32⟩ : BufTy).Contents (Elt F) → (⟨S850000, .i32⟩ : BufTy).Contents (Elt F)),
    binary main_v6 main_v26 main_v27 (addi : (⟨S850000, .i32⟩ : BufTy).Contents (Elt F) → (⟨S850000, .i32⟩ : BufTy).Contents (Elt F) → (⟨S850000, .i32⟩ : BufTy).Contents (Elt F)),
    ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v28 main_v29 (broadcastInDim S850000x1 ![0] bcast_S850000_S850000x1_0 : (⟨S850000, .i32⟩ : BufTy).Contents (Elt F) → (⟨S850000x1, .i32⟩ : BufTy).Contents (Elt F)),
    binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v23 main_v30 main_v31 (mulf : (⟨S850000, .f32⟩ : BufTy).Contents (Elt F) → (⟨S850000, .f32⟩ : BufTy).Contents (Elt F) → (⟨S850000, .f32⟩ : BufTy).Contents (Elt F)) ]

set_option maxRecDepth 8192 in
theorem c2_sub : (c2 : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem c2_fresh : ∀ op ∈ (c2 : List (HloOp τ sig (Elt F))), op.fresh = ∅ := by
  intro _ h; (repeat (cases h with | head => rfl | tail _ h => ?_)); exact nomatch h

set_option maxRecDepth 8192 in
set_option maxHeartbeats 4000000 in
theorem c2_main_v3 (W : Valuation τ sig (Elt F)) (a0 : (⟨S50000x128, .f32⟩ : BufTy).Contents (Elt F)) (a1 : (⟨S2x800000, .i32⟩ : BufTy).Contents (Elt F)) (a2 : (⟨S50000, .i32⟩ : BufTy).Contents (Elt F)) (a3 : (⟨S128x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S256x256, .f32⟩ : BufTy).Contents (Elt F)) (a8 : (⟨S256, .f32⟩ : BufTy).Contents (Elt F)) (a9 : (⟨S256x10, .f32⟩ : BufTy).Contents (Elt F)) (a10 : (⟨S10, .f32⟩ : BufTy).Contents (Elt F))
    (h_main_v0 : W (Proc.devRef .tc main_v0) = val_main_v0 (F := F)) (h_main_v3 : W (Proc.devRef .tc main_v3) = val_main_v3 (F := F) a1) (h_main_v5 : W (Proc.devRef .tc main_v5) = val_main_v5 (F := F) a1) :
    after c2 W (Proc.devRef .tc main_v3) = val_main_v3 (F := F) a1 := by
  after_results_simp
  try simp only [TRef.ofBuf, TRef.toBuf, cast_eq]
  try simp only [h_main_v0, h_main_v3, h_main_v5]
  try rw [h_main_v0]
  try rw [h_main_v3]
  try rw [h_main_v5]
  try rfl

set_option maxRecDepth 8192 in
set_option maxHeartbeats 4000000 in
theorem c2_main_v6 (W : Valuation τ sig (Elt F)) (a0 : (⟨S50000x128, .f32⟩ : BufTy).Contents (Elt F)) (a1 : (⟨S2x800000, .i32⟩ : BufTy).Contents (Elt F)) (a2 : (⟨S50000, .i32⟩ : BufTy).Contents (Elt F)) (a3 : (⟨S128x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S256x256, .f32⟩ : BufTy).Contents (Elt F)) (a8 : (⟨S256, .f32⟩ : BufTy).Contents (Elt F)) (a9 : (⟨S256x10, .f32⟩ : BufTy).Contents (Elt F)) (a10 : (⟨S10, .f32⟩ : BufTy).Contents (Elt F))
    (h_main_v0 : W (Proc.devRef .tc main_v0) = val_main_v0 (F := F)) (h_main_v3 : W (Proc.devRef .tc main_v3) = val_main_v3 (F := F) a1) (h_main_v5 : W (Proc.devRef .tc main_v5) = val_main_v5 (F := F) a1) :
    after c2 W (Proc.devRef .tc main_v6) = val_main_v6 (F := F) a1 := by
  after_results_simp
  try simp only [TRef.ofBuf, TRef.toBuf, cast_eq]
  try simp only [h_main_v0, h_main_v3, h_main_v5]
  try rw [h_main_v0]
  try rw [h_main_v3]
  try rw [h_main_v5]
  try rfl

set_option maxRecDepth 8192 in
set_option maxHeartbeats 4000000 in
theorem c2_main_v31 (W : Valuation τ sig (Elt F)) (a0 : (⟨S50000x128, .f32⟩ : BufTy).Contents (Elt F)) (a1 : (⟨S2x800000, .i32⟩ : BufTy).Contents (Elt F)) (a2 : (⟨S50000, .i32⟩ : BufTy).Contents (Elt F)) (a3 : (⟨S128x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S256x256, .f32⟩ : BufTy).Contents (Elt F)) (a8 : (⟨S256, .f32⟩ : BufTy).Contents (Elt F)) (a9 : (⟨S256x10, .f32⟩ : BufTy).Contents (Elt F)) (a10 : (⟨S10, .f32⟩ : BufTy).Contents (Elt F))
    (h_main_v0 : W (Proc.devRef .tc main_v0) = val_main_v0 (F := F)) (h_main_v3 : W (Proc.devRef .tc main_v3) = val_main_v3 (F := F) a1) (h_main_v5 : W (Proc.devRef .tc main_v5) = val_main_v5 (F := F) a1) :
    after c2 W (Proc.devRef .tc main_v31) = val_main_v31 (F := F) a1 := by
  after_results_simp
  try simp only [TRef.ofBuf, TRef.toBuf, cast_eq]
  try simp only [h_main_v0, h_main_v3, h_main_v5]
  try rw [h_main_v0]
  try rw [h_main_v3]
  try rw [h_main_v5]
  try rfl

set_option maxRecDepth 8192 in
set_option maxHeartbeats 4000000 in
theorem c2_arg0 (W : Valuation τ sig (Elt F)) : after c2 W (Proc.devRef .tc main_arg0) = W (Proc.devRef .tc main_arg0) := by
  after_results_simp

set_option maxRecDepth 8192 in
set_option maxHeartbeats 4000000 in
theorem c2_arg1 (W : Valuation τ sig (Elt F)) : after c2 W (Proc.devRef .tc main_arg1) = W (Proc.devRef .tc main_arg1) := by
  after_results_simp

set_option maxRecDepth 8192 in
set_option maxHeartbeats 4000000 in
theorem c2_arg2 (W : Valuation τ sig (Elt F)) : after c2 W (Proc.devRef .tc main_arg2) = W (Proc.devRef .tc main_arg2) := by
  after_results_simp

set_option maxRecDepth 8192 in
set_option maxHeartbeats 4000000 in
theorem c2_arg3 (W : Valuation τ sig (Elt F)) : after c2 W (Proc.devRef .tc main_arg3) = W (Proc.devRef .tc main_arg3) := by
  after_results_simp

set_option maxRecDepth 8192 in
set_option maxHeartbeats 4000000 in
theorem c2_arg4 (W : Valuation τ sig (Elt F)) : after c2 W (Proc.devRef .tc main_arg4) = W (Proc.devRef .tc main_arg4) := by
  after_results_simp

set_option maxRecDepth 8192 in
set_option maxHeartbeats 4000000 in
theorem c2_arg5 (W : Valuation τ sig (Elt F)) : after c2 W (Proc.devRef .tc main_arg5) = W (Proc.devRef .tc main_arg5) := by
  after_results_simp

set_option maxRecDepth 8192 in
set_option maxHeartbeats 4000000 in
theorem c2_arg6 (W : Valuation τ sig (Elt F)) : after c2 W (Proc.devRef .tc main_arg6) = W (Proc.devRef .tc main_arg6) := by
  after_results_simp

set_option maxRecDepth 8192 in
set_option maxHeartbeats 4000000 in
theorem c2_arg7 (W : Valuation τ sig (Elt F)) : after c2 W (Proc.devRef .tc main_arg7) = W (Proc.devRef .tc main_arg7) := by
  after_results_simp

set_option maxRecDepth 8192 in
set_option maxHeartbeats 4000000 in
theorem c2_arg8 (W : Valuation τ sig (Elt F)) : after c2 W (Proc.devRef .tc main_arg8) = W (Proc.devRef .tc main_arg8) := by
  after_results_simp

set_option maxRecDepth 8192 in
set_option maxHeartbeats 4000000 in
theorem c2_arg9 (W : Valuation τ sig (Elt F)) : after c2 W (Proc.devRef .tc main_arg9) = W (Proc.devRef .tc main_arg9) := by
  after_results_simp

set_option maxRecDepth 8192 in
set_option maxHeartbeats 4000000 in
theorem c2_arg10 (W : Valuation τ sig (Elt F)) : after c2 W (Proc.devRef .tc main_arg10) = W (Proc.devRef .tc main_arg10) := by
  after_results_simp

/-! ## Stretch 3: operations 43 to 61 -/

abbrev c3 : List (HloOp τ sig (Elt F)) :=
  [
    binary main_arg0 main_arg3 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_7 (constantI S_ 32 0#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v35 (broadcastInDim S850000 ![] bcast_S_S850000 : (⟨S_, .i32⟩ : BufTy).Contents (Elt F) → (⟨S850000, .i32⟩ : BufTy).Contents (Elt F)),
    binary main_v3 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v32 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x128 ![0, 1] bcast_S850000x1_S850000x128_0_1 : (⟨S850000x1, .f32⟩ : BufTy).Contents (Elt F) → (⟨S850000x128, .f32⟩ : BufTy).Contents (Elt F)),
    binary main_v39 main_v41 main_v42 (mulf : (⟨S850000x128, .f32⟩ : BufTy).Contents (Elt F) → (⟨S850000x128, .f32⟩ : BufTy).Contents (Elt F) → (⟨S850000x128, .f32⟩ : BufTy).Contents (Elt F)),
    nullary main_cst_9 (constant S_ .f32 0x00000000#32),
    unary main_cst_9 main_v43 (broadcastInDim S50000x128 ![] bcast_S_S50000x128 : (⟨S_, .f32⟩ : BufTy).Contents (Elt F) → (⟨S50000x128, .f32⟩ : BufTy).Contents (Elt F)),
    unary main_v6 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg4 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)) ]

set_option maxRecDepth 8192 in
theorem c3_sub : (c3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub ..⟩

theorem c3_fresh : ∀ op ∈ (c3 : List (HloOp τ sig (Elt F))), op.fresh = ∅ := by
  intro _ h; (repeat (cases h with | head => rfl | tail _ h => ?_)); exact nomatch h

set_option maxRecDepth 8192 in
set_option maxHeartbeats 4000000 in
theorem c3_main_v3 (W : Valuation τ sig (Elt F)) (a0 : (⟨S50000x128, .f32⟩ : BufTy).Contents (Elt F)) (a1 : (⟨S2x800000, .i32⟩ : BufTy).Contents (Elt F)) (a2 : (⟨S50000, .i32⟩ : BufTy).Contents (Elt F)) (a3 : (⟨S128x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S256x256, .f32⟩ : BufTy).Contents (Elt F)) (a8 : (⟨S256, .f32⟩ : BufTy).Contents (Elt F)) (a9 : (⟨S256x10, .f32⟩ : BufTy).Contents (Elt F)) (a10 : (⟨S10, .f32⟩ : BufTy).Contents (Elt F))
    (h_main_arg0 : W (Proc.devRef .tc main_arg0) = a0) (h_main_arg3 : W (Proc.devRef .tc main_arg3) = a3) (h_main_arg4 : W (Proc.devRef .tc main_arg4) = a4) (h_main_v3 : W (Proc.devRef .tc main_v3) = val_main_v3 (F := F) a1) (h_main_v6 : W (Proc.devRef .tc main_v6) = val_main_v6 (F := F) a1) (h_main_v31 : W (Proc.devRef .tc main_v31) = val_main_v31 (F := F) a1) :
    after c3 W (Proc.devRef .tc main_v3) = val_main_v3 (F := F) a1 := by
  after_results_simp
  try simp only [TRef.ofBuf, TRef.toBuf, cast_eq]
  try simp only [h_main_arg0, h_main_arg3, h_main_arg4, h_main_v3, h_main_v6, h_main_v31]
  try rw [h_main_v3]
  try rw [h_main_v6]
  try rw [h_main_v31]
  try rfl

set_option maxRecDepth 8192 in
set_option maxHeartbeats 4000000 in
theorem c3_main_v6 (W : Valuation τ sig (Elt F)) (a0 : (⟨S50000x128, .f32⟩ : BufTy).Contents (Elt F)) (a1 : (⟨S2x800000, .i32⟩ : BufTy).Contents (Elt F)) (a2 : (⟨S50000, .i32⟩ : BufTy).Contents (Elt F)) (a3 : (⟨S128x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S256x256, .f32⟩ : BufTy).Contents (Elt F)) (a8 : (⟨S256, .f32⟩ : BufTy).Contents (Elt F)) (a9 : (⟨S256x10, .f32⟩ : BufTy).Contents (Elt F)) (a10 : (⟨S10, .f32⟩ : BufTy).Contents (Elt F))
    (h_main_arg0 : W (Proc.devRef .tc main_arg0) = a0) (h_main_arg3 : W (Proc.devRef .tc main_arg3) = a3) (h_main_arg4 : W (Proc.devRef .tc main_arg4) = a4) (h_main_v3 : W (Proc.devRef .tc main_v3) = val_main_v3 (F := F) a1) (h_main_v6 : W (Proc.devRef .tc main_v6) = val_main_v6 (F := F) a1) (h_main_v31 : W (Proc.devRef .tc main_v31) = val_main_v31 (F := F) a1) :
    after c3 W (Proc.devRef .tc main_v6) = val_main_v6 (F := F) a1 := by
  after_results_simp
  try simp only [TRef.ofBuf, TRef.toBuf, cast_eq]
  try simp only [h_main_arg0, h_main_arg3, h_main_arg4, h_main_v3, h_main_v6, h_main_v31]
  try rw [h_main_v3]
  try rw [h_main_v6]
  try rw [h_main_v31]
  try rfl

set_option maxRecDepth 8192 in
set_option maxHeartbeats 4000000 in
theorem c3_main_v31 (W : Valuation τ sig (Elt F)) (a0 : (⟨S50000x128, .f32⟩ : BufTy).Contents (Elt F)) (a1 : (⟨S2x800000, .i32⟩ : BufTy).Contents (Elt F)) (a2 : (⟨S50000, .i32⟩ : BufTy).Contents (Elt F)) (a3 : (⟨S128x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S256x256, .f32⟩ : BufTy).Contents (Elt F)) (a8 : (⟨S256, .f32⟩ : BufTy).Contents (Elt F)) (a9 : (⟨S256x10, .f32⟩ : BufTy).Contents (Elt F)) (a10 : (⟨S10, .f32⟩ : BufTy).Contents (Elt F))
    (h_main_arg0 : W (Proc.devRef .tc main_arg0) = a0) (h_main_arg3 : W (Proc.devRef .tc main_arg3) = a3) (h_main_arg4 : W (Proc.devRef .tc main_arg4) = a4) (h_main_v3 : W (Proc.devRef .tc main_v3) = val_main_v3 (F := F) a1) (h_main_v6 : W (Proc.devRef .tc main_v6) = val_main_v6 (F := F) a1) (h_main_v31 : W (Proc.devRef .tc main_v31) = val_main_v31 (F := F) a1) :
    after c3 W (Proc.devRef .tc main_v31) = val_main_v31 (F := F) a1 := by
  after_results_simp
  try simp only [TRef.ofBuf, TRef.toBuf, cast_eq]
  try simp only [h_main_arg0, h_main_arg3, h_main_arg4, h_main_v3, h_main_v6, h_main_v31]
  try rw [h_main_v3]
  try rw [h_main_v6]
  try rw [h_main_v31]
  try rfl

set_option maxRecDepth 8192 in
set_option maxHeartbeats 4000000 in
theorem c3_main_v45 (W : Valuation τ sig (Elt F)) (a0 : (⟨S50000x128, .f32⟩ : BufTy).Contents (Elt F)) (a1 : (⟨S2x800000, .i32⟩ : BufTy).Contents (Elt F)) (a2 : (⟨S50000, .i32⟩ : BufTy).Contents (Elt F)) (a3 : (⟨S128x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S256x256, .f32⟩ : BufTy).Contents (Elt F)) (a8 : (⟨S256, .f32⟩ : BufTy).Contents (Elt F)) (a9 : (⟨S256x10, .f32⟩ : BufTy).Contents (Elt F)) (a10 : (⟨S10, .f32⟩ : BufTy).Contents (Elt F))
    (h_main_arg0 : W (Proc.devRef .tc main_arg0) = a0) (h_main_arg3 : W (Proc.devRef .tc main_arg3) = a3) (h_main_arg4 : W (Proc.devRef .tc main_arg4) = a4) (h_main_v3 : W (Proc.devRef .tc main_v3) = val_main_v3 (F := F) a1) (h_main_v6 : W (Proc.devRef .tc main_v6) = val_main_v6 (F := F) a1) (h_main_v31 : W (Proc.devRef .tc main_v31) = val_main_v31 (F := F) a1) :
    after c3 W (Proc.devRef .tc main_v45) = val_main_v45 (F := F) a0 a1 a3 := by
  after_results_simp
  try simp only [TRef.ofBuf, TRef.toBuf, cast_eq]
  try simp only [h_main_arg0, h_main_arg3, h_main_arg4, h_main_v3, h_main_v6, h_main_v31]
  try rw [h_main_v3]
  try rw [h_main_v6]
  try rw [h_main_v31]
  try rfl

set_option maxRecDepth 8192 in
set_option maxHeartbeats 4000000 in
theorem c3_main_v47 (W : Valuation τ sig (Elt F)) (a0 : (⟨S50000x128, .f32⟩ : BufTy).Contents (Elt F)) (a1 : (⟨S2x800000, .i32⟩ : BufTy).Contents (Elt F)) (a2 : (⟨S50000, .i32⟩ : BufTy).Contents (Elt F)) (a3 : (⟨S128x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S256x256, .f32⟩ : BufTy).Contents (Elt F)) (a8 : (⟨S256, .f32⟩ : BufTy).Contents (Elt F)) (a9 : (⟨S256x10, .f32⟩ : BufTy).Contents (Elt F)) (a10 : (⟨S10, .f32⟩ : BufTy).Contents (Elt F))
    (h_main_arg0 : W (Proc.devRef .tc main_arg0) = a0) (h_main_arg3 : W (Proc.devRef .tc main_arg3) = a3) (h_main_arg4 : W (Proc.devRef .tc main_arg4) = a4) (h_main_v3 : W (Proc.devRef .tc main_v3) = val_main_v3 (F := F) a1) (h_main_v6 : W (Proc.devRef .tc main_v6) = val_main_v6 (F := F) a1) (h_main_v31 : W (Proc.devRef .tc main_v31) = val_main_v31 (F := F) a1) :
    after c3 W (Proc.devRef .tc main_v47) = val_main_v47 (F := F) a4 := by
  after_results_simp
  try simp only [TRef.ofBuf, TRef.toBuf, cast_eq]
  try simp only [h_main_arg0, h_main_arg3, h_main_arg4, h_main_v3, h_main_v6, h_main_v31]
  try rw [h_main_v3]
  try rw [h_main_v6]
  try rw [h_main_v31]
  try rfl

set_option maxRecDepth 8192 in
set_option maxHeartbeats 4000000 in
theorem c3_arg0 (W : Valuation τ sig (Elt F)) : after c3 W (Proc.devRef .tc main_arg0) = W (Proc.devRef .tc main_arg0) := by
  after_results_simp

set_option maxRecDepth 8192 in
set_option maxHeartbeats 4000000 in
theorem c3_arg1 (W : Valuation τ sig (Elt F)) : after c3 W (Proc.devRef .tc main_arg1) = W (Proc.devRef .tc main_arg1) := by
  after_results_simp

set_option maxRecDepth 8192 in
set_option maxHeartbeats 4000000 in
theorem c3_arg2 (W : Valuation τ sig (Elt F)) : after c3 W (Proc.devRef .tc main_arg2) = W (Proc.devRef .tc main_arg2) := by
  after_results_simp

set_option maxRecDepth 8192 in
set_option maxHeartbeats 4000000 in
theorem c3_arg3 (W : Valuation τ sig (Elt F)) : after c3 W (Proc.devRef .tc main_arg3) = W (Proc.devRef .tc main_arg3) := by
  after_results_simp

set_option maxRecDepth 8192 in
set_option maxHeartbeats 4000000 in
theorem c3_arg4 (W : Valuation τ sig (Elt F)) : after c3 W (Proc.devRef .tc main_arg4) = W (Proc.devRef .tc main_arg4) := by
  after_results_simp

set_option maxRecDepth 8192 in
set_option maxHeartbeats 4000000 in
theorem c3_arg5 (W : Valuation τ sig (Elt F)) : after c3 W (Proc.devRef .tc main_arg5) = W (Proc.devRef .tc main_arg5) := by
  after_results_simp

set_option maxRecDepth 8192 in
set_option maxHeartbeats 4000000 in
theorem c3_arg6 (W : Valuation τ sig (Elt F)) : after c3 W (Proc.devRef .tc main_arg6) = W (Proc.devRef .tc main_arg6) := by
  after_results_simp

set_option maxRecDepth 8192 in
set_option maxHeartbeats 4000000 in
theorem c3_arg7 (W : Valuation τ sig (Elt F)) : after c3 W (Proc.devRef .tc main_arg7) = W (Proc.devRef .tc main_arg7) := by
  after_results_simp

set_option maxRecDepth 8192 in
set_option maxHeartbeats 4000000 in
theorem c3_arg8 (W : Valuation τ sig (Elt F)) : after c3 W (Proc.devRef .tc main_arg8) = W (Proc.devRef .tc main_arg8) := by
  after_results_simp

set_option maxRecDepth 8192 in
set_option maxHeartbeats 4000000 in
theorem c3_arg9 (W : Valuation τ sig (Elt F)) : after c3 W (Proc.devRef .tc main_arg9) = W (Proc.devRef .tc main_arg9) := by
  after_results_simp

set_option maxRecDepth 8192 in
set_option maxHeartbeats 4000000 in
theorem c3_arg10 (W : Valuation τ sig (Elt F)) : after c3 W (Proc.devRef .tc main_arg10) = W (Proc.devRef .tc main_arg10) := by
  after_results_simp

/-! ## Stretch 4: operations 62 to 90 -/

abbrev c4 : List (HloOp τ sig (Elt F)) :=
  [
    binary main_v45 main_v47 main_v48 (addf : (⟨S50000x128, .f32⟩ : BufTy).Contents (Elt F) → (⟨S50000x128, .f32⟩ : BufTy).Contents (Elt F) → (⟨S50000x128, .f32⟩ : BufTy).Contents (Elt F)),
    binary main_v48 main_arg5 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_10 (constantI S_ 32 0#32),
    unary main_c_10 main_v50 (broadcastInDim S850000 ![] bcast_S_S850000 : (⟨S_, .i32⟩ : BufTy).Contents (Elt F) → (⟨S850000, .i32⟩ : BufTy).Contents (Elt F)),
    binary main_v3 main_v50 main_v51 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v52 (broadcastInDim S850000 ![] bcast_S_S850000 : (⟨S_, .i32⟩ : BufTy).Contents (Elt F) → (⟨S850000, .i32⟩ : BufTy).Contents (Elt F)),
    binary main_v3 main_v52 main_v53 (addi : (⟨S850000, .i32⟩ : BufTy).Contents (Elt F) → (⟨S850000, .i32⟩ : BufTy).Contents (Elt F) → (⟨S850000, .i32⟩ : BufTy).Contents (Elt F)),
    ternary main_v51 main_v53 main_v3 main_v54 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v54 main_v55 (broadcastInDim S850000x1 ![0] bcast_S850000_S850000x1_0 : (⟨S850000, .i32⟩ : BufTy).Contents (Elt F) → (⟨S850000x1, .i32⟩ : BufTy).Contents (Elt F)),
    binary main_v49 main_v55 main_v56 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v57 (broadcastInDim S850000x1 ![0] bcast_S850000_S850000x1_0 : (⟨S850000, .f32⟩ : BufTy).Contents (Elt F) → (⟨S850000x1, .f32⟩ : BufTy).Contents (Elt F)),
    unary main_v57 main_v58 (broadcastInDim S850000x128 ![0, 1] bcast_S850000x1_S850000x128_0_1 : (⟨S850000x1, .f32⟩ : BufTy).Contents (Elt F) → (⟨S850000x128, .f32⟩ : BufTy).Contents (Elt F)),
    binary main_v56 main_v58 main_v59 (mulf : (⟨S850000x128, .f32⟩ : BufTy).Contents (Elt F) → (⟨S850000x128, .f32⟩ : BufTy).Contents (Elt F) → (⟨S850000x128, .f32⟩ : BufTy).Contents (Elt F)),
    nullary main_cst_12 (constant S_ .f32 0x00000000#32),
    unary main_cst_12 main_v60 (broadcastInDim S50000x128 ![] bcast_S_S50000x128 : (⟨S_, .f32⟩ : BufTy).Contents (Elt F) → (⟨S50000x128, .f32⟩ : BufTy).Contents (Elt F)),
    unary main_v6 main_v61 (broadcastInDim S850000x1 ![0] bcast_S850000_S850000x1_0 : (⟨S850000, .i32⟩ : BufTy).Contents (Elt F) → (⟨S850000x1, .i32⟩ : BufTy).Contents (Elt F)),
    ternary main_v60 main_v61 main_v59 main_v62 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg6 main_v63 (broadcastInDim S1x128 ![1] bcast_S128_S1x128_1 : (⟨S128, .f32⟩ : BufTy).Contents (Elt F) → (⟨S1x128, .f32⟩ : BufTy).Contents (Elt F)),
    unary main_v63 main_v64 (broadcastInDim S50000x128 ![0, 1] bcast_S1x128_S50000x128_0_1 : (⟨S1x128, .f32⟩ : BufTy).Contents (Elt F) → (⟨S50000x128, .f32⟩ : BufTy).Contents (Elt F)),
    binary main_v62 main_v64 main_v65 (addf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x00000000#32),
    unary main_cst_13 main_v66 (broadcastInDim S256x128 ![] bcast_S_S256x128 : (⟨S_, .f32⟩ : BufTy).Contents (Elt F) → (⟨S256x128, .f32⟩ : BufTy).Contents (Elt F)),
    unary main_arg2 main_v67 (broadcastInDim S50000x1 ![0] bcast_S50000_S50000x1_0 : (⟨S50000, .i32⟩ : BufTy).Contents (Elt F) → (⟨S50000x1, .i32⟩ : BufTy).Contents (Elt F)),
    ternary main_v66 main_v67 main_v48 main_v68 ((fun x i u => Host.scatterAdd scatter_S256x128_S50000x1_S50000x128_1_0_0_1 x i u) : (⟨S256x128, .f32⟩ : BufTy).Contents (Elt F) → (⟨S50000x1, .i32⟩ : BufTy).Contents (Elt F) → (⟨S50000x128, .f32⟩ : BufTy).Contents (Elt F) → (⟨S256x128, .f32⟩ : BufTy).Contents (Elt F)),
    nullary main_cst_14 (constant S_ .f32 0x00000000#32),
    unary main_cst_14 main_v69 (broadcastInDim S256x128 ![] bcast_S_S256x128 : (⟨S_, .f32⟩ : BufTy).Contents (Elt F) → (⟨S256x128, .f32⟩ : BufTy).Contents (Elt F)),
    unary main_arg2 main_v70 (broadcastInDim S50000x1 ![0] bcast_S50000_S50000x1_0 : (⟨S50000, .i32⟩ : BufTy).Contents (Elt F) → (⟨S50000x1, .i32⟩ : BufTy).Contents (Elt F)),
    ternary main_v69 main_v70 main_v65 main_v71 ((fun x i u => Host.scatterAdd scatter_S256x128_S50000x1_S50000x128_1_0_0_1 x i u) : (⟨S256x128, .f32⟩ : BufTy).Contents (Elt F) → (⟨S50000x1, .i32⟩ : BufTy).Contents (Elt F) → (⟨S50000x128, .f32⟩ : BufTy).Contents (Elt F) → (⟨S256x128, .f32⟩ : BufTy).Contents (Elt F)) ]

set_option maxRecDepth 8192 in
theorem c4_sub : (c4 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub ..⟩

theorem c4_fresh : ∀ op ∈ (c4 : List (HloOp τ sig (Elt F))), op.fresh = ∅ := by
  intro _ h; (repeat (cases h with | head => rfl | tail _ h => ?_)); exact nomatch h

set_option maxRecDepth 8192 in
set_option maxHeartbeats 4000000 in
theorem c4_main_v68 (W : Valuation τ sig (Elt F)) (a0 : (⟨S50000x128, .f32⟩ : BufTy).Contents (Elt F)) (a1 : (⟨S2x800000, .i32⟩ : BufTy).Contents (Elt F)) (a2 : (⟨S50000, .i32⟩ : BufTy).Contents (Elt F)) (a3 : (⟨S128x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S256x256, .f32⟩ : BufTy).Contents (Elt F)) (a8 : (⟨S256, .f32⟩ : BufTy).Contents (Elt F)) (a9 : (⟨S256x10, .f32⟩ : BufTy).Contents (Elt F)) (a10 : (⟨S10, .f32⟩ : BufTy).Contents (Elt F))
    (h_main_arg2 : W (Proc.devRef .tc main_arg2) = a2) (h_main_arg5 : W (Proc.devRef .tc main_arg5) = a5) (h_main_arg6 : W (Proc.devRef .tc main_arg6) = a6) (h_main_v3 : W (Proc.devRef .tc main_v3) = val_main_v3 (F := F) a1) (h_main_v6 : W (Proc.devRef .tc main_v6) = val_main_v6 (F := F) a1) (h_main_v31 : W (Proc.devRef .tc main_v31) = val_main_v31 (F := F) a1) (h_main_v45 : W (Proc.devRef .tc main_v45) = val_main_v45 (F := F) a0 a1 a3) (h_main_v47 : W (Proc.devRef .tc main_v47) = val_main_v47 (F := F) a4) :
    after c4 W (Proc.devRef .tc main_v68) = val_main_v68 (F := F) a0 a1 a2 a3 a4 := by
  after_results_simp
  try simp only [TRef.ofBuf, TRef.toBuf, cast_eq]
  try simp only [h_main_arg2, h_main_arg5, h_main_arg6, h_main_v3, h_main_v6, h_main_v31, h_main_v45, h_main_v47]
  try rw [h_main_v3]
  try rw [h_main_v6]
  try rw [h_main_v31]
  try rw [h_main_v45]
  try rw [h_main_v47]
  try rfl

set_option maxRecDepth 8192 in
set_option maxHeartbeats 4000000 in
theorem c4_main_v71 (W : Valuation τ sig (Elt F)) (a0 : (⟨S50000x128, .f32⟩ : BufTy).Contents (Elt F)) (a1 : (⟨S2x800000, .i32⟩ : BufTy).Contents (Elt F)) (a2 : (⟨S50000, .i32⟩ : BufTy).Contents (Elt F)) (a3 : (⟨S128x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S256x256, .f32⟩ : BufTy).Contents (Elt F)) (a8 : (⟨S256, .f32⟩ : BufTy).Contents (Elt F)) (a9 : (⟨S256x10, .f32⟩ : BufTy).Contents (Elt F)) (a10 : (⟨S10, .f32⟩ : BufTy).Contents (Elt F))
    (h_main_arg2 : W (Proc.devRef .tc main_arg2) = a2) (h_main_arg5 : W (Proc.devRef .tc main_arg5) = a5) (h_main_arg6 : W (Proc.devRef .tc main_arg6) = a6) (h_main_v3 : W (Proc.devRef .tc main_v3) = val_main_v3 (F := F) a1) (h_main_v6 : W (Proc.devRef .tc main_v6) = val_main_v6 (F := F) a1) (h_main_v31 : W (Proc.devRef .tc main_v31) = val_main_v31 (F := F) a1) (h_main_v45 : W (Proc.devRef .tc main_v45) = val_main_v45 (F := F) a0 a1 a3) (h_main_v47 : W (Proc.devRef .tc main_v47) = val_main_v47 (F := F) a4) :
    after c4 W (Proc.devRef .tc main_v71) = val_main_v71 (F := F) a0 a1 a2 a3 a4 a5 a6 := by
  after_results_simp
  try simp only [TRef.ofBuf, TRef.toBuf, cast_eq]
  try simp only [h_main_arg2, h_main_arg5, h_main_arg6, h_main_v3, h_main_v6, h_main_v31, h_main_v45, h_main_v47]
  try rw [h_main_v3]
  try rw [h_main_v6]
  try rw [h_main_v31]
  try rw [h_main_v45]
  try rw [h_main_v47]
  try rfl

set_option maxRecDepth 8192 in
set_option maxHeartbeats 4000000 in
theorem c4_arg0 (W : Valuation τ sig (Elt F)) : after c4 W (Proc.devRef .tc main_arg0) = W (Proc.devRef .tc main_arg0) := by
  after_results_simp

set_option maxRecDepth 8192 in
set_option maxHeartbeats 4000000 in
theorem c4_arg1 (W : Valuation τ sig (Elt F)) : after c4 W (Proc.devRef .tc main_arg1) = W (Proc.devRef .tc main_arg1) := by
  after_results_simp

set_option maxRecDepth 8192 in
set_option maxHeartbeats 4000000 in
theorem c4_arg2 (W : Valuation τ sig (Elt F)) : after c4 W (Proc.devRef .tc main_arg2) = W (Proc.devRef .tc main_arg2) := by
  after_results_simp

set_option maxRecDepth 8192 in
set_option maxHeartbeats 4000000 in
theorem c4_arg3 (W : Valuation τ sig (Elt F)) : after c4 W (Proc.devRef .tc main_arg3) = W (Proc.devRef .tc main_arg3) := by
  after_results_simp

set_option maxRecDepth 8192 in
set_option maxHeartbeats 4000000 in
theorem c4_arg4 (W : Valuation τ sig (Elt F)) : after c4 W (Proc.devRef .tc main_arg4) = W (Proc.devRef .tc main_arg4) := by
  after_results_simp

set_option maxRecDepth 8192 in
set_option maxHeartbeats 4000000 in
theorem c4_arg5 (W : Valuation τ sig (Elt F)) : after c4 W (Proc.devRef .tc main_arg5) = W (Proc.devRef .tc main_arg5) := by
  after_results_simp

set_option maxRecDepth 8192 in
set_option maxHeartbeats 4000000 in
theorem c4_arg6 (W : Valuation τ sig (Elt F)) : after c4 W (Proc.devRef .tc main_arg6) = W (Proc.devRef .tc main_arg6) := by
  after_results_simp

set_option maxRecDepth 8192 in
set_option maxHeartbeats 4000000 in
theorem c4_arg7 (W : Valuation τ sig (Elt F)) : after c4 W (Proc.devRef .tc main_arg7) = W (Proc.devRef .tc main_arg7) := by
  after_results_simp

set_option maxRecDepth 8192 in
set_option maxHeartbeats 4000000 in
theorem c4_arg8 (W : Valuation τ sig (Elt F)) : after c4 W (Proc.devRef .tc main_arg8) = W (Proc.devRef .tc main_arg8) := by
  after_results_simp

set_option maxRecDepth 8192 in
set_option maxHeartbeats 4000000 in
theorem c4_arg9 (W : Valuation τ sig (Elt F)) : after c4 W (Proc.devRef .tc main_arg9) = W (Proc.devRef .tc main_arg9) := by
  after_results_simp

set_option maxRecDepth 8192 in
set_option maxHeartbeats 4000000 in
theorem c4_arg10 (W : Valuation τ sig (Elt F)) : after c4 W (Proc.devRef .tc main_arg10) = W (Proc.devRef .tc main_arg10) := by
  after_results_simp

/-! ## Stretch 5: operations 91 to 117 -/

abbrev c5 : List (HloOp τ sig (Elt F)) :=
  [
    binary main_v68 main_v71 main_v72 ((fun a b => concatenate S256x256 1 [⟨S256x128, a⟩, ⟨S256x128, b⟩] concatenates_S256x128_S256x128_S256x256_d1) : (⟨S256x128, .f32⟩ : BufTy).Contents (Elt F) → (⟨S256x128, .f32⟩ : BufTy).Contents (Elt F) → (⟨S256x256, .f32⟩ : BufTy).Contents (Elt F)),
    binary main_v72 main_arg7 main_v73 ((fun l r => Host.dotGeneral dot_S256x256_S256x256_S256x256_1_0_0_1_n_n none l r) : (⟨S256x256, .f32⟩ : BufTy).Contents (Elt F) → (⟨S256x256, .f32⟩ : BufTy).Contents (Elt F) → (⟨S256x256, .f32⟩ : BufTy).Contents (Elt F)),
    unary main_arg8 main_v74 (broadcastInDim S1x256 ![1] bcast_S256_S1x256_1 : (⟨S256, .f32⟩ : BufTy).Contents (Elt F) → (⟨S1x256, .f32⟩ : BufTy).Contents (Elt F)),
    unary main_v74 main_v75 (broadcastInDim S256x256 ![0, 1] bcast_S1x256_S256x256_0_1 : (⟨S1x256, .f32⟩ : BufTy).Contents (Elt F) → (⟨S256x256, .f32⟩ : BufTy).Contents (Elt F)),
    binary main_v73 main_v75 main_v76 (addf : (⟨S256x256, .f32⟩ : BufTy).Contents (Elt F) → (⟨S256x256, .f32⟩ : BufTy).Contents (Elt F) → (⟨S256x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S256x256, .f32⟩) main_call1_v0) (broadcastInDim S256x256 ![] bcast_S_S256x256),
    TRef.binary (TRef.of (T := ⟨S256x256, .f32⟩) main_v76) (TRef.of (T := ⟨S256x256, .f32⟩) main_call1_v0) (TRef.of (T := ⟨S256x256, .f32⟩) main_v77) maximumf,
    binary main_v77 main_arg9 main_v78 ((fun l r => Host.dotGeneral dot_S256x256_S256x10_S256x10_1_0_0_1_n_n none l r) : (⟨S256x256, .f32⟩ : BufTy).Contents (Elt F) → (⟨S256x10, .f32⟩ : BufTy).Contents (Elt F) → (⟨S256x10, .f32⟩ : BufTy).Contents (Elt F)),
    unary main_arg10 main_v79 (broadcastInDim S1x10 ![1] bcast_S10_S1x10_1 : (⟨S10, .f32⟩ : BufTy).Contents (Elt F) → (⟨S1x10, .f32⟩ : BufTy).Contents (Elt F)),
    unary main_v79 main_v80 (broadcastInDim S256x10 ![0, 1] bcast_S1x10_S256x10_0_1 : (⟨S1x10, .f32⟩ : BufTy).Contents (Elt F) → (⟨S256x10, .f32⟩ : BufTy).Contents (Elt F)),
    binary main_v78 main_v80 main_v81 (addf : (⟨S256x10, .f32⟩ : BufTy).Contents (Elt F) → (⟨S256x10, .f32⟩ : BufTy).Contents (Elt F) → (⟨S256x10, .f32⟩ : BufTy).Contents (Elt F)),
    TRef.nullary (TRef.of (T := ⟨S_, .f32⟩) main_call2_cst) (constant S_ .f32 0xFF800000#32),
    TRef.binary (TRef.of (T := ⟨S256x10, .f32⟩) main_v81) (TRef.of (T := ⟨S_, .f32⟩) main_call2_cst) (TRef.of (T := ⟨S256, .f32⟩) main_call2_v0) (fun x v => Host.reduce FloatOps.maximumf x v reducesTo_S256x10_S256_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S256, .f32⟩) main_call2_v1) (broadcastInDim S256 ![] bcast_S_S256),
    TRef.binary (TRef.of (T := ⟨S256, .f32⟩) main_call2_v1) (TRef.of (T := ⟨S256, .f32⟩) main_call2_v0) (TRef.of (T := ⟨S256, .f32⟩) main_call2_v2) maximumf,
    TRef.unary (TRef.of (T := ⟨S256, .f32⟩) main_call2_v2) (TRef.of (T := ⟨S256x1, .f32⟩) main_call2_v3) (broadcastInDim S256x1 ![0] bcast_S256_S256x1_0),
    TRef.unary (TRef.of (T := ⟨S256x1, .f32⟩) main_call2_v3) (TRef.of (T := ⟨S256x10, .f32⟩) main_call2_v4) (broadcastInDim S256x10 ![0, 1] bcast_S256x1_S256x10_0_1),
    TRef.binary (TRef.of (T := ⟨S256x10, .f32⟩) main_v81) (TRef.of (T := ⟨S256x10, .f32⟩) main_call2_v4) (TRef.of (T := ⟨S256x10, .f32⟩) main_call2_v5) subf,
    TRef.unary (TRef.of (T := ⟨S256x10, .f32⟩) main_call2_v5) (TRef.of (T := ⟨S256x10, .f32⟩) main_call2_v6) Host.exp,
    TRef.nullary (TRef.of (T := ⟨S_, .f32⟩) main_call2_cst_1) (constant S_ .f32 0x00000000#32),
    TRef.binary (TRef.of (T := ⟨S256x10, .f32⟩) main_call2_v6) (TRef.of (T := ⟨S_, .f32⟩) main_call2_cst_1) (TRef.of (T := ⟨S256, .f32⟩) main_call2_v7) (fun x v => Host.reduceAdd x v reducesTo_S256x10_S256_d1 h_S_),
    TRef.unary (TRef.of (T := ⟨S256, .f32⟩) main_call2_v7) (TRef.of (T := ⟨S256x1, .f32⟩) main_call2_v8) (broadcastInDim S256x1 ![0] bcast_S256_S256x1_0),
    TRef.unary (TRef.of (T := ⟨S256x1, .f32⟩) main_call2_v8) (TRef.of (T := ⟨S256x1, .f32⟩) main_call2_v9) Host.log,
    TRef.unary (TRef.of (T := ⟨S256x1, .f32⟩) main_call2_v9) (TRef.of (T := ⟨S256x10, .f32⟩) main_call2_v10) (broadcastInDim S256x10 ![0, 1] bcast_S256x1_S256x10_0_1),
    TRef.binary (TRef.of (T := ⟨S256x10, .f32⟩) main_call2_v5) (TRef.of (T := ⟨S256x10, .f32⟩) main_call2_v10) (TRef.of (T := ⟨S256x10, .f32⟩) main_v82) subf ]

set_option maxRecDepth 8192 in
theorem c5_sub : (c5 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem c5_fresh : ∀ op ∈ (c5 : List (HloOp τ sig (Elt F))), op.fresh = ∅ := by
  intro _ h; (repeat (cases h with | head => rfl | tail _ h => ?_)); exact nomatch h

set_option maxRecDepth 8192 in
set_option maxHeartbeats 4000000 in
theorem c5_main_v81 (W : Valuation τ sig (Elt F)) (a0 : (⟨S50000x128, .f32⟩ : BufTy).Contents (Elt F)) (a1 : (⟨S2x800000, .i32⟩ : BufTy).Contents (Elt F)) (a2 : (⟨S50000, .i32⟩ : BufTy).Contents (Elt F)) (a3 : (⟨S128x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S256x256, .f32⟩ : BufTy).Contents (Elt F)) (a8 : (⟨S256, .f32⟩ : BufTy).Contents (Elt F)) (a9 : (⟨S256x10, .f32⟩ : BufTy).Contents (Elt F)) (a10 : (⟨S10, .f32⟩ : BufTy).Contents (Elt F))
    (h_main_arg7 : W (Proc.devRef .tc main_arg7) = a7) (h_main_arg8 : W (Proc.devRef .tc main_arg8) = a8) (h_main_arg9 : W (Proc.devRef .tc main_arg9) = a9) (h_main_arg10 : W (Proc.devRef .tc main_arg10) = a10) (h_main_v68 : W (Proc.devRef .tc main_v68) = val_main_v68 (F := F) a0 a1 a2 a3 a4) (h_main_v71 : W (Proc.devRef .tc main_v71) = val_main_v71 (F := F) a0 a1 a2 a3 a4 a5 a6) :
    after c5 W (Proc.devRef .tc main_v81) = val_main_v81 (F := F) a0 a1 a2 a3 a4 a5 a6 a7 a8 a9 a10 := by
  after_results_simp
  try simp only [TRef.ofBuf, TRef.toBuf, cast_eq]
  try simp only [h_main_arg7, h_main_arg8, h_main_arg9, h_main_arg10, h_main_v68, h_main_v71]
  try rw [h_main_v68]
  try rw [h_main_v71]
  try rfl

set_option maxRecDepth 8192 in
set_option maxHeartbeats 4000000 in
theorem c5_main_v82 (W : Valuation τ sig (Elt F)) (a0 : (⟨S50000x128, .f32⟩ : BufTy).Contents (Elt F)) (a1 : (⟨S2x800000, .i32⟩ : BufTy).Contents (Elt F)) (a2 : (⟨S50000, .i32⟩ : BufTy).Contents (Elt F)) (a3 : (⟨S128x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S256x256, .f32⟩ : BufTy).Contents (Elt F)) (a8 : (⟨S256, .f32⟩ : BufTy).Contents (Elt F)) (a9 : (⟨S256x10, .f32⟩ : BufTy).Contents (Elt F)) (a10 : (⟨S10, .f32⟩ : BufTy).Contents (Elt F))
    (h_main_arg7 : W (Proc.devRef .tc main_arg7) = a7) (h_main_arg8 : W (Proc.devRef .tc main_arg8) = a8) (h_main_arg9 : W (Proc.devRef .tc main_arg9) = a9) (h_main_arg10 : W (Proc.devRef .tc main_arg10) = a10) (h_main_v68 : W (Proc.devRef .tc main_v68) = val_main_v68 (F := F) a0 a1 a2 a3 a4) (h_main_v71 : W (Proc.devRef .tc main_v71) = val_main_v71 (F := F) a0 a1 a2 a3 a4 a5 a6) :
    after c5 W (Proc.devRef .tc main_v82) = val_main_v82 (F := F) a0 a1 a2 a3 a4 a5 a6 a7 a8 a9 a10 := by
  after_results_simp
  try simp only [TRef.ofBuf, TRef.toBuf, cast_eq]
  try simp only [h_main_arg7, h_main_arg8, h_main_arg9, h_main_arg10, h_main_v68, h_main_v71]
  try rw [h_main_v68]
  try rw [h_main_v71]
  try rfl

set_option maxRecDepth 8192 in
set_option maxHeartbeats 4000000 in
theorem c5_arg0 (W : Valuation τ sig (Elt F)) : after c5 W (Proc.devRef .tc main_arg0) = W (Proc.devRef .tc main_arg0) := by
  after_results_simp

set_option maxRecDepth 8192 in
set_option maxHeartbeats 4000000 in
theorem c5_arg1 (W : Valuation τ sig (Elt F)) : after c5 W (Proc.devRef .tc main_arg1) = W (Proc.devRef .tc main_arg1) := by
  after_results_simp

set_option maxRecDepth 8192 in
set_option maxHeartbeats 4000000 in
theorem c5_arg2 (W : Valuation τ sig (Elt F)) : after c5 W (Proc.devRef .tc main_arg2) = W (Proc.devRef .tc main_arg2) := by
  after_results_simp

set_option maxRecDepth 8192 in
set_option maxHeartbeats 4000000 in
theorem c5_arg3 (W : Valuation τ sig (Elt F)) : after c5 W (Proc.devRef .tc main_arg3) = W (Proc.devRef .tc main_arg3) := by
  after_results_simp

set_option maxRecDepth 8192 in
set_option maxHeartbeats 4000000 in
theorem c5_arg4 (W : Valuation τ sig (Elt F)) : after c5 W (Proc.devRef .tc main_arg4) = W (Proc.devRef .tc main_arg4) := by
  after_results_simp

set_option maxRecDepth 8192 in
set_option maxHeartbeats 4000000 in
theorem c5_arg5 (W : Valuation τ sig (Elt F)) : after c5 W (Proc.devRef .tc main_arg5) = W (Proc.devRef .tc main_arg5) := by
  after_results_simp

set_option maxRecDepth 8192 in
set_option maxHeartbeats 4000000 in
theorem c5_arg6 (W : Valuation τ sig (Elt F)) : after c5 W (Proc.devRef .tc main_arg6) = W (Proc.devRef .tc main_arg6) := by
  after_results_simp

set_option maxRecDepth 8192 in
set_option maxHeartbeats 4000000 in
theorem c5_arg7 (W : Valuation τ sig (Elt F)) : after c5 W (Proc.devRef .tc main_arg7) = W (Proc.devRef .tc main_arg7) := by
  after_results_simp

set_option maxRecDepth 8192 in
set_option maxHeartbeats 4000000 in
theorem c5_arg8 (W : Valuation τ sig (Elt F)) : after c5 W (Proc.devRef .tc main_arg8) = W (Proc.devRef .tc main_arg8) := by
  after_results_simp

set_option maxRecDepth 8192 in
set_option maxHeartbeats 4000000 in
theorem c5_arg9 (W : Valuation τ sig (Elt F)) : after c5 W (Proc.devRef .tc main_arg9) = W (Proc.devRef .tc main_arg9) := by
  after_results_simp

set_option maxRecDepth 8192 in
set_option maxHeartbeats 4000000 in
theorem c5_arg10 (W : Valuation τ sig (Elt F)) : after c5 W (Proc.devRef .tc main_arg10) = W (Proc.devRef .tc main_arg10) := by
  after_results_simp

/-! ## The whole program -/

/-- @main's operations, in order: the first window's stretches, then the second's. -/
abbrev ops : List (HloOp τ sig (Elt F)) := (c0 ++ c1 ++ c2 ++ c3) ++ (c4 ++ c5)

set_option maxRecDepth 8192 in
set_option maxHeartbeats 4000000 in
theorem part0_eq (c : Dev nD) : main_part0 (F := F) c = seq (c0 ++ c1 ++ c2 ++ c3) := rfl

set_option maxRecDepth 8192 in
set_option maxHeartbeats 4000000 in
theorem part1_eq (c : Dev nD) : main_part1 (F := F) c = seq (c4 ++ c5) := rfl

theorem main_eq (c : Dev nD) : main (F := F) c = seq ops := by
  show (main_part0 (F := F) c >>= fun _ => main_part1 (F := F) c) = _
  rw [part0_eq, part1_eq, ← seq_append]

theorem scopedRefs_eq : (Finset.univ.filter fun b : Ref sig .tc => b.isScoped) = ∅ := by decide
theorem scopedSems_eq : (Finset.univ.filter fun sm : SemLoc sig => sm.isScoped .tc) = ∅ := by decide

theorem mem_ops {op : HloOp τ sig (Elt F)} (h : op ∈ (ops : List (HloOp τ sig (Elt F)))) :
    op ∈ (c0 : List (HloOp τ sig (Elt F))) ∨ op ∈ (c1 : List (HloOp τ sig (Elt F))) ∨ op ∈ (c2 : List (HloOp τ sig (Elt F)))
      ∨ op ∈ (c3 : List (HloOp τ sig (Elt F))) ∨ op ∈ (c4 : List (HloOp τ sig (Elt F))) ∨ op ∈ (c5 : List (HloOp τ sig (Elt F))) := by
  have h' : op ∈ (c0 ++ c1 ++ c2 ++ c3) ++ (c4 ++ c5) := h
  simp only [List.mem_append] at h'
  rcases h' with (((h | h) | h) | h) | (h | h)
  · exact .inl h
  · exact .inr (.inl h)
  · exact .inr (.inr (.inl h))
  · exact .inr (.inr (.inr (.inl h)))
  · exact .inr (.inr (.inr (.inr (.inl h))))
  · exact .inr (.inr (.inr (.inr (.inr h))))

theorem ops_sub : (ops : List (HloOp τ sig (Elt F))).Forall fun op => op.bufs ⊆ tcRefs τ sig :=
  List.forall_iff_forall_mem.mpr fun op h => by
    rcases mem_ops h with h | h | h | h | h | h
    · exact List.forall_iff_forall_mem.mp c0_sub op h
    · exact List.forall_iff_forall_mem.mp c1_sub op h
    · exact List.forall_iff_forall_mem.mp c2_sub op h
    · exact List.forall_iff_forall_mem.mp c3_sub op h
    · exact List.forall_iff_forall_mem.mp c4_sub op h
    · exact List.forall_iff_forall_mem.mp c5_sub op h

theorem ops_fresh : ∀ op ∈ (ops : List (HloOp τ sig (Elt F))), op.fresh = ∅ := fun op h => by
  rcases mem_ops h with h | h | h | h | h | h
  · exact c0_fresh op h
  · exact c1_fresh op h
  · exact c2_fresh op h
  · exact c3_fresh op h
  · exact c4_fresh op h
  · exact c5_fresh op h

set_option maxRecDepth 8192 in
set_option maxHeartbeats 4000000 in
/-- The fold of the whole program over the launch contents, at the results and the arguments. -/
theorem after_ops (m : (ℓ : Loc nD τ sig) → Buf (Elt F) ℓ) (c : Dev nD) :
    after ops (launchContents m c) (Proc.devRef .tc main_v81) = val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ after ops (launchContents m c) (Proc.devRef .tc main_v82) = val_main_v82 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ after ops (launchContents m c) (Proc.devRef .tc main_arg0) = (m ((c.tc : Thread nD τ).loc main_arg0))
      ∧ after ops (launchContents m c) (Proc.devRef .tc main_arg1) = (m ((c.tc : Thread nD τ).loc main_arg1))
      ∧ after ops (launchContents m c) (Proc.devRef .tc main_arg2) = (m ((c.tc : Thread nD τ).loc main_arg2))
      ∧ after ops (launchContents m c) (Proc.devRef .tc main_arg3) = (m ((c.tc : Thread nD τ).loc main_arg3))
      ∧ after ops (launchContents m c) (Proc.devRef .tc main_arg4) = (m ((c.tc : Thread nD τ).loc main_arg4))
      ∧ after ops (launchContents m c) (Proc.devRef .tc main_arg5) = (m ((c.tc : Thread nD τ).loc main_arg5))
      ∧ after ops (launchContents m c) (Proc.devRef .tc main_arg6) = (m ((c.tc : Thread nD τ).loc main_arg6))
      ∧ after ops (launchContents m c) (Proc.devRef .tc main_arg7) = (m ((c.tc : Thread nD τ).loc main_arg7))
      ∧ after ops (launchContents m c) (Proc.devRef .tc main_arg8) = (m ((c.tc : Thread nD τ).loc main_arg8))
      ∧ after ops (launchContents m c) (Proc.devRef .tc main_arg9) = (m ((c.tc : Thread nD τ).loc main_arg9))
      ∧ after ops (launchContents m c) (Proc.devRef .tc main_arg10) = (m ((c.tc : Thread nD τ).loc main_arg10)) := by
  have hA : after (ops : List (HloOp τ sig (Elt F))) (launchContents m c) = after c5 (after c4 (after c3 (after c2 (after c1 (after c0 (launchContents m c)))))) := by
    show after ((c0 ++ c1 ++ c2 ++ c3) ++ (c4 ++ c5)) (launchContents m c) = _
    simp only [after_app]
  have e0_arg0 : launchContents m c (Proc.devRef .tc main_arg0) = (m ((c.tc : Thread nD τ).loc main_arg0)) := rfl
  have e0_arg1 : launchContents m c (Proc.devRef .tc main_arg1) = (m ((c.tc : Thread nD τ).loc main_arg1)) := rfl
  have e0_arg2 : launchContents m c (Proc.devRef .tc main_arg2) = (m ((c.tc : Thread nD τ).loc main_arg2)) := rfl
  have e0_arg3 : launchContents m c (Proc.devRef .tc main_arg3) = (m ((c.tc : Thread nD τ).loc main_arg3)) := rfl
  have e0_arg4 : launchContents m c (Proc.devRef .tc main_arg4) = (m ((c.tc : Thread nD τ).loc main_arg4)) := rfl
  have e0_arg5 : launchContents m c (Proc.devRef .tc main_arg5) = (m ((c.tc : Thread nD τ).loc main_arg5)) := rfl
  have e0_arg6 : launchContents m c (Proc.devRef .tc main_arg6) = (m ((c.tc : Thread nD τ).loc main_arg6)) := rfl
  have e0_arg7 : launchContents m c (Proc.devRef .tc main_arg7) = (m ((c.tc : Thread nD τ).loc main_arg7)) := rfl
  have e0_arg8 : launchContents m c (Proc.devRef .tc main_arg8) = (m ((c.tc : Thread nD τ).loc main_arg8)) := rfl
  have e0_arg9 : launchContents m c (Proc.devRef .tc main_arg9) = (m ((c.tc : Thread nD τ).loc main_arg9)) := rfl
  have e0_arg10 : launchContents m c (Proc.devRef .tc main_arg10) = (m ((c.tc : Thread nD τ).loc main_arg10)) := rfl
  have f1_main_v0 : after c0 (launchContents m c) (Proc.devRef .tc main_v0) = val_main_v0 (F := F) :=
    c0_main_v0 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) e0_arg1
  have f1_main_v2 : after c0 (launchContents m c) (Proc.devRef .tc main_v2) = val_main_v2 (F := F) (m ((c.tc : Thread nD τ).loc main_arg1)) :=
    c0_main_v2 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) e0_arg1
  have e1_arg0 : after c0 (launchContents m c) (Proc.devRef .tc main_arg0) = (m ((c.tc : Thread nD τ).loc main_arg0)) := (c0_arg0 (launchContents m c)).trans e0_arg0
  have e1_arg1 : after c0 (launchContents m c) (Proc.devRef .tc main_arg1) = (m ((c.tc : Thread nD τ).loc main_arg1)) := (c0_arg1 (launchContents m c)).trans e0_arg1
  have e1_arg2 : after c0 (launchContents m c) (Proc.devRef .tc main_arg2) = (m ((c.tc : Thread nD τ).loc main_arg2)) := (c0_arg2 (launchContents m c)).trans e0_arg2
  have e1_arg3 : after c0 (launchContents m c) (Proc.devRef .tc main_arg3) = (m ((c.tc : Thread nD τ).loc main_arg3)) := (c0_arg3 (launchContents m c)).trans e0_arg3
  have e1_arg4 : after c0 (launchContents m c) (Proc.devRef .tc main_arg4) = (m ((c.tc : Thread nD τ).loc main_arg4)) := (c0_arg4 (launchContents m c)).trans e0_arg4
  have e1_arg5 : after c0 (launchContents m c) (Proc.devRef .tc main_arg5) = (m ((c.tc : Thread nD τ).loc main_arg5)) := (c0_arg5 (launchContents m c)).trans e0_arg5
  have e1_arg6 : after c0 (launchContents m c) (Proc.devRef .tc main_arg6) = (m ((c.tc : Thread nD τ).loc main_arg6)) := (c0_arg6 (launchContents m c)).trans e0_arg6
  have e1_arg7 : after c0 (launchContents m c) (Proc.devRef .tc main_arg7) = (m ((c.tc : Thread nD τ).loc main_arg7)) := (c0_arg7 (launchContents m c)).trans e0_arg7
  have e1_arg8 : after c0 (launchContents m c) (Proc.devRef .tc main_arg8) = (m ((c.tc : Thread nD τ).loc main_arg8)) := (c0_arg8 (launchContents m c)).trans e0_arg8
  have e1_arg9 : after c0 (launchContents m c) (Proc.devRef .tc main_arg9) = (m ((c.tc : Thread nD τ).loc main_arg9)) := (c0_arg9 (launchContents m c)).trans e0_arg9
  have e1_arg10 : after c0 (launchContents m c) (Proc.devRef .tc main_arg10) = (m ((c.tc : Thread nD τ).loc main_arg10)) := (c0_arg10 (launchContents m c)).trans e0_arg10
  have f2_main_v0 : after c1 (after c0 (launchContents m c)) (Proc.devRef .tc main_v0) = val_main_v0 (F := F) :=
    c1_main_v0 (after c0 (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) e1_arg1 f1_main_v0 f1_main_v2
  have f2_main_v3 : after c1 (after c0 (launchContents m c)) (Proc.devRef .tc main_v3) = val_main_v3 (F := F) (m ((c.tc : Thread nD τ).loc main_arg1)) :=
    c1_main_v3 (after c0 (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) e1_arg1 f1_main_v0 f1_main_v2
  have f2_main_v5 : after c1 (after c0 (launchContents m c)) (Proc.devRef .tc main_v5) = val_main_v5 (F := F) (m ((c.tc : Thread nD τ).loc main_arg1)) :=
    c1_main_v5 (after c0 (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) e1_arg1 f1_main_v0 f1_main_v2
  have e2_arg0 : after c1 (after c0 (launchContents m c)) (Proc.devRef .tc main_arg0) = (m ((c.tc : Thread nD τ).loc main_arg0)) := (c1_arg0 (after c0 (launchContents m c))).trans e1_arg0
  have e2_arg1 : after c1 (after c0 (launchContents m c)) (Proc.devRef .tc main_arg1) = (m ((c.tc : Thread nD τ).loc main_arg1)) := (c1_arg1 (after c0 (launchContents m c))).trans e1_arg1
  have e2_arg2 : after c1 (after c0 (launchContents m c)) (Proc.devRef .tc main_arg2) = (m ((c.tc : Thread nD τ).loc main_arg2)) := (c1_arg2 (after c0 (launchContents m c))).trans e1_arg2
  have e2_arg3 : after c1 (after c0 (launchContents m c)) (Proc.devRef .tc main_arg3) = (m ((c.tc : Thread nD τ).loc main_arg3)) := (c1_arg3 (after c0 (launchContents m c))).trans e1_arg3
  have e2_arg4 : after c1 (after c0 (launchContents m c)) (Proc.devRef .tc main_arg4) = (m ((c.tc : Thread nD τ).loc main_arg4)) := (c1_arg4 (after c0 (launchContents m c))).trans e1_arg4
  have e2_arg5 : after c1 (after c0 (launchContents m c)) (Proc.devRef .tc main_arg5) = (m ((c.tc : Thread nD τ).loc main_arg5)) := (c1_arg5 (after c0 (launchContents m c))).trans e1_arg5
  have e2_arg6 : after c1 (after c0 (launchContents m c)) (Proc.devRef .tc main_arg6) = (m ((c.tc : Thread nD τ).loc main_arg6)) := (c1_arg6 (after c0 (launchContents m c))).trans e1_arg6
  have e2_arg7 : after c1 (after c0 (launchContents m c)) (Proc.devRef .tc main_arg7) = (m ((c.tc : Thread nD τ).loc main_arg7)) := (c1_arg7 (after c0 (launchContents m c))).trans e1_arg7
  have e2_arg8 : after c1 (after c0 (launchContents m c)) (Proc.devRef .tc main_arg8) = (m ((c.tc : Thread nD τ).loc main_arg8)) := (c1_arg8 (after c0 (launchContents m c))).trans e1_arg8
  have e2_arg9 : after c1 (after c0 (launchContents m c)) (Proc.devRef .tc main_arg9) = (m ((c.tc : Thread nD τ).loc main_arg9)) := (c1_arg9 (after c0 (launchContents m c))).trans e1_arg9
  have e2_arg10 : after c1 (after c0 (launchContents m c)) (Proc.devRef .tc main_arg10) = (m ((c.tc : Thread nD τ).loc main_arg10)) := (c1_arg10 (after c0 (launchContents m c))).trans e1_arg10
  have f3_main_v3 : after c2 (after c1 (after c0 (launchContents m c))) (Proc.devRef .tc main_v3) = val_main_v3 (F := F) (m ((c.tc : Thread nD τ).loc main_arg1)) :=
    c2_main_v3 (after c1 (after c0 (launchContents m c))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) f2_main_v0 f2_main_v3 f2_main_v5
  have f3_main_v6 : after c2 (after c1 (after c0 (launchContents m c))) (Proc.devRef .tc main_v6) = val_main_v6 (F := F) (m ((c.tc : Thread nD τ).loc main_arg1)) :=
    c2_main_v6 (after c1 (after c0 (launchContents m c))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) f2_main_v0 f2_main_v3 f2_main_v5
  have f3_main_v31 : after c2 (after c1 (after c0 (launchContents m c))) (Proc.devRef .tc main_v31) = val_main_v31 (F := F) (m ((c.tc : Thread nD τ).loc main_arg1)) :=
    c2_main_v31 (after c1 (after c0 (launchContents m c))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) f2_main_v0 f2_main_v3 f2_main_v5
  have e3_arg0 : after c2 (after c1 (after c0 (launchContents m c))) (Proc.devRef .tc main_arg0) = (m ((c.tc : Thread nD τ).loc main_arg0)) := (c2_arg0 (after c1 (after c0 (launchContents m c)))).trans e2_arg0
  have e3_arg1 : after c2 (after c1 (after c0 (launchContents m c))) (Proc.devRef .tc main_arg1) = (m ((c.tc : Thread nD τ).loc main_arg1)) := (c2_arg1 (after c1 (after c0 (launchContents m c)))).trans e2_arg1
  have e3_arg2 : after c2 (after c1 (after c0 (launchContents m c))) (Proc.devRef .tc main_arg2) = (m ((c.tc : Thread nD τ).loc main_arg2)) := (c2_arg2 (after c1 (after c0 (launchContents m c)))).trans e2_arg2
  have e3_arg3 : after c2 (after c1 (after c0 (launchContents m c))) (Proc.devRef .tc main_arg3) = (m ((c.tc : Thread nD τ).loc main_arg3)) := (c2_arg3 (after c1 (after c0 (launchContents m c)))).trans e2_arg3
  have e3_arg4 : after c2 (after c1 (after c0 (launchContents m c))) (Proc.devRef .tc main_arg4) = (m ((c.tc : Thread nD τ).loc main_arg4)) := (c2_arg4 (after c1 (after c0 (launchContents m c)))).trans e2_arg4
  have e3_arg5 : after c2 (after c1 (after c0 (launchContents m c))) (Proc.devRef .tc main_arg5) = (m ((c.tc : Thread nD τ).loc main_arg5)) := (c2_arg5 (after c1 (after c0 (launchContents m c)))).trans e2_arg5
  have e3_arg6 : after c2 (after c1 (after c0 (launchContents m c))) (Proc.devRef .tc main_arg6) = (m ((c.tc : Thread nD τ).loc main_arg6)) := (c2_arg6 (after c1 (after c0 (launchContents m c)))).trans e2_arg6
  have e3_arg7 : after c2 (after c1 (after c0 (launchContents m c))) (Proc.devRef .tc main_arg7) = (m ((c.tc : Thread nD τ).loc main_arg7)) := (c2_arg7 (after c1 (after c0 (launchContents m c)))).trans e2_arg7
  have e3_arg8 : after c2 (after c1 (after c0 (launchContents m c))) (Proc.devRef .tc main_arg8) = (m ((c.tc : Thread nD τ).loc main_arg8)) := (c2_arg8 (after c1 (after c0 (launchContents m c)))).trans e2_arg8
  have e3_arg9 : after c2 (after c1 (after c0 (launchContents m c))) (Proc.devRef .tc main_arg9) = (m ((c.tc : Thread nD τ).loc main_arg9)) := (c2_arg9 (after c1 (after c0 (launchContents m c)))).trans e2_arg9
  have e3_arg10 : after c2 (after c1 (after c0 (launchContents m c))) (Proc.devRef .tc main_arg10) = (m ((c.tc : Thread nD τ).loc main_arg10)) := (c2_arg10 (after c1 (after c0 (launchContents m c)))).trans e2_arg10
  have f4_main_v3 : after c3 (after c2 (after c1 (after c0 (launchContents m c)))) (Proc.devRef .tc main_v3) = val_main_v3 (F := F) (m ((c.tc : Thread nD τ).loc main_arg1)) :=
    c3_main_v3 (after c2 (after c1 (after c0 (launchContents m c)))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) e3_arg0 e3_arg3 e3_arg4 f3_main_v3 f3_main_v6 f3_main_v31
  have f4_main_v6 : after c3 (after c2 (after c1 (after c0 (launchContents m c)))) (Proc.devRef .tc main_v6) = val_main_v6 (F := F) (m ((c.tc : Thread nD τ).loc main_arg1)) :=
    c3_main_v6 (after c2 (after c1 (after c0 (launchContents m c)))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) e3_arg0 e3_arg3 e3_arg4 f3_main_v3 f3_main_v6 f3_main_v31
  have f4_main_v31 : after c3 (after c2 (after c1 (after c0 (launchContents m c)))) (Proc.devRef .tc main_v31) = val_main_v31 (F := F) (m ((c.tc : Thread nD τ).loc main_arg1)) :=
    c3_main_v31 (after c2 (after c1 (after c0 (launchContents m c)))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) e3_arg0 e3_arg3 e3_arg4 f3_main_v3 f3_main_v6 f3_main_v31
  have f4_main_v45 : after c3 (after c2 (after c1 (after c0 (launchContents m c)))) (Proc.devRef .tc main_v45) = val_main_v45 (F := F) (m ((c.tc : Thread nD τ).loc main_arg0)) (m ((c.tc : Thread nD τ).loc main_arg1)) (m ((c.tc : Thread nD τ).loc main_arg3)) :=
    c3_main_v45 (after c2 (after c1 (after c0 (launchContents m c)))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) e3_arg0 e3_arg3 e3_arg4 f3_main_v3 f3_main_v6 f3_main_v31
  have f4_main_v47 : after c3 (after c2 (after c1 (after c0 (launchContents m c)))) (Proc.devRef .tc main_v47) = val_main_v47 (F := F) (m ((c.tc : Thread nD τ).loc main_arg4)) :=
    c3_main_v47 (after c2 (after c1 (after c0 (launchContents m c)))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) e3_arg0 e3_arg3 e3_arg4 f3_main_v3 f3_main_v6 f3_main_v31
  have e4_arg0 : after c3 (after c2 (after c1 (after c0 (launchContents m c)))) (Proc.devRef .tc main_arg0) = (m ((c.tc : Thread nD τ).loc main_arg0)) := (c3_arg0 (after c2 (after c1 (after c0 (launchContents m c))))).trans e3_arg0
  have e4_arg1 : after c3 (after c2 (after c1 (after c0 (launchContents m c)))) (Proc.devRef .tc main_arg1) = (m ((c.tc : Thread nD τ).loc main_arg1)) := (c3_arg1 (after c2 (after c1 (after c0 (launchContents m c))))).trans e3_arg1
  have e4_arg2 : after c3 (after c2 (after c1 (after c0 (launchContents m c)))) (Proc.devRef .tc main_arg2) = (m ((c.tc : Thread nD τ).loc main_arg2)) := (c3_arg2 (after c2 (after c1 (after c0 (launchContents m c))))).trans e3_arg2
  have e4_arg3 : after c3 (after c2 (after c1 (after c0 (launchContents m c)))) (Proc.devRef .tc main_arg3) = (m ((c.tc : Thread nD τ).loc main_arg3)) := (c3_arg3 (after c2 (after c1 (after c0 (launchContents m c))))).trans e3_arg3
  have e4_arg4 : after c3 (after c2 (after c1 (after c0 (launchContents m c)))) (Proc.devRef .tc main_arg4) = (m ((c.tc : Thread nD τ).loc main_arg4)) := (c3_arg4 (after c2 (after c1 (after c0 (launchContents m c))))).trans e3_arg4
  have e4_arg5 : after c3 (after c2 (after c1 (after c0 (launchContents m c)))) (Proc.devRef .tc main_arg5) = (m ((c.tc : Thread nD τ).loc main_arg5)) := (c3_arg5 (after c2 (after c1 (after c0 (launchContents m c))))).trans e3_arg5
  have e4_arg6 : after c3 (after c2 (after c1 (after c0 (launchContents m c)))) (Proc.devRef .tc main_arg6) = (m ((c.tc : Thread nD τ).loc main_arg6)) := (c3_arg6 (after c2 (after c1 (after c0 (launchContents m c))))).trans e3_arg6
  have e4_arg7 : after c3 (after c2 (after c1 (after c0 (launchContents m c)))) (Proc.devRef .tc main_arg7) = (m ((c.tc : Thread nD τ).loc main_arg7)) := (c3_arg7 (after c2 (after c1 (after c0 (launchContents m c))))).trans e3_arg7
  have e4_arg8 : after c3 (after c2 (after c1 (after c0 (launchContents m c)))) (Proc.devRef .tc main_arg8) = (m ((c.tc : Thread nD τ).loc main_arg8)) := (c3_arg8 (after c2 (after c1 (after c0 (launchContents m c))))).trans e3_arg8
  have e4_arg9 : after c3 (after c2 (after c1 (after c0 (launchContents m c)))) (Proc.devRef .tc main_arg9) = (m ((c.tc : Thread nD τ).loc main_arg9)) := (c3_arg9 (after c2 (after c1 (after c0 (launchContents m c))))).trans e3_arg9
  have e4_arg10 : after c3 (after c2 (after c1 (after c0 (launchContents m c)))) (Proc.devRef .tc main_arg10) = (m ((c.tc : Thread nD τ).loc main_arg10)) := (c3_arg10 (after c2 (after c1 (after c0 (launchContents m c))))).trans e3_arg10
  have f5_main_v68 : after c4 (after c3 (after c2 (after c1 (after c0 (launchContents m c))))) (Proc.devRef .tc main_v68) = val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
    c4_main_v68 (after c3 (after c2 (after c1 (after c0 (launchContents m c))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) e4_arg2 e4_arg5 e4_arg6 f4_main_v3 f4_main_v6 f4_main_v31 f4_main_v45 f4_main_v47
  have f5_main_v71 : after c4 (after c3 (after c2 (after c1 (after c0 (launchContents m c))))) (Proc.devRef .tc main_v71) = val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
    c4_main_v71 (after c3 (after c2 (after c1 (after c0 (launchContents m c))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) e4_arg2 e4_arg5 e4_arg6 f4_main_v3 f4_main_v6 f4_main_v31 f4_main_v45 f4_main_v47
  have e5_arg0 : after c4 (after c3 (after c2 (after c1 (after c0 (launchContents m c))))) (Proc.devRef .tc main_arg0) = (m ((c.tc : Thread nD τ).loc main_arg0)) := (c4_arg0 (after c3 (after c2 (after c1 (after c0 (launchContents m c)))))).trans e4_arg0
  have e5_arg1 : after c4 (after c3 (after c2 (after c1 (after c0 (launchContents m c))))) (Proc.devRef .tc main_arg1) = (m ((c.tc : Thread nD τ).loc main_arg1)) := (c4_arg1 (after c3 (after c2 (after c1 (after c0 (launchContents m c)))))).trans e4_arg1
  have e5_arg2 : after c4 (after c3 (after c2 (after c1 (after c0 (launchContents m c))))) (Proc.devRef .tc main_arg2) = (m ((c.tc : Thread nD τ).loc main_arg2)) := (c4_arg2 (after c3 (after c2 (after c1 (after c0 (launchContents m c)))))).trans e4_arg2
  have e5_arg3 : after c4 (after c3 (after c2 (after c1 (after c0 (launchContents m c))))) (Proc.devRef .tc main_arg3) = (m ((c.tc : Thread nD τ).loc main_arg3)) := (c4_arg3 (after c3 (after c2 (after c1 (after c0 (launchContents m c)))))).trans e4_arg3
  have e5_arg4 : after c4 (after c3 (after c2 (after c1 (after c0 (launchContents m c))))) (Proc.devRef .tc main_arg4) = (m ((c.tc : Thread nD τ).loc main_arg4)) := (c4_arg4 (after c3 (after c2 (after c1 (after c0 (launchContents m c)))))).trans e4_arg4
  have e5_arg5 : after c4 (after c3 (after c2 (after c1 (after c0 (launchContents m c))))) (Proc.devRef .tc main_arg5) = (m ((c.tc : Thread nD τ).loc main_arg5)) := (c4_arg5 (after c3 (after c2 (after c1 (after c0 (launchContents m c)))))).trans e4_arg5
  have e5_arg6 : after c4 (after c3 (after c2 (after c1 (after c0 (launchContents m c))))) (Proc.devRef .tc main_arg6) = (m ((c.tc : Thread nD τ).loc main_arg6)) := (c4_arg6 (after c3 (after c2 (after c1 (after c0 (launchContents m c)))))).trans e4_arg6
  have e5_arg7 : after c4 (after c3 (after c2 (after c1 (after c0 (launchContents m c))))) (Proc.devRef .tc main_arg7) = (m ((c.tc : Thread nD τ).loc main_arg7)) := (c4_arg7 (after c3 (after c2 (after c1 (after c0 (launchContents m c)))))).trans e4_arg7
  have e5_arg8 : after c4 (after c3 (after c2 (after c1 (after c0 (launchContents m c))))) (Proc.devRef .tc main_arg8) = (m ((c.tc : Thread nD τ).loc main_arg8)) := (c4_arg8 (after c3 (after c2 (after c1 (after c0 (launchContents m c)))))).trans e4_arg8
  have e5_arg9 : after c4 (after c3 (after c2 (after c1 (after c0 (launchContents m c))))) (Proc.devRef .tc main_arg9) = (m ((c.tc : Thread nD τ).loc main_arg9)) := (c4_arg9 (after c3 (after c2 (after c1 (after c0 (launchContents m c)))))).trans e4_arg9
  have e5_arg10 : after c4 (after c3 (after c2 (after c1 (after c0 (launchContents m c))))) (Proc.devRef .tc main_arg10) = (m ((c.tc : Thread nD τ).loc main_arg10)) := (c4_arg10 (after c3 (after c2 (after c1 (after c0 (launchContents m c)))))).trans e4_arg10
  have f6_main_v81 : after c5 (after c4 (after c3 (after c2 (after c1 (after c0 (launchContents m c)))))) (Proc.devRef .tc main_v81) = val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
    c5_main_v81 (after c4 (after c3 (after c2 (after c1 (after c0 (launchContents m c)))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) e5_arg7 e5_arg8 e5_arg9 e5_arg10 f5_main_v68 f5_main_v71
  have f6_main_v82 : after c5 (after c4 (after c3 (after c2 (after c1 (after c0 (launchContents m c)))))) (Proc.devRef .tc main_v82) = val_main_v82 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
    c5_main_v82 (after c4 (after c3 (after c2 (after c1 (after c0 (launchContents m c)))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) e5_arg7 e5_arg8 e5_arg9 e5_arg10 f5_main_v68 f5_main_v71
  have e6_arg0 : after c5 (after c4 (after c3 (after c2 (after c1 (after c0 (launchContents m c)))))) (Proc.devRef .tc main_arg0) = (m ((c.tc : Thread nD τ).loc main_arg0)) := (c5_arg0 (after c4 (after c3 (after c2 (after c1 (after c0 (launchContents m c))))))).trans e5_arg0
  have e6_arg1 : after c5 (after c4 (after c3 (after c2 (after c1 (after c0 (launchContents m c)))))) (Proc.devRef .tc main_arg1) = (m ((c.tc : Thread nD τ).loc main_arg1)) := (c5_arg1 (after c4 (after c3 (after c2 (after c1 (after c0 (launchContents m c))))))).trans e5_arg1
  have e6_arg2 : after c5 (after c4 (after c3 (after c2 (after c1 (after c0 (launchContents m c)))))) (Proc.devRef .tc main_arg2) = (m ((c.tc : Thread nD τ).loc main_arg2)) := (c5_arg2 (after c4 (after c3 (after c2 (after c1 (after c0 (launchContents m c))))))).trans e5_arg2
  have e6_arg3 : after c5 (after c4 (after c3 (after c2 (after c1 (after c0 (launchContents m c)))))) (Proc.devRef .tc main_arg3) = (m ((c.tc : Thread nD τ).loc main_arg3)) := (c5_arg3 (after c4 (after c3 (after c2 (after c1 (after c0 (launchContents m c))))))).trans e5_arg3
  have e6_arg4 : after c5 (after c4 (after c3 (after c2 (after c1 (after c0 (launchContents m c)))))) (Proc.devRef .tc main_arg4) = (m ((c.tc : Thread nD τ).loc main_arg4)) := (c5_arg4 (after c4 (after c3 (after c2 (after c1 (after c0 (launchContents m c))))))).trans e5_arg4
  have e6_arg5 : after c5 (after c4 (after c3 (after c2 (after c1 (after c0 (launchContents m c)))))) (Proc.devRef .tc main_arg5) = (m ((c.tc : Thread nD τ).loc main_arg5)) := (c5_arg5 (after c4 (after c3 (after c2 (after c1 (after c0 (launchContents m c))))))).trans e5_arg5
  have e6_arg6 : after c5 (after c4 (after c3 (after c2 (after c1 (after c0 (launchContents m c)))))) (Proc.devRef .tc main_arg6) = (m ((c.tc : Thread nD τ).loc main_arg6)) := (c5_arg6 (after c4 (after c3 (after c2 (after c1 (after c0 (launchContents m c))))))).trans e5_arg6
  have e6_arg7 : after c5 (after c4 (after c3 (after c2 (after c1 (after c0 (launchContents m c)))))) (Proc.devRef .tc main_arg7) = (m ((c.tc : Thread nD τ).loc main_arg7)) := (c5_arg7 (after c4 (after c3 (after c2 (after c1 (after c0 (launchContents m c))))))).trans e5_arg7
  have e6_arg8 : after c5 (after c4 (after c3 (after c2 (after c1 (after c0 (launchContents m c)))))) (Proc.devRef .tc main_arg8) = (m ((c.tc : Thread nD τ).loc main_arg8)) := (c5_arg8 (after c4 (after c3 (after c2 (after c1 (after c0 (launchContents m c))))))).trans e5_arg8
  have e6_arg9 : after c5 (after c4 (after c3 (after c2 (after c1 (after c0 (launchContents m c)))))) (Proc.devRef .tc main_arg9) = (m ((c.tc : Thread nD τ).loc main_arg9)) := (c5_arg9 (after c4 (after c3 (after c2 (after c1 (after c0 (launchContents m c))))))).trans e5_arg9
  have e6_arg10 : after c5 (after c4 (after c3 (after c2 (after c1 (after c0 (launchContents m c)))))) (Proc.devRef .tc main_arg10) = (m ((c.tc : Thread nD τ).loc main_arg10)) := (c5_arg10 (after c4 (after c3 (after c2 (after c1 (after c0 (launchContents m c))))))).trans e5_arg10
  rw [hA]
  exact ⟨f6_main_v81, f6_main_v82, e6_arg0, e6_arg1, e6_arg2, e6_arg3, e6_arg4, e6_arg5, e6_arg6, e6_arg7, e6_arg8, e6_arg9, e6_arg10⟩

set_option maxRecDepth 8192 in
/-- On every device, for any float values, from any memory with zero counters: every weakly fair execution of @main
    terminates with each result at its stage function of the launch arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v81) = val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v82) = val_main_v82 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => by
      obtain ⟨g81, g82, g0, g1, g2, g3, g4, g5, g6, g7, g8, g9, g10⟩ := after_ops (F := F) m c
      exact ⟨(h c main_v81).trans g81, (h c main_v82).trans g82, (h c main_arg0).trans g0, (h c main_arg1).trans g1, (h c main_arg2).trans g2, (h c main_arg3).trans g3, (h c main_arg4).trans g4, (h c main_arg5).trans g5, (h c main_arg6).trans g6, (h c main_arg7).trans g7, (h c main_arg8).trans g8, (h c main_arg9).trans g9, (h c main_arg10).trans g10⟩)
    (run_seq scopedRefs_eq scopedSems_eq defs main (fun _ => ops) main_eq (fun _ => ops_sub) m ρ (fun _ => ops_fresh))

end Cert.ReferenceIdeal.HandRun

end
-- ==== Proof.lean ====
/-
  The certificate's five claims. Each kernel program's frame is the run of its segments (host stretches and the four
  pallas calls) read at the arguments; the reference's frame is its run with the results dropped; the idealization
  rewrote nothing; and the two idealized programs end with equal results: the kernel program's run names its results as
  the last boundary's contents, the reference's as its stages, and those are the same arrays — the last of them, the
  log-softmax, because every logit is a real number when the float inputs are finite.
-/
import proofs.«408544_j16157666968391_1_alg».proof.Defs
import proofs.«408544_j16157666968391_1_alg».proof.Proof.Gen.Kernel
import proofs.«408544_j16157666968391_1_alg».proof.Proof.Gen.KernelIdeal
import proofs.«408544_j16157666968391_1_alg».proof.Proof.Gen.ReferenceIdeal
import proofs.«408544_j16157666968391_1_alg».proof.Proof.Gen.Pre_finite_inputs
import proofs.«408544_j16157666968391_1_alg».proof.Proof.K.Frame
import proofs.«408544_j16157666968391_1_alg».proof.Proof.KI.Frame
import proofs.«408544_j16157666968391_1_alg».proof.Proof.Bridge.Final
import proofs.«408544_j16157666968391_1_alg».proof.Proof.Ref.RunH
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.HandRun.run (F := Ideal) m ρ)

theorem preserves : Cert.preserves_Kernel_KernelIdeal := trivial

/-- Both idealized programs, from memories agreeing on the arguments, end with the same two result arrays. -/
theorem algebraic : Cert.algebraic_KernelIdeal_ReferenceIdeal := by
  intro m ρ m' ρ' hpre hagree
  refine ⟨fun c => Cert.KernelIdeal.Hand.W13 m c (Proc.devRef .tc Cert.KernelIdeal.main_v80_0),
    fun c => Cert.KernelIdeal.Hand.W13 m c (Proc.devRef .tc Cert.KernelIdeal.main_v80_1), Cert.KernelIdeal.Hand.run_results m ρ, ?_⟩
  refine (θ_run Cert.ReferenceIdeal.defs _ _).mono (fun _ h c => ⟨(h c).1.trans ?_, (h c).2.1.trans ?_, (h c).2.2⟩)
    (Cert.ReferenceIdeal.HandRun.run (F := Ideal) m' ρ')
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    exact (Cert.Bridge.s80_0 m c).symm
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    obtain ⟨h0, h3, h4, h5, h6, h7, h8, h9, h10⟩ := Cert.PreReal.real_of_pre _ _ _ _ _ _ _ _ _ _ _ (hpre c)
    exact (Cert.Bridge.s80_1 m c (Cert.ReferenceIdeal.RefValue.logits_real _ _ _ _ _ _ _ _ _ _ _ h0 h3 h4 h5 h6 h7 h8 h9 h10)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
